-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v152)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v134)) (v3 : (c : Dev Cert.KernelIdeal.nD) → Buf (Elt Ideal) ((c.tc : Thread Cert.KernelIdeal.nD Cert.KernelIdeal.τ).loc Cert.KernelIdeal.main_v44)) (v4 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v134) = v2 c
          ∧ r.2.mem ((c.tc : Thread Cert.KernelIdeal.nD Cert.KernelIdeal.τ).loc Cert.KernelIdeal.main_v44) = v3 c
          ∧ r.2.mem ((c.tc : Thread Cert.KernelIdeal.nD Cert.KernelIdeal.τ).loc Cert.KernelIdeal.main_v65) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v173) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_v86) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1500000 : Shape := ⟨2, ![2, 1500000]⟩
abbrev S1500000 : Shape := ⟨1, ![1500000]⟩
abbrev S1024 : Shape := ⟨1, ![1024]⟩
abbrev S65536 : Shape := ⟨1, ![65536]⟩
abbrev S2x262144 : Shape := ⟨2, ![2, 262144]⟩
abbrev S100000x128 : Shape := ⟨2, ![100000, 128]⟩
abbrev S50000x128 : Shape := ⟨2, ![50000, 128]⟩
abbrev S4x128 : Shape := ⟨2, ![4, 128]⟩
abbrev S8x128 : Shape := ⟨2, ![8, 128]⟩
abbrev S128x128 : Shape := ⟨2, ![128, 128]⟩
abbrev S128 : Shape := ⟨1, ![128]⟩
abbrev S2x1 : Shape := ⟨2, ![2, 1]⟩
abbrev S128x8 : Shape := ⟨2, ![128, 8]⟩
abbrev S8 : Shape := ⟨1, ![8]⟩
abbrev S256x128 : Shape := ⟨2, ![256, 128]⟩
abbrev S512x64 : Shape := ⟨2, ![512, 64]⟩
abbrev S64 : Shape := ⟨1, ![64]⟩
abbrev S64x1 : Shape := ⟨2, ![64, 1]⟩
abbrev S1 : Shape := ⟨1, ![1]⟩
abbrev S_ : Shape := ⟨0, ![]⟩
abbrev S1x1500000 : Shape := ⟨2, ![1, 1500000]⟩
abbrev S1x262144 : Shape := ⟨2, ![1, 262144]⟩
abbrev S262144 : Shape := ⟨1, ![262144]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S4x128 : S_.BroadcastsInDim S4x128 (![] : Fin 0 → Fin S4x128.rank)
  reducesTo_S4x128_S_d0_1 : S4x128.ReducesTo [0, 1] S_
  bcast_S_S8x128 : S_.BroadcastsInDim S8x128 (![] : Fin 0 → Fin S8x128.rank)
  reducesTo_S8x128_S_d0_1 : S8x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x1 : S_.BroadcastsInDim S2x1 (![] : Fin 0 → Fin S2x1.rank)
  reducesTo_S2x1_S_d0_1 : S2x1.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S256x128 : S_.BroadcastsInDim S256x128 (![] : Fin 0 → Fin S256x128.rank)
  reducesTo_S256x128_S_d0_1 : S256x128.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x1500000_S1x1500000_0_0 : S2x1500000.Slices ![0, 0] S1x1500000
  shapeCasts_S1x1500000_S1500000 : S1x1500000.ShapeCasts S1500000
  bcast_S_S1500000 : S_.BroadcastsInDim S1500000 (![] : Fin 0 → Fin S1500000.rank)
  reducesTo_S1500000_S_d0 : S1500000.ReducesTo [0] S_
  bcast_S_S1024 : S_.BroadcastsInDim S1024 (![] : Fin 0 → Fin S1024.rank)
  reducesTo_S1024_S_d0 : S1024.ReducesTo [0] S_
  bcast_S_S65536 : S_.BroadcastsInDim S65536 (![] : Fin 0 → Fin S65536.rank)
  reducesTo_S65536_S_d0 : S65536.ReducesTo [0] S_
  slices_S2x262144_S1x262144_0_0 : S2x262144.Slices ![0, 0] S1x262144
  shapeCasts_S1x262144_S262144 : S1x262144.ShapeCasts S262144
  bcast_S_S262144 : S_.BroadcastsInDim S262144 (![] : Fin 0 → Fin S262144.rank)
  reducesTo_S262144_S_d0 : S262144.ReducesTo [0] S_

variable [Facts]

def fn_part9 {F : FTy → Type} [FloatOps F] (main_arg6 : IVec S2x262144 32) (main_v147 : IVec S_ 1) (main_v153 : IVec S_ 1) : IVec S_ 1 :=
  let main_v154 : IVec S_ 1 := andi main_v147 main_v153
  let main_v155 : IVec S1x262144 32 := (extractStridedSlice S1x262144 ![0, 0] · slices_S2x262144_S1x262144_0_0) main_arg6
  let main_v156 : IVec S262144 32 := shapeCast S262144 main_v155 shapeCasts_S1x262144_S262144
  let main_c_60 : IVec S_ 32 := constantI S_ 32 0#32
  let main_v157 : IVec S262144 32 := broadcastInDim S262144 ![] bcast_S_S262144 main_c_60
  let main_v158 : IVec S262144 1 := cmpi .sge main_v156 main_v157
  let main_v159 : IVec S1x262144 32 := (extractStridedSlice S1x262144 ![0, 0] · slices_S2x262144_S1x262144_0_0) main_arg6
  let main_v160 : IVec S262144 32 := shapeCast S262144 main_v159 shapeCasts_S1x262144_S262144
  let main_c_61 : IVec S_ 32 := constantI S_ 32 65536#32
  let main_v161 : IVec S262144 32 := broadcastInDim S262144 ![] bcast_S_S262144 main_c_61
  let main_v162 : IVec S262144 1 := cmpi .slt main_v160 main_v161
  let main_v163 : IVec S262144 1 := andi main_v158 main_v162
  let main_c_62 : IVec S_ 1 := constantI S_ 1 1#1
  let main_v164 : IVec S_ 1 := (fun x v => Host.reduce IntOp.andi x v reducesTo_S262144_S_d0 h_S_) main_v163 main_c_62
  let main_v165 : IVec S_ 1 := andi main_v154 main_v164
  main_v165

def fn_part8 {F : FTy → Type} [FloatOps F] (main_arg3 : IVec S1024 32) (main_arg4 : IVec S65536 32) (main_arg5 : IVec S65536 32) (main_arg6 : IVec S2x262144 32) (main_v133 : IVec S_ 1) (main_v135 : IVec S1024 1) (main_v136 : IVec S1024 32) : IVec S_ 1 :=
  let main_v137 : IVec S1024 1 := cmpi .slt main_arg3 main_v136
  let main_v138 : IVec S1024 1 := andi main_v135 main_v137
  let main_c_53 : IVec S_ 1 := constantI S_ 1 1#1
  let main_v139 : IVec S_ 1 := (fun x v => Host.reduce IntOp.andi x v reducesTo_S1024_S_d0 h_S_) main_v138 main_c_53
  let main_v140 : IVec S_ 1 := andi main_v133 main_v139
  let main_c_54 : IVec S_ 32 := constantI S_ 32 0#32
  let main_v141 : IVec S65536 32 := broadcastInDim S65536 ![] bcast_S_S65536 main_c_54
  let main_v142 : IVec S65536 1 := cmpi .sge main_arg4 main_v141
  let main_c_55 : IVec S_ 32 := constantI S_ 32 150000#32
  let main_v143 : IVec S65536 32 := broadcastInDim S65536 ![] bcast_S_S65536 main_c_55
  let main_v144 : IVec S65536 1 := cmpi .slt main_arg4 main_v143
  let main_v145 : IVec S65536 1 := andi main_v142 main_v144
  let main_c_56 : IVec S_ 1 := constantI S_ 1 1#1
  let main_v146 : IVec S_ 1 := (fun x v => Host.reduce IntOp.andi x v reducesTo_S65536_S_d0 h_S_) main_v145 main_c_56
  let main_v147 : IVec S_ 1 := andi main_v140 main_v146
  let main_c_57 : IVec S_ 32 := constantI S_ 32 0#32
  let main_v148 : IVec S65536 32 := broadcastInDim S65536 ![] bcast_S_S65536 main_c_57
  let main_v149 : IVec S65536 1 := cmpi .sge main_arg5 main_v148
  let main_c_58 : IVec S_ 32 := constantI S_ 32 4#32
  let main_v150 : IVec S65536 32 := broadcastInDim S65536 ![] bcast_S_S65536 main_c_58
  let main_v151 : IVec S65536 1 := cmpi .slt main_arg5 main_v150
  let main_v152 : IVec S65536 1 := andi main_v149 main_v151
  let main_c_59 : IVec S_ 1 := constantI S_ 1 1#1
  let main_v153 : IVec S_ 1 := (fun x v => Host.reduce IntOp.andi x v reducesTo_S65536_S_d0 h_S_) main_v152 main_c_59
  fn_part9 (F := F) main_arg6 main_v147 main_v153

def fn_part7 {F : FTy → Type} [FloatOps F] (main_arg1 : IVec S1500000 32) (main_arg2 : IVec S1024 32) (main_arg3 : IVec S1024 32) (main_arg4 : IVec S65536 32) (main_arg5 : IVec S65536 32) (main_arg6 : IVec S2x262144 32) (main_v119 : IVec S_ 1) (main_c_45 : IVec S_ 32) : IVec S_ 1 :=
  let main_v120 : IVec S1500000 32 := broadcastInDim S1500000 ![] bcast_S_S1500000 main_c_45
  let main_v121 : IVec S1500000 1 := cmpi .sge main_arg1 main_v120
  let main_c_46 : IVec S_ 32 := constantI S_ 32 2#32
  let main_v122 : IVec S1500000 32 := broadcastInDim S1500000 ![] bcast_S_S1500000 main_c_46
  let main_v123 : IVec S1500000 1 := cmpi .slt main_arg1 main_v122
  let main_v124 : IVec S1500000 1 := andi main_v121 main_v123
  let main_c_47 : IVec S_ 1 := constantI S_ 1 1#1
  let main_v125 : IVec S_ 1 := (fun x v => Host.reduce IntOp.andi x v reducesTo_S1500000_S_d0 h_S_) main_v124 main_c_47
  let main_v126 : IVec S_ 1 := andi main_v119 main_v125
  let main_c_48 : IVec S_ 32 := constantI S_ 32 0#32
  let main_v127 : IVec S1024 32 := broadcastInDim S1024 ![] bcast_S_S1024 main_c_48
  let main_v128 : IVec S1024 1 := cmpi .sge main_arg2 main_v127
  let main_c_49 : IVec S_ 32 := constantI S_ 32 150000#32
  let main_v129 : IVec S1024 32 := broadcastInDim S1024 ![] bcast_S_S1024 main_c_49
  let main_v130 : IVec S1024 1 := cmpi .slt main_arg2 main_v129
  let main_v131 : IVec S1024 1 := andi main_v128 main_v130
  let main_c_50 : IVec S_ 1 := constantI S_ 1 1#1
  let main_v132 : IVec S_ 1 := (fun x v => Host.reduce IntOp.andi x v reducesTo_S1024_S_d0 h_S_) main_v131 main_c_50
  let main_v133 : IVec S_ 1 := andi main_v126 main_v132
  let main_c_51 : IVec S_ 32 := constantI S_ 32 0#32
  let main_v134 : IVec S1024 32 := broadcastInDim S1024 ![] bcast_S_S1024 main_c_51
  let main_v135 : IVec S1024 1 := cmpi .sge main_arg3 main_v134
  let main_c_52 : IVec S_ 32 := constantI S_ 32 50000#32
  let main_v136 : IVec S1024 32 := broadcastInDim S1024 ![] bcast_S_S1024 main_c_52
  fn_part8 (F := F) main_arg3 main_arg4 main_arg5 main_arg6 main_v133 main_v135 main_v136

def fn_part6 {F : FTy → Type} [FloatOps F] (main_arg0 : IVec S2x1500000 32) (main_arg1 : IVec S1500000 32) (main_arg2 : IVec S1024 32) (main_arg3 : IVec S1024 32) (main_arg4 : IVec S65536 32) (main_arg5 : IVec S65536 32) (main_arg6 : IVec S2x262144 32) (main_arg29 : FVec F S1 .f32) (main_v98 : IVec S_ 1) (main_v101 : IVec S64x1 1) (main_c_39 : IVec S_ 1) : IVec S_ 1 :=
  let main_v102 : IVec S_ 1 := (fun x v => Host.reduce IntOp.andi x v reducesTo_S64x1_S_d0_1 h_S_) main_v101 main_c_39
  let main_v103 : IVec S_ 1 := andi main_v98 main_v102
  let main_v104 : FVec F S1 .f32 := Host.absf main_arg29
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_v109 : IVec S1x1500000 32 := (extractStridedSlice S1x1500000 ![0, 0] · slices_S2x1500000_S1x1500000_0_0) main_arg0
  let main_v110 : IVec S1500000 32 := shapeCast S1500000 main_v109 shapeCasts_S1x1500000_S1500000
  let main_c_42 : IVec S_ 32 := constantI S_ 32 0#32
  let main_v111 : IVec S1500000 32 := broadcastInDim S1500000 ![] bcast_S_S1500000 main_c_42
  let main_v112 : IVec S1500000 1 := cmpi .sge main_v110 main_v111
  let main_v113 : IVec S1x1500000 32 := (extractStridedSlice S1x1500000 ![0, 0] · slices_S2x1500000_S1x1500000_0_0) main_arg0
  let main_v114 : IVec S1500000 32 := shapeCast S1500000 main_v113 shapeCasts_S1x1500000_S1500000
  let main_c_43 : IVec S_ 32 := constantI S_ 32 150000#32
  let main_v115 : IVec S1500000 32 := broadcastInDim S1500000 ![] bcast_S_S1500000 main_c_43
  let main_v116 : IVec S1500000 1 := cmpi .slt main_v114 main_v115
  let main_v117 : IVec S1500000 1 := andi main_v112 main_v116
  let main_c_44 : IVec S_ 1 := constantI S_ 1 1#1
  let main_v118 : IVec S_ 1 := (fun x v => Host.reduce IntOp.andi x v reducesTo_S1500000_S_d0 h_S_) main_v117 main_c_44
  let main_v119 : IVec S_ 1 := andi main_v108 main_v118
  let main_c_45 : IVec S_ 32 := constantI S_ 32 0#32
  fn_part7 (F := F) main_arg1 main_arg2 main_arg3 main_arg4 main_arg5 main_arg6 main_v119 main_c_45

def fn_part5 {F : FTy → Type} [FloatOps F] (main_arg0 : IVec S2x1500000 32) (main_arg1 : IVec S1500000 32) (main_arg2 : IVec S1024 32) (main_arg3 : IVec S1024 32) (main_arg4 : IVec S65536 32) (main_arg5 : IVec S65536 32) (main_arg6 : IVec S2x262144 32) (main_arg26 : FVec F S512x64 .f32) (main_arg27 : FVec F S64 .f32) (main_arg28 : FVec F S64x1 .f32) (main_arg29 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S512x64 .f32 := Host.absf main_arg26
  let main_cst_34 : FVec F S_ .f32 := constant S_ .f32 0x7F800000#32
  let main_v90 : FVec F S512x64 .f32 := broadcastInDim S512x64 ![] bcast_S_S512x64 main_cst_34
  let main_v91 : IVec S512x64 1 := cmpf .olt main_v89 main_v90
  let main_c_35 : IVec S_ 1 := constantI S_ 1 1#1
  let main_v92 : IVec S_ 1 := (fun x v => Host.reduce IntOp.andi x v reducesTo_S512x64_S_d0_1 h_S_) main_v91 main_c_35
  let main_v93 : IVec S_ 1 := andi main_v88 main_v92
  let main_v94 : FVec F S64 .f32 := Host.absf main_arg27
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x1 .f32 := Host.absf main_arg28
  let main_cst_38 : FVec F S_ .f32 := constant S_ .f32 0x7F800000#32
  let main_v100 : FVec F S64x1 .f32 := broadcastInDim S64x1 ![] bcast_S_S64x1 main_cst_38
  let main_v101 : IVec S64x1 1 := cmpf .olt main_v99 main_v100
  let main_c_39 : IVec S_ 1 := constantI S_ 1 1#1
  fn_part6 (F := F) main_arg0 main_arg1 main_arg2 main_arg3 main_arg4 main_arg5 main_arg6 main_arg29 main_v98 main_v101 main_c_39

def fn_part4 {F : FTy → Type} [FloatOps F] (main_arg0 : IVec S2x1500000 32) (main_arg1 : IVec S1500000 32) (main_arg2 : IVec S1024 32) (main_arg3 : IVec S1024 32) (main_arg4 : IVec S65536 32) (main_arg5 : IVec S65536 32) (main_arg6 : IVec S2x262144 32) (main_arg22 : FVec F S128x128 .f32) (main_arg23 : FVec F S128 .f32) (main_arg24 : FVec F S128x128 .f32) (main_arg25 : FVec F S128 .f32) (main_arg26 : FVec F S512x64 .f32) (main_arg27 : FVec F S64 .f32) (main_arg28 : FVec F S64x1 .f32) (main_arg29 : FVec F S1 .f32) (main_v63 : IVec S_ 1) (main_v67 : IVec S_ 1) : IVec S_ 1 :=
  let main_v68 : IVec S_ 1 := andi main_v63 main_v67
  let main_v69 : FVec F S128x128 .f32 := Host.absf main_arg22
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg23
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg24
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg25
  let main_cst_32 : FVec F S_ .f32 := constant S_ .f32 0x7F800000#32
  fn_part5 (F := F) main_arg0 main_arg1 main_arg2 main_arg3 main_arg4 main_arg5 main_arg6 main_arg26 main_arg27 main_arg28 main_arg29 main_v83 main_v84 main_cst_32

def fn_part3 {F : FTy → Type} [FloatOps F] (main_arg0 : IVec S2x1500000 32) (main_arg1 : IVec S1500000 32) (main_arg2 : IVec S1024 32) (main_arg3 : IVec S1024 32) (main_arg4 : IVec S65536 32) (main_arg5 : IVec S65536 32) (main_arg6 : IVec S2x262144 32) (main_arg19 : FVec F S8 .f32) (main_arg20 : FVec F S256x128 .f32) (main_arg21 : FVec F S128 .f32) (main_arg22 : FVec F S128x128 .f32) (main_arg23 : FVec F S128 .f32) (main_arg24 : FVec F S128x128 .f32) (main_arg25 : FVec F S128 .f32) (main_arg26 : FVec F S512x64 .f32) (main_arg27 : FVec F S64 .f32) (main_arg28 : FVec F S64x1 .f32) (main_arg29 : FVec F S1 .f32) (main_v48 : IVec S_ 1) (main_v49 : FVec F S128x8 .f32) (main_v50 : FVec F S128x8 .f32) : IVec S_ 1 :=
  let main_v51 : IVec S128x8 1 := cmpf .olt main_v49 main_v50
  let main_c_19 : IVec S_ 1 := constantI S_ 1 1#1
  let main_v52 : IVec S_ 1 := (fun x v => Host.reduce IntOp.andi x v reducesTo_S128x8_S_d0_1 h_S_) main_v51 main_c_19
  let main_v53 : IVec S_ 1 := andi main_v48 main_v52
  let main_v54 : FVec F S8 .f32 := Host.absf main_arg19
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S256x128 .f32 := Host.absf main_arg20
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg21
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg0 main_arg1 main_arg2 main_arg3 main_arg4 main_arg5 main_arg6 main_arg22 main_arg23 main_arg24 main_arg25 main_arg26 main_arg27 main_arg28 main_arg29 main_v63 main_v67

def fn_part2 {F : FTy → Type} [FloatOps F] (main_arg0 : IVec S2x1500000 32) (main_arg1 : IVec S1500000 32) (main_arg2 : IVec S1024 32) (main_arg3 : IVec S1024 32) (main_arg4 : IVec S65536 32) (main_arg5 : IVec S65536 32) (main_arg6 : IVec S2x262144 32) (main_arg15 : FVec F S2x1 .f32) (main_arg16 : FVec F S128x128 .f32) (main_arg17 : FVec F S128 .f32) (main_arg18 : FVec F S128x8 .f32) (main_arg19 : FVec F S8 .f32) (main_arg20 : FVec F S256x128 .f32) (main_arg21 : FVec F S128 .f32) (main_arg22 : FVec F S128x128 .f32) (main_arg23 : FVec F S128 .f32) (main_arg24 : FVec F S128x128 .f32) (main_arg25 : FVec F S128 .f32) (main_arg26 : FVec F S512x64 .f32) (main_arg27 : FVec F S64 .f32) (main_arg28 : FVec F S64x1 .f32) (main_arg29 : FVec F S1 .f32) (main_v33 : IVec S_ 1) : IVec S_ 1 :=
  let main_v34 : FVec F S2x1 .f32 := Host.absf main_arg15
  let main_cst_12 : FVec F S_ .f32 := constant S_ .f32 0x7F800000#32
  let main_v35 : FVec F S2x1 .f32 := broadcastInDim S2x1 ![] bcast_S_S2x1 main_cst_12
  let main_v36 : IVec S2x1 1 := cmpf .olt main_v34 main_v35
  let main_c_13 : IVec S_ 1 := constantI S_ 1 1#1
  let main_v37 : IVec S_ 1 := (fun x v => Host.reduce IntOp.andi x v reducesTo_S2x1_S_d0_1 h_S_) main_v36 main_c_13
  let main_v38 : IVec S_ 1 := andi main_v33 main_v37
  let main_v39 : FVec F S128x128 .f32 := Host.absf main_arg16
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg17
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x8 .f32 := Host.absf main_arg18
  let main_cst_18 : FVec F S_ .f32 := constant S_ .f32 0x7F800000#32
  let main_v50 : FVec F S128x8 .f32 := broadcastInDim S128x8 ![] bcast_S_S128x8 main_cst_18
  fn_part3 (F := F) main_arg0 main_arg1 main_arg2 main_arg3 main_arg4 main_arg5 main_arg6 main_arg19 main_arg20 main_arg21 main_arg22 main_arg23 main_arg24 main_arg25 main_arg26 main_arg27 main_arg28 main_arg29 main_v48 main_v49 main_v50

def fn_part1 {F : FTy → Type} [FloatOps F] (main_arg0 : IVec S2x1500000 32) (main_arg1 : IVec S1500000 32) (main_arg2 : IVec S1024 32) (main_arg3 : IVec S1024 32) (main_arg4 : IVec S65536 32) (main_arg5 : IVec S65536 32) (main_arg6 : IVec S2x262144 32) (main_arg12 : FVec F S8x128 .f32) (main_arg13 : FVec F S128x128 .f32) (main_arg14 : FVec F S128 .f32) (main_arg15 : FVec F S2x1 .f32) (main_arg16 : FVec F S128x128 .f32) (main_arg17 : FVec F S128 .f32) (main_arg18 : FVec F S128x8 .f32) (main_arg19 : FVec F S8 .f32) (main_arg20 : FVec F S256x128 .f32) (main_arg21 : FVec F S128 .f32) (main_arg22 : FVec F S128x128 .f32) (main_arg23 : FVec F S128 .f32) (main_arg24 : FVec F S128x128 .f32) (main_arg25 : FVec F S128 .f32) (main_arg26 : FVec F S512x64 .f32) (main_arg27 : FVec F S64 .f32) (main_arg28 : FVec F S64x1 .f32) (main_arg29 : FVec F S1 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S8x128 .f32 := Host.absf main_arg12
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S128x128 .f32 := Host.absf main_arg13
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg14
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg1 main_arg2 main_arg3 main_arg4 main_arg5 main_arg6 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : IVec S2x1500000 32) (main_arg1 : IVec S1500000 32) (main_arg2 : IVec S1024 32) (main_arg3 : IVec S1024 32) (main_arg4 : IVec S65536 32) (main_arg5 : IVec S65536 32) (main_arg6 : IVec S2x262144 32) (main_arg7 : IVec S65536 32) (main_arg8 : FVec F S100000x128 .f32) (main_arg9 : FVec F S50000x128 .f32) (main_arg10 : FVec F S4x128 .f32) (main_arg11 : FVec F S8x128 .f32) (main_arg12 : FVec F S8x128 .f32) (main_arg13 : FVec F S128x128 .f32) (main_arg14 : FVec F S128 .f32) (main_arg15 : FVec F S2x1 .f32) (main_arg16 : FVec F S128x128 .f32) (main_arg17 : FVec F S128 .f32) (main_arg18 : FVec F S128x8 .f32) (main_arg19 : FVec F S8 .f32) (main_arg20 : FVec F S256x128 .f32) (main_arg21 : FVec F S128 .f32) (main_arg22 : FVec F S128x128 .f32) (main_arg23 : FVec F S128 .f32) (main_arg24 : FVec F S128x128 .f32) (main_arg25 : FVec F S128 .f32) (main_arg26 : FVec F S512x64 .f32) (main_arg27 : FVec F S64 .f32) (main_arg28 : FVec F S64x1 .f32) (main_arg29 : FVec F S1 .f32) : IVec S_ 1 :=
  let main_v0 : FVec F S100000x128 .f32 := Host.absf main_arg8
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg9
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S4x128 .f32 := Host.absf main_arg10
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S8x128 .f32 := Host.absf main_arg11
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg0 main_arg1 main_arg2 main_arg3 main_arg4 main_arg5 main_arg6 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S2x1500000 : Shape := ⟨2, ![2, 1500000]⟩
abbrev S1500000 : Shape := ⟨1, ![1500000]⟩
abbrev S1024 : Shape := ⟨1, ![1024]⟩
abbrev S65536 : Shape := ⟨1, ![65536]⟩
abbrev S2x262144 : Shape := ⟨2, ![2, 262144]⟩
abbrev S100000x128 : Shape := ⟨2, ![100000, 128]⟩
abbrev S50000x128 : Shape := ⟨2, ![50000, 128]⟩
abbrev S4x128 : Shape := ⟨2, ![4, 128]⟩
abbrev S8x128 : Shape := ⟨2, ![8, 128]⟩
abbrev S128x128 : Shape := ⟨2, ![128, 128]⟩
abbrev S128 : Shape := ⟨1, ![128]⟩
abbrev S2x1 : Shape := ⟨2, ![2, 1]⟩
abbrev S128x8 : Shape := ⟨2, ![128, 8]⟩
abbrev S8 : Shape := ⟨1, ![8]⟩
abbrev S256x128 : Shape := ⟨2, ![256, 128]⟩
abbrev S512x64 : Shape := ⟨2, ![512, 64]⟩
abbrev S64 : Shape := ⟨1, ![64]⟩
abbrev S64x1 : Shape := ⟨2, ![64, 1]⟩
abbrev S1 : Shape := ⟨1, ![1]⟩
abbrev S150000x128 : Shape := ⟨2, ![150000, 128]⟩
abbrev S1x1500000 : Shape := ⟨2, ![1, 1500000]⟩
abbrev S_ : Shape := ⟨0, ![]⟩
abbrev S155648x128 : Shape := ⟨2, ![155648, 128]⟩
abbrev S1x128 : Shape := ⟨2, ![1, 128]⟩
abbrev S8192x128 : Shape := ⟨2, ![8192, 128]⟩
abbrev S2 : Shape := ⟨1, ![2]⟩
abbrev S1500000x1 : Shape := ⟨2, ![1500000, 1]⟩
abbrev S1x1 : Shape := ⟨2, ![1, 1]⟩
abbrev S1500000x128 : Shape := ⟨2, ![1500000, 128]⟩
abbrev S1024x1 : Shape := ⟨2, ![1024, 1]⟩
abbrev S1024x128 : Shape := ⟨2, ![1024, 128]⟩
abbrev S1024x8 : Shape := ⟨2, ![1024, 8]⟩
abbrev S1x8 : Shape := ⟨2, ![1, 8]⟩
abbrev S65536x1 : Shape := ⟨2, ![65536, 1]⟩
abbrev S65536x128 : Shape := ⟨2, ![65536, 128]⟩
abbrev S65536x256 : Shape := ⟨2, ![65536, 256]⟩
abbrev S8192x256 : Shape := ⟨2, ![8192, 256]⟩
abbrev S1x262144 : Shape := ⟨2, ![1, 262144]⟩
abbrev S262144 : Shape := ⟨1, ![262144]⟩
abbrev S327680 : Shape := ⟨1, ![327680]⟩
abbrev S327680x1 : Shape := ⟨2, ![327680, 1]⟩
abbrev S327680x128 : Shape := ⟨2, ![327680, 128]⟩
abbrev S1024x512 : Shape := ⟨2, ![1024, 512]⟩
abbrev S1024x64 : Shape := ⟨2, ![1024, 64]⟩
abbrev S1x64 : Shape := ⟨2, ![1, 64]⟩

abbrev nBuf : Space → Nat
  | .hbm => 368
  | .vmem => 13
  | .smem => 0
  | _ => 0

abbrev hbmTy0_0 (i : Nat) : BufTy := match i % 128 with
  | 0 => ⟨S2x1500000, .i32⟩
  | 1 => ⟨S1500000, .i32⟩
  | 2 => ⟨S1024, .i32⟩
  | 3 => ⟨S1024, .i32⟩
  | 4 => ⟨S65536, .i32⟩
  | 5 => ⟨S65536, .i32⟩
  | 6 => ⟨S2x262144, .i32⟩
  | 7 => ⟨S65536, .i32⟩
  | 8 => ⟨S100000x128, .f32⟩
  | 9 => ⟨S50000x128, .f32⟩
  | 10 => ⟨S4x128, .f32⟩
  | 11 => ⟨S8x128, .f32⟩
  | 12 => ⟨S8x128, .f32⟩
  | 13 => ⟨S128x128, .f32⟩
  | 14 => ⟨S128, .f32⟩
  | 15 => ⟨S2x1, .f32⟩
  | 16 => ⟨S128x128, .f32⟩
  | 17 => ⟨S128, .f32⟩
  | 18 => ⟨S128x8, .f32⟩
  | 19 => ⟨S8, .f32⟩
  | 20 => ⟨S256x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S512x64, .f32⟩
  | 27 => ⟨S64, .f32⟩
  | 28 => ⟨S64x1, .f32⟩
  | 29 => ⟨S1, .f32⟩
  | 30 => ⟨S150000x128, .f32⟩
  | 31 => ⟨S1x1500000, .i32⟩
  | 32 => ⟨S1500000, .i32⟩
  | 33 => ⟨S1x1500000, .i32⟩
  | 34 => ⟨S1500000, .i32⟩
  | 35 => ⟨S150000x128, .bf16⟩
  | 36 => ⟨S_, .i32⟩
  | 37 => ⟨S_, .bf16⟩
  | 38 => ⟨S155648x128, .bf16⟩
  | 39 => ⟨S128x128, .bf16⟩
  | 40 => ⟨S1x128, .f32⟩
  | 41 => ⟨S155648x128, .f32⟩
  | 42 => ⟨S2, .f32⟩
  | 43 => ⟨S_, .i32⟩
  | 44 => ⟨S1500000, .i32⟩
  | 45 => ⟨S1500000, .i1⟩
  | 46 => ⟨S_, .i32⟩
  | 47 => ⟨S1500000, .i32⟩
  | 48 => ⟨S1500000, .i32⟩
  | 49 => ⟨S1500000, .i32⟩
  | 50 => ⟨S1500000x1, .i32⟩
  | 51 => ⟨S1, .i32⟩
  | 52 => ⟨S_, .i32⟩
  | 53 => ⟨S1500000x1, .i32⟩
  | 54 => ⟨S1500000x1, .i1⟩
  | 55 => ⟨S1x1, .i32⟩
  | 56 => ⟨S1500000x1, .i32⟩
  | 57 => ⟨S1500000x1, .i1⟩
  | 58 => ⟨S1500000x1, .i1⟩
  | 59 => ⟨S_, .i1⟩
  | 60 => ⟨S1500000, .i1⟩
  | 61 => ⟨S1500000, .f32⟩
  | 62 => ⟨S_, .f32⟩
  | 63 => ⟨S1500000, .f32⟩
  | 64 => ⟨S1500000, .f32⟩
  | 65 => ⟨S1500000x1, .f32⟩
  | 66 => ⟨S_, .i32⟩
  | 67 => ⟨S1500000, .i32⟩
  | 68 => ⟨S1500000, .i1⟩
  | 69 => ⟨S_, .i32⟩
  | 70 => ⟨S1500000, .i32⟩
  | 71 => ⟨S1500000, .i32⟩
  | 72 => ⟨S1500000, .i32⟩
  | 73 => ⟨S1500000x1, .i32⟩
  | 74 => ⟨S1, .i32⟩
  | 75 => ⟨S_, .i32⟩
  | 76 => ⟨S1500000x1, .i32⟩
  | 77 => ⟨S1500000x1, .i1⟩
  | 78 => ⟨S1x1, .i32⟩
  | 79 => ⟨S1500000x1, .i32⟩
  | 80 => ⟨S1500000x1, .i1⟩
  | 81 => ⟨S1500000x1, .i1⟩
  | 82 => ⟨S_, .i1⟩
  | 83 => ⟨S1500000, .i1⟩
  | 84 => ⟨S1500000x128, .f32⟩
  | 85 => ⟨S1500000x128, .i1⟩
  | 86 => ⟨S_, .f32⟩
  | 87 => ⟨S1500000x128, .f32⟩
  | 88 => ⟨S1500000x128, .f32⟩
  | 89 => ⟨S1500000x128, .f32⟩
  | 90 => ⟨S1500000x128, .f32⟩
  | 91 => ⟨S_, .f32⟩
  | 92 => ⟨S150000x128, .f32⟩
  | 93 => ⟨S1500000x1, .i32⟩
  | 94 => ⟨S150000x128, .f32⟩
  | 95 => ⟨S_, .f32⟩
  | 96 => ⟨S150000x128, .f32⟩
  | 97 => ⟨S150000x128, .f32⟩
  | 98 => ⟨S150000x128, .f32⟩
  | 99 => ⟨S_, .i32⟩
  | 100 => ⟨S1024, .i32⟩
  | 101 => ⟨S1024, .i1⟩
  | 102 => ⟨S_, .i32⟩
  | 103 => ⟨S1024, .i32⟩
  | 104 => ⟨S1024, .i32⟩
  | 105 => ⟨S1024, .i32⟩
  | 106 => ⟨S1024x1, .i32⟩
  | 107 => ⟨S1, .i32⟩
  | 108 => ⟨S_, .i32⟩
  | 109 => ⟨S1024x1, .i32⟩
  | 110 => ⟨S1024x1, .i1⟩
  | 111 => ⟨S1x1, .i32⟩
  | 112 => ⟨S1024x1, .i32⟩
  | 113 => ⟨S1024x1, .i1⟩
  | 114 => ⟨S1024x1, .i1⟩
  | 115 => ⟨S_, .i1⟩
  | 116 => ⟨S1024, .i1⟩
  | 117 => ⟨S1024x128, .f32⟩
  | 118 => ⟨S1024x128, .i1⟩
  | 119 => ⟨S_, .f32⟩
  | 120 => ⟨S1024x128, .f32⟩
  | 121 => ⟨S1024x128, .f32⟩
  | 122 => ⟨S_, .i32⟩
  | 123 => ⟨S1024, .i32⟩
  | 124 => ⟨S1024, .i32⟩
  | 125 => ⟨S_, .i32⟩
  | 126 => ⟨S1024, .i32⟩
  | 127 => ⟨S1024, .i1⟩
  | _ => ⟨S2x1500000, .i32⟩

abbrev hbmTy0_1 (i : Nat) : BufTy := match i % 128 with
  | 0 => ⟨S_, .i32⟩
  | 1 => ⟨S1024, .i32⟩
  | 2 => ⟨S1024, .i32⟩
  | 3 => ⟨S1024, .i32⟩
  | 4 => ⟨S1024x1, .i32⟩
  | 5 => ⟨S1, .i32⟩
  | 6 => ⟨S_, .i32⟩
  | 7 => ⟨S1024x1, .i32⟩
  | 8 => ⟨S1024x1, .i1⟩
  | 9 => ⟨S1x1, .i32⟩
  | 10 => ⟨S1024x1, .i32⟩
  | 11 => ⟨S1024x1, .i1⟩
  | 12 => ⟨S1024x1, .i1⟩
  | 13 => ⟨S_, .i1⟩
  | 14 => ⟨S1024, .i1⟩
  | 15 => ⟨S1024x128, .f32⟩
  | 16 => ⟨S1024x128, .i1⟩
  | 17 => ⟨S_, .f32⟩
  | 18 => ⟨S1024x128, .f32⟩
  | 19 => ⟨S1024x128, .f32⟩
  | 20 => ⟨S1024x128, .f32⟩
  | 21 => ⟨S1x128, .f32⟩
  | 22 => ⟨S1024x128, .f32⟩
  | 23 => ⟨S1024x128, .f32⟩
  | 24 => ⟨S1024x128, .f32⟩
  | 25 => ⟨S1024x8, .f32⟩
  | 26 => ⟨S1x8, .f32⟩
  | 27 => ⟨S1024x8, .f32⟩
  | 28 => ⟨S1024x8, .f32⟩
  | 29 => ⟨S_, .f32⟩
  | 30 => ⟨S1024, .f32⟩
  | 31 => ⟨S_, .f32⟩
  | 32 => ⟨S1024, .f32⟩
  | 33 => ⟨S1024, .f32⟩
  | 34 => ⟨S1024x1, .f32⟩
  | 35 => ⟨S1024x8, .f32⟩
  | 36 => ⟨S1024x8, .f32⟩
  | 37 => ⟨S1024x8, .f32⟩
  | 38 => ⟨S_, .f32⟩
  | 39 => ⟨S1024, .f32⟩
  | 40 => ⟨S1024x1, .f32⟩
  | 41 => ⟨S1024x8, .f32⟩
  | 42 => ⟨S1024x8, .f32⟩
  | 43 => ⟨S1024x128, .f32⟩
  | 44 => ⟨S1024x128, .f32⟩
  | 45 => ⟨S1x128, .f32⟩
  | 46 => ⟨S1024x128, .f32⟩
  | 47 => ⟨S1024x128, .f32⟩
  | 48 => ⟨S1024x128, .f32⟩
  | 49 => ⟨S1024x8, .f32⟩
  | 50 => ⟨S1x8, .f32⟩
  | 51 => ⟨S1024x8, .f32⟩
  | 52 => ⟨S1024x8, .f32⟩
  | 53 => ⟨S_, .f32⟩
  | 54 => ⟨S1024, .f32⟩
  | 55 => ⟨S_, .f32⟩
  | 56 => ⟨S1024, .f32⟩
  | 57 => ⟨S1024, .f32⟩
  | 58 => ⟨S1024x1, .f32⟩
  | 59 => ⟨S1024x8, .f32⟩
  | 60 => ⟨S1024x8, .f32⟩
  | 61 => ⟨S1024x8, .f32⟩
  | 62 => ⟨S_, .f32⟩
  | 63 => ⟨S1024, .f32⟩
  | 64 => ⟨S1024x1, .f32⟩
  | 65 => ⟨S1024x8, .f32⟩
  | 66 => ⟨S1024x8, .f32⟩
  | 67 => ⟨S1024x128, .f32⟩
  | 68 => ⟨S_, .i32⟩
  | 69 => ⟨S65536, .i32⟩
  | 70 => ⟨S65536, .i1⟩
  | 71 => ⟨S_, .i32⟩
  | 72 => ⟨S65536, .i32⟩
  | 73 => ⟨S65536, .i32⟩
  | 74 => ⟨S65536, .i32⟩
  | 75 => ⟨S65536x1, .i32⟩
  | 76 => ⟨S1, .i32⟩
  | 77 => ⟨S_, .i32⟩
  | 78 => ⟨S65536x1, .i32⟩
  | 79 => ⟨S65536x1, .i1⟩
  | 80 => ⟨S1x1, .i32⟩
  | 81 => ⟨S65536x1, .i32⟩
  | 82 => ⟨S65536x1, .i1⟩
  | 83 => ⟨S65536x1, .i1⟩
  | 84 => ⟨S_, .i1⟩
  | 85 => ⟨S65536, .i1⟩
  | 86 => ⟨S65536x128, .f32⟩
  | 87 => ⟨S65536x128, .i1⟩
  | 88 => ⟨S_, .f32⟩
  | 89 => ⟨S65536x128, .f32⟩
  | 90 => ⟨S65536x128, .f32⟩
  | 91 => ⟨S_, .i32⟩
  | 92 => ⟨S65536, .i32⟩
  | 93 => ⟨S65536, .i1⟩
  | 94 => ⟨S_, .i32⟩
  | 95 => ⟨S65536, .i32⟩
  | 96 => ⟨S65536, .i32⟩
  | 97 => ⟨S65536, .i32⟩
  | 98 => ⟨S65536x1, .i32⟩
  | 99 => ⟨S1, .i32⟩
  | 100 => ⟨S_, .i32⟩
  | 101 => ⟨S65536x1, .i32⟩
  | 102 => ⟨S65536x1, .i1⟩
  | 103 => ⟨S1x1, .i32⟩
  | 104 => ⟨S65536x1, .i32⟩
  | 105 => ⟨S65536x1, .i1⟩
  | 106 => ⟨S65536x1, .i1⟩
  | 107 => ⟨S_, .i1⟩
  | 108 => ⟨S65536, .i1⟩
  | 109 => ⟨S65536x128, .f32⟩
  | 110 => ⟨S65536x128, .i1⟩
  | 111 => ⟨S_, .f32⟩
  | 112 => ⟨S65536x128, .f32⟩
  | 113 => ⟨S65536x128, .f32⟩
  | 114 => ⟨S65536x256, .f32⟩
  | 115 => ⟨S65536x256, .bf16⟩
  | 116 => ⟨S256x128, .bf16⟩
  | 117 => ⟨S1x128, .f32⟩
  | 118 => ⟨S128x128, .bf16⟩
  | 119 => ⟨S65536x128, .f32⟩
  | 120 => ⟨S1x262144, .i32⟩
  | 121 => ⟨S262144, .i32⟩
  | 122 => ⟨S65536, .i32⟩
  | 123 => ⟨S327680, .i32⟩
  | 124 => ⟨S1x262144, .i32⟩
  | 125 => ⟨S262144, .i32⟩
  | 126 => ⟨S65536, .i32⟩
  | 127 => ⟨S327680, .i32⟩
  | _ => ⟨S2x1500000, .i32⟩

abbrev hbmTy0_2 (i : Nat) : BufTy := match i % 128 with
  | 0 => ⟨S_, .f32⟩
  | 1 => ⟨S327680, .f32⟩
  | 2 => ⟨S_, .f32⟩
  | 3 => ⟨S65536, .f32⟩
  | 4 => ⟨S327680x1, .i32⟩
  | 5 => ⟨S65536, .f32⟩
  | 6 => ⟨S_, .f32⟩
  | 7 => ⟨S65536, .f32⟩
  | 8 => ⟨S65536, .i1⟩
  | 9 => ⟨S_, .f32⟩
  | 10 => ⟨S65536, .f32⟩
  | 11 => ⟨S65536, .f32⟩
  | 12 => ⟨S65536, .f32⟩
  | 13 => ⟨S_, .f32⟩
  | 14 => ⟨S_, .f32⟩
  | 15 => ⟨S65536, .f32⟩
  | 16 => ⟨S65536, .f32⟩
  | 17 => ⟨S_, .i32⟩
  | 18 => ⟨S327680, .i32⟩
  | 19 => ⟨S327680, .i1⟩
  | 20 => ⟨S_, .i32⟩
  | 21 => ⟨S327680, .i32⟩
  | 22 => ⟨S327680, .i32⟩
  | 23 => ⟨S327680, .i32⟩
  | 24 => ⟨S327680x1, .i32⟩
  | 25 => ⟨S327680, .f32⟩
  | 26 => ⟨S_, .i32⟩
  | 27 => ⟨S327680, .i32⟩
  | 28 => ⟨S327680, .i1⟩
  | 29 => ⟨S_, .i32⟩
  | 30 => ⟨S327680, .i32⟩
  | 31 => ⟨S327680, .i32⟩
  | 32 => ⟨S327680, .i32⟩
  | 33 => ⟨S327680x1, .i32⟩
  | 34 => ⟨S327680, .f32⟩
  | 35 => ⟨S327680, .f32⟩
  | 36 => ⟨S327680x1, .f32⟩
  | 37 => ⟨S_, .i32⟩
  | 38 => ⟨S327680, .i32⟩
  | 39 => ⟨S327680, .i1⟩
  | 40 => ⟨S_, .i32⟩
  | 41 => ⟨S327680, .i32⟩
  | 42 => ⟨S327680, .i32⟩
  | 43 => ⟨S327680, .i32⟩
  | 44 => ⟨S327680x1, .i32⟩
  | 45 => ⟨S1, .i32⟩
  | 46 => ⟨S_, .i32⟩
  | 47 => ⟨S327680x1, .i32⟩
  | 48 => ⟨S327680x1, .i1⟩
  | 49 => ⟨S1x1, .i32⟩
  | 50 => ⟨S327680x1, .i32⟩
  | 51 => ⟨S327680x1, .i1⟩
  | 52 => ⟨S327680x1, .i1⟩
  | 53 => ⟨S_, .i1⟩
  | 54 => ⟨S327680, .i1⟩
  | 55 => ⟨S327680x128, .f32⟩
  | 56 => ⟨S327680x128, .i1⟩
  | 57 => ⟨S_, .f32⟩
  | 58 => ⟨S327680x128, .f32⟩
  | 59 => ⟨S327680x128, .f32⟩
  | 60 => ⟨S327680x128, .f32⟩
  | 61 => ⟨S327680x128, .f32⟩
  | 62 => ⟨S_, .f32⟩
  | 63 => ⟨S65536x128, .f32⟩
  | 64 => ⟨S327680x1, .i32⟩
  | 65 => ⟨S65536x128, .f32⟩
  | 66 => ⟨S1x128, .f32⟩
  | 67 => ⟨S65536x128, .f32⟩
  | 68 => ⟨S65536x128, .f32⟩
  | 69 => ⟨S_, .f32⟩
  | 70 => ⟨S65536, .f32⟩
  | 71 => ⟨S_, .f32⟩
  | 72 => ⟨S1024, .f32⟩
  | 73 => ⟨S65536x1, .i32⟩
  | 74 => ⟨S1024, .f32⟩
  | 75 => ⟨S_, .f32⟩
  | 76 => ⟨S1024x128, .f32⟩
  | 77 => ⟨S65536x1, .i32⟩
  | 78 => ⟨S1024x128, .f32⟩
  | 79 => ⟨S_, .f32⟩
  | 80 => ⟨S1024, .f32⟩
  | 81 => ⟨S1024, .f32⟩
  | 82 => ⟨S1024x1, .f32⟩
  | 83 => ⟨S1024x128, .f32⟩
  | 84 => ⟨S1024x128, .f32⟩
  | 85 => ⟨S1024x128, .f32⟩
  | 86 => ⟨S1x128, .f32⟩
  | 87 => ⟨S1024x128, .f32⟩
  | 88 => ⟨S1024x128, .f32⟩
  | 89 => ⟨S1024x128, .f32⟩
  | 90 => ⟨S1024x128, .f32⟩
  | 91 => ⟨S1024x512, .f32⟩
  | 92 => ⟨S1024x64, .f32⟩
  | 93 => ⟨S1x64, .f32⟩
  | 94 => ⟨S1024x64, .f32⟩
  | 95 => ⟨S1024x64, .f32⟩
  | 96 => ⟨S_, .f32⟩
  | 97 => ⟨S1024x64, .f32⟩
  | 98 => ⟨S1024x64, .f32⟩
  | 99 => ⟨S1024x1, .f32⟩
  | 100 => ⟨S1x1, .f32⟩
  | 101 => ⟨S1024x1, .f32⟩
  | 102 => ⟨S1024x1, .f32⟩
  | 103 => ⟨S1024x1, .f32⟩
  | 104 => ⟨S1024x1, .f32⟩
  | 105 => ⟨S_, .f32⟩
  | 106 => ⟨S1024x1, .f32⟩
  | 107 => ⟨S1024x1, .f32⟩
  | 108 => ⟨S_, .f32⟩
  | 109 => ⟨S1024x1, .f32⟩
  | 110 => ⟨S1024x1, .f32⟩
  | 111 => ⟨S1024, .f32⟩
  | _ => ⟨S2x1500000, .i32⟩

abbrev hbmTy (i : Nat) : BufTy := match i / 128 with
  | 0 => hbmTy0_0 i
  | 1 => hbmTy0_1 i
  | 2 => hbmTy0_2 i
  | _ => ⟨S2x1500000, .i32⟩

abbrev bufTy : (tb : Table) → Fin (tcTables nBuf tb) → BufTy
  | .hbm, ⟨i, _⟩ => hbmTy i
  | .local _ .vmem, ⟨0, _⟩ => ⟨S8192x128, .bf16⟩
  | .local _ .vmem, ⟨1, _⟩ => ⟨S8192x128, .bf16⟩
  | .local _ .vmem, ⟨2, _⟩ => ⟨S128x128, .bf16⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | .local _ .vmem, ⟨6, _⟩ => ⟨S8192x256, .bf16⟩
  | .local _ .vmem, ⟨7, _⟩ => ⟨S8192x256, .bf16⟩
  | .local _ .vmem, ⟨8, _⟩ => ⟨S256x128, .bf16⟩
  | .local _ .vmem, ⟨9, _⟩ => ⟨S1x128, .f32⟩
  | .local _ .vmem, ⟨10, _⟩ => ⟨S128x128, .bf16⟩
  | .local _ .vmem, ⟨11, _⟩ => ⟨S8192x128, .f32⟩
  | .local _ .vmem, ⟨12, _⟩ => ⟨S8192x128, .f32⟩
  | _, _ => ⟨S2x1500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_c : Ref sig .tc := ⟨.hbm, 36, rfl⟩
abbrev main_call0_v0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_cst : Ref sig .tc := ⟨.hbm, 62, rfl⟩
abbrev main_call1_v14 : Ref sig .tc := ⟨.hbm, 63, rfl⟩
abbrev main_v11 : Ref sig .tc := ⟨.hbm, 64, rfl⟩
abbrev main_v12 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_cst : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_call3_cst : Ref sig .tc := ⟨.hbm, 95, rfl⟩
abbrev main_call3_v0 : Ref sig .tc := ⟨.hbm, 96, rfl⟩
abbrev main_v19 : Ref sig .tc := ⟨.hbm, 97, rfl⟩
abbrev main_v20 : Ref sig .tc := ⟨.hbm, 98, rfl⟩
abbrev main_call4_c : Ref sig .tc := ⟨.hbm, 99, rfl⟩
abbrev main_call4_v0 : Ref sig .tc := ⟨.hbm, 100, rfl⟩
abbrev main_call4_v1 : Ref sig .tc := ⟨.hbm, 101, rfl⟩
abbrev main_call4_c_0 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_call4_c_1 : Ref sig .tc := ⟨.hbm, 107, rfl⟩
abbrev main_call4_c_2 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_v9 : Ref sig .tc := ⟨.hbm, 112, rfl⟩
abbrev main_call4_v10 : Ref sig .tc := ⟨.hbm, 113, rfl⟩
abbrev main_call4_v11 : Ref sig .tc := ⟨.hbm, 114, rfl⟩
abbrev main_call4_c_3 : Ref sig .tc := ⟨.hbm, 115, rfl⟩
abbrev main_call4_v12 : Ref sig .tc := ⟨.hbm, 116, rfl⟩
abbrev main_call4_v13 : Ref sig .tc := ⟨.hbm, 117, rfl⟩
abbrev main_call4_v14 : Ref sig .tc := ⟨.hbm, 118, rfl⟩
abbrev main_call4_cst : Ref sig .tc := ⟨.hbm, 119, rfl⟩
abbrev main_call4_v15 : Ref sig .tc := ⟨.hbm, 120, rfl⟩
abbrev main_v21 : Ref sig .tc := ⟨.hbm, 121, rfl⟩
abbrev main_c_0 : Ref sig .tc := ⟨.hbm, 122, rfl⟩
abbrev main_v22 : Ref sig .tc := ⟨.hbm, 123, rfl⟩
abbrev main_v23 : Ref sig .tc := ⟨.hbm, 124, rfl⟩
abbrev main_call5_c : Ref sig .tc := ⟨.hbm, 125, rfl⟩
abbrev main_call5_v0 : Ref sig .tc := ⟨.hbm, 126, rfl⟩
abbrev main_call5_v1 : Ref sig .tc := ⟨.hbm, 127, rfl⟩
abbrev main_call5_c_0 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_call5_v5 : Ref sig .tc := ⟨.hbm, 132, rfl⟩
abbrev main_call5_c_1 : Ref sig .tc := ⟨.hbm, 133, rfl⟩
abbrev main_call5_c_2 : Ref sig .tc := ⟨.hbm, 134, rfl⟩
abbrev main_call5_v6 : Ref sig .tc := ⟨.hbm, 135, rfl⟩
abbrev main_call5_v7 : Ref sig .tc := ⟨.hbm, 136, rfl⟩
abbrev main_call5_v8 : Ref sig .tc := ⟨.hbm, 137, rfl⟩
abbrev main_call5_v9 : Ref sig .tc := ⟨.hbm, 138, rfl⟩
abbrev main_call5_v10 : Ref sig .tc := ⟨.hbm, 139, rfl⟩
abbrev main_call5_v11 : Ref sig .tc := ⟨.hbm, 140, rfl⟩
abbrev main_call5_c_3 : Ref sig .tc := ⟨.hbm, 141, rfl⟩
abbrev main_call5_v12 : Ref sig .tc := ⟨.hbm, 142, rfl⟩
abbrev main_call5_v13 : Ref sig .tc := ⟨.hbm, 143, rfl⟩
abbrev main_call5_v14 : Ref sig .tc := ⟨.hbm, 144, rfl⟩
abbrev main_call5_cst : Ref sig .tc := ⟨.hbm, 145, rfl⟩
abbrev main_call5_v15 : Ref sig .tc := ⟨.hbm, 146, rfl⟩
abbrev main_v24 : Ref sig .tc := ⟨.hbm, 147, rfl⟩
abbrev main_v25 : Ref sig .tc := ⟨.hbm, 148, rfl⟩
abbrev main_v26 : Ref sig .tc := ⟨.hbm, 149, rfl⟩
abbrev main_v27 : Ref sig .tc := ⟨.hbm, 150, rfl⟩
abbrev main_v28 : Ref sig .tc := ⟨.hbm, 151, rfl⟩
abbrev main_v29 : Ref sig .tc := ⟨.hbm, 152, rfl⟩
abbrev main_v30 : Ref sig .tc := ⟨.hbm, 153, rfl⟩
abbrev main_v31 : Ref sig .tc := ⟨.hbm, 154, rfl⟩
abbrev main_v32 : Ref sig .tc := ⟨.hbm, 155, rfl⟩
abbrev main_v33 : Ref sig .tc := ⟨.hbm, 156, rfl⟩
abbrev main_cst_1 : Ref sig .tc := ⟨.hbm, 157, rfl⟩
abbrev main_v34 : Ref sig .tc := ⟨.hbm, 158, rfl⟩
abbrev main_cst_2 : Ref sig .tc := ⟨.hbm, 159, rfl⟩
abbrev main_v35 : Ref sig .tc := ⟨.hbm, 160, rfl⟩
abbrev main_v36 : Ref sig .tc := ⟨.hbm, 161, rfl⟩
abbrev main_v37 : Ref sig .tc := ⟨.hbm, 162, rfl⟩
abbrev main_v38 : Ref sig .tc := ⟨.hbm, 163, rfl⟩
abbrev main_v39 : Ref sig .tc := ⟨.hbm, 164, rfl⟩
abbrev main_v40 : Ref sig .tc := ⟨.hbm, 165, rfl⟩
abbrev main_cst_3 : Ref sig .tc := ⟨.hbm, 166, rfl⟩
abbrev main_v41 : Ref sig .tc := ⟨.hbm, 167, rfl⟩
abbrev main_v42 : Ref sig .tc := ⟨.hbm, 168, rfl⟩
abbrev main_v43 : Ref sig .tc := ⟨.hbm, 169, rfl⟩
abbrev main_v44 : Ref sig .tc := ⟨.hbm, 170, rfl⟩
abbrev main_v45 : Ref sig .tc := ⟨.hbm, 171, rfl⟩
abbrev main_v46 : Ref sig .tc := ⟨.hbm, 172, rfl⟩
abbrev main_v47 : Ref sig .tc := ⟨.hbm, 173, rfl⟩
abbrev main_v48 : Ref sig .tc := ⟨.hbm, 174, rfl⟩
abbrev main_v49 : Ref sig .tc := ⟨.hbm, 175, rfl⟩
abbrev main_v50 : Ref sig .tc := ⟨.hbm, 176, rfl⟩
abbrev main_v51 : Ref sig .tc := ⟨.hbm, 177, rfl⟩
abbrev main_v52 : Ref sig .tc := ⟨.hbm, 178, rfl⟩
abbrev main_v53 : Ref sig .tc := ⟨.hbm, 179, rfl⟩
abbrev main_v54 : Ref sig .tc := ⟨.hbm, 180, rfl⟩
abbrev main_cst_4 : Ref sig .tc := ⟨.hbm, 181, rfl⟩
abbrev main_v55 : Ref sig .tc := ⟨.hbm, 182, rfl⟩
abbrev main_cst_5 : Ref sig .tc := ⟨.hbm, 183, rfl⟩
abbrev main_v56 : Ref sig .tc := ⟨.hbm, 184, rfl⟩
abbrev main_v57 : Ref sig .tc := ⟨.hbm, 185, rfl⟩
abbrev main_v58 : Ref sig .tc := ⟨.hbm, 186, rfl⟩
abbrev main_v59 : Ref sig .tc := ⟨.hbm, 187, rfl⟩
abbrev main_v60 : Ref sig .tc := ⟨.hbm, 188, rfl⟩
abbrev main_v61 : Ref sig .tc := ⟨.hbm, 189, rfl⟩
abbrev main_cst_6 : Ref sig .tc := ⟨.hbm, 190, rfl⟩
abbrev main_v62 : Ref sig .tc := ⟨.hbm, 191, rfl⟩
abbrev main_v63 : Ref sig .tc := ⟨.hbm, 192, rfl⟩
abbrev main_v64 : Ref sig .tc := ⟨.hbm, 193, rfl⟩
abbrev main_v65 : Ref sig .tc := ⟨.hbm, 194, rfl⟩
abbrev main_v66 : Ref sig .tc := ⟨.hbm, 195, rfl⟩
abbrev main_call6_c : Ref sig .tc := ⟨.hbm, 196, rfl⟩
abbrev main_call6_v0 : Ref sig .tc := ⟨.hbm, 197, rfl⟩
abbrev main_call6_v1 : Ref sig .tc := ⟨.hbm, 198, rfl⟩
abbrev main_call6_c_0 : Ref sig .tc := ⟨.hbm, 199, rfl⟩
abbrev main_call6_v2 : Ref sig .tc := ⟨.hbm, 200, rfl⟩
abbrev main_call6_v3 : Ref sig .tc := ⟨.hbm, 201, rfl⟩
abbrev main_call6_v4 : Ref sig .tc := ⟨.hbm, 202, rfl⟩
abbrev main_call6_v5 : Ref sig .tc := ⟨.hbm, 203, rfl⟩
abbrev main_call6_c_1 : Ref sig .tc := ⟨.hbm, 204, rfl⟩
abbrev main_call6_c_2 : Ref sig .tc := ⟨.hbm, 205, rfl⟩
abbrev main_call6_v6 : Ref sig .tc := ⟨.hbm, 206, rfl⟩
abbrev main_call6_v7 : Ref sig .tc := ⟨.hbm, 207, rfl⟩
abbrev main_call6_v8 : Ref sig .tc := ⟨.hbm, 208, rfl⟩
abbrev main_call6_v9 : Ref sig .tc := ⟨.hbm, 209, rfl⟩
abbrev main_call6_v10 : Ref sig .tc := ⟨.hbm, 210, rfl⟩
abbrev main_call6_v11 : Ref sig .tc := ⟨.hbm, 211, rfl⟩
abbrev main_call6_c_3 : Ref sig .tc := ⟨.hbm, 212, rfl⟩
abbrev main_call6_v12 : Ref sig .tc := ⟨.hbm, 213, rfl⟩
abbrev main_call6_v13 : Ref sig .tc := ⟨.hbm, 214, rfl⟩
abbrev main_call6_v14 : Ref sig .tc := ⟨.hbm, 215, rfl⟩
abbrev main_call6_cst : Ref sig .tc := ⟨.hbm, 216, rfl⟩
abbrev main_call6_v15 : Ref sig .tc := ⟨.hbm, 217, rfl⟩
abbrev main_v67 : Ref sig .tc := ⟨.hbm, 218, rfl⟩
abbrev main_call7_c : Ref sig .tc := ⟨.hbm, 219, rfl⟩
abbrev main_call7_v0 : Ref sig .tc := ⟨.hbm, 220, rfl⟩
abbrev main_call7_v1 : Ref sig .tc := ⟨.hbm, 221, rfl⟩
abbrev main_call7_c_0 : Ref sig .tc := ⟨.hbm, 222, rfl⟩
abbrev main_call7_v2 : Ref sig .tc := ⟨.hbm, 223, rfl⟩
abbrev main_call7_v3 : Ref sig .tc := ⟨.hbm, 224, rfl⟩
abbrev main_call7_v4 : Ref sig .tc := ⟨.hbm, 225, rfl⟩
abbrev main_call7_v5 : Ref sig .tc := ⟨.hbm, 226, rfl⟩
abbrev main_call7_c_1 : Ref sig .tc := ⟨.hbm, 227, rfl⟩
abbrev main_call7_c_2 : Ref sig .tc := ⟨.hbm, 228, rfl⟩
abbrev main_call7_v6 : Ref sig .tc := ⟨.hbm, 229, rfl⟩
abbrev main_call7_v7 : Ref sig .tc := ⟨.hbm, 230, rfl⟩
abbrev main_call7_v8 : Ref sig .tc := ⟨.hbm, 231, rfl⟩
abbrev main_call7_v9 : Ref sig .tc := ⟨.hbm, 232, rfl⟩
abbrev main_call7_v10 : Ref sig .tc := ⟨.hbm, 233, rfl⟩
abbrev main_call7_v11 : Ref sig .tc := ⟨.hbm, 234, rfl⟩
abbrev main_call7_c_3 : Ref sig .tc := ⟨.hbm, 235, rfl⟩
abbrev main_call7_v12 : Ref sig .tc := ⟨.hbm, 236, rfl⟩
abbrev main_call7_v13 : Ref sig .tc := ⟨.hbm, 237, rfl⟩
abbrev main_call7_v14 : Ref sig .tc := ⟨.hbm, 238, rfl⟩
abbrev main_call7_cst : Ref sig .tc := ⟨.hbm, 239, rfl⟩
abbrev main_call7_v15 : Ref sig .tc := ⟨.hbm, 240, rfl⟩
abbrev main_v68 : Ref sig .tc := ⟨.hbm, 241, rfl⟩
abbrev main_v69 : Ref sig .tc := ⟨.hbm, 242, rfl⟩
abbrev main_v70 : Ref sig .tc := ⟨.hbm, 243, rfl⟩
abbrev main_v71 : Ref sig .tc := ⟨.hbm, 244, rfl⟩
abbrev main_v72 : Ref sig .tc := ⟨.hbm, 245, rfl⟩
abbrev main_v73 : Ref sig .tc := ⟨.hbm, 246, rfl⟩
abbrev main_v74 : Ref sig .tc := ⟨.hbm, 247, rfl⟩
abbrev main_v75 : Ref sig .tc := ⟨.hbm, 248, rfl⟩
abbrev main_v76 : Ref sig .tc := ⟨.hbm, 249, rfl⟩
abbrev main_v77 : Ref sig .tc := ⟨.hbm, 250, rfl⟩
abbrev main_v78 : Ref sig .tc := ⟨.hbm, 251, rfl⟩
abbrev main_v79 : Ref sig .tc := ⟨.hbm, 252, rfl⟩
abbrev main_v80 : Ref sig .tc := ⟨.hbm, 253, rfl⟩
abbrev main_v81 : Ref sig .tc := ⟨.hbm, 254, rfl⟩
abbrev main_v82 : Ref sig .tc := ⟨.hbm, 255, rfl⟩
abbrev main_cst_7 : Ref sig .tc := ⟨.hbm, 256, rfl⟩
abbrev main_v83 : Ref sig .tc := ⟨.hbm, 257, rfl⟩
abbrev main_cst_8 : Ref sig .tc := ⟨.hbm, 258, rfl⟩
abbrev main_v84 : Ref sig .tc := ⟨.hbm, 259, rfl⟩
abbrev main_v85 : Ref sig .tc := ⟨.hbm, 260, rfl⟩
abbrev main_v86 : Ref sig .tc := ⟨.hbm, 261, rfl⟩
abbrev main_cst_9 : Ref sig .tc := ⟨.hbm, 262, rfl⟩
abbrev main_v87 : Ref sig .tc := ⟨.hbm, 263, rfl⟩
abbrev main_v88 : Ref sig .tc := ⟨.hbm, 264, rfl⟩
abbrev main_cst_10 : Ref sig .tc := ⟨.hbm, 265, rfl⟩
abbrev main_v89 : Ref sig .tc := ⟨.hbm, 266, rfl⟩
abbrev main_v90 : Ref sig .tc := ⟨.hbm, 267, rfl⟩
abbrev main_v91 : Ref sig .tc := ⟨.hbm, 268, rfl⟩
abbrev main_cst_11 : Ref sig .tc := ⟨.hbm, 269, rfl⟩
abbrev main_call8_v0 : Ref sig .tc := ⟨.hbm, 270, rfl⟩
abbrev main_call8_v1 : Ref sig .tc := ⟨.hbm, 271, rfl⟩
abbrev main_v92 : Ref sig .tc := ⟨.hbm, 272, rfl⟩
abbrev main_c_12 : Ref sig .tc := ⟨.hbm, 273, rfl⟩
abbrev main_v93 : Ref sig .tc := ⟨.hbm, 274, rfl⟩
abbrev main_v94 : Ref sig .tc := ⟨.hbm, 275, rfl⟩
abbrev main_c_13 : Ref sig .tc := ⟨.hbm, 276, rfl⟩
abbrev main_v95 : Ref sig .tc := ⟨.hbm, 277, rfl⟩
abbrev main_v96 : Ref sig .tc := ⟨.hbm, 278, rfl⟩
abbrev main_v97 : Ref sig .tc := ⟨.hbm, 279, rfl⟩
abbrev main_v98 : Ref sig .tc := ⟨.hbm, 280, rfl⟩
abbrev main_v99 : Ref sig .tc := ⟨.hbm, 281, rfl⟩
abbrev main_c_14 : Ref sig .tc := ⟨.hbm, 282, rfl⟩
abbrev main_v100 : Ref sig .tc := ⟨.hbm, 283, rfl⟩
abbrev main_v101 : Ref sig .tc := ⟨.hbm, 284, rfl⟩
abbrev main_c_15 : Ref sig .tc := ⟨.hbm, 285, rfl⟩
abbrev main_v102 : Ref sig .tc := ⟨.hbm, 286, rfl⟩
abbrev main_v103 : Ref sig .tc := ⟨.hbm, 287, rfl⟩
abbrev main_v104 : Ref sig .tc := ⟨.hbm, 288, rfl⟩
abbrev main_v105 : Ref sig .tc := ⟨.hbm, 289, rfl⟩
abbrev main_v106 : Ref sig .tc := ⟨.hbm, 290, rfl⟩
abbrev main_v107 : Ref sig .tc := ⟨.hbm, 291, rfl⟩
abbrev main_v108 : Ref sig .tc := ⟨.hbm, 292, rfl⟩
abbrev main_call9_c : Ref sig .tc := ⟨.hbm, 293, rfl⟩
abbrev main_call9_v0 : Ref sig .tc := ⟨.hbm, 294, rfl⟩
abbrev main_call9_v1 : Ref sig .tc := ⟨.hbm, 295, rfl⟩
abbrev main_call9_c_0 : Ref sig .tc := ⟨.hbm, 296, rfl⟩
abbrev main_call9_v2 : Ref sig .tc := ⟨.hbm, 297, rfl⟩
abbrev main_call9_v3 : Ref sig .tc := ⟨.hbm, 298, rfl⟩
abbrev main_call9_v4 : Ref sig .tc := ⟨.hbm, 299, rfl⟩
abbrev main_call9_v5 : Ref sig .tc := ⟨.hbm, 300, rfl⟩
abbrev main_call9_c_1 : Ref sig .tc := ⟨.hbm, 301, rfl⟩
abbrev main_call9_c_2 : Ref sig .tc := ⟨.hbm, 302, rfl⟩
abbrev main_call9_v6 : Ref sig .tc := ⟨.hbm, 303, rfl⟩
abbrev main_call9_v7 : Ref sig .tc := ⟨.hbm, 304, rfl⟩
abbrev main_call9_v8 : Ref sig .tc := ⟨.hbm, 305, rfl⟩
abbrev main_call9_v9 : Ref sig .tc := ⟨.hbm, 306, rfl⟩
abbrev main_call9_v10 : Ref sig .tc := ⟨.hbm, 307, rfl⟩
abbrev main_call9_v11 : Ref sig .tc := ⟨.hbm, 308, rfl⟩
abbrev main_call9_c_3 : Ref sig .tc := ⟨.hbm, 309, rfl⟩
abbrev main_call9_v12 : Ref sig .tc := ⟨.hbm, 310, rfl⟩
abbrev main_call9_v13 : Ref sig .tc := ⟨.hbm, 311, rfl⟩
abbrev main_call9_v14 : Ref sig .tc := ⟨.hbm, 312, rfl⟩
abbrev main_call9_cst : Ref sig .tc := ⟨.hbm, 313, rfl⟩
abbrev main_call9_v15 : Ref sig .tc := ⟨.hbm, 314, rfl⟩
abbrev main_v109 : Ref sig .tc := ⟨.hbm, 315, rfl⟩
abbrev main_v110 : Ref sig .tc := ⟨.hbm, 316, rfl⟩
abbrev main_v111 : Ref sig .tc := ⟨.hbm, 317, rfl⟩
abbrev main_cst_16 : Ref sig .tc := ⟨.hbm, 318, rfl⟩
abbrev main_v112 : Ref sig .tc := ⟨.hbm, 319, rfl⟩
abbrev main_v113 : Ref sig .tc := ⟨.hbm, 320, rfl⟩
abbrev main_v114 : Ref sig .tc := ⟨.hbm, 321, rfl⟩
abbrev main_v115 : Ref sig .tc := ⟨.hbm, 322, rfl⟩
abbrev main_v116 : Ref sig .tc := ⟨.hbm, 323, rfl⟩
abbrev main_v117 : Ref sig .tc := ⟨.hbm, 324, rfl⟩
abbrev main_cst_17 : Ref sig .tc := ⟨.hbm, 325, rfl⟩
abbrev main_v118 : Ref sig .tc := ⟨.hbm, 326, rfl⟩
abbrev main_cst_18 : Ref sig .tc := ⟨.hbm, 327, rfl⟩
abbrev main_v119 : Ref sig .tc := ⟨.hbm, 328, rfl⟩
abbrev main_v120 : Ref sig .tc := ⟨.hbm, 329, rfl⟩
abbrev main_v121 : Ref sig .tc := ⟨.hbm, 330, rfl⟩
abbrev main_cst_19 : Ref sig .tc := ⟨.hbm, 331, rfl⟩
abbrev main_v122 : Ref sig .tc := ⟨.hbm, 332, rfl⟩
abbrev main_v123 : Ref sig .tc := ⟨.hbm, 333, rfl⟩
abbrev main_v124 : Ref sig .tc := ⟨.hbm, 334, rfl⟩
abbrev main_cst_20 : Ref sig .tc := ⟨.hbm, 335, rfl⟩
abbrev main_v125 : Ref sig .tc := ⟨.hbm, 336, rfl⟩
abbrev main_v126 : Ref sig .tc := ⟨.hbm, 337, rfl⟩
abbrev main_v127 : Ref sig .tc := ⟨.hbm, 338, rfl⟩
abbrev main_v128 : Ref sig .tc := ⟨.hbm, 339, rfl⟩
abbrev main_v129 : Ref sig .tc := ⟨.hbm, 340, rfl⟩
abbrev main_v130 : Ref sig .tc := ⟨.hbm, 341, rfl⟩
abbrev main_v131 : Ref sig .tc := ⟨.hbm, 342, rfl⟩
abbrev main_v132 : Ref sig .tc := ⟨.hbm, 343, rfl⟩
abbrev main_v133 : Ref sig .tc := ⟨.hbm, 344, rfl⟩
abbrev main_v134 : Ref sig .tc := ⟨.hbm, 345, rfl⟩
abbrev main_v135 : Ref sig .tc := ⟨.hbm, 346, rfl⟩
abbrev main_v136 : Ref sig .tc := ⟨.hbm, 347, rfl⟩
abbrev main_v137 : Ref sig .tc := ⟨.hbm, 348, rfl⟩
abbrev main_v138 : Ref sig .tc := ⟨.hbm, 349, rfl⟩
abbrev main_v139 : Ref sig .tc := ⟨.hbm, 350, rfl⟩
abbrev main_v140 : Ref sig .tc := ⟨.hbm, 351, rfl⟩
abbrev main_call10_cst : Ref sig .tc := ⟨.hbm, 352, rfl⟩
abbrev main_call10_v0 : Ref sig .tc := ⟨.hbm, 353, rfl⟩
abbrev main_v141 : Ref sig .tc := ⟨.hbm, 354, rfl⟩
abbrev main_v142 : Ref sig .tc := ⟨.hbm, 355, rfl⟩
abbrev main_v143 : Ref sig .tc := ⟨.hbm, 356, rfl⟩
abbrev main_v144 : Ref sig .tc := ⟨.hbm, 357, rfl⟩
abbrev main_v145 : Ref sig .tc := ⟨.hbm, 358, rfl⟩
abbrev main_v146 : Ref sig .tc := ⟨.hbm, 359, rfl⟩
abbrev main_v147 : Ref sig .tc := ⟨.hbm, 360, rfl⟩
abbrev main_cst_21 : Ref sig .tc := ⟨.hbm, 361, rfl⟩
abbrev main_v148 : Ref sig .tc := ⟨.hbm, 362, rfl⟩
abbrev main_v149 : Ref sig .tc := ⟨.hbm, 363, rfl⟩
abbrev main_cst_22 : Ref sig .tc := ⟨.hbm, 364, rfl⟩
abbrev main_v150 : Ref sig .tc := ⟨.hbm, 365, rfl⟩
abbrev main_v151 : Ref sig .tc := ⟨.hbm, 366, rfl⟩
abbrev main_v152 : Ref sig .tc := ⟨.hbm, 367, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8192x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  concatenates_S100000x128_S50000x128_S150000x128_d0 : Shape.Concatenates [S100000x128, S50000x128] S150000x128 0
  slices_S2x1500000_S1x1500000_0_0 : S2x1500000.Slices ![0, 0] S1x1500000
  shapeCasts_S1x1500000_S1500000 : S1x1500000.ShapeCasts S1500000
  slices_S2x1500000_S1x1500000_1_0 : S2x1500000.Slices ![1, 0] S1x1500000
  bitsLt_bf16_f32 : FTy.bits .bf16 < FTy.bits .f32
  pads_S150000x128_S155648x128_056480_000 : S150000x128.Pads (![0, 0] : Fin 2 → Nat) ![5648, 0] ![0, 0] S155648x128
  h_S_ : 0 < S_.numel
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  shapeCasts_S2x1_S2 : S2x1.ShapeCasts S2
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S1500000x1 : S_.BroadcastsInDim S1500000x1 (![] : Fin 0 → Fin S1500000x1.rank)
  bcast_S1_S1x1_1 : S1.BroadcastsInDim S1x1 (![1] : Fin 1 → Fin S1x1.rank)
  bcast_S1x1_S1500000x1_0_1 : S1x1.BroadcastsInDim S1500000x1 (![0, 1] : Fin 2 → Fin S1500000x1.rank)
  reducesTo_S1500000x1_S1500000_d1 : S1500000x1.ReducesTo [1] S1500000
  bcast_S1500000_S1500000x128_0 : S1500000.BroadcastsInDim S1500000x128 (![0] : Fin 1 → Fin S1500000x128.rank)
  bcast_S_S1500000x128 : S_.BroadcastsInDim S1500000x128 (![] : Fin 0 → Fin S1500000x128.rank)
  bcast_S1500000x1_S1500000x128_0_1 : S1500000x1.BroadcastsInDim S1500000x128 (![0, 1] : Fin 2 → Fin S1500000x128.rank)
  bcast_S_S150000x128 : S_.BroadcastsInDim S150000x128 (![] : Fin 0 → Fin S150000x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1x1_S1024x1_0_1 : S1x1.BroadcastsInDim S1024x1 (![0, 1] : Fin 2 → Fin S1024x1.rank)
  reducesTo_S1024x1_S1024_d1 : S1024x1.ReducesTo [1] S1024
  bcast_S1024_S1024x128_0 : S1024.BroadcastsInDim S1024x128 (![0] : Fin 1 → Fin S1024x128.rank)
  bcast_S_S1024x128 : S_.BroadcastsInDim S1024x128 (![] : Fin 0 → Fin S1024x128.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  reducesTo_S1024x8_S1024_d1 : S1024x8.ReducesTo [1] S1024
  bcast_S1024x1_S1024x8_0_1 : S1024x1.BroadcastsInDim S1024x8 (![0, 1] : Fin 2 → Fin S1024x8.rank)
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1x1_S65536x1_0_1 : S1x1.BroadcastsInDim S65536x1 (![0, 1] : Fin 2 → Fin S65536x1.rank)
  reducesTo_S65536x1_S65536_d1 : S65536x1.ReducesTo [1] S65536
  bcast_S65536_S65536x128_0 : S65536.BroadcastsInDim S65536x128 (![0] : Fin 1 → Fin S65536x128.rank)
  bcast_S_S65536x128 : S_.BroadcastsInDim S65536x128 (![] : Fin 0 → Fin S65536x128.rank)
  concatenates_S65536x128_S65536x128_S65536x256_d1 : Shape.Concatenates [S65536x128, S65536x128] S65536x256 1
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S2x262144_S1x262144_0_0 : S2x262144.Slices ![0, 0] S1x262144
  shapeCasts_S1x262144_S262144 : S1x262144.ShapeCasts S262144
  concatenates_S262144_S65536_S327680_d0 : Shape.Concatenates [S262144, S65536] S327680 0
  slices_S2x262144_S1x262144_1_0 : S2x262144.Slices ![1, 0] S1x262144
  bcast_S_S327680 : S_.BroadcastsInDim S327680 (![] : Fin 0 → Fin S327680.rank)
  bcast_S327680_S327680x1_0 : S327680.BroadcastsInDim S327680x1 (![0] : Fin 1 → Fin S327680x1.rank)
  bcast_S_S327680x1 : S_.BroadcastsInDim S327680x1 (![] : Fin 0 → Fin S327680x1.rank)
  bcast_S1x1_S327680x1_0_1 : S1x1.BroadcastsInDim S327680x1 (![0, 1] : Fin 2 → Fin S327680x1.rank)
  reducesTo_S327680x1_S327680_d1 : S327680x1.ReducesTo [1] S327680
  bcast_S327680_S327680x128_0 : S327680.BroadcastsInDim S327680x128 (![0] : Fin 1 → Fin S327680x128.rank)
  bcast_S_S327680x128 : S_.BroadcastsInDim S327680x128 (![] : Fin 0 → Fin S327680x128.rank)
  bcast_S327680x1_S327680x128_0_1 : S327680x1.BroadcastsInDim S327680x128 (![0, 1] : Fin 2 → Fin S327680x128.rank)
  bcast_S1x128_S65536x128_0_1 : S1x128.BroadcastsInDim S65536x128 (![0, 1] : Fin 2 → Fin S65536x128.rank)
  bcast_S1024x1_S1024x128_0_1 : S1024x1.BroadcastsInDim S1024x128 (![0, 1] : Fin 2 → Fin S1024x128.rank)
  concatenates_S1024x128_S1024x128_S1024x128_S1024x128_S1024x512_d1 : Shape.Concatenates [S1024x128, S1024x128, S1024x128, S1024x128] S1024x512 1
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  shapeCasts_S1024x1_S1024 : S1024x1.ShapeCasts S1024
  dot_S8192x128_S128x128_S8192x128_1_0_0_1_n_n_wf : DotDims.WF S8192x128 S128x128 S8192x128 [1] [0] [0] [1] [] []
  gather_S2_S1500000x1_S1500000_n_0_n_n_0_1_1_wf : GatherDims.WF S2 S1500000x1 S1500000 [] [0] [] [0] [] 1 ![1]
  gather_S155648x128_S1500000x1_S1500000x128_1_0_n_n_0_1_1128_wf : GatherDims.WF S155648x128 S1500000x1 S1500000x128 [1] [0] [] [0] [] 1 ![1, 128]
  scatter_S150000x128_S1500000x1_S1500000x128_1_0_0_1_wf : ScatterDims.WF S150000x128 S1500000x1 S1500000x128 [1] [0] [0] 1
  gather_S150000x128_S1024x1_S1024x128_1_0_n_n_0_1_1128_wf : GatherDims.WF S150000x128 S1024x1 S1024x128 [1] [0] [] [0] [] 1 ![1, 128]
  dot_S1024x128_S128x128_S1024x128_1_0_0_1_n_n_wf : DotDims.WF S1024x128 S128x128 S1024x128 [1] [0] [0] [1] [] []
  dot_S1024x128_S128x8_S1024x8_1_0_0_1_n_n_wf : DotDims.WF S1024x128 S128x8 S1024x8 [1] [0] [0] [1] [] []
  dot_S1024x8_S8x128_S1024x128_1_0_0_1_n_n_wf : DotDims.WF S1024x8 S8x128 S1024x128 [1] [0] [0] [1] [] []
  gather_S150000x128_S65536x1_S65536x128_1_0_n_n_0_1_1128_wf : GatherDims.WF S150000x128 S65536x1 S65536x128 [1] [0] [] [0] [] 1 ![1, 128]
  gather_S4x128_S65536x1_S65536x128_1_0_n_n_0_1_1128_wf : GatherDims.WF S4x128 S65536x1 S65536x128 [1] [0] [] [0] [] 1 ![1, 128]
  dot_S8192x256_S256x128_S8192x128_1_0_0_1_n_n_wf : DotDims.WF S8192x256 S256x128 S8192x128 [1] [0] [0] [1] [] []
  scatter_S65536_S327680x1_S327680_n_0_0_1_wf : ScatterDims.WF S65536 S327680x1 S327680 [] [0] [0] 1
  gather_S65536_S327680x1_S327680_n_0_n_n_0_1_1_wf : GatherDims.WF S65536 S327680x1 S327680 [] [0] [] [0] [] 1 ![1]
  gather_S65536x128_S327680x1_S327680x128_1_0_n_n_0_1_1128_wf : GatherDims.WF S65536x128 S327680x1 S327680x128 [1] [0] [] [0] [] 1 ![1, 128]
  scatter_S65536x128_S327680x1_S327680x128_1_0_0_1_wf : ScatterDims.WF S65536x128 S327680x1 S327680x128 [1] [0] [0] 1
  scatter_S1024_S65536x1_S65536_n_0_0_1_wf : ScatterDims.WF S1024 S65536x1 S65536 [] [0] [0] 1
  scatter_S1024x128_S65536x1_S65536x128_1_0_0_1_wf : ScatterDims.WF S1024x128 S65536x1 S65536x128 [1] [0] [0] 1
  dot_S1024x512_S512x64_S1024x64_1_0_0_1_n_n_wf : DotDims.WF S1024x512 S512x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S155648x128.size a
  hwx0_0 : ∀ i : grid0.Coords, EltTy.bits .bf16 = 32 ∨ (Rect.block (s := S155648x128) S8192x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S155648x128.size a
  hwx0_3 : ∀ i : grid0.Coords, EltTy.bits .f32 = 32 ∨ (Rect.block (s := S155648x128) S8192x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S65536x256.size a
  hwx1_0 : ∀ i : grid1.Coords, EltTy.bits .bf16 = 32 ∨ (Rect.block (s := S65536x256) S8192x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8192x128.size a ≤ S65536x128.size a
  hwx1_4 : ∀ i : grid1.Coords, EltTy.bits .f32 = 32 ∨ (Rect.block (s := S65536x128) S8192x128.size (cc1_transform_4 i) (hinb1_4 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S2_S1500000x1_S1500000_n_0_n_n_0_1_1 : GatherDims S2 S1500000x1 S1500000 where
  offsetDims := []
  collapsedSliceDims := [0]
  operandBatchingDims := []
  startIndicesBatchingDims := []
  startIndexMap := [0]
  indexVectorDim := 1
  sliceSizes := ![1]
  wf := gather_S2_S1500000x1_S1500000_n_0_n_n_0_1_1_wf
def gather_S155648x128_S1500000x1_S1500000x128_1_0_n_n_0_1_1128 : GatherDims S155648x128 S1500000x1 S1500000x128 where
  offsetDims := [1]
  collapsedSliceDims := [0]
  operandBatchingDims := []
  startIndicesBatchingDims := []
  startIndexMap := [0]
  indexVectorDim := 1
  sliceSizes := ![1, 128]
  wf := gather_S155648x128_S1500000x1_S1500000x128_1_0_n_n_0_1_1128_wf
def scatter_S150000x128_S1500000x1_S1500000x128_1_0_0_1 : ScatterDims S150000x128 S1500000x1 S1500000x128 where
  updateWindowDims := [1]
  insertedWindowDims := [0]
  scatterDimsToOperandDims := [0]
  indexVectorDim := 1
  wf := scatter_S150000x128_S1500000x1_S1500000x128_1_0_0_1_wf
def gather_S150000x128_S1024x1_S1024x128_1_0_n_n_0_1_1128 : GatherDims S150000x128 S1024x1 S1024x128 where
  offsetDims := [1]
  collapsedSliceDims := [0]
  operandBatchingDims := []
  startIndicesBatchingDims := []
  startIndexMap := [0]
  indexVectorDim := 1
  sliceSizes := ![1, 128]
  wf := gather_S150000x128_S1024x1_S1024x128_1_0_n_n_0_1_1128_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x8_S1024x8_1_0_0_1_n_n : DotDims S1024x128 S128x8 S1024x8 where
  lhsContracting := [1]
  rhsContracting := [0]
  lhsNonContracting := [0]
  rhsNonContracting := [1]
  lhsBatch := []
  rhsBatch := []
  wf := dot_S1024x128_S128x8_S1024x8_1_0_0_1_n_n_wf
def dot_S1024x8_S8x128_S1024x128_1_0_0_1_n_n : DotDims S1024x8 S8x128 S1024x128 where
  lhsContracting := [1]
  rhsContracting := [0]
  lhsNonContracting := [0]
  rhsNonContracting := [1]
  lhsBatch := []
  rhsBatch := []
  wf := dot_S1024x8_S8x128_S1024x128_1_0_0_1_n_n_wf
def gather_S150000x128_S65536x1_S65536x128_1_0_n_n_0_1_1128 : GatherDims S150000x128 S65536x1 S65536x128 where
  offsetDims := [1]
  collapsedSliceDims := [0]
  operandBatchingDims := []
  startIndicesBatchingDims := []
  startIndexMap := [0]
  indexVectorDim := 1
  sliceSizes := ![1, 128]
  wf := gather_S150000x128_S65536x1_S65536x128_1_0_n_n_0_1_1128_wf
def gather_S4x128_S65536x1_S65536x128_1_0_n_n_0_1_1128 : GatherDims S4x128 S65536x1 S65536x128 where
  offsetDims := [1]
  collapsedSliceDims := [0]
  operandBatchingDims := []
  startIndicesBatchingDims := []
  startIndexMap := [0]
  indexVectorDim := 1
  sliceSizes := ![1, 128]
  wf := gather_S4x128_S65536x1_S65536x128_1_0_n_n_0_1_1128_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def scatter_S65536_S327680x1_S327680_n_0_0_1 : ScatterDims S65536 S327680x1 S327680 where
  updateWindowDims := []
  insertedWindowDims := [0]
  scatterDimsToOperandDims := [0]
  indexVectorDim := 1
  wf := scatter_S65536_S327680x1_S327680_n_0_0_1_wf
def gather_S65536_S327680x1_S327680_n_0_n_n_0_1_1 : GatherDims S65536 S327680x1 S327680 where
  offsetDims := []
  collapsedSliceDims := [0]
  operandBatchingDims := []
  startIndicesBatchingDims := []
  startIndexMap := [0]
  indexVectorDim := 1
  sliceSizes := ![1]
  wf := gather_S65536_S327680x1_S327680_n_0_n_n_0_1_1_wf
def gather_S65536x128_S327680x1_S327680x128_1_0_n_n_0_1_1128 : GatherDims S65536x128 S327680x1 S327680x128 where
  offsetDims := [1]
  collapsedSliceDims := [0]
  operandBatchingDims := []
  startIndicesBatchingDims := []
  startIndexMap := [0]
  indexVectorDim := 1
  sliceSizes := ![1, 128]
  wf := gather_S65536x128_S327680x1_S327680x128_1_0_n_n_0_1_1128_wf
def scatter_S65536x128_S327680x1_S327680x128_1_0_0_1 : ScatterDims S65536x128 S327680x1 S327680x128 where
  updateWindowDims := [1]
  insertedWindowDims := [0]
  scatterDimsToOperandDims := [0]
  indexVectorDim := 1
  wf := scatter_S65536x128_S327680x1_S327680x128_1_0_0_1_wf
def scatter_S1024_S65536x1_S65536_n_0_0_1 : ScatterDims S1024 S65536x1 S65536 where
  updateWindowDims := []
  insertedWindowDims := [0]
  scatterDimsToOperandDims := [0]
  indexVectorDim := 1
  wf := scatter_S1024_S65536x1_S65536_n_0_0_1_wf
def scatter_S1024x128_S65536x1_S65536x128_1_0_0_1 : ScatterDims S1024x128 S65536x1 S65536x128 where
  updateWindowDims := [1]
  insertedWindowDims := [0]
  scatterDimsToOperandDims := [0]
  indexVectorDim := 1
  wf := scatter_S1024x128_S65536x1_S65536x128_1_0_0_1_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_v6) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v70) S8192x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v71) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v72) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v73) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v74) S8192x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x1500000 : Shape := ⟨2, ![2, 1500000]⟩
abbrev S1500000 : Shape := ⟨1, ![1500000]⟩
abbrev S1024 : Shape := ⟨1, ![1024]⟩
abbrev S65536 : Shape := ⟨1, ![65536]⟩
abbrev S2x262144 : Shape := ⟨2, ![2, 262144]⟩
abbrev S100000x128 : Shape := ⟨2, ![100000, 128]⟩
abbrev S50000x128 : Shape := ⟨2, ![50000, 128]⟩
abbrev S4x128 : Shape := ⟨2, ![4, 128]⟩
abbrev S8x128 : Shape := ⟨2, ![8, 128]⟩
abbrev S128x128 : Shape := ⟨2, ![128, 128]⟩
abbrev S128 : Shape := ⟨1, ![128]⟩
abbrev S2x1 : Shape := ⟨2, ![2, 1]⟩
abbrev S128x8 : Shape := ⟨2, ![128, 8]⟩
abbrev S8 : Shape := ⟨1, ![8]⟩
abbrev S256x128 : Shape := ⟨2, ![256, 128]⟩
abbrev S512x64 : Shape := ⟨2, ![512, 64]⟩
abbrev S64 : Shape := ⟨1, ![64]⟩
abbrev S64x1 : Shape := ⟨2, ![64, 1]⟩
abbrev S1 : Shape := ⟨1, ![1]⟩
abbrev S150000x128 : Shape := ⟨2, ![150000, 128]⟩
abbrev S1x1500000 : Shape := ⟨2, ![1, 1500000]⟩
abbrev S_ : Shape := ⟨0, ![]⟩
abbrev S1500000x1 : Shape := ⟨2, ![1500000, 1]⟩
abbrev S1500000x128 : Shape := ⟨2, ![1500000, 128]⟩
abbrev S1x128 : Shape := ⟨2, ![1, 128]⟩
abbrev S1024x1 : Shape := ⟨2, ![1024, 1]⟩
abbrev S1024x128 : Shape := ⟨2, ![1024, 128]⟩
abbrev S1024x8 : Shape := ⟨2, ![1024, 8]⟩
abbrev S1x8 : Shape := ⟨2, ![1, 8]⟩
abbrev S65536x1 : Shape := ⟨2, ![65536, 1]⟩
abbrev S65536x128 : Shape := ⟨2, ![65536, 128]⟩
abbrev S65536x256 : Shape := ⟨2, ![65536, 256]⟩
abbrev S1x262144 : Shape := ⟨2, ![1, 262144]⟩
abbrev S262144 : Shape := ⟨1, ![262144]⟩
abbrev S327680 : Shape := ⟨1, ![327680]⟩
abbrev S327680x1 : Shape := ⟨2, ![327680, 1]⟩
abbrev S327680x128 : Shape := ⟨2, ![327680, 128]⟩
abbrev S1024x512 : Shape := ⟨2, ![1024, 512]⟩
abbrev S1024x64 : Shape := ⟨2, ![1024, 64]⟩
abbrev S1x64 : Shape := ⟨2, ![1, 64]⟩
abbrev S1x1 : Shape := ⟨2, ![1, 1]⟩

abbrev nBuf : Space → Nat
  | .hbm => 266
  | .vmem => 0
  | .smem => 0
  | _ => 0

abbrev hbmTy0_0 (i : Nat) : BufTy := match i % 128 with
  | 0 => ⟨S2x1500000, .i32⟩
  | 1 => ⟨S1500000, .i32⟩
  | 2 => ⟨S1024, .i32⟩
  | 3 => ⟨S1024, .i32⟩
  | 4 => ⟨S65536, .i32⟩
  | 5 => ⟨S65536, .i32⟩
  | 6 => ⟨S2x262144, .i32⟩
  | 7 => ⟨S65536, .i32⟩
  | 8 => ⟨S100000x128, .f32⟩
  | 9 => ⟨S50000x128, .f32⟩
  | 10 => ⟨S4x128, .f32⟩
  | 11 => ⟨S8x128, .f32⟩
  | 12 => ⟨S8x128, .f32⟩
  | 13 => ⟨S128x128, .f32⟩
  | 14 => ⟨S128, .f32⟩
  | 15 => ⟨S2x1, .f32⟩
  | 16 => ⟨S128x128, .f32⟩
  | 17 => ⟨S128, .f32⟩
  | 18 => ⟨S128x8, .f32⟩
  | 19 => ⟨S8, .f32⟩
  | 20 => ⟨S256x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S512x64, .f32⟩
  | 27 => ⟨S64, .f32⟩
  | 28 => ⟨S64x1, .f32⟩
  | 29 => ⟨S1, .f32⟩
  | 30 => ⟨S150000x128, .f32⟩
  | 31 => ⟨S1x1500000, .i32⟩
  | 32 => ⟨S1500000, .i32⟩
  | 33 => ⟨S1x1500000, .i32⟩
  | 34 => ⟨S1500000, .i32⟩
  | 35 => ⟨S_, .i32⟩
  | 36 => ⟨S1500000, .i32⟩
  | 37 => ⟨S1500000, .i1⟩
  | 38 => ⟨S_, .i32⟩
  | 39 => ⟨S1500000, .i32⟩
  | 40 => ⟨S1500000, .i32⟩
  | 41 => ⟨S1500000, .i32⟩
  | 42 => ⟨S1500000x1, .i32⟩
  | 43 => ⟨S1500000x1, .f32⟩
  | 44 => ⟨S_, .i32⟩
  | 45 => ⟨S1500000, .i32⟩
  | 46 => ⟨S1500000, .i1⟩
  | 47 => ⟨S_, .i32⟩
  | 48 => ⟨S1500000, .i32⟩
  | 49 => ⟨S1500000, .i32⟩
  | 50 => ⟨S1500000, .i32⟩
  | 51 => ⟨S1500000x1, .i32⟩
  | 52 => ⟨S1500000x128, .f32⟩
  | 53 => ⟨S1500000x128, .f32⟩
  | 54 => ⟨S1x128, .f32⟩
  | 55 => ⟨S1500000x128, .f32⟩
  | 56 => ⟨S1500000x128, .f32⟩
  | 57 => ⟨S1500000x128, .f32⟩
  | 58 => ⟨S1500000x128, .f32⟩
  | 59 => ⟨S_, .f32⟩
  | 60 => ⟨S150000x128, .f32⟩
  | 61 => ⟨S1500000x1, .i32⟩
  | 62 => ⟨S150000x128, .f32⟩
  | 63 => ⟨S_, .f32⟩
  | 64 => ⟨S150000x128, .f32⟩
  | 65 => ⟨S150000x128, .f32⟩
  | 66 => ⟨S150000x128, .f32⟩
  | 67 => ⟨S_, .i32⟩
  | 68 => ⟨S1024, .i32⟩
  | 69 => ⟨S1024, .i1⟩
  | 70 => ⟨S_, .i32⟩
  | 71 => ⟨S1024, .i32⟩
  | 72 => ⟨S1024, .i32⟩
  | 73 => ⟨S1024, .i32⟩
  | 74 => ⟨S1024x1, .i32⟩
  | 75 => ⟨S1024x128, .f32⟩
  | 76 => ⟨S_, .i32⟩
  | 77 => ⟨S1024, .i32⟩
  | 78 => ⟨S1024, .i32⟩
  | 79 => ⟨S_, .i32⟩
  | 80 => ⟨S1024, .i32⟩
  | 81 => ⟨S1024, .i1⟩
  | 82 => ⟨S_, .i32⟩
  | 83 => ⟨S1024, .i32⟩
  | 84 => ⟨S1024, .i32⟩
  | 85 => ⟨S1024, .i32⟩
  | 86 => ⟨S1024x1, .i32⟩
  | 87 => ⟨S1024x128, .f32⟩
  | 88 => ⟨S1024x128, .f32⟩
  | 89 => ⟨S1x128, .f32⟩
  | 90 => ⟨S1024x128, .f32⟩
  | 91 => ⟨S1024x128, .f32⟩
  | 92 => ⟨S1024x128, .f32⟩
  | 93 => ⟨S1024x8, .f32⟩
  | 94 => ⟨S1x8, .f32⟩
  | 95 => ⟨S1024x8, .f32⟩
  | 96 => ⟨S1024x8, .f32⟩
  | 97 => ⟨S_, .f32⟩
  | 98 => ⟨S1024, .f32⟩
  | 99 => ⟨S_, .f32⟩
  | 100 => ⟨S1024, .f32⟩
  | 101 => ⟨S1024, .f32⟩
  | 102 => ⟨S1024x1, .f32⟩
  | 103 => ⟨S1024x8, .f32⟩
  | 104 => ⟨S1024x8, .f32⟩
  | 105 => ⟨S1024x8, .f32⟩
  | 106 => ⟨S_, .f32⟩
  | 107 => ⟨S1024, .f32⟩
  | 108 => ⟨S1024x1, .f32⟩
  | 109 => ⟨S1024x8, .f32⟩
  | 110 => ⟨S1024x8, .f32⟩
  | 111 => ⟨S1024x128, .f32⟩
  | 112 => ⟨S1024x128, .f32⟩
  | 113 => ⟨S1x128, .f32⟩
  | 114 => ⟨S1024x128, .f32⟩
  | 115 => ⟨S1024x128, .f32⟩
  | 116 => ⟨S1024x128, .f32⟩
  | 117 => ⟨S1024x8, .f32⟩
  | 118 => ⟨S1x8, .f32⟩
  | 119 => ⟨S1024x8, .f32⟩
  | 120 => ⟨S1024x8, .f32⟩
  | 121 => ⟨S_, .f32⟩
  | 122 => ⟨S1024, .f32⟩
  | 123 => ⟨S_, .f32⟩
  | 124 => ⟨S1024, .f32⟩
  | 125 => ⟨S1024, .f32⟩
  | 126 => ⟨S1024x1, .f32⟩
  | 127 => ⟨S1024x8, .f32⟩
  | _ => ⟨S2x1500000, .i32⟩

abbrev hbmTy0_1 (i : Nat) : BufTy := match i % 128 with
  | 0 => ⟨S1024x8, .f32⟩
  | 1 => ⟨S1024x8, .f32⟩
  | 2 => ⟨S_, .f32⟩
  | 3 => ⟨S1024, .f32⟩
  | 4 => ⟨S1024x1, .f32⟩
  | 5 => ⟨S1024x8, .f32⟩
  | 6 => ⟨S1024x8, .f32⟩
  | 7 => ⟨S1024x128, .f32⟩
  | 8 => ⟨S_, .i32⟩
  | 9 => ⟨S65536, .i32⟩
  | 10 => ⟨S65536, .i1⟩
  | 11 => ⟨S_, .i32⟩
  | 12 => ⟨S65536, .i32⟩
  | 13 => ⟨S65536, .i32⟩
  | 14 => ⟨S65536, .i32⟩
  | 15 => ⟨S65536x1, .i32⟩
  | 16 => ⟨S65536x128, .f32⟩
  | 17 => ⟨S_, .i32⟩
  | 18 => ⟨S65536, .i32⟩
  | 19 => ⟨S65536, .i1⟩
  | 20 => ⟨S_, .i32⟩
  | 21 => ⟨S65536, .i32⟩
  | 22 => ⟨S65536, .i32⟩
  | 23 => ⟨S65536, .i32⟩
  | 24 => ⟨S65536x1, .i32⟩
  | 25 => ⟨S65536x128, .f32⟩
  | 26 => ⟨S65536x256, .f32⟩
  | 27 => ⟨S65536x128, .f32⟩
  | 28 => ⟨S1x128, .f32⟩
  | 29 => ⟨S65536x128, .f32⟩
  | 30 => ⟨S65536x128, .f32⟩
  | 31 => ⟨S1x262144, .i32⟩
  | 32 => ⟨S262144, .i32⟩
  | 33 => ⟨S65536, .i32⟩
  | 34 => ⟨S327680, .i32⟩
  | 35 => ⟨S1x262144, .i32⟩
  | 36 => ⟨S262144, .i32⟩
  | 37 => ⟨S65536, .i32⟩
  | 38 => ⟨S327680, .i32⟩
  | 39 => ⟨S_, .f32⟩
  | 40 => ⟨S327680, .f32⟩
  | 41 => ⟨S_, .f32⟩
  | 42 => ⟨S65536, .f32⟩
  | 43 => ⟨S327680x1, .i32⟩
  | 44 => ⟨S65536, .f32⟩
  | 45 => ⟨S_, .f32⟩
  | 46 => ⟨S65536, .f32⟩
  | 47 => ⟨S65536, .i1⟩
  | 48 => ⟨S_, .f32⟩
  | 49 => ⟨S65536, .f32⟩
  | 50 => ⟨S65536, .f32⟩
  | 51 => ⟨S65536, .f32⟩
  | 52 => ⟨S_, .f32⟩
  | 53 => ⟨S_, .f32⟩
  | 54 => ⟨S65536, .f32⟩
  | 55 => ⟨S65536, .f32⟩
  | 56 => ⟨S_, .i32⟩
  | 57 => ⟨S327680, .i32⟩
  | 58 => ⟨S327680, .i1⟩
  | 59 => ⟨S_, .i32⟩
  | 60 => ⟨S327680, .i32⟩
  | 61 => ⟨S327680, .i32⟩
  | 62 => ⟨S327680, .i32⟩
  | 63 => ⟨S327680x1, .i32⟩
  | 64 => ⟨S327680, .f32⟩
  | 65 => ⟨S_, .i32⟩
  | 66 => ⟨S327680, .i32⟩
  | 67 => ⟨S327680, .i1⟩
  | 68 => ⟨S_, .i32⟩
  | 69 => ⟨S327680, .i32⟩
  | 70 => ⟨S327680, .i32⟩
  | 71 => ⟨S327680, .i32⟩
  | 72 => ⟨S327680x1, .i32⟩
  | 73 => ⟨S327680, .f32⟩
  | 74 => ⟨S327680, .f32⟩
  | 75 => ⟨S65536x128, .f32⟩
  | 76 => ⟨S327680x1, .f32⟩
  | 77 => ⟨S_, .i32⟩
  | 78 => ⟨S327680, .i32⟩
  | 79 => ⟨S327680, .i1⟩
  | 80 => ⟨S_, .i32⟩
  | 81 => ⟨S327680, .i32⟩
  | 82 => ⟨S327680, .i32⟩
  | 83 => ⟨S327680, .i32⟩
  | 84 => ⟨S327680x1, .i32⟩
  | 85 => ⟨S327680x128, .f32⟩
  | 86 => ⟨S327680x128, .f32⟩
  | 87 => ⟨S327680x128, .f32⟩
  | 88 => ⟨S_, .f32⟩
  | 89 => ⟨S65536x128, .f32⟩
  | 90 => ⟨S327680x1, .i32⟩
  | 91 => ⟨S65536x128, .f32⟩
  | 92 => ⟨S1x128, .f32⟩
  | 93 => ⟨S65536x128, .f32⟩
  | 94 => ⟨S65536x128, .f32⟩
  | 95 => ⟨S_, .f32⟩
  | 96 => ⟨S65536, .f32⟩
  | 97 => ⟨S_, .f32⟩
  | 98 => ⟨S1024, .f32⟩
  | 99 => ⟨S65536x1, .i32⟩
  | 100 => ⟨S1024, .f32⟩
  | 101 => ⟨S_, .f32⟩
  | 102 => ⟨S1024x128, .f32⟩
  | 103 => ⟨S65536x1, .i32⟩
  | 104 => ⟨S1024x128, .f32⟩
  | 105 => ⟨S_, .f32⟩
  | 106 => ⟨S1024, .f32⟩
  | 107 => ⟨S1024, .f32⟩
  | 108 => ⟨S1024x1, .f32⟩
  | 109 => ⟨S1024x128, .f32⟩
  | 110 => ⟨S1024x128, .f32⟩
  | 111 => ⟨S1024x128, .f32⟩
  | 112 => ⟨S1x128, .f32⟩
  | 113 => ⟨S1024x128, .f32⟩
  | 114 => ⟨S1024x128, .f32⟩
  | 115 => ⟨S1024x128, .f32⟩
  | 116 => ⟨S1024x128, .f32⟩
  | 117 => ⟨S1024x512, .f32⟩
  | 118 => ⟨S1024x64, .f32⟩
  | 119 => ⟨S1x64, .f32⟩
  | 120 => ⟨S1024x64, .f32⟩
  | 121 => ⟨S1024x64, .f32⟩
  | 122 => ⟨S_, .f32⟩
  | 123 => ⟨S1024x64, .f32⟩
  | 124 => ⟨S1024x64, .f32⟩
  | 125 => ⟨S1024x1, .f32⟩
  | 126 => ⟨S1x1, .f32⟩
  | 127 => ⟨S1024x1, .f32⟩
  | _ => ⟨S2x1500000, .i32⟩

abbrev hbmTy0_2 (i : Nat) : BufTy := match i % 128 with
  | 0 => ⟨S1024x1, .f32⟩
  | 1 => ⟨S1024x1, .f32⟩
  | 2 => ⟨S1024x1, .f32⟩
  | 3 => ⟨S_, .f32⟩
  | 4 => ⟨S1024x1, .f32⟩
  | 5 => ⟨S1024x1, .f32⟩
  | 6 => ⟨S_, .f32⟩
  | 7 => ⟨S1024x1, .f32⟩
  | 8 => ⟨S1024x1, .f32⟩
  | 9 => ⟨S1024, .f32⟩
  | _ => ⟨S2x1500000, .i32⟩

abbrev hbmTy (i : Nat) : BufTy := match i / 128 with
  | 0 => hbmTy0_0 i
  | 1 => hbmTy0_1 i
  | 2 => hbmTy0_2 i
  | _ => ⟨S2x1500000, .i32⟩

abbrev bufTy : (tb : Table) → Fin (tcTables nBuf tb) → BufTy
  | .hbm, ⟨i, _⟩ => hbmTy i
  | _, _ => ⟨S2x1500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_c : Ref sig .tc := ⟨.hbm, 35, rfl⟩
abbrev main_v5 : Ref sig .tc := ⟨.hbm, 36, rfl⟩
abbrev main_v6 : Ref sig .tc := ⟨.hbm, 37, rfl⟩
abbrev main_c_0 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_c_1 : Ref sig .tc := ⟨.hbm, 44, rfl⟩
abbrev main_v12 : Ref sig .tc := ⟨.hbm, 45, rfl⟩
abbrev main_v13 : Ref sig .tc := ⟨.hbm, 46, rfl⟩
abbrev main_c_2 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_call0_cst : Ref sig .tc := ⟨.hbm, 63, rfl⟩
abbrev main_call0_v0 : Ref sig .tc := ⟨.hbm, 64, rfl⟩
abbrev main_v28 : Ref sig .tc := ⟨.hbm, 65, rfl⟩
abbrev main_v29 : Ref sig .tc := ⟨.hbm, 66, rfl⟩
abbrev main_c_3 : Ref sig .tc := ⟨.hbm, 67, rfl⟩
abbrev main_v30 : Ref sig .tc := ⟨.hbm, 68, rfl⟩
abbrev main_v31 : Ref sig .tc := ⟨.hbm, 69, rfl⟩
abbrev main_c_4 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_c_5 : Ref sig .tc := ⟨.hbm, 76, rfl⟩
abbrev main_v37 : Ref sig .tc := ⟨.hbm, 77, rfl⟩
abbrev main_v38 : Ref sig .tc := ⟨.hbm, 78, rfl⟩
abbrev main_c_6 : Ref sig .tc := ⟨.hbm, 79, rfl⟩
abbrev main_v39 : Ref sig .tc := ⟨.hbm, 80, rfl⟩
abbrev main_v40 : Ref sig .tc := ⟨.hbm, 81, rfl⟩
abbrev main_c_7 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_8 : Ref sig .tc := ⟨.hbm, 97, rfl⟩
abbrev main_v55 : Ref sig .tc := ⟨.hbm, 98, rfl⟩
abbrev main_cst_9 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_10 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_11 : Ref sig .tc := ⟨.hbm, 121, rfl⟩
abbrev main_v76 : Ref sig .tc := ⟨.hbm, 122, rfl⟩
abbrev main_cst_12 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_13 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_c_14 : Ref sig .tc := ⟨.hbm, 136, rfl⟩
abbrev main_v88 : Ref sig .tc := ⟨.hbm, 137, rfl⟩
abbrev main_v89 : Ref sig .tc := ⟨.hbm, 138, rfl⟩
abbrev main_c_15 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_c_16 : Ref sig .tc := ⟨.hbm, 145, rfl⟩
abbrev main_v95 : Ref sig .tc := ⟨.hbm, 146, rfl⟩
abbrev main_v96 : Ref sig .tc := ⟨.hbm, 147, rfl⟩
abbrev main_c_17 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_cst_18 : Ref sig .tc := ⟨.hbm, 167, rfl⟩
abbrev main_v115 : Ref sig .tc := ⟨.hbm, 168, rfl⟩
abbrev main_cst_19 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_20 : Ref sig .tc := ⟨.hbm, 173, rfl⟩
abbrev main_v119 : Ref sig .tc := ⟨.hbm, 174, rfl⟩
abbrev main_v120 : Ref sig .tc := ⟨.hbm, 175, rfl⟩
abbrev main_cst_21 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_22 : Ref sig .tc := ⟨.hbm, 180, rfl⟩
abbrev main_call1_v0 : Ref sig .tc := ⟨.hbm, 181, rfl⟩
abbrev main_call1_v1 : Ref sig .tc := ⟨.hbm, 182, rfl⟩
abbrev main_v124 : Ref sig .tc := ⟨.hbm, 183, rfl⟩
abbrev main_c_23 : Ref sig .tc := ⟨.hbm, 184, rfl⟩
abbrev main_v125 : Ref sig .tc := ⟨.hbm, 185, rfl⟩
abbrev main_v126 : Ref sig .tc := ⟨.hbm, 186, rfl⟩
abbrev main_c_24 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_c_25 : Ref sig .tc := ⟨.hbm, 193, rfl⟩
abbrev main_v132 : Ref sig .tc := ⟨.hbm, 194, rfl⟩
abbrev main_v133 : Ref sig .tc := ⟨.hbm, 195, rfl⟩
abbrev main_c_26 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_c_27 : Ref sig .tc := ⟨.hbm, 205, rfl⟩
abbrev main_v142 : Ref sig .tc := ⟨.hbm, 206, rfl⟩
abbrev main_v143 : Ref sig .tc := ⟨.hbm, 207, rfl⟩
abbrev main_c_28 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_cst_29 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_cst_30 : Ref sig .tc := ⟨.hbm, 223, rfl⟩
abbrev main_v157 : Ref sig .tc := ⟨.hbm, 224, rfl⟩
abbrev main_cst_31 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_cst_32 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_cst_33 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_call2_cst : Ref sig .tc := ⟨.hbm, 250, rfl⟩
abbrev main_call2_v0 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_cst_34 : Ref sig .tc := ⟨.hbm, 259, rfl⟩
abbrev main_v187 : Ref sig .tc := ⟨.hbm, 260, rfl⟩
abbrev main_v188 : Ref sig .tc := ⟨.hbm, 261, rfl⟩
abbrev main_cst_35 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩

abbrev nD : Nat := 1
abbrev τ : Topo := Topo.v7x

variable {F : FTy → Type} [FloatOps F]

class Facts₀ : Prop where
  concatenates_S100000x128_S50000x128_S150000x128_d0 : Shape.Concatenates [S100000x128, S50000x128] S150000x128 0
  slices_S2x1500000_S1x1500000_0_0 : S2x1500000.Slices ![0, 0] S1x1500000
  shapeCasts_S1x1500000_S1500000 : S1x1500000.ShapeCasts S1500000
  slices_S2x1500000_S1x1500000_1_0 : S2x1500000.Slices ![1, 0] S1x1500000
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S128_S1x128_1 : S128.BroadcastsInDim S1x128 (![1] : Fin 1 → Fin S1x128.rank)
  bcast_S1x128_S1500000x128_0_1 : S1x128.BroadcastsInDim S1500000x128 (![0, 1] : Fin 2 → Fin S1500000x128.rank)
  bcast_S1500000x1_S1500000x128_0_1 : S1500000x1.BroadcastsInDim S1500000x128 (![0, 1] : Fin 2 → Fin S1500000x128.rank)
  bcast_S_S150000x128 : S_.BroadcastsInDim S150000x128 (![] : Fin 0 → Fin S150000x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S1x128_S1024x128_0_1 : S1x128.BroadcastsInDim S1024x128 (![0, 1] : Fin 2 → Fin S1024x128.rank)
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  reducesTo_S1024x8_S1024_d1 : S1024x8.ReducesTo [1] S1024
  h_S_ : 0 < S_.numel
  bcast_S1024x1_S1024x8_0_1 : S1024x1.BroadcastsInDim S1024x8 (![0, 1] : Fin 2 → Fin S1024x8.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x128_S65536x128_S65536x256_d1 : Shape.Concatenates [S65536x128, S65536x128] S65536x256 1
  bcast_S1x128_S65536x128_0_1 : S1x128.BroadcastsInDim S65536x128 (![0, 1] : Fin 2 → Fin S65536x128.rank)
  slices_S2x262144_S1x262144_0_0 : S2x262144.Slices ![0, 0] S1x262144
  shapeCasts_S1x262144_S262144 : S1x262144.ShapeCasts S262144
  concatenates_S262144_S65536_S327680_d0 : Shape.Concatenates [S262144, S65536] S327680 0
  slices_S2x262144_S1x262144_1_0 : S2x262144.Slices ![1, 0] S1x262144
  bcast_S_S327680 : S_.BroadcastsInDim S327680 (![] : Fin 0 → Fin S327680.rank)
  bcast_S327680_S327680x1_0 : S327680.BroadcastsInDim S327680x1 (![0] : Fin 1 → Fin S327680x1.rank)
  bcast_S327680x1_S327680x128_0_1 : S327680x1.BroadcastsInDim S327680x128 (![0, 1] : Fin 2 → Fin S327680x128.rank)
  bcast_S_S65536x128 : S_.BroadcastsInDim S65536x128 (![] : Fin 0 → Fin S65536x128.rank)
  bcast_S_S1024x128 : S_.BroadcastsInDim S1024x128 (![] : Fin 0 → Fin S1024x128.rank)
  bcast_S1024x1_S1024x128_0_1 : S1024x1.BroadcastsInDim S1024x128 (![0, 1] : Fin 2 → Fin S1024x128.rank)
  concatenates_S1024x128_S1024x128_S1024x128_S1024x128_S1024x512_d1 : Shape.Concatenates [S1024x128, S1024x128, S1024x128, S1024x128] S1024x512 1
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  shapeCasts_S1024x1_S1024 : S1024x1.ShapeCasts S1024
  gather_S2x1_S1500000x1_S1500000x1_1_0_n_n_0_1_11_wf : GatherDims.WF S2x1 S1500000x1 S1500000x1 [1] [0] [] [0] [] 1 ![1, 1]
  gather_S150000x128_S1500000x1_S1500000x128_1_0_n_n_0_1_1128_wf : GatherDims.WF S150000x128 S1500000x1 S1500000x128 [1] [0] [] [0] [] 1 ![1, 128]
  dot_S1500000x128_S128x128_S1500000x128_1_0_0_1_n_n_wf : DotDims.WF S1500000x128 S128x128 S1500000x128 [1] [0] [0] [1] [] []
  scatter_S150000x128_S1500000x1_S1500000x128_1_0_0_1_wf : ScatterDims.WF S150000x128 S1500000x1 S1500000x128 [1] [0] [0] 1
  gather_S150000x128_S1024x1_S1024x128_1_0_n_n_0_1_1128_wf : GatherDims.WF S150000x128 S1024x1 S1024x128 [1] [0] [] [0] [] 1 ![1, 128]
  dot_S1024x128_S128x128_S1024x128_1_0_0_1_n_n_wf : DotDims.WF S1024x128 S128x128 S1024x128 [1] [0] [0] [1] [] []
  dot_S1024x128_S128x8_S1024x8_1_0_0_1_n_n_wf : DotDims.WF S1024x128 S128x8 S1024x8 [1] [0] [0] [1] [] []
  dot_S1024x8_S8x128_S1024x128_1_0_0_1_n_n_wf : DotDims.WF S1024x8 S8x128 S1024x128 [1] [0] [0] [1] [] []
  gather_S150000x128_S65536x1_S65536x128_1_0_n_n_0_1_1128_wf : GatherDims.WF S150000x128 S65536x1 S65536x128 [1] [0] [] [0] [] 1 ![1, 128]
  gather_S4x128_S65536x1_S65536x128_1_0_n_n_0_1_1128_wf : GatherDims.WF S4x128 S65536x1 S65536x128 [1] [0] [] [0] [] 1 ![1, 128]
  dot_S65536x256_S256x128_S65536x128_1_0_0_1_n_n_wf : DotDims.WF S65536x256 S256x128 S65536x128 [1] [0] [0] [1] [] []
  scatter_S65536_S327680x1_S327680_n_0_0_1_wf : ScatterDims.WF S65536 S327680x1 S327680 [] [0] [0] 1
  gather_S65536_S327680x1_S327680_n_0_n_n_0_1_1_wf : GatherDims.WF S65536 S327680x1 S327680 [] [0] [] [0] [] 1 ![1]
  dot_S65536x128_S128x128_S65536x128_1_0_0_1_n_n_wf : DotDims.WF S65536x128 S128x128 S65536x128 [1] [0] [0] [1] [] []
  gather_S65536x128_S327680x1_S327680x128_1_0_n_n_0_1_1128_wf : GatherDims.WF S65536x128 S327680x1 S327680x128 [1] [0] [] [0] [] 1 ![1, 128]
  scatter_S65536x128_S327680x1_S327680x128_1_0_0_1_wf : ScatterDims.WF S65536x128 S327680x1 S327680x128 [1] [0] [0] 1
  scatter_S1024_S65536x1_S65536_n_0_0_1_wf : ScatterDims.WF S1024 S65536x1 S65536 [] [0] [0] 1
  scatter_S1024x128_S65536x1_S65536x128_1_0_0_1_wf : ScatterDims.WF S1024x128 S65536x1 S65536x128 [1] [0] [0] 1
  dot_S1024x512_S512x64_S1024x64_1_0_0_1_n_n_wf : DotDims.WF S1024x512 S512x64 S1024x64 [1] [0] [0] [1] [] []
  dot_S1024x64_S64x1_S1024x1_1_0_0_1_n_n_wf : DotDims.WF S1024x64 S64x1 S1024x1 [1] [0] [0] [1] [] []

variable [Facts₀]

def gather_S2x1_S1500000x1_S1500000x1_1_0_n_n_0_1_11 : GatherDims S2x1 S1500000x1 S1500000x1 where
  offsetDims := [1]
  collapsedSliceDims := [0]
  operandBatchingDims := []
  startIndicesBatchingDims := []
  startIndexMap := [0]
  indexVectorDim := 1
  sliceSizes := ![1, 1]
  wf := gather_S2x1_S1500000x1_S1500000x1_1_0_n_n_0_1_11_wf
def gather_S150000x128_S1500000x1_S1500000x128_1_0_n_n_0_1_1128 : GatherDims S150000x128 S1500000x1 S1500000x128 where
  offsetDims := [1]
  collapsedSliceDims := [0]
  operandBatchingDims := []
  startIndicesBatchingDims := []
  startIndexMap := [0]
  indexVectorDim := 1
  sliceSizes := ![1, 128]
  wf := gather_S150000x128_S1500000x1_S1500000x128_1_0_n_n_0_1_1128_wf
def dot_S1500000x128_S128x128_S1500000x128_1_0_0_1_n_n : DotDims S1500000x128 S128x128 S1500000x128 where
  lhsContracting := [1]
  rhsContracting := [0]
  lhsNonContracting := [0]
  rhsNonContracting := [1]
  lhsBatch := []
  rhsBatch := []
  wf := dot_S1500000x128_S128x128_S1500000x128_1_0_0_1_n_n_wf
def scatter_S150000x128_S1500000x1_S1500000x128_1_0_0_1 : ScatterDims S150000x128 S1500000x1 S1500000x128 where
  updateWindowDims := [1]
  insertedWindowDims := [0]
  scatterDimsToOperandDims := [0]
  indexVectorDim := 1
  wf := scatter_S150000x128_S1500000x1_S1500000x128_1_0_0_1_wf
def gather_S150000x128_S1024x1_S1024x128_1_0_n_n_0_1_1128 : GatherDims S150000x128 S1024x1 S1024x128 where
  offsetDims := [1]
  collapsedSliceDims := [0]
  operandBatchingDims := []
  startIndicesBatchingDims := []
  startIndexMap := [0]
  indexVectorDim := 1
  sliceSizes := ![1, 128]
  wf := gather_S150000x128_S1024x1_S1024x128_1_0_n_n_0_1_1128_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x8_S1024x8_1_0_0_1_n_n : DotDims S1024x128 S128x8 S1024x8 where
  lhsContracting := [1]
  rhsContracting := [0]
  lhsNonContracting := [0]
  rhsNonContracting := [1]
  lhsBatch := []
  rhsBatch := []
  wf := dot_S1024x128_S128x8_S1024x8_1_0_0_1_n_n_wf
def dot_S1024x8_S8x128_S1024x128_1_0_0_1_n_n : DotDims S1024x8 S8x128 S1024x128 where
  lhsContracting := [1]
  rhsContracting := [0]
  lhsNonContracting := [0]
  rhsNonContracting := [1]
  lhsBatch := []
  rhsBatch := []
  wf := dot_S1024x8_S8x128_S1024x128_1_0_0_1_n_n_wf
def gather_S150000x128_S65536x1_S65536x128_1_0_n_n_0_1_1128 : GatherDims S150000x128 S65536x1 S65536x128 where
  offsetDims := [1]
  collapsedSliceDims := [0]
  operandBatchingDims := []
  startIndicesBatchingDims := []
  startIndexMap := [0]
  indexVectorDim := 1
  sliceSizes := ![1, 128]
  wf := gather_S150000x128_S65536x1_S65536x128_1_0_n_n_0_1_1128_wf
def gather_S4x128_S65536x1_S65536x128_1_0_n_n_0_1_1128 : GatherDims S4x128 S65536x1 S65536x128 where
  offsetDims := [1]
  collapsedSliceDims := [0]
  operandBatchingDims := []
  startIndicesBatchingDims := []
  startIndexMap := [0]
  indexVectorDim := 1
  sliceSizes := ![1, 128]
  wf := gather_S4x128_S65536x1_S65536x128_1_0_n_n_0_1_1128_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def scatter_S65536_S327680x1_S327680_n_0_0_1 : ScatterDims S65536 S327680x1 S327680 where
  updateWindowDims := []
  insertedWindowDims := [0]
  scatterDimsToOperandDims := [0]
  indexVectorDim := 1
  wf := scatter_S65536_S327680x1_S327680_n_0_0_1_wf
def gather_S65536_S327680x1_S327680_n_0_n_n_0_1_1 : GatherDims S65536 S327680x1 S327680 where
  offsetDims := []
  collapsedSliceDims := [0]
  operandBatchingDims := []
  startIndicesBatchingDims := []
  startIndexMap := [0]
  indexVectorDim := 1
  sliceSizes := ![1]
  wf := gather_S65536_S327680x1_S327680_n_0_n_n_0_1_1_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def gather_S65536x128_S327680x1_S327680x128_1_0_n_n_0_1_1128 : GatherDims S65536x128 S327680x1 S327680x128 where
  offsetDims := [1]
  collapsedSliceDims := [0]
  operandBatchingDims := []
  startIndicesBatchingDims := []
  startIndexMap := [0]
  indexVectorDim := 1
  sliceSizes := ![1, 128]
  wf := gather_S65536x128_S327680x1_S327680x128_1_0_n_n_0_1_1128_wf
def scatter_S65536x128_S327680x1_S327680x128_1_0_0_1 : ScatterDims S65536x128 S327680x1 S327680x128 where
  updateWindowDims := [1]
  insertedWindowDims := [0]
  scatterDimsToOperandDims := [0]
  indexVectorDim := 1
  wf := scatter_S65536x128_S327680x1_S327680x128_1_0_0_1_wf
def scatter_S1024_S65536x1_S65536_n_0_0_1 : ScatterDims S1024 S65536x1 S65536 where
  updateWindowDims := []
  insertedWindowDims := [0]
  scatterDimsToOperandDims := [0]
  indexVectorDim := 1
  wf := scatter_S1024_S65536x1_S65536_n_0_0_1_wf
def scatter_S1024x128_S65536x1_S65536x128_1_0_0_1 : ScatterDims S1024x128 S65536x1 S65536x128 where
  updateWindowDims := [1]
  insertedWindowDims := [0]
  scatterDimsToOperandDims := [0]
  indexVectorDim := 1
  wf := scatter_S1024x128_S65536x1_S65536x128_1_0_0_1_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.K.Reg0.lean ====
/-
  Region 0 of the word-level kernel's @main: the row-tiled linear map  out = x · W + b  (19 grid points, 8192 rows
  each). At an entry valuation `V` of the core's buffers: each window's block at a grid point; what the body's one
  store leaves in the output's staging buffer (the product of the point's row block with the whole weight matrix, plus
  the bias row broadcast down the rows); the body's triple; the pipeline's proof data; the body obligation.
-/
import proofs.«418315_j6339371728953_3_alg».proof.Proof.Gen.Kernel.Launch
import proofs.«418315_j6339371728953_3_alg».proof.Proof.Gen.Kernel.Skeleton
import proofs.«418315_j6339371728953_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rX : Rect S8192x128 := Rect.unit (s := S8192x128) ![0, 0] S8192x128.size inb_S8192x128_S8192x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- What the body's one store leaves in the output's staging buffer, from the three input blocks. -/
def stored (x : Vec F S8192x128 .bf16) (w : Vec F S128x128 .bf16) (b : Vec F S1x128 .f32) : Vec F S8192x128 .f32 :=
  View.canon [⟨rX, k0_pay1 (View.ld x rX) (View.ld w rW) (View.ld b rB)⟩]

/-- The pipeline's proof data on core `c`: the arrays as the region finds them; after the body each input's buffer at its
    block and the output's at `stored` of the three blocks; the class invariant; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => stored (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem dat_after3 (c : Dev nD) (t : Fin cfg0.N) :
    (dat V c).after 3 t = stored (blk V c 0 t) (blk V c 1 t) (blk V c 2 t) := by dsimp only [dat]

/-! ## What the body finds in each input window's staging buffer -/

/-- The row block's buffer holds the point's block: it is fetched at every point, and an input block the body leaves in
    place is what a fetch puts there whether or not the fetch happened at this point. -/
theorem before_x (c : Dev nD) (t : Fin cfg0.N) (d) : (dat V c).before 0 t d = blk V c 0 t :=
  ((dat V c).before_in_eq_fetched 0 rfl (fun _ => rfl) (fun _ _ _ => rfl)
    (fun s => by
      have ha : (dat V c).after 0 s = blk V c 0 s := by dsimp only [dat]
      rw [ha]; unfold Dat.blockOf blk; rw [dat_A]; try rfl) t d).trans
    (by unfold Dat.fetched Dat.blockOf blk; rw [dat_A]; try rfl)

/-- The weight matrix's buffer holds the whole matrix at every point: its block index never moves, so after the first
    point the buffer still holds what the one fetch put there. -/
theorem before_w (c : Dev nD) (t : Fin cfg0.N) (d) : (dat V c).before 1 t d = blk V c 1 t :=
  ((dat V c).before_in_eq_fetched 1 rfl (fun _ => rfl) (fun _ _ _ => rfl)
    (fun s => by
      have ha : (dat V c).after 1 s = blk V c 1 s := by dsimp only [dat]
      rw [ha]; unfold Dat.blockOf blk; rw [dat_A]; try rfl) t d).trans
    (by unfold Dat.fetched Dat.blockOf blk; rw [dat_A]; try rfl)

/-- The bias row's buffer likewise. -/
theorem before_b (c : Dev nD) (t : Fin cfg0.N) (d) : (dat V c).before 2 t d = blk V c 2 t :=
  ((dat V c).before_in_eq_fetched 2 rfl (fun _ => rfl) (fun _ _ _ => rfl)
    (fun s => by
      have ha : (dat V c).after 2 s = blk V c 2 s := by dsimp only [dat]
      rw [ha]; unfold Dat.blockOf blk; rw [dat_A]; try rfl) t d).trans
    (by unfold Dat.fetched Dat.blockOf blk; rw [dat_A]; try rfl)

/-! ## The body's triple -/

/-- The one stored rectangle is the whole output block, so it covers every index of it. -/
theorem stored_cover (p : Vec F S8192x128 .f32) (y : S8192x128.Idx) :
    ∃ pc ∈ ([⟨rX, p⟩] : List (View.Piece (Elt F) S8192x128 .f32)), y ∈ pc.1.set :=
  View.cover_of_tiled [⟨rX, p⟩] S8192x128.size (by rfl) y

set_option maxHeartbeats 1000000 in
/-- The body on whole staging memrefs: the three inputs' at read contents, the output's at anything (which its unused
    load reads), runs to the inputs' as they were and the output's at `stored` of the three. -/
theorem body_triple (c : Dev nD) (E : Set ℕ) (i : grid0.Coords)
    (a0 : Memref sig .tc .vmem S8192x128 .bf16) (h0 : a0.IsWhole) (a1 : Memref sig .tc .vmem S128x128 .bf16) (h1 : a1.IsWhole)
    (a2 : Memref sig .tc .vmem S1x128 .f32) (h2 : a2.IsWhole) (a3 : Memref sig .tc .vmem S8192x128 .f32) (h3 : a3.IsWhole)
    (x : Vec F S8192x128 .bf16) (w : Vec F S128x128 .bf16) (b : Vec F S1x128 .f32) (K : PUnit → sProp 𝕄) :
    iprop(owns (c : Thread nD τ) a0 fullShare x ∗ owns (c : Thread nD τ) a1 fullShare w ∗ owns (c : Thread nD τ) a2 fullShare b
        ∗ (∃ d, owns (c : Thread nD τ) a3 fullShare d)
        ∗ (iprop(owns (c : Thread nD τ) a0 fullShare x ∗ owns (c : Thread nD τ) a1 fullShare w ∗ owns (c : Thread nD τ) a2 fullShare b
            ∗ owns (c : Thread nD τ) a3 fullShare (stored x w b)) -∗ K ⟨⟩))
      ⊢ wp frame (wpE (defs₀ (F := F)) Variants.none c none) E (cc0__linear_kernel i a0 h0 a1 h1 a2 h2 a3 h3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The body obligation -/

/-- The body at a grid point: the three inputs' current buffers hold their blocks there (`before_x`, `before_w`,
    `before_b`), so the triple applies at those blocks; the invariant and what the core owes are the same before and
    after the point and pass through unread. -/
theorem body_at (c : Dev nD) (t : Fin cfg0.N) :
    iprop((dat V c).Φ t.castSucc ∗ (dat V c).owesAt () t.castSucc
        ∗ (∃ d, owns (c : Thread nD τ) (st0_0 t) fullShare ((dat V c).before 0 t d))
        ∗ (∃ d, owns (c : Thread nD τ) (st0_1 t) fullShare ((dat V c).before 1 t d))
        ∗ (∃ d, owns (c : Thread nD τ) (st0_2 t) fullShare ((dat V c).before 2 t d))
        ∗ (∃ d, owns (c : Thread nD τ) (st0_3 t) fullShare ((dat V c).before 3 t d)))
      ⊢ wp frame (wpE (defs₀ (F := F)) Variants.none c none) Set.univ (bodyAt0 t) (fun _ =>
          iprop((dat V c).Φ t.succ ∗ (dat V c).owesAt () t.succ
            ∗ owns (c : Thread nD τ) (st0_0 t) fullShare ((dat V c).after 0 t)
            ∗ owns (c : Thread nD τ) (st0_1 t) fullShare ((dat V c).after 1 t)
            ∗ owns (c : Thread nD τ) (st0_2 t) fullShare ((dat V c).after 2 t)
            ∗ owns (c : Thread nD τ) (st0_3 t) fullShare ((dat V c).after 3 t))) := by
  unfold bodyAt0
  simp only [before_x, before_w, before_b]
  have hx : (dat V c).after 0 t = blk V c 0 t := by dsimp only [dat]
  have hw : (dat V c).after 1 t = blk V c 1 t := by dsimp only [dat]
  have hb : (dat V c).after 2 t = blk V c 2 t := by dsimp only [dat]
  rw [show (dat V c).Φ t.succ = (dat V c).Φ t.castSucc from rfl,
    show (dat V c).owesAt () t.succ = (dat V c).owesAt () t.castSucc from rfl,
    hx, hw, hb, dat_after3]
  iintro ⟨HΦ, Ho, ⟨%d0, H0⟩, ⟨%d1, H1⟩, ⟨%d2, H2⟩, ⟨%d3, H3⟩⟩
  iapply (body_triple c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every grid point. -/
theorem obligation (c : Dev nD) : BodyObligation (dat (F := F) V c) (defs₀ (F := F)) Variants.none () Set.univ := fun t => by
  rw [bigSep_W0, bigSep_W0]
  exact body_at V c t

end Cert.Kernel.Reg0

end
-- ==== Proof.K.Reg1.lean ====
/-
  Region 1 of the word-level kernel's @main: the fused pair of row-tiled linear maps  out = ((x · W₁ + b₁) · W₂)
  (8 grid points, 8192 rows each; the intermediate never leaves the core). At an entry valuation `V` of the core's
  buffers: each window's block at a grid point; what the body's one store leaves in the output's staging buffer; the
  body's triple; the pipeline's proof data; the body obligation.
-/
import proofs.«418315_j6339371728953_3_alg».proof.Proof.Gen.Kernel.Launch
import proofs.«418315_j6339371728953_3_alg».proof.Proof.Gen.Kernel.Skeleton
import proofs.«418315_j6339371728953_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body loads and stores through. -/
abbrev rX : Rect S8192x256 := Rect.unit (s := S8192x256) ![0, 0] S8192x256.size inb_S8192x256_S8192x256_0_0
abbrev rW1 : Rect S256x128 := Rect.unit (s := S256x128) ![0, 0] S256x128.size inb_S256x128_S256x128_0_0
abbrev rB : Rect S1x128 := Rect.unit (s := S1x128) ![0, 0] S1x128.size inb_S1x128_S1x128_0_0
abbrev rW2 : Rect S128x128 := Rect.unit (s := S128x128) ![0, 0] S128x128.size inb_S128x128_S128x128_0_0
abbrev rO : Rect S8192x128 := Rect.unit (s := S8192x128) ![0, 0] S8192x128.size inb_S8192x128_S8192x128_0_0

/-- What the body's one store leaves in the output's staging buffer, from the four input blocks. -/
def stored (x : Vec F S8192x256 .bf16) (w1 : Vec F S256x128 .bf16) (b : Vec F S1x128 .f32) (w2 : Vec F S128x128 .bf16) :
    Vec F S8192x128 .f32 :=
  View.canon [⟨rO, k1_pay1 (View.ld x rX) (View.ld w1 rW1) (View.ld b rB) (View.ld w2 rW2)⟩]

/-- The pipeline's proof data on core `c`: the arrays as the region finds them; after the body each input's buffer at its
    block and the output's at `stored` of the four blocks; the class invariant; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => stored (blk V c 0 t) (blk V c 1 t) (blk V c 2 t) (blk V c 3 t)
  Φ _ := Pipeline.ΦA spec1 c
  q _ := fullShare
  owed _ := 0

theorem dat_A (c : Dev nD) (w : Fin cfg1.W) : (dat V c).A w = V c (Pipeline.arrRef spec1 w) := by
  dsimp only [dat]

theorem dat_after4 (c : Dev nD) (t : Fin cfg1.N) :
    (dat V c).after 4 t = stored (blk V c 0 t) (blk V c 1 t) (blk V c 2 t) (blk V c 3 t) := by dsimp only [dat]

/-! ## What the body finds in the input windows' buffers

The body never writes an input's staging buffer, so after it the buffer still holds the window's block. Window 0
(the rows of `x`) moves with the grid and is fetched at every point; windows 1, 2 and 3 (`W₁`, `b₁`, `W₂`) have a
constant block index and are fetched once. Either way the current buffer holds the window's block at the point:
where nothing was fetched the index is the previous point's, and so is the block. -/

/-- The block a fetch reads is the window's block of the array as the region finds it. -/
theorem blockOf_eq (c : Dev nD) (w : Fin cfg1.W) (t : Fin cfg1.N) : (dat V c).blockOf w t = blk V c w t := by
  unfold Dat.blockOf blk
  rw [dat_A]

theorem after_in0 (c : Dev nD) (t : Fin cfg1.N) : (dat V c).after 0 t = blk V c 0 t := by dsimp only [dat]
theorem after_in1 (c : Dev nD) (t : Fin cfg1.N) : (dat V c).after 1 t = blk V c 1 t := by dsimp only [dat]
theorem after_in2 (c : Dev nD) (t : Fin cfg1.N) : (dat V c).after 2 t = blk V c 2 t := by dsimp only [dat]
theorem after_in3 (c : Dev nD) (t : Fin cfg1.N) : (dat V c).after 3 t = blk V c 3 t := by dsimp only [dat]

/-- Rows of `x`: the current buffer holds the point's row block. -/
theorem found0 (c : Dev nD) (t : Fin cfg1.N) (d) : (dat V c).before 0 t d = blk V c 0 t := by
  have hkeep : ∀ t, (cfg1.win 0).cut (cfg1.grid.coords t) ((dat V c).after 0 t) = (dat V c).blockOf 0 t := fun t => by
    rw [after_in0, blockOf_eq]
  rw [(dat V c).before_in_eq_fetched 0 rfl (fun _ => rfl) (fun _ _ _ => rfl) hkeep t d]
  unfold Dat.fetched
  rw [blockOf_eq]; rfl

/-- `W₁`: fetched once, found at every point. -/
theorem found1 (c : Dev nD) (t : Fin cfg1.N) (d) : (dat V c).before 1 t d = blk V c 1 t := by
  have hkeep : ∀ t, (cfg1.win 1).cut (cfg1.grid.coords t) ((dat V c).after 1 t) = (dat V c).blockOf 1 t := fun t => by
    rw [after_in1, blockOf_eq]
  rw [(dat V c).before_in_eq_fetched 1 rfl (fun _ => rfl) (fun _ _ _ => rfl) hkeep t d]
  unfold Dat.fetched
  rw [blockOf_eq]; rfl

/-- `b₁`: fetched once, found at every point. -/
theorem found2 (c : Dev nD) (t : Fin cfg1.N) (d) : (dat V c).before 2 t d = blk V c 2 t := by
  have hkeep : ∀ t, (cfg1.win 2).cut (cfg1.grid.coords t) ((dat V c).after 2 t) = (dat V c).blockOf 2 t := fun t => by
    rw [after_in2, blockOf_eq]
  rw [(dat V c).before_in_eq_fetched 2 rfl (fun _ => rfl) (fun _ _ _ => rfl) hkeep t d]
  unfold Dat.fetched
  rw [blockOf_eq]; rfl

/-- `W₂`: fetched once, found at every point. -/
theorem found3 (c : Dev nD) (t : Fin cfg1.N) (d) : (dat V c).before 3 t d = blk V c 3 t := by
  have hkeep : ∀ t, (cfg1.win 3).cut (cfg1.grid.coords t) ((dat V c).after 3 t) = (dat V c).blockOf 3 t := fun t => by
    rw [after_in3, blockOf_eq]
  rw [(dat V c).before_in_eq_fetched 3 rfl (fun _ => rfl) (fun _ _ _ => rfl) hkeep t d]
  unfold Dat.fetched
  rw [blockOf_eq]; rfl

/-! ## The body on whole staging buffers -/

/-- The one store is of the whole 8192 × 128 block, so it alone covers the output's buffer. -/
theorem stored_covers (p : Vec F S8192x128 .f32) (y : S8192x128.Idx) :
    ∃ q ∈ ([⟨rO, p⟩] : List (View.Piece (Elt F) S8192x128 .f32)), y ∈ q.1.set :=
  View.cover_of_tiled [⟨rO, p⟩] S8192x128.size (by rfl) y

set_option maxHeartbeats 1000000 in
/-- The body's triple. With the four inputs' buffers whole at contents `x`, `w1`, `b`, `w2` and the output's buffer
    whole at any contents, the body reads the four inputs, reads the output once (a value nothing uses) and stores
    `((x · w1 + b) · w2)` over the whole output block: the inputs are as they were and the output holds `stored`. -/
theorem body_triple (c : Dev nD) (E : Set ℕ) (i : grid1.Coords)
    (mX : Memref sig .tc .vmem S8192x256 .bf16) (hX : mX.IsWhole) (mW1 : Memref sig .tc .vmem S256x128 .bf16) (hW1 : mW1.IsWhole)
    (mB : Memref sig .tc .vmem S1x128 .f32) (hB : mB.IsWhole) (mW2 : Memref sig .tc .vmem S128x128 .bf16) (hW2 : mW2.IsWhole)
    (mO : Memref sig .tc .vmem S8192x128 .f32) (hO : mO.IsWhole)
    (x : Vec F S8192x256 .bf16) (w1 : Vec F S256x128 .bf16) (b : Vec F S1x128 .f32) (w2 : Vec F S128x128 .bf16)
    (K : PUnit → sProp 𝕄) :
    iprop(owns (c : Thread nD τ) mX fullShare x ∗ owns (c : Thread nD τ) mW1 fullShare w1
        ∗ owns (c : Thread nD τ) mB fullShare b ∗ owns (c : Thread nD τ) mW2 fullShare w2
        ∗ (∃ d, owns (c : Thread nD τ) mO fullShare d)
        ∗ (iprop(owns (c : Thread nD τ) mX fullShare x ∗ owns (c : Thread nD τ) mW1 fullShare w1
              ∗ owns (c : Thread nD τ) mB fullShare b ∗ owns (c : Thread nD τ) mW2 fullShare w2
              ∗ owns (c : Thread nD τ) mO fullShare (stored x w1 b w2)) -∗ K ⟨⟩))
      ⊢ wp frame (wpE (defs₀ (F := F)) Variants.none c none) E (cc1__fused_local_kernel i mX hX mW1 hW1 mB hB mW2 hW2 mO hO) K := by
  simp only [cc1__fused_local_kernel_eq_skeleton]; unfold cc1__fused_local_kernel_skel
  unfold owns
  iintro ⟨⟨%fX, %eX, HX⟩, ⟨%fW1, %eW1, HW1⟩, ⟨%fB, %eB, HB⟩, ⟨%fW2, %eW2, HW2⟩, ⟨%dO, %fO, -, HO⟩, HK⟩
  subst eX eW1 eB eW2
  sl_exec
  sl_step
  iapply HK
  isplitl [HX]
  · iexists fX; isplitr; · ipureintro; rfl
    iexact HX
  isplitl [HW1]
  · iexists fW1; isplitr; · ipureintro; rfl
    iexact HW1
  isplitl [HB]
  · iexists fB; isplitr; · ipureintro; rfl
    iexact HB
  isplitl [HW2]
  · iexists fW2; isplitr; · ipureintro; rfl
    iexact HW2
  iexists _; isplitr
  swap; · iexact HO
  ipureintro
  exact View.read_writes_eq_canon _ _ _ (stored_covers _)

/-! ## The obligation at a grid point -/

/-- The library's body obligation, at every grid point. -/
theorem obligation (c : Dev nD) : BodyObligation (dat (F := F) V c) (defs₀ (F := F)) Variants.none () Set.univ := by
  intro t
  rw [bigSep_W1, bigSep_W1]
  simp only [found0, found1, found2, found3]
  rw [show (dat V c).Φ t.succ = (dat V c).Φ t.castSucc from rfl,
    show (dat V c).owesAt () t.succ = (dat V c).owesAt () t.castSucc from rfl,
    after_in0, after_in1, after_in2, after_in3, dat_after4]
  -- the program the pipeline calls at `t` is the kernel function on the current staging buffers
  show _ ⊢ wp frame (wpE (defs₀ (F := F)) Variants.none c none) Set.univ (bodyAt1 t) _
  iintro ⟨HΦ, Howe, ⟨%d0, HX⟩, ⟨%d1, HW1⟩, ⟨%d2, HB⟩, ⟨%d3, HW2⟩, ⟨%d4, HO⟩⟩
  iapply (body_triple c Set.univ _ _ _ _ _ _ _ _ _ _ _ (blk V c 0 t) (blk V c 1 t) (blk V c 2 t) (blk V c 3 t) _)
  isplitl [HX]; · iexact HX
  isplitl [HW1]; · iexact HW1
  isplitl [HB]; · iexact HB
  isplitl [HW2]; · iexact HW2
  isplitl [HO]; · iexists _; iexact HO
  -- the invariant and what the core owes are not touched by the body
  iintro ⟨HX, HW1, HB, HW2, HO⟩
  isplitl [HΦ]; · iexact HΦ
  isplitl [Howe]; · iexact Howe
  isplitl [HX]; · iexact HX
  isplitl [HW1]; · iexact HW1
  isplitl [HB]; · iexact HB
  isplitl [HW2]; · iexact HW2
  iexact HO

end Cert.Kernel.Reg1

end
-- ==== Proof.K.Whole.lean ====
/-
  The word-level kernel's @main as a whole: what its two regions leave in their result arrays, the contents of the
  core's buffers between @main's items with those results put in, each region as a segment between the item before
  it and the item after it, the frame (every argument array ends as launched), and the run that reads EVERY buffer
  @main's items write off the last of those contents.
-/
import proofs.«418315_j6339371728953_3_alg».proof.Proof.Gen.Kernel.Regions
import proofs.«418315_j6339371728953_3_alg».proof.Proof.K.Reg0
import proofs.«418315_j6339371728953_3_alg».proof.Proof.K.Reg1

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- What region 0 leaves in its result array: the write-backs of its 19 grid points folded. -/
def y0 (c : Dev nD) : Buf (Elt F) ((c : Thread nD τ).loc main_v9) :=
  (Reg0.dat (fun c b => V3 m c b) c).arrAt 3 cfg0.N

/-- The regions' results with only region 0's filled in (what the contents up to region 1's entry read). -/
def outsA : Outs (F := F) := fun _ r c => Function.update (V3 m c) main_v9 (y0 m c) r

/-- What region 1 leaves in its result array: the write-backs of its 8 grid points folded. -/
def y1 (c : Dev nD) : Buf (Elt F) ((c : Thread nD τ).loc main_v74) :=
  (Reg1.dat (fun c b => V18 m (outsA m) c b) c).arrAt 4 cfg1.N

/-- What the two regions leave, as the contents between @main's items take it. -/
def outs : Outs (F := F) := fun j r c =>
  if j = 19 then Function.update (V18 m (outsA m) c) main_v74 (y1 m c) r else outsA m j r c

theorem outs_4 (c : Dev nD) : outs m 4 main_v9 c = y0 m c := by
  unfold outs
  rw [if_neg (by decide)]
  exact Function.update_self _ _ _

theorem outs_19 (c : Dev nD) : outs m 19 main_v74 c = y1 m c := by
  unfold outs
  rw [if_pos rfl]
  exact Function.update_self _ _ _

/-- After region 0 the contents are the same whichever of the two families of results they are written over: both
    put region 0's fold in the result array. -/
theorem V4_outs (c : Dev nD) : V4 m (outs m) c = V4 m (outsA m) c := by
  have h : outs m 4 main_v9 c = outsA m 4 main_v9 c := by
    unfold outs
    rw [if_neg (by decide)]
  show Function.update (V3 m c) main_v9 (outs m 4 main_v9 c) = Function.update (V3 m c) main_v9 (outsA m 4 main_v9 c)
  rw [h]

/-- Up to region 1's entry the contents read only region 0's result. -/
theorem V18_outs (c : Dev nD) : V18 m (outs m) c = V18 m (outsA m) c :=
  congrArg (fun v : Valuation τ sig (Elt F) => StableHlo.after hostOps1_13 (StableHlo.after hostOps1_12 (StableHlo.after hostOps1_11 (StableHlo.after hostOps1_10 (StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (v))))))))))))))) (V4_outs m c)

/-! ## The proof data, the rest state, the two regions as segments -/

/-- Both regions' proof data, each at the contents its region is entered from. -/
def pdats : (p : Fin 2) → (c : Dev nD) → Dat τ (Elt F) Unit ℕ (UR sig nD τ) ℕ (cfgs p) c
  | ⟨0, _⟩ => fun c => Reg0.dat (fun c b => V3 m c b) c
  | ⟨1, _⟩ => fun c => Reg1.dat (fun c b => V18 m (outsA m) c b) c

/-- No core waits on another: no level is assigned, no pair is recorded. -/
abbrev Lp : GSem nD τ sig → Finset Unit := fun _ => ∅
abbrev lvl : GSem nD τ sig → Unit → ℕ := fun _ _ => 0

/-- What a core holds beside its buffers between any two items: its generator register at some state (a region's
    invariant takes it in and gives it back) and the record that it owes nothing. -/
abbrev rest (c : Dev nD) : sProp 𝕄 :=
  iprop((∃ r, prngReg c r) ∗ ∃ W, owes (c : Thread nD τ) (0 : CellTallies nD τ sig Unit) W)

/-- The same rest state before region 0, between the regions and after region 1. -/
abbrev E : Fin 3 → Dev nD → sProp 𝕄 := fun _ c => rest c

/-- The rounds algebra's launch element: every staging cell of both regions at its start, every duty token. -/
abbrev u0 : UR sig nD τ := initOf (Pipeline.cells cfgs cellOf_inj) (Pipeline.launchToks cfgs cellOf_inj)

/-- The launch element is the library's own, and no ghost resource is handed to any core. -/
theorem launch_elem :
    (ownU u0 : sProp 𝕄) ⊢ |={Set.univ}=> iprop(BI.own (emb₁ u0) ∗ bigSep Finset.univ fun _ : Dev nD => (BI.emp : sProp 𝕄)) := by
  rw [BI.bigSep_emp_const]
  iintro H
  imodintro
  isplitl [H]
  · iapply (show (ownU u0 : sProp 𝕄) ⊢ BI.own (emb₁ u0) from .rfl)
    iexact H
  iempintro

/-- At launch every core has its generator register and owes nothing. -/
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lp lvl)
      ⊢ (|={Set.univ}=> bigSep Finset.univ (E (F := F) 0) : sProp 𝕄) := by
  refine Pipeline.initEach Lp lvl fun c => ?_
  iintro ⟨⟨-, Ho, -, Hg, -⟩, -⟩
  imodintro
  isplitl [Hg]
  · iexists (ρ c); iexact Hg
  iexists ∅; iexact Ho

/-- At the end the rest state still says the core owes nothing. -/
theorem rest_fin (c : Dev nD) :
    E (F := F) 2 c ⊢ (iprop(∃ W, owes (c : Thread nD τ) (0 : CellTallies nD τ sig Unit) W) : sProp 𝕄) := by
  iintro ⟨-, Ho⟩
  iexact Ho

/-- An input array of region 0 is not its result array, so region 0 leaves it as it found it. -/
theorem V4_in (c : Dev nD) (r : Ref sig .tc) (h : r ∉ ([main_v9] : List (Ref sig .tc))) :
    V4 m (outs m) c r = V3 m c r := V4_of m (outs m) c r h

/-- Likewise region 1: off its result array the contents after it are those region 1's proof data is stated over. -/
theorem V19_in (c : Dev nD) (r : Ref sig .tc) (h : r ∉ ([main_v74] : List (Ref sig .tc))) :
    V19 m (outs m) c r = V18 m (outsA m) c r :=
  (V19_of m (outs m) c r h).trans (congrFun (V18_outs m c) r)

/-- After region 0 its result array holds the fold of its write-backs. -/
theorem V4_out (c : Dev nD) : V4 m (outs m) c main_v9 = y0 m c := by
  show Function.update (V3 m c) main_v9 (outs m 4 main_v9 c) main_v9 = y0 m c
  rw [Function.update_self]
  exact outs_4 m c

/-- After region 1 its result array holds the fold of its write-backs. -/
theorem V19_out (c : Dev nD) : V19 m (outs m) c main_v74 = y1 m c := by
  show Function.update (V18 m (outs m) c) main_v74 (outs m 19 main_v74 c) main_v74 = y1 m c
  rw [Function.update_self]
  exact outs_19 m c

/-- An input window of region 0: its array is never written back and is not the result array, so the exit contents
    there are the entry contents. -/
theorem arr0_in (c : Dev nD) (w : Fin cfg0.W) (hin : (cfg0.win w).isOut = false)
    (h : Pipeline.arrRef spec0 w ∉ ([main_v9] : List (Ref sig .tc))) :
    (Reg0.dat (fun c b => V3 m c b) c).arrAt w cfg0.N = V4 m (outs m) c (Pipeline.arrRef spec0 w) := by
  rw [(Reg0.dat (fun c b => V3 m c b) c).arrAt_in w hin, Reg0.dat_A]
  exact (V4_in m c _ h).symm

/-- Region 0's exit contents at each of its windows' arrays: an input's array is as the region found it, the result's
    holds the fold. -/
theorem arr0 (c : Dev nD) (w : Fin cfg0.W) :
    (Reg0.dat (fun c b => V3 m c b) c).arrAt w cfg0.N = V4 m (outs m) c (Pipeline.arrRef spec0 w) := by
  fin_cases w
  · exact arr0_in m c 0 rfl (by decide)
  · exact arr0_in m c 1 rfl (by decide)
  · exact arr0_in m c 2 rfl (by decide)
  · exact (V4_out m c).symm

/-- Off region 0's arrays its exit contents are its entry contents. -/
theorem off0 (c : Dev nD) (b : Ref sig .tc) (hb : b ∉ Finset.univ.image (Pipeline.arrRef spec0)) :
    V4 m (outs m) c b = V3 m c b :=
  V4_in m c b fun h => hb (by
    rw [List.mem_singleton] at h
    exact h ▸ Finset.mem_image.mpr ⟨3, Finset.mem_univ _, rfl⟩)

/-- An input window of region 1, likewise. -/
theorem arr1_in (c : Dev nD) (w : Fin cfg1.W) (hin : (cfg1.win w).isOut = false)
    (h : Pipeline.arrRef spec1 w ∉ ([main_v74] : List (Ref sig .tc))) :
    (Reg1.dat (fun c b => V18 m (outsA m) c b) c).arrAt w cfg1.N = V19 m (outs m) c (Pipeline.arrRef spec1 w) := by
  rw [(Reg1.dat (fun c b => V18 m (outsA m) c b) c).arrAt_in w hin, Reg1.dat_A]
  exact (V19_in m c _ h).symm

/-- Region 1's exit contents at each of its windows' arrays. -/
theorem arr1 (c : Dev nD) (w : Fin cfg1.W) :
    (Reg1.dat (fun c b => V18 m (outsA m) c b) c).arrAt w cfg1.N = V19 m (outs m) c (Pipeline.arrRef spec1 w) := by
  fin_cases w
  · exact arr1_in m c 0 rfl (by decide)
  · exact arr1_in m c 1 rfl (by decide)
  · exact arr1_in m c 2 rfl (by decide)
  · exact arr1_in m c 3 rfl (by decide)
  · exact (V19_out m c).symm

/-- Off region 1's arrays its exit contents are the contents its proof data is stated over. -/
theorem off1 (c : Dev nD) (b : Ref sig .tc) (hb : b ∉ Finset.univ.image (Pipeline.arrRef spec1)) :
    V19 m (outs m) c b = V18 m (outsA m) c b :=
  V19_in m c b fun h => hb (by
    rw [List.mem_singleton] at h
    exact h ▸ Finset.mem_image.mpr ⟨4, Finset.mem_univ _, rfl⟩)

/-- Region 1's entry state, written over either family of results, is the same proposition. -/
theorem pre1_eq (c : Dev nD) :
    (iprop(StableHlo.held (c : Thread nD τ) (Pipeline.ucRefs τ sig) (V18 m (outs m) c) ∗ E 1 c) : sProp 𝕄)
      = iprop(StableHlo.held (c : Thread nD τ) (Pipeline.ucRefs τ sig) (V18 m (outsA m) c) ∗ E 1 c) :=
  congrArg (fun v : Valuation τ sig (Elt F) =>
    (iprop(StableHlo.held (c : Thread nD τ) (Pipeline.ucRefs τ sig) v ∗ E 1 c) : sProp 𝕄)) (V18_outs m c)

-- the library's lemmas are stated over the pinned configuration of a pipeline; matching them against the printed
-- configuration takes unfolding plain definitions in a metavariable's type
set_option backward.isDefEq.respectTransparency.types false in
/-- Region 0 as a segment: entered from every unscoped buffer at the contents after item 2, left with the result
    array at the fold of the 19 write-backs and every other buffer unchanged. The four arrays are split out of the
    unscoped buffers at the entry and put back at the exit; the generator register goes into the region's invariant and
    comes back; nothing is owed; the kernel has no semaphore of its own. -/
def reg0 : RegionSeg (pcfgs (F := F)) adm (pdats m) () defs₀ Variants.none Lp lvl 0 where
  win := launch0.win.to₀
  block_pos := launch0.block_pos
  stage_whole := launch0.stage_whole
  K := PEmpty
  osem k := k.elim
  ho := Pipeline.OwnSemFacts.none _
  hbody c := (Reg0.obligation (fun c b => V3 m c b) c).loose
  hwaits := Pipeline.hwaits_of_owed_zero _ _ _ _ Lp lvl 0 fun _ _ => rfl
  pre c := iprop(StableHlo.held (c : Thread nD τ) (Pipeline.ucRefs τ sig) (V3 m c) ∗ E 0 c)
  post c := iprop(StableHlo.held (c : Thread nD τ) (Pipeline.ucRefs τ sig) (V4 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V3 m c b) fun w => Reg0.dat_A (fun c b => V3 m c b) c w
    rw [Pipeline.unscopedBufs_held] at hsplit
    iintro ⟨⟨Hb, Hg, Ho⟩, -, -⟩
    ihave Hs := hsplit $$ Hb
    icases Hs with ⟨Ha, Hz⟩
    imodintro
    isplitl [Ha]; · iexact Ha
    isplitr
    · unfold Pipeline.prefHeld
      rw [show (Finset.univ : Finset (Fin 0)) = ∅ from rfl, BI.bigSep_empty]
      iempintro
    isplitl [Ho]
    · unfold Pipeline.Dat.owesAt Pipeline.owesWithin
      icases Ho with ⟨%W, Ho⟩
      iexists W
      isplitr; · ipureintro; exact fun _ _ => Or.inl trivial
      iexact Ho
    isplitl [Hg]; · iexact Hg
    iexact Hz
  hin c := by
    rw [show (pdats m 0 c).Φ 0 = Pipeline.ΦA spec0 c from rfl]
    unfold Pipeline.ΦA
    iintro ⟨Hg, -, Hs⟩
    isplitl [Hs]; · iexact Hs
    iexact Hg
  hout c := by
    rw [Pipeline.ownSems0_none, show (pdats m 0 c).Φ (Fin.last _) = Pipeline.ΦA spec0 c from rfl]
    unfold Pipeline.ΦA
    iintro ⟨Hs, Hg⟩
    isplitl [Hg]; · iexact Hg
    isplitr; · iempintro
    iexact Hs
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V3 m c b) (fun b => V4 m (outs m) c b) ((pdats m 0 c).arrAt · cfg0.N)
      (arr0 m c) (off0 m c)
    rw [Pipeline.unscopedBufs_held] at hjoin
    iintro ⟨Ha, Ho, Hg, Hz⟩
    imodintro
    isplitl [Ha Hz]
    · iapply hjoin
      isplitl [Ha] <;> iassumption
    isplitl [Hg]; · iexact Hg
    unfold Pipeline.Dat.owesAt Pipeline.owesWithin
    icases Ho with ⟨%W, -, Ho⟩
    iexists W; iexact Ho

set_option backward.isDefEq.respectTransparency.types false in
/-- Region 1 as a segment: entered from every unscoped buffer at the contents after item 17 written over region 0's
    result alone (the contents its proof data is stated over; `pre1_eq` says they are the thread state's), left with the
    result array at the fold of the 8 write-backs and every other buffer unchanged. -/
def reg1 : RegionSeg (pcfgs (F := F)) adm (pdats m) () defs₀ Variants.none Lp lvl 1 where
  win := launch1.win.to₀
  block_pos := launch1.block_pos
  stage_whole := launch1.stage_whole
  K := PEmpty
  osem k := k.elim
  ho := Pipeline.OwnSemFacts.none _
  hbody c := (Reg1.obligation (fun c b => V18 m (outsA m) c b) c).loose
  hwaits := Pipeline.hwaits_of_owed_zero _ _ _ _ Lp lvl 1 fun _ _ => rfl
  pre c := iprop(StableHlo.held (c : Thread nD τ) (Pipeline.ucRefs τ sig) (V18 m (outsA m) c) ∗ E 1 c)
  post c := iprop(StableHlo.held (c : Thread nD τ) (Pipeline.ucRefs τ sig) (V19 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (fun b => V18 m (outsA m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V18 m (outsA m) c b) fun w => Reg1.dat_A (fun c b => V18 m (outsA m) c b) c w
    rw [Pipeline.unscopedBufs_held] at hsplit
    iintro ⟨⟨Hb, Hg, Ho⟩, -, -⟩
    ihave Hs := hsplit $$ Hb
    icases Hs with ⟨Ha, Hz⟩
    imodintro
    isplitl [Ha]; · iexact Ha
    isplitr
    · unfold Pipeline.prefHeld
      rw [show (Finset.univ : Finset (Fin 0)) = ∅ from rfl, BI.bigSep_empty]
      iempintro
    isplitl [Ho]
    · unfold Pipeline.Dat.owesAt Pipeline.owesWithin
      icases Ho with ⟨%W, Ho⟩
      iexists W
      isplitr; · ipureintro; exact fun _ _ => Or.inl trivial
      iexact Ho
    isplitl [Hg]; · iexact Hg
    iexact Hz
  hin c := by
    rw [show (pdats m 1 c).Φ 0 = Pipeline.ΦA spec1 c from rfl]
    unfold Pipeline.ΦA
    iintro ⟨Hg, -, Hs⟩
    isplitl [Hs]; · iexact Hs
    iexact Hg
  hout c := by
    rw [Pipeline.ownSems0_none, show (pdats m 1 c).Φ (Fin.last _) = Pipeline.ΦA spec1 c from rfl]
    unfold Pipeline.ΦA
    iintro ⟨Hs, Hg⟩
    isplitl [Hg]; · iexact Hg
    isplitr; · iempintro
    iexact Hs
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V18 m (outsA m) c b) (fun b => V19 m (outs m) c b) ((pdats m 1 c).arrAt · cfg1.N)
      (arr1 m c) (off1 m c)
    rw [Pipeline.unscopedBufs_held] at hjoin
    iintro ⟨Ha, Ho, Hg, Hz⟩
    imodintro
    isplitl [Ha Hz]
    · iapply hjoin
      isplitl [Ha] <;> iassumption
    isplitl [Hg]; · iexact Hg
    unfold Pipeline.Dat.owesAt Pipeline.owesWithin
    icases Ho with ⟨%W, -, Ho⟩
    iexists W; iexact Ho

/-! ## The launch -/

/-- The frame: every weakly fair execution of @main terminates, nothing faults, every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_cond m (emb₁ : Emb (URounds (GSem nD τ sig) Unit) 𝕄) () Variants.none Lp lvl (fun _ _ => rfl) ρ (outs m) (pdats m)
    (0 : Dev nD → CellTallies nD τ sig Unit) (fun _ => BI.emp) u0 launch_elem E (rest_init ρ) rest_fin
    (reg0 m) (fun _ => .rfl) (fun _ => .rfl) (reg1 m) (fun c => Entails.of_eq (pre1_eq m c)) (fun _ => .rfl)

-- the launch theorem's implicit arguments are found by unifying its conclusion with this one, which takes unfolding
-- plain definitions in a metavariable's type
set_option backward.isDefEq.respectTransparency.types false in
/-- The run with every buffer read back: every weakly fair execution of @main terminates, nothing faults, and every
    unscoped buffer of every core ends at the last contents of the fold through @main's items. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V26 m (outs m) c b) := by
  refine Pipeline.θ_run_regions_kit_dev (pcfgs (F := F)) adm (pdats m) () cellOf_inj emb₁ defs₀ Variants.none Lp lvl m ρ main
    (segs m (outs m) Variants.none Lp lvl E () (pdats m) (reg0 m) (reg1 m))
    (fun c Q => by
      rewrite [main_chain c, Seg.run_eq_chain,
        show (segs m (outs m) Variants.none Lp lvl E () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [segs, Seg.pipes_host, Seg.pipes_region, Seg.pipes_nil]; decide)
    (0 : Dev nD → CellTallies nD τ sig Unit) (fun _ _ => rfl) (fun _ => BI.emp) u0 launch_elem
    (T₀ := fun c => iprop(StableHlo.held (c : Thread nD τ) (Pipeline.ucRefs τ sig) (V0 m c) ∗ E 0 c))
    (Tₙ := fun c => StableHlo.held (c : Thread nD τ) (Pipeline.ucRefs τ sig) (V26 m (outs m) c))
    (hch := fun c => ⟨.rfl, .rfl, .rfl, .rfl, .rfl, .rfl, .rfl, .rfl, .rfl, .rfl, .rfl, .rfl, .rfl, .rfl, .rfl, .rfl, .rfl, .rfl,
      Entails.of_eq (pre1_eq m c), .rfl, .rfl, .rfl, .rfl, .rfl, .rfl, .rfl, sep_mono .rfl (rest_fin c)⟩)
    (hinit := ?_)
    (QY := fun c s => ∀ b ∈ Pipeline.ucRefs τ sig, s.mem ((c : Thread nD τ).1, b) = V26 m (outs m) c b)
    (hfin := fun c s' => ?_) (hQ := fun _ h => h)
  · -- the launch: each core's unscoped buffers are held at the launch contents, its register and its empty debt are the rest
    refine Pipeline.initEach Lp lvl fun c => ?_
    rw [show unscopedBufs c (fun b => m ((c.tc : Thread nD τ).loc b)) = StableHlo.held (c : Thread nD τ) (Pipeline.ucRefs τ sig) (V0 m c)
      from Pipeline.unscopedBufs_held c (V0 m c)]
    iintro ⟨⟨Hb, -, Ho, -, Hg, -⟩, -⟩
    imodintro
    isplitl [Hb]; · iexact Hb
    isplitl [Hg]
    · iexists (ρ c); iexact Hg
    iexists ∅; iexact Ho
  · -- the end: the held buffers, read against the final state, are that state's memory
    unfold StableHlo.held
    iintro ⟨Hb, HSI⟩
    imodintro
    iapply (pointsTo_read_all (Pipeline.ucRefs τ sig) (fun b => ((c : Thread nD τ).1, b)) (V26 m (outs m) c) s')
    isplitl [Hb] <;> iassumption

end Cert.Kernel.Whole

end
-- ==== Proof.KI.Reg0.lean ====
/-
  Region 0 of the idealized kernel's @main: the row-tiled linear map  out = x · W + b  (19 grid points, 8192 rows
  each). At an entry valuation `V` of the core's buffers: each window's block at a grid point; what the body's one
  store leaves in the output's staging buffer (the product of the point's row block with the whole weight matrix, plus
  the bias row broadcast down the rows); the body's triple; the pipeline's proof data; the body obligation.
-/
import proofs.«418315_j6339371728953_3_alg».proof.Proof.Gen.KernelIdeal.Launch
import proofs.«418315_j6339371728953_3_alg».proof.Proof.Gen.KernelIdeal.Skeleton
import proofs.«418315_j6339371728953_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rX : Rect S8192x128 := Rect.unit (s := S8192x128) ![0, 0] S8192x128.size inb_S8192x128_S8192x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- What the body's one store leaves in the output's staging buffer, from the three input blocks. -/
def stored (x : Vec F S8192x128 .bf16) (w : Vec F S128x128 .bf16) (b : Vec F S1x128 .f32) : Vec F S8192x128 .f32 :=
  View.canon [⟨rX, k0_pay1 (View.ld x rX) (View.ld w rW) (View.ld b rB)⟩]

/-- The pipeline's proof data on core `c`: the arrays as the region finds them; after the body each input's buffer at its
    block and the output's at `stored` of the three blocks; the class invariant; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => stored (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem dat_after3 (c : Dev nD) (t : Fin cfg0.N) :
    (dat V c).after 3 t = stored (blk V c 0 t) (blk V c 1 t) (blk V c 2 t) := by dsimp only [dat]

/-! ## What the body finds in each input window's staging buffer -/

/-- The row block's buffer holds the point's block: it is fetched at every point, and an input block the body leaves in
    place is what a fetch puts there whether or not the fetch happened at this point. -/
theorem before_x (c : Dev nD) (t : Fin cfg0.N) (d) : (dat V c).before 0 t d = blk V c 0 t :=
  ((dat V c).before_in_eq_fetched 0 rfl (fun _ => rfl) (fun _ _ _ => rfl)
    (fun s => by
      have ha : (dat V c).after 0 s = blk V c 0 s := by dsimp only [dat]
      rw [ha]; unfold Dat.blockOf blk; rw [dat_A]; try rfl) t d).trans
    (by unfold Dat.fetched Dat.blockOf blk; rw [dat_A]; try rfl)

/-- The weight matrix's buffer holds the whole matrix at every point: its block index never moves, so after the first
    point the buffer still holds what the one fetch put there. -/
theorem before_w (c : Dev nD) (t : Fin cfg0.N) (d) : (dat V c).before 1 t d = blk V c 1 t :=
  ((dat V c).before_in_eq_fetched 1 rfl (fun _ => rfl) (fun _ _ _ => rfl)
    (fun s => by
      have ha : (dat V c).after 1 s = blk V c 1 s := by dsimp only [dat]
      rw [ha]; unfold Dat.blockOf blk; rw [dat_A]; try rfl) t d).trans
    (by unfold Dat.fetched Dat.blockOf blk; rw [dat_A]; try rfl)

/-- The bias row's buffer likewise. -/
theorem before_b (c : Dev nD) (t : Fin cfg0.N) (d) : (dat V c).before 2 t d = blk V c 2 t :=
  ((dat V c).before_in_eq_fetched 2 rfl (fun _ => rfl) (fun _ _ _ => rfl)
    (fun s => by
      have ha : (dat V c).after 2 s = blk V c 2 s := by dsimp only [dat]
      rw [ha]; unfold Dat.blockOf blk; rw [dat_A]; try rfl) t d).trans
    (by unfold Dat.fetched Dat.blockOf blk; rw [dat_A]; try rfl)

/-! ## The body's triple -/

/-- The one stored rectangle is the whole output block, so it covers every index of it. -/
theorem stored_cover (p : Vec F S8192x128 .f32) (y : S8192x128.Idx) :
    ∃ pc ∈ ([⟨rX, p⟩] : List (View.Piece (Elt F) S8192x128 .f32)), y ∈ pc.1.set :=
  View.cover_of_tiled [⟨rX, p⟩] S8192x128.size (by rfl) y

set_option maxHeartbeats 1000000 in
/-- The body on whole staging memrefs: the three inputs' at read contents, the output's at anything (which its unused
    load reads), runs to the inputs' as they were and the output's at `stored` of the three. -/
theorem body_triple (c : Dev nD) (E : Set ℕ) (i : grid0.Coords)
    (a0 : Memref sig .tc .vmem S8192x128 .bf16) (h0 : a0.IsWhole) (a1 : Memref sig .tc .vmem S128x128 .bf16) (h1 : a1.IsWhole)
    (a2 : Memref sig .tc .vmem S1x128 .f32) (h2 : a2.IsWhole) (a3 : Memref sig .tc .vmem S8192x128 .f32) (h3 : a3.IsWhole)
    (x : Vec F S8192x128 .bf16) (w : Vec F S128x128 .bf16) (b : Vec F S1x128 .f32) (K : PUnit → sProp 𝕄) :
    iprop(owns (c : Thread nD τ) a0 fullShare x ∗ owns (c : Thread nD τ) a1 fullShare w ∗ owns (c : Thread nD τ) a2 fullShare b
        ∗ (∃ d, owns (c : Thread nD τ) a3 fullShare d)
        ∗ (iprop(owns (c : Thread nD τ) a0 fullShare x ∗ owns (c : Thread nD τ) a1 fullShare w ∗ owns (c : Thread nD τ) a2 fullShare b
            ∗ owns (c : Thread nD τ) a3 fullShare (stored x w b)) -∗ K ⟨⟩))
      ⊢ wp frame (wpE (defs₀ (F := F)) Variants.none c none) E (cc0__linear_kernel i a0 h0 a1 h1 a2 h2 a3 h3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The body obligation -/

/-- The body at a grid point: the three inputs' current buffers hold their blocks there (`before_x`, `before_w`,
    `before_b`), so the triple applies at those blocks; the invariant and what the core owes are the same before and
    after the point and pass through unread. -/
theorem body_at (c : Dev nD) (t : Fin cfg0.N) :
    iprop((dat V c).Φ t.castSucc ∗ (dat V c).owesAt () t.castSucc
        ∗ (∃ d, owns (c : Thread nD τ) (st0_0 t) fullShare ((dat V c).before 0 t d))
        ∗ (∃ d, owns (c : Thread nD τ) (st0_1 t) fullShare ((dat V c).before 1 t d))
        ∗ (∃ d, owns (c : Thread nD τ) (st0_2 t) fullShare ((dat V c).before 2 t d))
        ∗ (∃ d, owns (c : Thread nD τ) (st0_3 t) fullShare ((dat V c).before 3 t d)))
      ⊢ wp frame (wpE (defs₀ (F := F)) Variants.none c none) Set.univ (bodyAt0 t) (fun _ =>
          iprop((dat V c).Φ t.succ ∗ (dat V c).owesAt () t.succ
            ∗ owns (c : Thread nD τ) (st0_0 t) fullShare ((dat V c).after 0 t)
            ∗ owns (c : Thread nD τ) (st0_1 t) fullShare ((dat V c).after 1 t)
            ∗ owns (c : Thread nD τ) (st0_2 t) fullShare ((dat V c).after 2 t)
            ∗ owns (c : Thread nD τ) (st0_3 t) fullShare ((dat V c).after 3 t))) := by
  unfold bodyAt0
  simp only [before_x, before_w, before_b]
  have hx : (dat V c).after 0 t = blk V c 0 t := by dsimp only [dat]
  have hw : (dat V c).after 1 t = blk V c 1 t := by dsimp only [dat]
  have hb : (dat V c).after 2 t = blk V c 2 t := by dsimp only [dat]
  rw [show (dat V c).Φ t.succ = (dat V c).Φ t.castSucc from rfl,
    show (dat V c).owesAt () t.succ = (dat V c).owesAt () t.castSucc from rfl,
    hx, hw, hb, dat_after3]
  iintro ⟨HΦ, Ho, ⟨%d0, H0⟩, ⟨%d1, H1⟩, ⟨%d2, H2⟩, ⟨%d3, H3⟩⟩
  iapply (body_triple c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every grid point. -/
theorem obligation (c : Dev nD) : BodyObligation (dat (F := F) V c) (defs₀ (F := F)) Variants.none () Set.univ := fun t => by
  rw [bigSep_W0, bigSep_W0]
  exact body_at V c t

end Cert.KernelIdeal.Reg0

end
-- ==== Proof.KI.Reg1.lean ====
/-
  Region 1 of the idealized kernel's @main: the fused pair of row-tiled linear maps  out = ((x · W₁ + b₁) · W₂)
  (8 grid points, 8192 rows each; the intermediate never leaves the core). At an entry valuation `V` of the core's
  buffers: each window's block at a grid point; what the body's one store leaves in the output's staging buffer; the
  body's triple; the pipeline's proof data; the body obligation.
-/
import proofs.«418315_j6339371728953_3_alg».proof.Proof.Gen.KernelIdeal.Launch
import proofs.«418315_j6339371728953_3_alg».proof.Proof.Gen.KernelIdeal.Skeleton
import proofs.«418315_j6339371728953_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body loads and stores through. -/
abbrev rX : Rect S8192x256 := Rect.unit (s := S8192x256) ![0, 0] S8192x256.size inb_S8192x256_S8192x256_0_0
abbrev rW1 : Rect S256x128 := Rect.unit (s := S256x128) ![0, 0] S256x128.size inb_S256x128_S256x128_0_0
abbrev rB : Rect S1x128 := Rect.unit (s := S1x128) ![0, 0] S1x128.size inb_S1x128_S1x128_0_0
abbrev rW2 : Rect S128x128 := Rect.unit (s := S128x128) ![0, 0] S128x128.size inb_S128x128_S128x128_0_0
abbrev rO : Rect S8192x128 := Rect.unit (s := S8192x128) ![0, 0] S8192x128.size inb_S8192x128_S8192x128_0_0

/-- What the body's one store leaves in the output's staging buffer, from the four input blocks. -/
def stored (x : Vec F S8192x256 .bf16) (w1 : Vec F S256x128 .bf16) (b : Vec F S1x128 .f32) (w2 : Vec F S128x128 .bf16) :
    Vec F S8192x128 .f32 :=
  View.canon [⟨rO, k1_pay1 (View.ld x rX) (View.ld w1 rW1) (View.ld b rB) (View.ld w2 rW2)⟩]

/-- The pipeline's proof data on core `c`: the arrays as the region finds them; after the body each input's buffer at its
    block and the output's at `stored` of the four blocks; the class invariant; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => stored (blk V c 0 t) (blk V c 1 t) (blk V c 2 t) (blk V c 3 t)
  Φ _ := Pipeline.ΦA spec1 c
  q _ := fullShare
  owed _ := 0

theorem dat_A (c : Dev nD) (w : Fin cfg1.W) : (dat V c).A w = V c (Pipeline.arrRef spec1 w) := by
  dsimp only [dat]

theorem dat_after4 (c : Dev nD) (t : Fin cfg1.N) :
    (dat V c).after 4 t = stored (blk V c 0 t) (blk V c 1 t) (blk V c 2 t) (blk V c 3 t) := by dsimp only [dat]

/-! ## What the body finds in the input windows' buffers

The body never writes an input's staging buffer, so after it the buffer still holds the window's block. Window 0
(the rows of `x`) moves with the grid and is fetched at every point; windows 1, 2 and 3 (`W₁`, `b₁`, `W₂`) have a
constant block index and are fetched once. Either way the current buffer holds the window's block at the point:
where nothing was fetched the index is the previous point's, and so is the block. -/

/-- The block a fetch reads is the window's block of the array as the region finds it. -/
theorem blockOf_eq (c : Dev nD) (w : Fin cfg1.W) (t : Fin cfg1.N) : (dat V c).blockOf w t = blk V c w t := by
  unfold Dat.blockOf blk
  rw [dat_A]

theorem after_in0 (c : Dev nD) (t : Fin cfg1.N) : (dat V c).after 0 t = blk V c 0 t := by dsimp only [dat]
theorem after_in1 (c : Dev nD) (t : Fin cfg1.N) : (dat V c).after 1 t = blk V c 1 t := by dsimp only [dat]
theorem after_in2 (c : Dev nD) (t : Fin cfg1.N) : (dat V c).after 2 t = blk V c 2 t := by dsimp only [dat]
theorem after_in3 (c : Dev nD) (t : Fin cfg1.N) : (dat V c).after 3 t = blk V c 3 t := by dsimp only [dat]

/-- Rows of `x`: the current buffer holds the point's row block. -/
theorem found0 (c : Dev nD) (t : Fin cfg1.N) (d) : (dat V c).before 0 t d = blk V c 0 t := by
  have hkeep : ∀ t, (cfg1.win 0).cut (cfg1.grid.coords t) ((dat V c).after 0 t) = (dat V c).blockOf 0 t := fun t => by
    rw [after_in0, blockOf_eq]
  rw [(dat V c).before_in_eq_fetched 0 rfl (fun _ => rfl) (fun _ _ _ => rfl) hkeep t d]
  unfold Dat.fetched
  rw [blockOf_eq]; rfl

/-- `W₁`: fetched once, found at every point. -/
theorem found1 (c : Dev nD) (t : Fin cfg1.N) (d) : (dat V c).before 1 t d = blk V c 1 t := by
  have hkeep : ∀ t, (cfg1.win 1).cut (cfg1.grid.coords t) ((dat V c).after 1 t) = (dat V c).blockOf 1 t := fun t => by
    rw [after_in1, blockOf_eq]
  rw [(dat V c).before_in_eq_fetched 1 rfl (fun _ => rfl) (fun _ _ _ => rfl) hkeep t d]
  unfold Dat.fetched
  rw [blockOf_eq]; rfl

/-- `b₁`: fetched once, found at every point. -/
theorem found2 (c : Dev nD) (t : Fin cfg1.N) (d) : (dat V c).before 2 t d = blk V c 2 t := by
  have hkeep : ∀ t, (cfg1.win 2).cut (cfg1.grid.coords t) ((dat V c).after 2 t) = (dat V c).blockOf 2 t := fun t => by
    rw [after_in2, blockOf_eq]
  rw [(dat V c).before_in_eq_fetched 2 rfl (fun _ => rfl) (fun _ _ _ => rfl) hkeep t d]
  unfold Dat.fetched
  rw [blockOf_eq]; rfl

/-- `W₂`: fetched once, found at every point. -/
theorem found3 (c : Dev nD) (t : Fin cfg1.N) (d) : (dat V c).before 3 t d = blk V c 3 t := by
  have hkeep : ∀ t, (cfg1.win 3).cut (cfg1.grid.coords t) ((dat V c).after 3 t) = (dat V c).blockOf 3 t := fun t => by
    rw [after_in3, blockOf_eq]
  rw [(dat V c).before_in_eq_fetched 3 rfl (fun _ => rfl) (fun _ _ _ => rfl) hkeep t d]
  unfold Dat.fetched
  rw [blockOf_eq]; rfl

/-! ## The body on whole staging buffers -/

/-- The one store is of the whole 8192 × 128 block, so it alone covers the output's buffer. -/
theorem stored_covers (p : Vec F S8192x128 .f32) (y : S8192x128.Idx) :
    ∃ q ∈ ([⟨rO, p⟩] : List (View.Piece (Elt F) S8192x128 .f32)), y ∈ q.1.set :=
  View.cover_of_tiled [⟨rO, p⟩] S8192x128.size (by rfl) y

set_option maxHeartbeats 1000000 in
/-- The body's triple. With the four inputs' buffers whole at contents `x`, `w1`, `b`, `w2` and the output's buffer
    whole at any contents, the body reads the four inputs, reads the output once (a value nothing uses) and stores
    `((x · w1 + b) · w2)` over the whole output block: the inputs are as they were and the output holds `stored`. -/
theorem body_triple (c : Dev nD) (E : Set ℕ) (i : grid1.Coords)
    (mX : Memref sig .tc .vmem S8192x256 .bf16) (hX : mX.IsWhole) (mW1 : Memref sig .tc .vmem S256x128 .bf16) (hW1 : mW1.IsWhole)
    (mB : Memref sig .tc .vmem S1x128 .f32) (hB : mB.IsWhole) (mW2 : Memref sig .tc .vmem S128x128 .bf16) (hW2 : mW2.IsWhole)
    (mO : Memref sig .tc .vmem S8192x128 .f32) (hO : mO.IsWhole)
    (x : Vec F S8192x256 .bf16) (w1 : Vec F S256x128 .bf16) (b : Vec F S1x128 .f32) (w2 : Vec F S128x128 .bf16)
    (K : PUnit → sProp 𝕄) :
    iprop(owns (c : Thread nD τ) mX fullShare x ∗ owns (c : Thread nD τ) mW1 fullShare w1
        ∗ owns (c : Thread nD τ) mB fullShare b ∗ owns (c : Thread nD τ) mW2 fullShare w2
        ∗ (∃ d, owns (c : Thread nD τ) mO fullShare d)
        ∗ (iprop(owns (c : Thread nD τ) mX fullShare x ∗ owns (c : Thread nD τ) mW1 fullShare w1
              ∗ owns (c : Thread nD τ) mB fullShare b ∗ owns (c : Thread nD τ) mW2 fullShare w2
              ∗ owns (c : Thread nD τ) mO fullShare (stored x w1 b w2)) -∗ K ⟨⟩))
      ⊢ wp frame (wpE (defs₀ (F := F)) Variants.none c none) E (cc1__fused_local_kernel i mX hX mW1 hW1 mB hB mW2 hW2 mO hO) K := by
  simp only [cc1__fused_local_kernel_eq_skeleton]; unfold cc1__fused_local_kernel_skel
  unfold owns
  iintro ⟨⟨%fX, %eX, HX⟩, ⟨%fW1, %eW1, HW1⟩, ⟨%fB, %eB, HB⟩, ⟨%fW2, %eW2, HW2⟩, ⟨%dO, %fO, -, HO⟩, HK⟩
  subst eX eW1 eB eW2
  sl_exec
  sl_step
  iapply HK
  isplitl [HX]
  · iexists fX; isplitr; · ipureintro; rfl
    iexact HX
  isplitl [HW1]
  · iexists fW1; isplitr; · ipureintro; rfl
    iexact HW1
  isplitl [HB]
  · iexists fB; isplitr; · ipureintro; rfl
    iexact HB
  isplitl [HW2]
  · iexists fW2; isplitr; · ipureintro; rfl
    iexact HW2
  iexists _; isplitr
  swap; · iexact HO
  ipureintro
  exact View.read_writes_eq_canon _ _ _ (stored_covers _)

/-! ## The obligation at a grid point -/

/-- The library's body obligation, at every grid point. -/
theorem obligation (c : Dev nD) : BodyObligation (dat (F := F) V c) (defs₀ (F := F)) Variants.none () Set.univ := by
  intro t
  rw [bigSep_W1, bigSep_W1]
  simp only [found0, found1, found2, found3]
  rw [show (dat V c).Φ t.succ = (dat V c).Φ t.castSucc from rfl,
    show (dat V c).owesAt () t.succ = (dat V c).owesAt () t.castSucc from rfl,
    after_in0, after_in1, after_in2, after_in3, dat_after4]
  -- the program the pipeline calls at `t` is the kernel function on the current staging buffers
  show _ ⊢ wp frame (wpE (defs₀ (F := F)) Variants.none c none) Set.univ (bodyAt1 t) _
  iintro ⟨HΦ, Howe, ⟨%d0, HX⟩, ⟨%d1, HW1⟩, ⟨%d2, HB⟩, ⟨%d3, HW2⟩, ⟨%d4, HO⟩⟩
  iapply (body_triple c Set.univ _ _ _ _ _ _ _ _ _ _ _ (blk V c 0 t) (blk V c 1 t) (blk V c 2 t) (blk V c 3 t) _)
  isplitl [HX]; · iexact HX
  isplitl [HW1]; · iexact HW1
  isplitl [HB]; · iexact HB
  isplitl [HW2]; · iexact HW2
  isplitl [HO]; · iexists _; iexact HO
  -- the invariant and what the core owes are not touched by the body
  iintro ⟨HX, HW1, HB, HW2, HO⟩
  isplitl [HΦ]; · iexact HΦ
  isplitl [Howe]; · iexact Howe
  isplitl [HX]; · iexact HX
  isplitl [HW1]; · iexact HW1
  isplitl [HB]; · iexact HB
  isplitl [HW2]; · iexact HW2
  iexact HO

end Cert.KernelIdeal.Reg1

end
-- ==== Proof.KI.Whole.lean ====
/-
  The idealized kernel's @main as a whole: what its two regions leave in their result arrays, the contents of the
  core's buffers between @main's items with those results put in, each region as a segment between the item before
  it and the item after it, the frame (every argument array ends as launched), and the run that reads EVERY buffer
  @main's items write off the last of those contents.
-/
import proofs.«418315_j6339371728953_3_alg».proof.Proof.Gen.KernelIdeal.Regions
import proofs.«418315_j6339371728953_3_alg».proof.Proof.KI.Reg0
import proofs.«418315_j6339371728953_3_alg».proof.Proof.KI.Reg1

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- What region 0 leaves in its result array: the write-backs of its 19 grid points folded. -/
def y0 (c : Dev nD) : Buf (Elt F) ((c : Thread nD τ).loc main_v9) :=
  (Reg0.dat (fun c b => V3 m c b) c).arrAt 3 cfg0.N

/-- The regions' results with only region 0's filled in (what the contents up to region 1's entry read). -/
def outsA : Outs (F := F) := fun _ r c => Function.update (V3 m c) main_v9 (y0 m c) r

/-- What region 1 leaves in its result array: the write-backs of its 8 grid points folded. -/
def y1 (c : Dev nD) : Buf (Elt F) ((c : Thread nD τ).loc main_v74) :=
  (Reg1.dat (fun c b => V18 m (outsA m) c b) c).arrAt 4 cfg1.N

/-- What the two regions leave, as the contents between @main's items take it. -/
def outs : Outs (F := F) := fun j r c =>
  if j = 19 then Function.update (V18 m (outsA m) c) main_v74 (y1 m c) r else outsA m j r c

theorem outs_4 (c : Dev nD) : outs m 4 main_v9 c = y0 m c := by
  unfold outs
  rw [if_neg (by decide)]
  exact Function.update_self _ _ _

theorem outs_19 (c : Dev nD) : outs m 19 main_v74 c = y1 m c := by
  unfold outs
  rw [if_pos rfl]
  exact Function.update_self _ _ _

/-- After region 0 the contents are the same whichever of the two families of results they are written over: both
    put region 0's fold in the result array. -/
theorem V4_outs (c : Dev nD) : V4 m (outs m) c = V4 m (outsA m) c := by
  have h : outs m 4 main_v9 c = outsA m 4 main_v9 c := by
    unfold outs
    rw [if_neg (by decide)]
  show Function.update (V3 m c) main_v9 (outs m 4 main_v9 c) = Function.update (V3 m c) main_v9 (outsA m 4 main_v9 c)
  rw [h]

/-- Up to region 1's entry the contents read only region 0's result. -/
theorem V18_outs (c : Dev nD) : V18 m (outs m) c = V18 m (outsA m) c :=
  congrArg (fun v : Valuation τ sig (Elt F) => StableHlo.after hostOps1_13 (StableHlo.after hostOps1_12 (StableHlo.after hostOps1_11 (StableHlo.after hostOps1_10 (StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (v))))))))))))))) (V4_outs m c)

/-! ## The proof data, the rest state, the two regions as segments -/

/-- Both regions' proof data, each at the contents its region is entered from. -/
def pdats : (p : Fin 2) → (c : Dev nD) → Dat τ (Elt F) Unit ℕ (UR sig nD τ) ℕ (cfgs p) c
  | ⟨0, _⟩ => fun c => Reg0.dat (fun c b => V3 m c b) c
  | ⟨1, _⟩ => fun c => Reg1.dat (fun c b => V18 m (outsA m) c b) c

/-- No core waits on another: no level is assigned, no pair is recorded. -/
abbrev Lp : GSem nD τ sig → Finset Unit := fun _ => ∅
abbrev lvl : GSem nD τ sig → Unit → ℕ := fun _ _ => 0

/-- What a core holds beside its buffers between any two items: its generator register at some state (a region's
    invariant takes it in and gives it back) and the record that it owes nothing. -/
abbrev rest (c : Dev nD) : sProp 𝕄 :=
  iprop((∃ r, prngReg c r) ∗ ∃ W, owes (c : Thread nD τ) (0 : CellTallies nD τ sig Unit) W)

/-- The same rest state before region 0, between the regions and after region 1. -/
abbrev E : Fin 3 → Dev nD → sProp 𝕄 := fun _ c => rest c

/-- The rounds algebra's launch element: every staging cell of both regions at its start, every duty token. -/
abbrev u0 : UR sig nD τ := initOf (Pipeline.cells cfgs cellOf_inj) (Pipeline.launchToks cfgs cellOf_inj)

/-- The launch element is the library's own, and no ghost resource is handed to any core. -/
theorem launch_elem :
    (ownU u0 : sProp 𝕄) ⊢ |={Set.univ}=> iprop(BI.own (emb₁ u0) ∗ bigSep Finset.univ fun _ : Dev nD => (BI.emp : sProp 𝕄)) := by
  rw [BI.bigSep_emp_const]
  iintro H
  imodintro
  isplitl [H]
  · iapply (show (ownU u0 : sProp 𝕄) ⊢ BI.own (emb₁ u0) from .rfl)
    iexact H
  iempintro

/-- At launch every core has its generator register and owes nothing. -/
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lp lvl)
      ⊢ (|={Set.univ}=> bigSep Finset.univ (E (F := F) 0) : sProp 𝕄) := by
  refine Pipeline.initEach Lp lvl fun c => ?_
  iintro ⟨⟨-, Ho, -, Hg, -⟩, -⟩
  imodintro
  isplitl [Hg]
  · iexists (ρ c); iexact Hg
  iexists ∅; iexact Ho

/-- At the end the rest state still says the core owes nothing. -/
theorem rest_fin (c : Dev nD) :
    E (F := F) 2 c ⊢ (iprop(∃ W, owes (c : Thread nD τ) (0 : CellTallies nD τ sig Unit) W) : sProp 𝕄) := by
  iintro ⟨-, Ho⟩
  iexact Ho

/-- An input array of region 0 is not its result array, so region 0 leaves it as it found it. -/
theorem V4_in (c : Dev nD) (r : Ref sig .tc) (h : r ∉ ([main_v9] : List (Ref sig .tc))) :
    V4 m (outs m) c r = V3 m c r := V4_of m (outs m) c r h

/-- Likewise region 1: off its result array the contents after it are those region 1's proof data is stated over. -/
theorem V19_in (c : Dev nD) (r : Ref sig .tc) (h : r ∉ ([main_v74] : List (Ref sig .tc))) :
    V19 m (outs m) c r = V18 m (outsA m) c r :=
  (V19_of m (outs m) c r h).trans (congrFun (V18_outs m c) r)

/-- After region 0 its result array holds the fold of its write-backs. -/
theorem V4_out (c : Dev nD) : V4 m (outs m) c main_v9 = y0 m c := by
  show Function.update (V3 m c) main_v9 (outs m 4 main_v9 c) main_v9 = y0 m c
  rw [Function.update_self]
  exact outs_4 m c

/-- After region 1 its result array holds the fold of its write-backs. -/
theorem V19_out (c : Dev nD) : V19 m (outs m) c main_v74 = y1 m c := by
  show Function.update (V18 m (outs m) c) main_v74 (outs m 19 main_v74 c) main_v74 = y1 m c
  rw [Function.update_self]
  exact outs_19 m c

/-- An input window of region 0: its array is never written back and is not the result array, so the exit contents
    there are the entry contents. -/
theorem arr0_in (c : Dev nD) (w : Fin cfg0.W) (hin : (cfg0.win w).isOut = false)
    (h : Pipeline.arrRef spec0 w ∉ ([main_v9] : List (Ref sig .tc))) :
    (Reg0.dat (fun c b => V3 m c b) c).arrAt w cfg0.N = V4 m (outs m) c (Pipeline.arrRef spec0 w) := by
  rw [(Reg0.dat (fun c b => V3 m c b) c).arrAt_in w hin, Reg0.dat_A]
  exact (V4_in m c _ h).symm

/-- Region 0's exit contents at each of its windows' arrays: an input's array is as the region found it, the result's
    holds the fold. -/
theorem arr0 (c : Dev nD) (w : Fin cfg0.W) :
    (Reg0.dat (fun c b => V3 m c b) c).arrAt w cfg0.N = V4 m (outs m) c (Pipeline.arrRef spec0 w) := by
  fin_cases w
  · exact arr0_in m c 0 rfl (by decide)
  · exact arr0_in m c 1 rfl (by decide)
  · exact arr0_in m c 2 rfl (by decide)
  · exact (V4_out m c).symm

/-- Off region 0's arrays its exit contents are its entry contents. -/
theorem off0 (c : Dev nD) (b : Ref sig .tc) (hb : b ∉ Finset.univ.image (Pipeline.arrRef spec0)) :
    V4 m (outs m) c b = V3 m c b :=
  V4_in m c b fun h => hb (by
    rw [List.mem_singleton] at h
    exact h ▸ Finset.mem_image.mpr ⟨3, Finset.mem_univ _, rfl⟩)

/-- An input window of region 1, likewise. -/
theorem arr1_in (c : Dev nD) (w : Fin cfg1.W) (hin : (cfg1.win w).isOut = false)
    (h : Pipeline.arrRef spec1 w ∉ ([main_v74] : List (Ref sig .tc))) :
    (Reg1.dat (fun c b => V18 m (outsA m) c b) c).arrAt w cfg1.N = V19 m (outs m) c (Pipeline.arrRef spec1 w) := by
  rw [(Reg1.dat (fun c b => V18 m (outsA m) c b) c).arrAt_in w hin, Reg1.dat_A]
  exact (V19_in m c _ h).symm

/-- Region 1's exit contents at each of its windows' arrays. -/
theorem arr1 (c : Dev nD) (w : Fin cfg1.W) :
    (Reg1.dat (fun c b => V18 m (outsA m) c b) c).arrAt w cfg1.N = V19 m (outs m) c (Pipeline.arrRef spec1 w) := by
  fin_cases w
  · exact arr1_in m c 0 rfl (by decide)
  · exact arr1_in m c 1 rfl (by decide)
  · exact arr1_in m c 2 rfl (by decide)
  · exact arr1_in m c 3 rfl (by decide)
  · exact (V19_out m c).symm

/-- Off region 1's arrays its exit contents are the contents its proof data is stated over. -/
theorem off1 (c : Dev nD) (b : Ref sig .tc) (hb : b ∉ Finset.univ.image (Pipeline.arrRef spec1)) :
    V19 m (outs m) c b = V18 m (outsA m) c b :=
  V19_in m c b fun h => hb (by
    rw [List.mem_singleton] at h
    exact h ▸ Finset.mem_image.mpr ⟨4, Finset.mem_univ _, rfl⟩)

/-- Region 1's entry state, written over either family of results, is the same proposition. -/
theorem pre1_eq (c : Dev nD) :
    (iprop(StableHlo.held (c : Thread nD τ) (Pipeline.ucRefs τ sig) (V18 m (outs m) c) ∗ E 1 c) : sProp 𝕄)
      = iprop(StableHlo.held (c : Thread nD τ) (Pipeline.ucRefs τ sig) (V18 m (outsA m) c) ∗ E 1 c) :=
  congrArg (fun v : Valuation τ sig (Elt F) =>
    (iprop(StableHlo.held (c : Thread nD τ) (Pipeline.ucRefs τ sig) v ∗ E 1 c) : sProp 𝕄)) (V18_outs m c)

-- the library's lemmas are stated over the pinned configuration of a pipeline; matching them against the printed
-- configuration takes unfolding plain definitions in a metavariable's type
set_option backward.isDefEq.respectTransparency.types false in
/-- Region 0 as a segment: entered from every unscoped buffer at the contents after item 2, left with the result
    array at the fold of the 19 write-backs and every other buffer unchanged. The four arrays are split out of the
    unscoped buffers at the entry and put back at the exit; the generator register goes into the region's invariant and
    comes back; nothing is owed; the kernel has no semaphore of its own. -/
def reg0 : RegionSeg (pcfgs (F := F)) adm (pdats m) () defs₀ Variants.none Lp lvl 0 where
  win := launch0.win.to₀
  block_pos := launch0.block_pos
  stage_whole := launch0.stage_whole
  K := PEmpty
  osem k := k.elim
  ho := Pipeline.OwnSemFacts.none _
  hbody c := (Reg0.obligation (fun c b => V3 m c b) c).loose
  hwaits := Pipeline.hwaits_of_owed_zero _ _ _ _ Lp lvl 0 fun _ _ => rfl
  pre c := iprop(StableHlo.held (c : Thread nD τ) (Pipeline.ucRefs τ sig) (V3 m c) ∗ E 0 c)
  post c := iprop(StableHlo.held (c : Thread nD τ) (Pipeline.ucRefs τ sig) (V4 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V3 m c b) fun w => Reg0.dat_A (fun c b => V3 m c b) c w
    rw [Pipeline.unscopedBufs_held] at hsplit
    iintro ⟨⟨Hb, Hg, Ho⟩, -, -⟩
    ihave Hs := hsplit $$ Hb
    icases Hs with ⟨Ha, Hz⟩
    imodintro
    isplitl [Ha]; · iexact Ha
    isplitr
    · unfold Pipeline.prefHeld
      rw [show (Finset.univ : Finset (Fin 0)) = ∅ from rfl, BI.bigSep_empty]
      iempintro
    isplitl [Ho]
    · unfold Pipeline.Dat.owesAt Pipeline.owesWithin
      icases Ho with ⟨%W, Ho⟩
      iexists W
      isplitr; · ipureintro; exact fun _ _ => Or.inl trivial
      iexact Ho
    isplitl [Hg]; · iexact Hg
    iexact Hz
  hin c := by
    rw [show (pdats m 0 c).Φ 0 = Pipeline.ΦA spec0 c from rfl]
    unfold Pipeline.ΦA
    iintro ⟨Hg, -, Hs⟩
    isplitl [Hs]; · iexact Hs
    iexact Hg
  hout c := by
    rw [Pipeline.ownSems0_none, show (pdats m 0 c).Φ (Fin.last _) = Pipeline.ΦA spec0 c from rfl]
    unfold Pipeline.ΦA
    iintro ⟨Hs, Hg⟩
    isplitl [Hg]; · iexact Hg
    isplitr; · iempintro
    iexact Hs
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V3 m c b) (fun b => V4 m (outs m) c b) ((pdats m 0 c).arrAt · cfg0.N)
      (arr0 m c) (off0 m c)
    rw [Pipeline.unscopedBufs_held] at hjoin
    iintro ⟨Ha, Ho, Hg, Hz⟩
    imodintro
    isplitl [Ha Hz]
    · iapply hjoin
      isplitl [Ha] <;> iassumption
    isplitl [Hg]; · iexact Hg
    unfold Pipeline.Dat.owesAt Pipeline.owesWithin
    icases Ho with ⟨%W, -, Ho⟩
    iexists W; iexact Ho

set_option backward.isDefEq.respectTransparency.types false in
/-- Region 1 as a segment: entered from every unscoped buffer at the contents after item 17 written over region 0's
    result alone (the contents its proof data is stated over; `pre1_eq` says they are the thread state's), left with the
    result array at the fold of the 8 write-backs and every other buffer unchanged. -/
def reg1 : RegionSeg (pcfgs (F := F)) adm (pdats m) () defs₀ Variants.none Lp lvl 1 where
  win := launch1.win.to₀
  block_pos := launch1.block_pos
  stage_whole := launch1.stage_whole
  K := PEmpty
  osem k := k.elim
  ho := Pipeline.OwnSemFacts.none _
  hbody c := (Reg1.obligation (fun c b => V18 m (outsA m) c b) c).loose
  hwaits := Pipeline.hwaits_of_owed_zero _ _ _ _ Lp lvl 1 fun _ _ => rfl
  pre c := iprop(StableHlo.held (c : Thread nD τ) (Pipeline.ucRefs τ sig) (V18 m (outsA m) c) ∗ E 1 c)
  post c := iprop(StableHlo.held (c : Thread nD τ) (Pipeline.ucRefs τ sig) (V19 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (fun b => V18 m (outsA m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V18 m (outsA m) c b) fun w => Reg1.dat_A (fun c b => V18 m (outsA m) c b) c w
    rw [Pipeline.unscopedBufs_held] at hsplit
    iintro ⟨⟨Hb, Hg, Ho⟩, -, -⟩
    ihave Hs := hsplit $$ Hb
    icases Hs with ⟨Ha, Hz⟩
    imodintro
    isplitl [Ha]; · iexact Ha
    isplitr
    · unfold Pipeline.prefHeld
      rw [show (Finset.univ : Finset (Fin 0)) = ∅ from rfl, BI.bigSep_empty]
      iempintro
    isplitl [Ho]
    · unfold Pipeline.Dat.owesAt Pipeline.owesWithin
      icases Ho with ⟨%W, Ho⟩
      iexists W
      isplitr; · ipureintro; exact fun _ _ => Or.inl trivial
      iexact Ho
    isplitl [Hg]; · iexact Hg
    iexact Hz
  hin c := by
    rw [show (pdats m 1 c).Φ 0 = Pipeline.ΦA spec1 c from rfl]
    unfold Pipeline.ΦA
    iintro ⟨Hg, -, Hs⟩
    isplitl [Hs]; · iexact Hs
    iexact Hg
  hout c := by
    rw [Pipeline.ownSems0_none, show (pdats m 1 c).Φ (Fin.last _) = Pipeline.ΦA spec1 c from rfl]
    unfold Pipeline.ΦA
    iintro ⟨Hs, Hg⟩
    isplitl [Hg]; · iexact Hg
    isplitr; · iempintro
    iexact Hs
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V18 m (outsA m) c b) (fun b => V19 m (outs m) c b) ((pdats m 1 c).arrAt · cfg1.N)
      (arr1 m c) (off1 m c)
    rw [Pipeline.unscopedBufs_held] at hjoin
    iintro ⟨Ha, Ho, Hg, Hz⟩
    imodintro
    isplitl [Ha Hz]
    · iapply hjoin
      isplitl [Ha] <;> iassumption
    isplitl [Hg]; · iexact Hg
    unfold Pipeline.Dat.owesAt Pipeline.owesWithin
    icases Ho with ⟨%W, -, Ho⟩
    iexists W; iexact Ho

/-! ## The launch -/

/-- The frame: every weakly fair execution of @main terminates, nothing faults, every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_cond m (emb₁ : Emb (URounds (GSem nD τ sig) Unit) 𝕄) () Variants.none Lp lvl (fun _ _ => rfl) ρ (outs m) (pdats m)
    (0 : Dev nD → CellTallies nD τ sig Unit) (fun _ => BI.emp) u0 launch_elem E (rest_init ρ) rest_fin
    (reg0 m) (fun _ => .rfl) (fun _ => .rfl) (reg1 m) (fun c => Entails.of_eq (pre1_eq m c)) (fun _ => .rfl)

-- the launch theorem's implicit arguments are found by unifying its conclusion with this one, which takes unfolding
-- plain definitions in a metavariable's type
set_option backward.isDefEq.respectTransparency.types false in
/-- The run with every buffer read back: every weakly fair execution of @main terminates, nothing faults, and every
    unscoped buffer of every core ends at the last contents of the fold through @main's items. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V26 m (outs m) c b) := by
  refine Pipeline.θ_run_regions_kit_dev (pcfgs (F := F)) adm (pdats m) () cellOf_inj emb₁ defs₀ Variants.none Lp lvl m ρ main
    (segs m (outs m) Variants.none Lp lvl E () (pdats m) (reg0 m) (reg1 m))
    (fun c Q => by
      rewrite [main_chain c, Seg.run_eq_chain,
        show (segs m (outs m) Variants.none Lp lvl E () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [segs, Seg.pipes_host, Seg.pipes_region, Seg.pipes_nil]; decide)
    (0 : Dev nD → CellTallies nD τ sig Unit) (fun _ _ => rfl) (fun _ => BI.emp) u0 launch_elem
    (T₀ := fun c => iprop(StableHlo.held (c : Thread nD τ) (Pipeline.ucRefs τ sig) (V0 m c) ∗ E 0 c))
    (Tₙ := fun c => StableHlo.held (c : Thread nD τ) (Pipeline.ucRefs τ sig) (V26 m (outs m) c))
    (hch := fun c => ⟨.rfl, .rfl, .rfl, .rfl, .rfl, .rfl, .rfl, .rfl, .rfl, .rfl, .rfl, .rfl, .rfl, .rfl, .rfl, .rfl, .rfl, .rfl,
      Entails.of_eq (pre1_eq m c), .rfl, .rfl, .rfl, .rfl, .rfl, .rfl, .rfl, sep_mono .rfl (rest_fin c)⟩)
    (hinit := ?_)
    (QY := fun c s => ∀ b ∈ Pipeline.ucRefs τ sig, s.mem ((c : Thread nD τ).1, b) = V26 m (outs m) c b)
    (hfin := fun c s' => ?_) (hQ := fun _ h => h)
  · -- the launch: each core's unscoped buffers are held at the launch contents, its register and its empty debt are the rest
    refine Pipeline.initEach Lp lvl fun c => ?_
    rw [show unscopedBufs c (fun b => m ((c.tc : Thread nD τ).loc b)) = StableHlo.held (c : Thread nD τ) (Pipeline.ucRefs τ sig) (V0 m c)
      from Pipeline.unscopedBufs_held c (V0 m c)]
    iintro ⟨⟨Hb, -, Ho, -, Hg, -⟩, -⟩
    imodintro
    isplitl [Hb]; · iexact Hb
    isplitl [Hg]
    · iexists (ρ c); iexact Hg
    iexists ∅; iexact Ho
  · -- the end: the held buffers, read against the final state, are that state's memory
    unfold StableHlo.held
    iintro ⟨Hb, HSI⟩
    imodintro
    iapply (pointsTo_read_all (Pipeline.ucRefs τ sig) (fun b => ((c : Thread nD τ).1, b)) (V26 m (outs m) c) s')
    isplitl [Hb] <;> iassumption

end Cert.KernelIdeal.Whole

end
-- ==== Proof.Val.Spec.lean ====
/-
  The two dense maps of the kernel as functions of whole arrays, over the extended reals.
  `linRows x w b` : entry (r, j) is  ∑ₖ x[r, k] · w[k, j]  +  b[0, j]   (a matrix product plus a bias row).
  `matRows x w`   : entry (r, j) is  ∑ₖ x[r, k] · w[k, j].
  `fusedRows x w₁ b w₂` is `matRows (linRows x w₁ b) w₂`: the second product applied to the first map's rows.
-/
import Idealize.ShloMosaic.Lib.ValueIdx
import Idealize.ShloMosaic.PureOps.Ideal

noncomputable section

namespace Cert.Spec

open Idealize.ShloMosaic Idealize.ShloMosaic.ValueIdx

/-- A matrix product: entry (r, j) is the sum over k of x[r, k] · w[k, j]. -/
def matRows {M K N : Nat} {φ₁ φ₂ : FTy} (x : FVec Ideal ⟨2, ![M, K]⟩ φ₁) (w : FVec Ideal ⟨2, ![K, N]⟩ φ₂) :
    FVec Ideal ⟨2, ![M, N]⟩ .f32 :=
  fun i => ∑ k : Fin K, x (ix2 (⟨(i 0).val, (i 0).isLt⟩ : Fin M) k) * w (ix2 k (⟨(i 1).val, (i 1).isLt⟩ : Fin N))

/-- A matrix product plus a bias row: entry (r, j) is the sum over k of x[r, k] · w[k, j], plus b[0, j]. -/
def linRows {M K N : Nat} {φ₁ φ₂ : FTy} (x : FVec Ideal ⟨2, ![M, K]⟩ φ₁) (w : FVec Ideal ⟨2, ![K, N]⟩ φ₂)
    (b : FVec Ideal ⟨2, ![1, N]⟩ .f32) : FVec Ideal ⟨2, ![M, N]⟩ .f32 :=
  fun i => matRows x w i + b (ix2 (0 : Fin 1) (⟨(i 1).val, (i 1).isLt⟩ : Fin N))

/-- Two products in a row, the bias added between them. -/
def fusedRows {M K H N : Nat} {φ₁ φ₂ φ₃ : FTy} (x : FVec Ideal ⟨2, ![M, K]⟩ φ₁) (w₁ : FVec Ideal ⟨2, ![K, H]⟩ φ₂)
    (b : FVec Ideal ⟨2, ![1, H]⟩ .f32) (w₂ : FVec Ideal ⟨2, ![H, N]⟩ φ₃) : FVec Ideal ⟨2, ![M, N]⟩ .f32 :=
  matRows (linRows x w₁ b) w₂

end Cert.Spec

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.Val.Reg0Value.lean ====
/-
  Region 0's result array after its 19 grid points, as one function of the arrays the region was entered with: every
  row of the padded node table times the weight matrix, plus the bias row. Each grid point writes back rows
  8192·t … 8192·t + 8191, and the 19 blocks tile the 155648 rows.
-/
import proofs.«418315_j6339371728953_3_alg».proof.Proof.KI.Reg0
import proofs.«418315_j6339371728953_3_alg».proof.Proof.Val.Spec
import proofs.«418315_j6339371728953_3_alg».proof.Proof.LibPlainDot
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # Region 0: the block indices, the payload at an entry, the blocks as parts of their arrays, the tiling -/
namespace R0

theorem hz : (![0, 0] : Fin 2 → Nat) = fun _ => 0 :=
  funext fun a => match a with | ⟨0, _⟩ => rfl | ⟨1, _⟩ => rfl

/-! ## The block indices over the grid -/

/-- The printed index maps, decided over the 19 grid points: the output's and the row input's block index at point
    `t` is `(t, 0)`; the weight matrix's and the bias row's is `(0, 0)`. -/
theorem idx_facts : ∀ t : Fin cfg0.N,
    win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The body's payload at an entry -/

/-- The stored value at entry (p, q): the sum over k of x[p, k] · w[k, q], plus b[0, q]. The casts to the same shape
    drop, the product into the zero accumulator is the plain sum, the broadcast bias row is read at its column. -/
theorem pay_apply (x : Vec Ideal S8192x128 .bf16) (w : Vec Ideal S128x128 .bf16) (b : Vec Ideal S1x128 .f32)
    (y : S8192x128.Idx) :
    k0_pay1 x w b y
      = (∑ k : Fin 128, x (ix2 (⟨(y 0).val, (y 0).isLt⟩ : Fin 8192) k) * w (ix2 k (⟨(y 1).val, (y 1).isLt⟩ : Fin 128)))
          + b (ix2 (0 : Fin 1) (⟨(y 1).val, (y 1).isLt⟩ : Fin 128)) := by
  unfold k0_pay1
  simp only [shapeCast_self]
  refine (addf_apply _ _ y).trans ?_
  refine congrArg₂ (· + ·)
    (PlainDot.matmul_zero_apply_at dot_S8192x128_S128x128_S8192x128_1_0_0_1_n_n rfl rfl rfl rfl rfl rfl rfl rfl none x w y) ?_
  refine broadcastTo_apply b _ y _ fun a => ?_
  match a with
  | ⟨0, _⟩ => rfl
  | ⟨1, _⟩ => rfl

/-- One grid point's stored block against the whole-array map: if the row block `x` is rows `8192·n …` of `X`, and
    the other two blocks are the whole `W` and `B`, then the stored value at `y` is `linRows X W B` at the array index
    `i` with row `8192·n + y₀` and column `y₁`. -/
theorem point_block (X : FVec Ideal S155648x128 .bf16) (W : FVec Ideal S128x128 .bf16) (B : FVec Ideal S1x128 .f32)
    (x : Vec Ideal S8192x128 .bf16) (w : Vec Ideal S128x128 .bf16) (b : Vec Ideal S1x128 .f32) (n : Nat)
    (hx : ∀ (y : S8192x128.Idx) (k : S155648x128.Idx), (k 0).val = 8192 * n + (y 0).val → (k 1).val = (y 1).val → x y = X k)
    (hw : w = W) (hb : b = B)
    (y : S8192x128.Idx) (i : S155648x128.Idx) (hi0 : (i 0).val = 8192 * n + (y 0).val) (hi1 : (i 1).val = (y 1).val) :
    k0_pay1 x w b y = Cert.Spec.linRows X W B i := by
  subst hw; subst hb
  refine (pay_apply x w b y).trans ?_
  unfold Cert.Spec.linRows Cert.Spec.matRows
  have e1 : (⟨(y 1).val, (y 1).isLt⟩ : Fin 128) = ⟨(i 1).val, (i 1).isLt⟩ := Fin.ext hi1.symm
  refine congrArg₂ (· + ·) (Finset.sum_congr rfl fun k _ => congrArg₂ (· * ·) (hx _ _ hi0 rfl) ?_) ?_
  · exact congrArg (fun q => w (ix2 k q)) e1
  · exact congrArg (fun q => b (ix2 (0 : Fin 1) q)) e1

/-! ## Each input block as a part of its array -/

/-- The row input's block at point `t` is rows `8192·t … 8192·t + 8191` of the padded node table. -/
theorem blk_x_apply (c : Dev nD) (t : Fin cfg0.N) (y : S8192x128.Idx) (k : S155648x128.Idx)
    (hk0 : (k 0).val = 8192 * t.val + (y 0).val) (hk1 : (k 1).val = (y 1).val) :
    (Reg0.blk V c 0 t : Vec Ideal S8192x128 .bf16) y = (V c main_v6 : FVec Ideal S155648x128 .bf16) k := by
  obtain ⟨-, -, e0, e1, -⟩ := idx_facts t
  unfold Reg0.blk
  rw [View.read_apply]
  show V c main_v6 _ = V c main_v6 _
  congr 1
  funext a; apply Fin.ext
  match a with
  | ⟨0, _⟩ => show win0_0.index t (0 : Fin 2) * 8192 + 1 * (y 0).val = (k 0).val; rw [e0, hk0]; omega
  | ⟨1, _⟩ => show win0_0.index t (1 : Fin 2) * 128 + 1 * (y 1).val = (k 1).val; rw [e1, hk1]; omega

/-- The weight matrix's block is the whole matrix at every point. -/
theorem blk_w_eq (c : Dev nD) (t : Fin cfg0.N) :
    (Reg0.blk V c 1 t : Vec Ideal S128x128 .bf16) = (V c main_v7 : FVec Ideal S128x128 .bf16) := by
  obtain ⟨-, -, -, -, e0, e1, -⟩ := idx_facts t
  funext y
  unfold Reg0.blk
  rw [View.read_apply]
  show V c main_v7 _ = V c main_v7 y
  congr 1
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias row's block is the whole row at every point. -/
theorem blk_b_eq (c : Dev nD) (t : Fin cfg0.N) :
    (Reg0.blk V c 2 t : Vec Ideal S1x128 .f32) = (V c main_v8 : FVec Ideal S1x128 .f32) := by
  obtain ⟨-, -, -, -, -, -, e0, e1⟩ := idx_facts t
  funext y
  unfold Reg0.blk
  rw [View.read_apply]
  show V c main_v8 _ = V c main_v8 y
  congr 1
  funext a; apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-! ## What a grid point writes back -/

/-- Point `t` writes back block `t` of the whole-array map: the one covering store leaves its payload, the whole-block
    loads read the blocks, and the payload at an entry is the map at that entry's place in the array. -/
theorem flushed_eq (c : Dev nD) (t : Fin cfg0.N) :
    (Reg0.dat (F := Ideal) V c).flushed 3 t = ((cfg0.win 3).blk t).view.read (Elt Ideal)
      (Cert.Spec.linRows (φ₁ := .bf16) (φ₂ := .bf16) (V c main_v6 : FVec Ideal S155648x128 .bf16)
        (V c main_v7 : FVec Ideal S128x128 .bf16) (V c main_v8 : FVec Ideal S1x128 .f32)) := by
  show (cfg0.win 3).cut (grid0.coords t) ((Reg0.dat V c).after 3 t) = _
  rw [Reg0.dat_after3]
  unfold Reg0.stored
  rw [View.canon_unit_zero hz]
  simp only [View.ld_unit_zero (S := S8192x128) hz, View.ld_unit_zero (S := S128x128) hz, View.ld_unit_zero (S := S1x128) hz]
  obtain ⟨o0, o1, -⟩ := idx_facts t
  funext j
  rw [View.read_apply]
  refine point_block _ _ _ _ _ _ t.val (fun y k h0 h1 => blk_x_apply V c t y k h0 h1) (blk_w_eq V c t) (blk_b_eq V c t) _ _ ?_ ?_
  · show win0_3.index t (0 : Fin 2) * 8192 + 1 * (j 0).val = 8192 * t.val + (j 0).val; rw [o0]; omega
  · show win0_3.index t (1 : Fin 2) * 128 + 1 * (j 1).val = (j 1).val; rw [o1]; omega

/-! ## The blocks tile the array -/

/-- An index of the result array is in point `t`'s block iff each coordinate is in the block's range on its axis. -/
theorem mem_blk (t : Fin cfg0.N) (i : S155648x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v9).slice (win0_3.rect t)).set ↔ _
  rw [View.set_slice_whole, Rect.mem_set_unit]
  exact Iff.rfl

/-- Row `r` lies in the block of point `r / 8192`, which writes its block back. -/
theorem cover (i : S155648x128.Idx) :
    ∃ t : Fin cfg0.N, (cfg0.win 3).flush t = true ∧ i ∈ ((cfg0.win 3).blk t).view.set := by
  have hi0 : (i 0).val < 155648 := (i 0).isLt
  have hi1 : (i 1).val < 128 := (i 1).isLt
  obtain ⟨t, ht⟩ : ∃ t : Fin cfg0.N, t.val = (i 0).val / 8192 :=
    ⟨⟨(i 0).val / 8192, Nat.lt_of_lt_of_eq (by omega : (i 0).val / 8192 < 19) N_0.symm⟩, rfl⟩
  obtain ⟨o0, o1, -⟩ := idx_facts t
  refine ⟨t, flush0_3 t, ?_⟩
  rw [mem_blk]
  intro a
  match a with
  | ⟨0, _⟩ =>
    show win0_3.index t (0 : Fin 2) * 8192 ≤ (i 0).val ∧ (i 0).val < win0_3.index t (0 : Fin 2) * 8192 + 8192
    rw [o0, ht]; omega
  | ⟨1, _⟩ =>
    show win0_3.index t (1 : Fin 2) * 128 ≤ (i 1).val ∧ (i 1).val < win0_3.index t (1 : Fin 2) * 128 + 128
    rw [o1]; omega

end R0

/-! ## The result array -/

theorem reg0_result (c : Dev nD) :
    (Reg0.dat (F := Ideal) V c).arrAt 3 cfg0.N
      = Cert.Spec.linRows (φ₁ := .bf16) (φ₂ := .bf16) (V c main_v6 : FVec Ideal S155648x128 .bf16) (V c main_v7 : FVec Ideal S128x128 .bf16) (V c main_v8 : FVec Ideal S1x128 .f32) :=
  (Reg0.dat (F := Ideal) V c).arrAt_eq_of_cover 3 _ (fun t _ => R0.flushed_eq V c t) R0.cover

end Cert.KernelIdeal.Val

end
-- ==== Proof.Val.Reg1Value.lean ====
/-
  Region 1's result array after its 8 grid points, as one function of the arrays the region was entered with: every
  row of the local feature table through the first linear map (weights, bias row) and then the second weight matrix.
  Each grid point writes back rows 8192·t … 8192·t + 8191, and the 8 blocks tile the 65536 rows.
-/
import proofs.«418315_j6339371728953_3_alg».proof.Proof.KI.Reg1
import proofs.«418315_j6339371728953_3_alg».proof.Proof.Val.Spec
import proofs.«418315_j6339371728953_3_alg».proof.Proof.LibPlainDot
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Reg1Value

/-- Both offsets of a whole-block rectangle are zero. -/
theorem offsets_zero : (![0, 0] : Fin 2 → Nat) = fun _ => 0 :=
  funext fun a => match a with | ⟨0, _⟩ => rfl | ⟨1, _⟩ => rfl

/-! ## The block indices over the grid -/

/-- The printed index maps at the 8 grid points: the row blocks of the result and of `x` follow the point; the two
    weight matrices and the bias row stay at block (0, 0). -/
theorem index_maps : ∀ t : Fin cfg1.N,
    win1_4.index t (0 : Fin 2) = t.val ∧ win1_4.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-! ## One entry of the body's payload and of the whole-array map -/

/-- Entry (p, q) of what the body stores, from the four blocks it loaded: row p of `x` through the first product and
    the bias row, then through the second product's column q. The two shape casts are to the same shape, the
    narrowing between the products is the identity on extended reals, and each product starts from zero. -/
theorem pay_apply (x : FVec Ideal S8192x256 .bf16) (w1 : FVec Ideal S256x128 .bf16) (b : FVec Ideal S1x128 .f32)
    (w2 : FVec Ideal S128x128 .bf16) (p : Fin 8192) (q : Fin 128) :
    k1_pay1 (F := Ideal) x w1 b w2 (ix2 p q)
      = ∑ h : Fin 128, ((∑ k : Fin 256, x (ix2 p k) * w1 (ix2 k h)) + b (ix2 (0 : Fin 1) h)) * w2 (ix2 h q) := by
  unfold k1_pay1
  simp only [shapeCast_self]
  refine (PlainDot.matmul_zero_apply _ rfl rfl rfl rfl rfl rfl rfl rfl none _ w2 p q).trans ?_
  refine Finset.sum_congr rfl fun h _ => congrArg (· * w2 (ix2 h q)) ?_
  refine (truncf_apply (φ := .f32) (ψ := .bf16) _ _ (ix2 p h)).trans ((addf_apply (φ := .f32) _ _ (ix2 p h)).trans ?_)
  refine congrArg₂ (· + ·) (PlainDot.matmul_zero_apply _ rfl rfl rfl rfl rfl rfl rfl rfl none x w1 p h) ?_
  exact broadcastTo_apply b _ (ix2 p h) (ix2 (0 : Fin 1) h) fun a => match a with | ⟨0, _⟩ => rfl | ⟨1, _⟩ => rfl

/-- Entry (r, q) of the whole-array map, written out. -/
theorem fused_apply (X : FVec Ideal S65536x256 .bf16) (W1 : FVec Ideal S256x128 .bf16) (B : FVec Ideal S1x128 .f32)
    (W2 : FVec Ideal S128x128 .bf16) (r : Fin 65536) (q : Fin 128) :
    Cert.Spec.fusedRows X W1 B W2 (ix2 r q)
      = ∑ h : Fin 128, ((∑ k : Fin 256, X (ix2 r k) * W1 (ix2 k h)) + B (ix2 (0 : Fin 1) h)) * W2 (ix2 h q) := rfl

/-- One grid point against the whole arrays. If the block `x` is rows 8192·n … 8192·n + 8191 of `X` and the other three
    blocks are the whole of `W1`, `B`, `W2`, then entry `j` of the payload is entry `i` of the whole-array map, for `i` the
    entry of the result that sits at `j` in row block `n`. -/
theorem point_apply (X : FVec Ideal S65536x256 .bf16) (W1 : FVec Ideal S256x128 .bf16) (B : FVec Ideal S1x128 .f32)
    (W2 : FVec Ideal S128x128 .bf16)
    (x : FVec Ideal S8192x256 .bf16) (w1 : FVec Ideal S256x128 .bf16) (b : FVec Ideal S1x128 .f32)
    (w2 : FVec Ideal S128x128 .bf16) (n : Nat)
    (hx : ∀ (p : Fin 8192) (r : Fin 65536), r.val = 8192 * n + p.val → ∀ k : Fin 256, x (ix2 p k) = X (ix2 r k))
    (hw1 : ∀ (k : Fin 256) (h : Fin 128), w1 (ix2 k h) = W1 (ix2 k h))
    (hb : ∀ h : Fin 128, b (ix2 (0 : Fin 1) h) = B (ix2 (0 : Fin 1) h))
    (hw2 : ∀ h q : Fin 128, w2 (ix2 h q) = W2 (ix2 h q))
    (j : S8192x128.Idx) (i : S65536x128.Idx) (hi0 : (i 0).val = 8192 * n + (j 0).val) (hi1 : (i 1).val = (j 1).val) :
    k1_pay1 (F := Ideal) x w1 b w2 j = Cert.Spec.fusedRows X W1 B W2 i := by
  obtain ⟨p, q, rfl⟩ : ∃ (p : Fin 8192) (q : Fin 128), j = ix2 p q := ⟨j 0, j 1, eq_ix2 j⟩
  obtain ⟨r, q', rfl⟩ : ∃ (r : Fin 65536) (q' : Fin 128), i = ix2 r q' := ⟨i 0, i 1, eq_ix2 i⟩
  have hr : r.val = 8192 * n + p.val := hi0
  obtain rfl : q' = q := Fin.ext hi1
  refine (pay_apply x w1 b w2 p q').trans ((fused_apply X W1 B W2 r q').trans ?_).symm
  refine Finset.sum_congr rfl fun h _ => ?_
  refine congrArg₂ (· * ·) (congrArg₂ (· + ·) (Finset.sum_congr rfl fun k _ => ?_) (hb h).symm) (hw2 h q').symm
  exact congrArg₂ (· * ·) (hx p r hr k).symm (hw1 k h).symm

/-! ## Each loaded block, entry by entry, in the array it is a block of -/

/-- The block of `x` at point `t` is rows 8192·t … 8192·t + 8191 of the feature table. -/
theorem blk0_apply (c : Dev nD) (t : Fin cfg1.N) (p : Fin 8192) (k : Fin 256) (r : Fin 65536)
    (hr : r.val = 8192 * t.val + p.val) :
    (Reg1.blk (F := Ideal) V c 0 t : FVec Ideal S8192x256 .bf16) (ix2 p k)
      = (V c main_v70 : FVec Ideal S65536x256 .bf16) (ix2 r k) := by
  obtain ⟨-, -, e0, e1, -⟩ := index_maps t
  unfold Reg1.blk
  rw [View.read_apply]
  show (V c main_v70 : FVec Ideal S65536x256 .bf16) (((cfg1.win 0).blk t).view.emb (ix2 p k)) = _
  have e : ((cfg1.win 0).blk t).view.emb (ix2 p k) = (ix2 r k : S65536x256.Idx) := funext fun a => Fin.ext (by
    match a with
    | ⟨0, _⟩ => show win1_0.index t (0 : Fin 2) * 8192 + 1 * p.val = r.val; rw [e0, hr]; omega
    | ⟨1, _⟩ => show win1_0.index t (1 : Fin 2) * 256 + 1 * k.val = k.val; rw [e1]; omega)
  rw [e]

/-- The first weight matrix is loaded whole at every point. -/
theorem blk1_apply (c : Dev nD) (t : Fin cfg1.N) (k : Fin 256) (h : Fin 128) :
    (Reg1.blk (F := Ideal) V c 1 t : FVec Ideal S256x128 .bf16) (ix2 k h)
      = (V c main_v71 : FVec Ideal S256x128 .bf16) (ix2 k h) := by
  obtain ⟨-, -, -, -, e0, e1, -⟩ := index_maps t
  unfold Reg1.blk
  rw [View.read_apply]
  show (V c main_v71 : FVec Ideal S256x128 .bf16) (((cfg1.win 1).blk t).view.emb (ix2 k h)) = _
  have e : ((cfg1.win 1).blk t).view.emb (ix2 k h) = (ix2 k h : S256x128.Idx) := funext fun a => Fin.ext (by
    match a with
    | ⟨0, _⟩ => show win1_1.index t (0 : Fin 2) * 256 + 1 * k.val = k.val; rw [e0]; omega
    | ⟨1, _⟩ => show win1_1.index t (1 : Fin 2) * 128 + 1 * h.val = h.val; rw [e1]; omega)
  rw [e]

/-- The bias row is loaded whole at every point. -/
theorem blk2_apply (c : Dev nD) (t : Fin cfg1.N) (h : Fin 128) :
    (Reg1.blk (F := Ideal) V c 2 t : FVec Ideal S1x128 .f32) (ix2 (0 : Fin 1) h)
      = (V c main_v72 : FVec Ideal S1x128 .f32) (ix2 (0 : Fin 1) h) := by
  obtain ⟨-, -, -, -, -, -, e0, e1, -⟩ := index_maps t
  unfold Reg1.blk
  rw [View.read_apply]
  show (V c main_v72 : FVec Ideal S1x128 .f32) (((cfg1.win 2).blk t).view.emb (ix2 (0 : Fin 1) h)) = _
  have e : ((cfg1.win 2).blk t).view.emb (ix2 (0 : Fin 1) h) = (ix2 (0 : Fin 1) h : S1x128.Idx) := funext fun a => Fin.ext (by
    match a with
    | ⟨0, _⟩ => show win1_2.index t (0 : Fin 2) * 1 + 1 * 0 = 0; rw [e0]
    | ⟨1, _⟩ => show win1_2.index t (1 : Fin 2) * 128 + 1 * h.val = h.val; rw [e1]; omega)
  rw [e]

/-- The second weight matrix is loaded whole at every point. -/
theorem blk3_apply (c : Dev nD) (t : Fin cfg1.N) (h q : Fin 128) :
    (Reg1.blk (F := Ideal) V c 3 t : FVec Ideal S128x128 .bf16) (ix2 h q)
      = (V c main_v73 : FVec Ideal S128x128 .bf16) (ix2 h q) := by
  obtain ⟨-, -, -, -, -, -, -, -, e0, e1⟩ := index_maps t
  unfold Reg1.blk
  rw [View.read_apply]
  show (V c main_v73 : FVec Ideal S128x128 .bf16) (((cfg1.win 3).blk t).view.emb (ix2 h q)) = _
  have e : ((cfg1.win 3).blk t).view.emb (ix2 h q) = (ix2 h q : S128x128.Idx) := funext fun a => Fin.ext (by
    match a with
    | ⟨0, _⟩ => show win1_3.index t (0 : Fin 2) * 128 + 1 * h.val = h.val; rw [e0]; omega
    | ⟨1, _⟩ => show win1_3.index t (1 : Fin 2) * 128 + 1 * q.val = q.val; rw [e1]; omega)
  rw [e]

/-! ## What a grid point writes back, and the array after all of them -/

/-- The result as one function of the arrays the region was entered with. -/
abbrev whole (c : Dev nD) : FVec Ideal S65536x128 .f32 :=
  Cert.Spec.fusedRows (φ₁ := .bf16) (φ₂ := .bf16) (φ₃ := .bf16) (V c main_v70 : FVec Ideal S65536x256 .bf16) (V c main_v71 : FVec Ideal S256x128 .bf16)
    (V c main_v72 : FVec Ideal S1x128 .f32) (V c main_v73 : FVec Ideal S128x128 .bf16)

/-- Point `t` writes back rows 8192·t … 8192·t + 8191 of the whole-array map. -/
theorem flushed_eq (c : Dev nD) (t : Fin cfg1.N) :
    (Reg1.dat (F := Ideal) V c).flushed 4 t = ((cfg1.win 4).blk t).view.read (Elt Ideal) (whole V c) := by
  show (cfg1.win 4).cut (grid1.coords t) ((Reg1.dat (F := Ideal) V c).after 4 t) = _
  rw [Reg1.dat_after4]
  unfold Reg1.stored
  rw [View.canon_unit_zero offsets_zero]
  simp only [View.ld_unit_zero (S := S8192x256) offsets_zero, View.ld_unit_zero (S := S256x128) offsets_zero,
    View.ld_unit_zero (S := S1x128) offsets_zero, View.ld_unit_zero (S := S128x128) offsets_zero]
  obtain ⟨o0, o1, -⟩ := index_maps t
  funext j
  rw [View.read_apply]
  show k1_pay1 (F := Ideal) (Reg1.blk (F := Ideal) V c 0 t) (Reg1.blk (F := Ideal) V c 1 t) (Reg1.blk (F := Ideal) V c 2 t)
      (Reg1.blk (F := Ideal) V c 3 t) j = whole V c (((cfg1.win 4).blk t).view.emb j)
  refine point_apply _ _ _ _ _ _ _ _ t.val (fun p r hr k => blk0_apply V c t p k r hr) (fun k h => blk1_apply V c t k h)
    (fun h => blk2_apply V c t h) (fun h q => blk3_apply V c t h q) j _ ?_ ?_
  · show win1_4.index t (0 : Fin 2) * 8192 + 1 * (j 0).val = 8192 * t.val + (j 0).val
    rw [o0]; omega
  · show win1_4.index t (1 : Fin 2) * 128 + 1 * (j 1).val = (j 1).val
    rw [o1]; omega

/-- An entry of the result is in point `t`'s block iff each coordinate is in the block's range on its axis. -/
theorem mem_blk (t : Fin cfg1.N) (i : S65536x128.Idx) :
    i ∈ ((cfg1.win 4).blk t).view.set
      ↔ ∀ a : Fin 2, win1_4.index t a * S8192x128.size a ≤ (i a).val
          ∧ (i a).val < win1_4.index t a * S8192x128.size a + S8192x128.size a := by
  show i ∈ ((View.whole main_v74).slice (win1_4.rect t)).set ↔ _
  rw [View.set_slice_whole, Rect.mem_set_unit]
  exact Iff.rfl

/-- The 8 row blocks tile the 65536 rows: row r is in the block of point r / 8192, and every point writes back. -/
theorem covered (i : S65536x128.Idx) :
    ∃ t : Fin cfg1.N, (cfg1.win 4).flush t = true ∧ i ∈ ((cfg1.win 4).blk t).view.set := by
  have hi0 : (i 0).val < 65536 := idx2_lt0 i
  have hi1 : (i 1).val < 128 := idx2_lt1 i
  have hN : (i 0).val / 8192 < grid1.N := by rw [N_1]; omega
  obtain ⟨o0, o1, -⟩ := index_maps ⟨(i 0).val / 8192, hN⟩
  have o0' : win1_4.index ⟨(i 0).val / 8192, hN⟩ (0 : Fin 2) = (i 0).val / 8192 := o0
  refine ⟨⟨(i 0).val / 8192, hN⟩, flush1_4 _, ?_⟩
  rw [mem_blk]
  intro a
  match a with
  | ⟨0, _⟩ =>
    show win1_4.index ⟨(i 0).val / 8192, hN⟩ (0 : Fin 2) * 8192 ≤ (i 0).val
      ∧ (i 0).val < win1_4.index ⟨(i 0).val / 8192, hN⟩ (0 : Fin 2) * 8192 + 8192
    rw [o0']; omega
  | ⟨1, _⟩ =>
    show win1_4.index ⟨(i 0).val / 8192, hN⟩ (1 : Fin 2) * 128 ≤ (i 1).val
      ∧ (i 1).val < win1_4.index ⟨(i 0).val / 8192, hN⟩ (1 : Fin 2) * 128 + 128
    rw [o1]; omega

end Reg1Value

theorem reg1_result (c : Dev nD) :
    (Reg1.dat (F := Ideal) V c).arrAt 4 cfg1.N
      = Cert.Spec.fusedRows (φ₁ := .bf16) (φ₂ := .bf16) (φ₃ := .bf16) (V c main_v70 : FVec Ideal S65536x256 .bf16) (V c main_v71 : FVec Ideal S256x128 .bf16) (V c main_v72 : FVec Ideal S1x128 .f32) (V c main_v73 : FVec Ideal S128x128 .bf16) :=
  (Reg1.dat (F := Ideal) V c).arrAt_eq_of_cover 4 (Reg1Value.whole V c) (fun t _ => Reg1Value.flushed_eq V c t)
    Reg1Value.covered

end Cert.KernelIdeal.Val

end
-- ==== Proof.Val.PreFacts.lean ====
/-
  The integer part of the precondition, read back. The precondition is a conjunction of scalar tests; its last seven
  say of an index array x that every entry satisfies 0 ≤ x and x < n as signed words, for a small bound n. A signed word
  that is non-negative has its top bit clear, so it reads the same signed and unsigned; being below n signed it is then
  below n as a natural number. Each test is an "and" over all entries of the entrywise conjunction of the two
  comparisons, so from the test being 1 both comparisons hold at every entry.
-/
import proofs.«418315_j6339371728953_3_alg».proof.Defs
import proofs.«418315_j6339371728953_3_alg».proof.Proof.Gen.Pre_finite_inputs
import proofs.«418315_j6339371728953_3_alg».proof.Proof.Gen.KernelIdeal
import Idealize.ShloMosaic.Lib.StableHlo.Predicate
import Idealize.ShloMosaic.Lib.ReduceAll
import Idealize.ShloMosaic.Lib.ValueIdx
import Idealize.ShloMosaic.PureOps.Ideal

noncomputable section

namespace Cert.KernelIdeal.Val

open Cert.KernelIdeal Cert.KernelIdeal.Gen Idealize.ShloMosaic Idealize.ShloMosaic.TcCoe Idealize.SL.Sem

/-- A word in [0, n) as a signed integer, n below 2³¹, is below n as a natural number. -/
private theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide, BitVec.toInt_pos_iff] at h0
  rw [IntOp.cmpi_slt, StableHlo.Predicate.toInt_ofNat_small n hn, BitVec.toInt_eq_toNat_of_lt h0] at h1
  omega

/-- One range test that came out 1: every entry of the array is below the bound, as a natural number. -/
private theorem all_lt_of_test {s : Shape} {axes : List (Fin s.rank)} (x : IVec s 32) (n : Nat) (hn : n < 2 ^ 31)
    (hb : (⟨0, ![]⟩ : Shape).BroadcastsInDim s (![] : Fin 0 → Fin s.rank)) (hr : s.ReducesTo axes ⟨0, ![]⟩)
    (h0 : 0 < (⟨0, ![]⟩ : Shape).numel) (init : IVec ⟨0, ![]⟩ 1) (j : (⟨0, ![]⟩ : Shape).Idx)
    (e : Host.reduce IntOp.andi
          (andi (cmpi .sge x (broadcastInDim s ![] hb (constantI ⟨0, ![]⟩ 32 0#32)))
            (cmpi .slt x (broadcastInDim s ![] hb (constantI ⟨0, ![]⟩ 32 (BitVec.ofNat 32 n)))))
          init hr h0 j = 1#1)
    (i : s.Idx) : (x i).toNat < n := by
  -- a scalar has one index
  haveI : Subsingleton (⟨0, ![]⟩ : Shape).Idx := ⟨fun _ _ => funext fun d => d.elim0⟩
  have hi := Host.reduce_andi_all _ init hr h0 j e i
  obtain ⟨h1, h2⟩ := IntOp.andi_eq_one.1 hi
  exact toNat_lt_of_signed_range (x i) n hn h1 h2

/-- A conjunction of two scalar tests that is 1: both are. -/
private theorem both_of_and {a b : IVec (⟨0, ![]⟩ : Shape) 1} {j : (⟨0, ![]⟩ : Shape).Idx} (e : andi a b j = 1#1) :
    a j = 1#1 ∧ b j = 1#1 := IntOp.andi_eq_one.1 e

variable (m : (ℓ : Loc nD τ sig) → Buf (Elt Ideal) ℓ)

/-- The global edges' source nodes: row 0 of the edge list, as a vector. -/
abbrev srcIdx' (c : Dev nD) : IVec S1500000 32 :=
  shapeCast _ (extractStridedSlice S1x1500000 ![0, 0] (m ((c.tc : Thread nD τ).loc main_arg0)) slices_S2x1500000_S1x1500000_0_0) shapeCasts_S1x1500000_S1500000

/-- The local edges' source nodes: row 0 of the local edge list, as a vector. -/
abbrev lsrcIdx' (c : Dev nD) : IVec S262144 32 :=
  shapeCast _ (extractStridedSlice S1x262144 ![0, 0] (m ((c.tc : Thread nD τ).loc main_arg6)) slices_S2x262144_S1x262144_0_0) shapeCasts_S1x262144_S262144

/-- The seven range tests of the precondition, each read at every entry. -/
private theorem ranges_of_pre (h : Cert.Pre_KernelIdeal m) (c : Dev nD) :
    (∀ i : S1500000.Idx, (srcIdx' m c i).toNat < 150000)
    ∧ (∀ i : S1500000.Idx, ((m ((c.tc : Thread nD τ).loc main_arg1) : IVec S1500000 32) i).toNat < 2)
    ∧ (∀ i : S1024.Idx, ((m ((c.tc : Thread nD τ).loc main_arg2) : IVec S1024 32) i).toNat < 150000)
    ∧ (∀ i : S1024.Idx, ((m ((c.tc : Thread nD τ).loc main_arg3) : IVec S1024 32) i).toNat < 50000)
    ∧ (∀ i : S65536.Idx, ((m ((c.tc : Thread nD τ).loc main_arg4) : IVec S65536 32) i).toNat < 150000)
    ∧ (∀ i : S65536.Idx, ((m ((c.tc : Thread nD τ).loc main_arg5) : IVec S65536 32) i).toNat < 4)
    ∧ (∀ i : S262144.Idx, (lsrcIdx' m c i).toNat < 65536) := by
  have e := congrFun (h c) ValueIdx.ix0
  obtain ⟨e, e6⟩ := both_of_and e
  obtain ⟨e, e5⟩ := both_of_and e
  obtain ⟨e, e4⟩ := both_of_and e
  obtain ⟨e, e3⟩ := both_of_and e
  obtain ⟨e, e2⟩ := both_of_and e
  obtain ⟨e, e1⟩ := both_of_and e
  obtain ⟨-, e0⟩ := both_of_and e
  exact ⟨all_lt_of_test _ 150000 (by decide) _ _ _ _ _ e0, all_lt_of_test _ 2 (by decide) _ _ _ _ _ e1,
    all_lt_of_test _ 150000 (by decide) _ _ _ _ _ e2, all_lt_of_test _ 50000 (by decide) _ _ _ _ _ e3,
    all_lt_of_test _ 150000 (by decide) _ _ _ _ _ e4, all_lt_of_test _ 4 (by decide) _ _ _ _ _ e5,
    all_lt_of_test _ 65536 (by decide) _ _ _ _ _ e6⟩

variable (h : Cert.Pre_KernelIdeal m) (c : Dev nD)
include h

/-- The edge sign labels index the 2-row sign table. -/
theorem attr_lt : ∀ i : S1500000.Idx, ((m ((c.tc : Thread nD τ).loc main_arg1) : IVec S1500000 32) i).toNat < 2 :=
  (ranges_of_pre m h c).2.1

/-- The global edges' sources index the 150000 node rows. -/
theorem src_lt : ∀ i : S1500000.Idx, (srcIdx' m c i).toNat < 150000 :=
  (ranges_of_pre m h c).1

/-- The root users index the 150000 node rows. -/
theorem rootu_lt : ∀ i : S1024.Idx, ((m ((c.tc : Thread nD τ).loc main_arg2) : IVec S1024 32) i).toNat < 150000 :=
  (ranges_of_pre m h c).2.2.1

/-- The root items index the 50000 item rows. -/
theorem rooti_lt : ∀ i : S1024.Idx, ((m ((c.tc : Thread nD τ).loc main_arg3) : IVec S1024 32) i).toNat < 50000 :=
  (ranges_of_pre m h c).2.2.2.1

/-- The local nodes index the 150000 node rows. -/
theorem xidx_lt : ∀ i : S65536.Idx, ((m ((c.tc : Thread nD τ).loc main_arg4) : IVec S65536 32) i).toNat < 150000 :=
  (ranges_of_pre m h c).2.2.2.2.1

/-- The distance labels index the 4-row distance table. -/
theorem dist_lt : ∀ i : S65536.Idx, ((m ((c.tc : Thread nD τ).loc main_arg5) : IVec S65536 32) i).toNat < 4 :=
  (ranges_of_pre m h c).2.2.2.2.2.1

/-- The local edges' sources index the 65536 local rows. -/
theorem lsrc_lt : ∀ i : S262144.Idx, (lsrcIdx' m c i).toNat < 65536 :=
  (ranges_of_pre m h c).2.2.2.2.2.2

end Cert.KernelIdeal.Val

end
-- ==== Proof.Val.Hyps.lean ====
/-
  The evident domain of the integer inputs, as the kernel's @main reads them: every index lies inside the table it
  indexes. Stated on the index vectors exactly as @main forms them (row 0 of a two-row edge list is its slice reshaped
  to a vector), with each word read as a natural number: a word below a small bound is in particular non-negative as a
  signed integer.
-/
import proofs.«418315_j6339371728953_3_alg».proof.Proof.Gen.KernelIdeal
import Idealize.ShloMosaic.PureOps.Ideal

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (c : Dev nD)

/-- @main's argument 0 on core `c`. -/
abbrev A0 : IVec S2x1500000 32 := m ((c.tc : Thread nD τ).loc main_arg0)
/-- @main's argument 1 on core `c`. -/
abbrev A1 : IVec S1500000 32 := m ((c.tc : Thread nD τ).loc main_arg1)
/-- @main's argument 2 on core `c`. -/
abbrev A2 : IVec S1024 32 := m ((c.tc : Thread nD τ).loc main_arg2)
/-- @main's argument 3 on core `c`. -/
abbrev A3 : IVec S1024 32 := m ((c.tc : Thread nD τ).loc main_arg3)
/-- @main's argument 4 on core `c`. -/
abbrev A4 : IVec S65536 32 := m ((c.tc : Thread nD τ).loc main_arg4)
/-- @main's argument 5 on core `c`. -/
abbrev A5 : IVec S65536 32 := m ((c.tc : Thread nD τ).loc main_arg5)
/-- @main's argument 6 on core `c`. -/
abbrev A6 : IVec S2x262144 32 := m ((c.tc : Thread nD τ).loc main_arg6)
/-- @main's argument 7 on core `c`. -/
abbrev A7 : IVec S65536 32 := m ((c.tc : Thread nD τ).loc main_arg7)
/-- @main's argument 8 on core `c`. -/
abbrev A8 : FVec Ideal S100000x128 .f32 := m ((c.tc : Thread nD τ).loc main_arg8)
/-- @main's argument 9 on core `c`. -/
abbrev A9 : FVec Ideal S50000x128 .f32 := m ((c.tc : Thread nD τ).loc main_arg9)
/-- @main's argument 10 on core `c`. -/
abbrev A10 : FVec Ideal S4x128 .f32 := m ((c.tc : Thread nD τ).loc main_arg10)
/-- @main's argument 11 on core `c`. -/
abbrev A11 : FVec Ideal S8x128 .f32 := m ((c.tc : Thread nD τ).loc main_arg11)
/-- @main's argument 12 on core `c`. -/
abbrev A12 : FVec Ideal S8x128 .f32 := m ((c.tc : Thread nD τ).loc main_arg12)
/-- @main's argument 13 on core `c`. -/
abbrev A13 : FVec Ideal S128x128 .f32 := m ((c.tc : Thread nD τ).loc main_arg13)
/-- @main's argument 14 on core `c`. -/
abbrev A14 : FVec Ideal S128 .f32 := m ((c.tc : Thread nD τ).loc main_arg14)
/-- @main's argument 15 on core `c`. -/
abbrev A15 : FVec Ideal S2x1 .f32 := m ((c.tc : Thread nD τ).loc main_arg15)
/-- @main's argument 16 on core `c`. -/
abbrev A16 : FVec Ideal S128x128 .f32 := m ((c.tc : Thread nD τ).loc main_arg16)
/-- @main's argument 17 on core `c`. -/
abbrev A17 : FVec Ideal S128 .f32 := m ((c.tc : Thread nD τ).loc main_arg17)
/-- @main's argument 18 on core `c`. -/
abbrev A18 : FVec Ideal S128x8 .f32 := m ((c.tc : Thread nD τ).loc main_arg18)
/-- @main's argument 19 on core `c`. -/
abbrev A19 : FVec Ideal S8 .f32 := m ((c.tc : Thread nD τ).loc main_arg19)
/-- @main's argument 20 on core `c`. -/
abbrev A20 : FVec Ideal S256x128 .f32 := m ((c.tc : Thread nD τ).loc main_arg20)
/-- @main's argument 21 on core `c`. -/
abbrev A21 : FVec Ideal S128 .f32 := m ((c.tc : Thread nD τ).loc main_arg21)
/-- @main's argument 22 on core `c`. -/
abbrev A22 : FVec Ideal S128x128 .f32 := m ((c.tc : Thread nD τ).loc main_arg22)
/-- @main's argument 23 on core `c`. -/
abbrev A23 : FVec Ideal S128 .f32 := m ((c.tc : Thread nD τ).loc main_arg23)
/-- @main's argument 24 on core `c`. -/
abbrev A24 : FVec Ideal S128x128 .f32 := m ((c.tc : Thread nD τ).loc main_arg24)
/-- @main's argument 25 on core `c`. -/
abbrev A25 : FVec Ideal S128 .f32 := m ((c.tc : Thread nD τ).loc main_arg25)
/-- @main's argument 26 on core `c`. -/
abbrev A26 : FVec Ideal S512x64 .f32 := m ((c.tc : Thread nD τ).loc main_arg26)
/-- @main's argument 27 on core `c`. -/
abbrev A27 : FVec Ideal S64 .f32 := m ((c.tc : Thread nD τ).loc main_arg27)
/-- @main's argument 28 on core `c`. -/
abbrev A28 : FVec Ideal S64x1 .f32 := m ((c.tc : Thread nD τ).loc main_arg28)
/-- @main's argument 29 on core `c`. -/
abbrev A29 : FVec Ideal S1 .f32 := m ((c.tc : Thread nD τ).loc main_arg29)

/-- The global edges' source nodes: row 0 of the edge list, as a vector. -/
abbrev srcIdx : IVec S1500000 32 :=
  shapeCast _ (extractStridedSlice S1x1500000 ![0, 0] (m ((c.tc : Thread nD τ).loc main_arg0)) slices_S2x1500000_S1x1500000_0_0) shapeCasts_S1x1500000_S1500000

/-- The local edges' source nodes: row 0 of the local edge list, as a vector. -/
abbrev lsrcIdx : IVec S262144 32 :=
  shapeCast _ (extractStridedSlice S1x262144 ![0, 0] (m ((c.tc : Thread nD τ).loc main_arg6)) slices_S2x262144_S1x262144_0_0) shapeCasts_S1x262144_S262144

/-- Every index input that a table lookup of the kernel reads lies inside its table. -/
structure InRange : Prop where
  /-- the edge sign labels index the 2-row sign table -/
  attr : ∀ i : S1500000.Idx, ((m ((c.tc : Thread nD τ).loc main_arg1) : IVec S1500000 32) i).toNat < 2
  /-- the global edges' sources index the 150000 node rows -/
  src : ∀ i : S1500000.Idx, (srcIdx m c i).toNat < 150000
  /-- the root users index the 150000 node rows -/
  rootu : ∀ i : S1024.Idx, ((m ((c.tc : Thread nD τ).loc main_arg2) : IVec S1024 32) i).toNat < 150000
  /-- the root items index the 50000 item rows (placed after the 100000 user rows) -/
  rooti : ∀ i : S1024.Idx, ((m ((c.tc : Thread nD τ).loc main_arg3) : IVec S1024 32) i).toNat < 50000
  /-- the local nodes index the 150000 node rows -/
  xidx : ∀ i : S65536.Idx, ((m ((c.tc : Thread nD τ).loc main_arg4) : IVec S65536 32) i).toNat < 150000
  /-- the distance labels index the 4-row distance table -/
  dist : ∀ i : S65536.Idx, ((m ((c.tc : Thread nD τ).loc main_arg5) : IVec S65536 32) i).toNat < 4
  /-- the local edges' sources index the 65536 local rows -/
  lsrc : ∀ i : S262144.Idx, (lsrcIdx m c i).toNat < 65536

end Cert.KernelIdeal.Val

end
-- ==== Proof.LibTake.lean ====
/-
  jnp.take along axis 0 with in-range indices.

  The default-mode take wraps negative indices once, gathers with the wrapped indices as start
  indices, and replaces by a fill value every row whose wrapped index lies outside the table.
  When every index is already a natural number below the table's row count N (with N below 2³¹,
  so that each word is non-negative as a signed integer), nothing wraps, every row passes the
  range test, and the whole composite is the plain gather at the given indices.

  Also here: a concatenation of in-range indices with an iota stays in range.
-/
import Idealize.ShloMosaic.PureOps
import Idealize.ShloMosaic.Lib.StableHlo.Predicate
import Idealize.ShloMosaic.Lib.ReduceAll
import Idealize.ShloMosaic.Lib.Pipeline.Value

namespace Cert.LibTake

open Idealize.ShloMosaic
open Idealize.ShloMosaic.StableHlo.Predicate

variable {α : Type}

/-! ## A select whose condition is all ones -/

/-- A select under a mask that is 1 at every index returns its first branch. -/
theorem select_ones {s : Shape} (mask : IVec s 1) (a b : s.Idx → α) (h : ∀ i, mask i = 1#1) :
    select mask a b = a := by
  funext i
  show Scalar.select (mask i) (a i) (b i) = a i
  unfold Scalar.select
  rw [h i]
  exact if_pos rfl

/-- A select under a mask that is 1 nowhere returns its second branch. -/
theorem select_none {s : Shape} (mask : IVec s 1) (a b : s.Idx → α) (h : ∀ i, ¬ mask i = 1#1) :
    select mask a b = b := by
  funext i
  show Scalar.select (mask i) (a i) (b i) = b i
  unfold Scalar.select
  exact if_neg (h i)

/-! ## The wrap of negative indices -/

/-- With every index a natural number below N < 2³¹, no index is negative as a signed word, so the
    select that adds N to the negative ones returns the index vector itself. -/
theorem wrap_id {R N : Nat} (hN : N < 2 ^ 31) (idx : IVec ⟨1, ![R]⟩ 32) (hidx : ∀ r, (idx r).toNat < N)
    (hz hn : (⟨0, ![]⟩ : Shape).BroadcastsInDim ⟨1, ![R]⟩ ![]) :
    select (cmpi .slt idx (broadcastInDim ⟨1, ![R]⟩ ![] hz (constantI ⟨0, ![]⟩ 32 0#32)))
      (addi idx (broadcastInDim ⟨1, ![R]⟩ ![] hn (constantI ⟨0, ![]⟩ 32 (BitVec.ofNat 32 N)))) idx = idx := by
  apply select_none
  intro r
  show ¬ IntOp.cmpi .slt (idx r) 0#32 = 1#1
  have hr := hidx r
  rw [slt_iff_toNat (by omega) (by decide)]
  simp

/-! ## The range mask -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- A reduction by `and` from an initial value 1 of an array that is 1 everywhere is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x hx _

/-- With every index a natural number below N < 2³¹, the start-index column passes both range tests
    (0 ≤ index, index ≤ N − 1) in every row, so the row mask — their conjunction reduced by `and` along the
    column axis — is 1 at every row. -/
theorem mask_ones {R N : Nat} (hN : N < 2 ^ 31) (idx : IVec ⟨1, ![R]⟩ 32) (hidx : ∀ r, (idx r).toNat < N)
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (j : (⟨1, ![R]⟩ : Shape).Idx) :
    Host.reduce IntOp.andi
      (andi
        (cmpi .sge (broadcastInDim ⟨2, ![R, 1]⟩ ![0] hI idx)
          (broadcastInDim ⟨2, ![R, 1]⟩ ![] h0 (constantI ⟨0, ![]⟩ 32 0#32)))
        (cmpi .sle (broadcastInDim ⟨2, ![R, 1]⟩ ![0] hI idx)
          (broadcastInDim ⟨2, ![R, 1]⟩ ![0, 1] h2
            (broadcastInDim ⟨2, ![1, 1]⟩ ![1] h1 (constantI ⟨1, ![1]⟩ 32 (BitVec.ofNat 32 (N - 1)))))))
      (constantI ⟨0, ![]⟩ 1 1#1) hr hu j = 1#1 := by
  apply reduce_andi_ones _ _ hr hu _ rfl
  intro i
  -- the start index at i is one of the given indices
  obtain ⟨r, hIr⟩ : ∃ r, broadcastInDim ⟨2, ![R, 1]⟩ ![0] hI idx i = idx r := ⟨_, rfl⟩
  have hlt := hidx r
  have hM : (BitVec.ofNat 32 (N - 1)).toNat = N - 1 := by
    rw [BitVec.toNat_ofNat]; exact Nat.mod_eq_of_lt (by omega)
  show IntOp.andi (IntOp.cmpi .sge (broadcastInDim ⟨2, ![R, 1]⟩ ![0] hI idx i) 0#32)
      (IntOp.cmpi .sle (broadcastInDim ⟨2, ![R, 1]⟩ ![0] hI idx i) (BitVec.ofNat 32 (N - 1))) = 1#1
  rw [hIr, IntOp.andi_eq_one, sge_iff_toNat (by omega) (by decide), sle_iff_toNat (by omega) (by rw [hM]; omega), hM]
  exact ⟨Nat.zero_le _, by omega⟩

/-! ## The take composite is the plain gather -/

/-- THE TAKE OF ROWS (a table whose gathered slices have C entries each; result [R, C]). With every index a natural number
    below N < 2³¹: the wrap of negative indices does nothing, the row mask — broadcast along the rows of the result — is
    all ones, and so the select between the gathered rows and the fill array is the gather at the given indices kept
    as an [R, 1] column. The table's shape, the gather's dimension numbers and the fill array are arbitrary. -/
theorem take_rows_eq {R N C : Nat} {s : Shape} (hN : N < 2 ^ 31) (idx : IVec ⟨1, ![R]⟩ 32)
    (hidx : ∀ r, (idx r).toNat < N) (d : GatherDims s ⟨2, ![R, 1]⟩ ⟨2, ![R, C]⟩) (x : s.Idx → α)
    (fill : (⟨2, ![R, C]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (hm : (⟨1, ![R]⟩ : Shape).BroadcastsInDim ⟨2, ![R, C]⟩ ![0]) :
    select
      (broadcastInDim ⟨2, ![R, C]⟩ ![0] hm
        (Host.reduce IntOp.andi
          (andi
            (cmpi .sge
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![] h0 (constantI ⟨0, ![]⟩ 32 0#32)))
            (cmpi .sle
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![0, 1] h2
                (broadcastInDim ⟨2, ![1, 1]⟩ ![1] h1 (constantI ⟨1, ![1]⟩ 32 (BitVec.ofNat 32 (N - 1)))))))
          (constantI ⟨0, ![]⟩ 1 1#1) hr hu))
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu _

/-- THE TAKE OF ENTRIES (a table whose gathered slices are single entries; result [R]). As `take_rows_eq`, the row
    mask used as it is. -/
theorem take_vec_eq {R N : Nat} {s : Shape} (hN : N < 2 ^ 31) (idx : IVec ⟨1, ![R]⟩ 32)
    (hidx : ∀ r, (idx r).toNat < N) (d : GatherDims s ⟨2, ![R, 1]⟩ ⟨1, ![R]⟩) (x : s.Idx → α)
    (fill : (⟨1, ![R]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel) :
    select
      (Host.reduce IntOp.andi
        (andi
          (cmpi .sge
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![] h0 (constantI ⟨0, ![]⟩ 32 0#32)))
          (cmpi .sle
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![0, 1] h2
              (broadcastInDim ⟨2, ![1, 1]⟩ ![1] h1 (constantI ⟨1, ![1]⟩ 32 (BitVec.ofNat 32 (N - 1)))))))
        (constantI ⟨0, ![]⟩ 1 1#1) hr hu)
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu i

/-! ## Indices followed by an iota -/

/-- A vector of n words each below B as a natural number, followed by the positions 0, 1, …, m − 1 with m ≤ B, has
    every entry below B. -/
theorem concat_iota_lt {n m T B : Nat} (hmB : m ≤ B) (v : IVec ⟨1, ![n]⟩ 32) (hv : ∀ i, (v i).toNat < B)
    (hc : Shape.Concatenates [(⟨1, ![n]⟩ : Shape), ⟨1, ![m]⟩] ⟨1, ![T]⟩ 0) (j : (⟨1, ![T]⟩ : Shape).Idx) :
    (concatenate ⟨1, ![T]⟩ 0 [⟨⟨1, ![n]⟩, v⟩, ⟨⟨1, ![m]⟩, iotaInDim ⟨1, ![m]⟩ 32 0⟩] hc j).toNat < B := by
  have hT : n + (m + 0) = T := hc.2.2
  have hj : (j 0).val < T := (j 0).isLt
  by_cases hlt : (j 0).val < n
  · rw [concatenate_pair_apply_left (t := ⟨1, ![T]⟩) (s₁ := ⟨1, ![n]⟩) (s₂ := ⟨1, ![m]⟩) (0 : Fin 1) v _ hc j rfl (Shape.Idx.ofFin ⟨(j 0).val, hlt⟩) (fun b => by
      have hb : b = 0 := Subsingleton.elim _ _
      subst hb; rfl)]
    exact hv _
  · have hm' : (j 0).val - n < m := by omega
    rw [concatenate_pair_apply_right (t := ⟨1, ![T]⟩) (s₁ := ⟨1, ![n]⟩) (s₂ := ⟨1, ![m]⟩) (0 : Fin 1) v _ hc j rfl rfl (Shape.Idx.ofFin ⟨(j 0).val - n, hm'⟩)
      (fun b hb => absurd (Subsingleton.elim _ _) hb) (by show (j 0).val - n + n = (j 0).val; omega)]
    show (BitVec.ofNat 32 ((j 0).val - n)).toNat < B
    rw [BitVec.toNat_ofNat]
    exact lt_of_le_of_lt (Nat.mod_le _ _) (by omega)

end Cert.LibTake
-- ==== Proof.LibRowGather.lean ====
/-
  A `stablehlo.gather` of WHOLE ROWS of a rank-2 operand, read at an index.

  What `x[idx]` of a table `x : [N, C]` at an integer vector `idx : [R]` lowers to: start indices `[R, 1]`, offset_dims
  `[1]`, collapsed_slice_dims `[0]`, start_index_map `[0]`, index_vector_dim `1`, slice sizes `[1, C]`. Result element
  `(r, j)` is the operand at row `idx[r, 0]` — read as a signed integer and clamped into `[0, N − 1]`, as the host gather
  clamps every start index — and column `j`.
-/
import Idealize.ShloMosaic.PureOps.Ideal
import Idealize.ShloMosaic.Lib.ValueIdx

noncomputable section

namespace Cert.LibRowGather

open Idealize.ShloMosaic Idealize.ShloMosaic.ValueIdx

variable {α : Type}

/-- Those dimension numbers for an operand `[N, C]`, start indices `[R, 1]` and result `[R, C]`; their conditions `wf`
    are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, j)`: the operand at the start index `idx[r, 0]`, read signed and clamped into
    `[0, N − 1]`, and at column `j`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N C R wf) x idx y
      = x (ix2 (⟨min (idx (ix2 (⟨(y 0).val, idx2_lt0 y⟩ : Fin R) (0 : Fin 1))).toInt.toNat (N - 1), by omega⟩ : Fin N)
            (⟨(y 1).val, idx2_lt1 y⟩ : Fin C)) := by
  unfold Host.gather
  congr 1
  funext a
  refine Fin.ext ?_
  show (rowDims N C R wf).start y idx a + (rowDims N C R wf).batchCoord y a + (rowDims N C R wf).offCoord y a = _
  rw [GatherDims.batchCoord_eq_zero _ _ _ List.not_mem_nil]
  simp only [Nat.add_zero]
  match a with
  | ⟨0, _⟩ =>
    -- operand axis 0 (rows): in the start index map and collapsed, so the coordinate is the clamped start alone
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N C R wf).startIndexMap from List.mem_singleton.mpr rfl)]
    have hsi : (rowDims N C R wf).siIdx y ⟨List.idxOf (⟨0, by omega⟩ : Fin 2) (rowDims N C R wf).startIndexMap,
        List.idxOf_lt_length_iff.2 (List.mem_singleton.mpr rfl)⟩
          = ix2 (⟨(y 0).val, idx2_lt0 y⟩ : Fin R) (0 : Fin 1) := by
      funext b; refine Fin.ext ?_
      match b with
      | ⟨0, _⟩ => rfl
      | ⟨1, _⟩ => rfl
    rw [hsi]
    rfl
  | ⟨1, h1⟩ =>
    -- operand axis 1 (columns): not in the start index map, so the start is 0; it is the one kept axis, read by the
    -- result's offset axis 1
    have hne : (⟨1, h1⟩ : Fin 2) ≠ 0 := fun h => Nat.one_ne_zero (congrArg Fin.val h)
    have hst : (rowDims N C R wf).start y idx ⟨1, h1⟩ = 0 := by
      unfold GatherDims.start
      rw [dif_neg (fun h => hne (List.mem_singleton.mp h))]
    have hk : (⟨1, h1⟩ : Fin 2) ∈ (rowDims N C R wf).sKept :=
      (GatherDims.mem_sKept _ _).mpr ⟨fun h => hne (List.mem_singleton.mp h), List.not_mem_nil⟩
    rw [hst, Nat.zero_add]
    unfold GatherDims.offCoord
    rw [dif_pos hk]
    rfl

end Cert.LibRowGather

end
-- ==== Proof.Val.MsgScale.lean ====
/-
  The per-edge sign weight. The kernel looks the edge's label up in the two-entry sign vector (the [2,1] table read as
  a vector) and spreads the weight along the 128 columns; the reference gathers the label's row of the [2,1] table and
  spreads it the same way. With the labels in {0, 1} both read the same table entry.
-/
import proofs.«418315_j6339371728953_3_alg».proof.Proof.Gen.KernelIdeal.Regions
import proofs.«418315_j6339371728953_3_alg».proof.Proof.RefRead
import proofs.«418315_j6339371728953_3_alg».proof.Proof.Val.Hyps
import proofs.«418315_j6339371728953_3_alg».proof.Proof.Val.Spec
import proofs.«418315_j6339371728953_3_alg».proof.Proof.LibTake
import proofs.«418315_j6339371728953_3_alg».proof.Proof.LibRowGather
import proofs.«418315_j6339371728953_3_alg».proof.Proof.LibPlainDot
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo

namespace MsgScale

open Idealize.ShloMosaic.StableHlo.Predicate (ixP bcast_col1 gather_take)

/-! ## A two-entry table read as a vector against the [2, 1] table's row gather -/

/-- Row `p` of a column, written either way. -/
theorem ixP_eq_ix2 {n : Nat} (p : Fin n) : (ixP p : (⟨2, ![n, 1]⟩ : Shape).Idx) = ix2 p (0 : Fin 1) := by
  funext b
  match b with
  | ⟨0, _⟩ => rfl
  | ⟨1, _⟩ => rfl

/-- An index of a column is its row. -/
theorem col_idx_eq {n : Nat} (y : (⟨2, ![n, 1]⟩ : Shape).Idx) : y = ixP (⟨(y 0).val, idx2_lt0 y⟩ : Fin n) := by
  funext b
  match b with
  | ⟨0, _⟩ => rfl
  | ⟨1, _⟩ => exact Fin.ext (Nat.lt_one_iff.mp (idx2_lt1 y))

/-- The entries of a [2, 1] table gathered as a vector (the table reshaped to its two entries, a take with one
    collapsed axis) and kept as a column are the table's rows gathered whole: both read row `min idx 1`, column 0. -/
theorem sign_gather_eq {R : Nat} {α : Type}
    (dV : GatherDims ⟨1, ![2]⟩ ⟨2, ![R, 1]⟩ ⟨1, ![R]⟩)
    (hcoll : dV.collapsedSliceDims = [0]) (hob : dV.operandBatchingDims = [])
    (hsim : dV.startIndexMap = [0]) (hivd : dV.indexVectorDim = 1)
    (wf : GatherDims.WF ⟨2, ![2, 1]⟩ ⟨2, ![R, 1]⟩ ⟨2, ![R, 1]⟩ [1] [0] [] [0] [] 1 ![1, 1])
    (T : (⟨2, ![2, 1]⟩ : Shape).Idx → α) (hsc : (⟨2, ![2, 1]⟩ : Shape).ShapeCasts ⟨1, ![2]⟩)
    (I : IVec ⟨2, ![R, 1]⟩ 32)
    (hcol : (⟨1, ![R]⟩ : Shape).BroadcastsInDim ⟨2, ![R, 1]⟩ ![0]) :
    broadcastInDim ⟨2, ![R, 1]⟩ ![0] hcol (Host.gather dV (shapeCast ⟨1, ![2]⟩ T hsc) I)
      = Host.gather (Cert.LibRowGather.rowDims 2 1 R wf) T I := by
  funext y
  rw [Cert.LibRowGather.gather_rows_apply (by decide) wf T I y]
  rw [col_idx_eq y, bcast_col1, gather_take dV hcoll hob hsim hivd _ I _ (by decide)]
  rw [shapeCast_apply T hsc _
    (ix2 (⟨min (I (ixP (⟨(y 0).val, idx2_lt0 y⟩ : Fin R))).toInt.toNat (2 - 1), by omega⟩ : Fin 2) (0 : Fin 1))
    (by rw [Shape.rowMajor_val_two, Shape.rowMajor_val_one]; simp)]
  congr 1
  funext b
  match b with
  | ⟨0, _⟩ =>
    refine Fin.ext ?_
    show min (I (ixP (⟨(y 0).val, idx2_lt0 y⟩ : Fin R))).toInt.toNat (2 - 1)
      = min (I (ix2 (⟨(y 0).val, idx2_lt0 y⟩ : Fin R) (0 : Fin 1))).toInt.toNat (2 - 1)
    rw [ixP_eq_ix2]
  | ⟨1, _⟩ => rfl

/-! ## Contents carried at a buffer's own type -/

/-- Transport of contents along a buffer's type equation and back is the identity. -/
theorem ofBuf_toBuf_of {T : BufTy} (r : Ref sig .tc) (h h' : r.ty = T) (p1 : r.space ≠ .host) (p2 : r.isScoped = false)
    (p1' : r.space ≠ .host) (p2' : r.isScoped = false) (v : T.Contents (Elt Ideal)) :
    (TRef.of r h p1 p2).ofBuf ((TRef.of r h' p1' p2').toBuf v) = v := by
  subst h; rfl

/-- Transport along a buffer's own type is the identity. -/
theorem toBuf_of_rfl (r : Ref sig .tc) (p1 : r.space ≠ .host) (p2 : r.isScoped = false) (v : r.ty.Contents (Elt Ideal)) :
    (TRef.of r rfl p1 p2).toBuf v = v := rfl

variable (m : (ℓ : Loc nD τ sig) → Buf (Elt Ideal) ℓ) (outs : Outs (F := Ideal)) (c : Dev nD)

/-! ## The kernel's side -/

/-- The labels reach the take call as launched. -/
theorem V5_arg1 : V5 (F := Ideal) m outs c (Proc.devRef .tc main_arg1) = A1 m c :=
  (V5_of m outs c main_arg1 (by decide)).trans <| (V4_of m outs c main_arg1 (by decide)).trans <|
    (V3_of m c main_arg1 (by decide)).trans <| (V2_of m c main_arg1 (by decide)).trans <| V1_of m c main_arg1 (by decide)

/-- The sign table reaches its reshape as launched. -/
theorem V4_arg15 : V4 (F := Ideal) m outs c (Proc.devRef .tc main_arg15) = A15 m c :=
  (V4_of m outs c main_arg15 (by decide)).trans <|
    (V3_of m c main_arg15 (by decide)).trans <| (V2_of m c main_arg15 (by decide)).trans <| V1_of m c main_arg15 (by decide)

/-- The sign table as a vector of its two entries. -/
theorem V5_v10 : V5 (F := Ideal) m outs c (Proc.devRef .tc main_v10) = shapeCast S2 (A15 m c) shapeCasts_S2x1_S2 := by
  have h15 := V4_arg15 m outs c
  show StableHlo.after hostOps1 (V4 (F := Ideal) m outs c) (Proc.devRef .tc main_v10) = _
  generalize V4 (F := Ideal) m outs c = W at h15 ⊢
  after_results
  rw [h15]
  rfl

/-- The take of the sign vector at the labels is its gather: the labels are in range, so nothing wraps and no row is
    replaced by the fill value. -/
theorem V6_v11 (hr : InRange m c) : V6 (F := Ideal) m outs c (Proc.devRef .tc main_v11)
    = Host.gather gather_S2_S1500000x1_S1500000_n_0_n_n_0_1_1 (shapeCast S2 (A15 m c) shapeCasts_S2x1_S2)
        (broadcastInDim S1500000x1 ![0] bcast_S1500000_S1500000x1_0 (A1 m c)) := by
  have h1 : V5 (F := Ideal) m outs c (Proc.devRef .tc main_arg1)
      = (TRef.of main_arg1 : TRef sig ⟨S1500000, .i32⟩).toBuf (A1 m c) :=
    (V5_arg1 m outs c).trans (toBuf_of_rfl main_arg1 _ _ _).symm
  have h10 : V5 (F := Ideal) m outs c (Proc.devRef .tc main_v10)
      = (TRef.of main_v10 : TRef sig ⟨S2, .f32⟩).toBuf (shapeCast S2 (A15 m c) shapeCasts_S2x1_S2) :=
    (V5_v10 m outs c).trans (toBuf_of_rfl main_v10 _ _ _).symm
  show StableHlo.after hostOps1_1 (V5 (F := Ideal) m outs c) (Proc.devRef .tc main_v11) = _
  generalize V5 (F := Ideal) m outs c = W at h1 h10 ⊢
  after_results_simp
  rw [h1, h10]
  simp only [ofBuf_toBuf_of]
  refine (toBuf_of_rfl main_v11 _ _ _).trans ?_
  exact Cert.LibTake.take_vec_eq (N := 2) (by decide) (A1 m c) hr.attr _ _ _ _ _ _ _ _ _ _ _

/-- The per-edge weight as a column. -/
theorem V7_v12 : V7 (F := Ideal) m outs c (Proc.devRef .tc main_v12)
    = broadcastInDim S1500000x1 ![0] bcast_S1500000_S1500000x1_0 (V6 (F := Ideal) m outs c (Proc.devRef .tc main_v11)) := by
  show StableHlo.after hostOps1_2 (V6 (F := Ideal) m outs c) (Proc.devRef .tc main_v12)
    = broadcastInDim S1500000x1 ![0] bcast_S1500000_S1500000x1_0 (V6 (F := Ideal) m outs c (Proc.devRef .tc main_v11))
  generalize V6 (F := Ideal) m outs c = W
  after_results

/-- The per-edge weight spread over the columns. -/
theorem V9_v14 : V9 (F := Ideal) m outs c (Proc.devRef .tc main_v14)
    = broadcastInDim S1500000x128 ![0, 1] bcast_S1500000x1_S1500000x128_0_1 (V8 (F := Ideal) m outs c (Proc.devRef .tc main_v12)) := by
  show StableHlo.after hostOps1_4 (V8 (F := Ideal) m outs c) (Proc.devRef .tc main_v14)
    = broadcastInDim S1500000x128 ![0, 1] bcast_S1500000x1_S1500000x128_0_1 (V8 (F := Ideal) m outs c (Proc.devRef .tc main_v12))
  generalize V8 (F := Ideal) m outs c = W
  after_results

/-- The kernel's per-edge weight over the columns, from the arguments. -/
theorem kernel_scale (hr : InRange m c) : V9 (F := Ideal) m outs c (Proc.devRef .tc main_v14)
    = broadcastInDim S1500000x128 ![0, 1] bcast_S1500000x1_S1500000x128_0_1
        (broadcastInDim S1500000x1 ![0] bcast_S1500000_S1500000x1_0
          (Host.gather gather_S2_S1500000x1_S1500000_n_0_n_n_0_1_1 (shapeCast S2 (A15 m c) shapeCasts_S2x1_S2)
            (broadcastInDim S1500000x1 ![0] bcast_S1500000_S1500000x1_0 (A1 m c)))) :=
  (V9_v14 m outs c).trans <| congrArg _ <|
    ((V8_of m outs c main_v12 (by decide)).trans (V7_v12 m outs c)).trans <| congrArg _ (V6_v11 m outs c hr)

/-! ## The reference's side -/

/-- The reference's per-edge weight over the columns, from the arguments: its wrap of negative labels does nothing,
    and its gather is the row gather of the [2, 1] table. -/
theorem ref_scale (hr : InRange m c) :
    Cert.ReferenceIdeal.ReadP.val_main_v23 (F := Ideal) (A1 m c) (A15 m c)
      = broadcastInDim S1500000x128 ![0, 1] bcast_S1500000x1_S1500000x128_0_1
          (Host.gather (Cert.LibRowGather.rowDims 2 1 1500000
              Cert.ReferenceIdeal.Facts₀.gather_S2x1_S1500000x1_S1500000x1_1_0_n_n_0_1_11_wf) (A15 m c)
            (broadcastInDim S1500000x1 ![0] bcast_S1500000_S1500000x1_0 (A1 m c))) := by
  have h9 : Cert.ReferenceIdeal.ReadP.val_main_v9 (F := Ideal) (A1 m c) = A1 m c :=
    Cert.LibTake.wrap_id (N := 2) (by decide) (A1 m c) hr.attr _ _
  unfold Cert.ReferenceIdeal.ReadP.val_main_v23 Cert.ReferenceIdeal.ReadP.val_main_v11 Cert.ReferenceIdeal.ReadP.val_main_v10
  rw [h9]
  rfl

end MsgScale

variable (m : (ℓ : Loc nD τ sig) → Buf (Elt Ideal) ℓ) (outs : Outs (F := Ideal)) (c : Dev nD)

/-- The per-edge sign weight spread over the 128 columns: the kernel's take of the two-entry sign vector at the edge labels
    and the reference's row gather of the [2, 1] sign table read the same entry, the labels being 0 or 1. -/
theorem scale (hr : InRange m c) :
    V9 (F := Ideal) m outs c main_v14 = Cert.ReferenceIdeal.ReadP.val_main_v23 (F := Ideal) (A1 m c) (A15 m c) := by
  have hk := MsgScale.kernel_scale m outs c hr
  have hf := MsgScale.ref_scale m c hr
  have hs := MsgScale.sign_gather_eq gather_S2_S1500000x1_S1500000_n_0_n_n_0_1_1 rfl rfl rfl rfl
    Cert.ReferenceIdeal.Facts₀.gather_S2x1_S1500000x1_S1500000x1_1_0_n_n_0_1_11_wf (A15 m c) shapeCasts_S2x1_S2
    (broadcastInDim S1500000x1 ![0] bcast_S1500000_S1500000x1_0 (A1 m c)) bcast_S1500000_S1500000x1_0
  generalize V9 (F := Ideal) m outs c (Proc.devRef .tc main_v14) = L at hk ⊢
  generalize Cert.ReferenceIdeal.ReadP.val_main_v23 (F := Ideal) (A1 m c) (A15 m c) = Rv at hf ⊢
  rw [hk, hf, hs]

end Cert.KernelIdeal.Val

end
-- ==== Proof.Val.MsgInputs.lean ====
/-
  What region 0 is entered with, in terms of @main's arguments: the node table is the two embedding tables joined
  along the rows and padded with 5648 zero rows (so a row below 150000 is a row of the joined table), the weight
  matrix is the argument itself, and the bias row is the bias vector laid out as one row.
-/
import proofs.«418315_j6339371728953_3_alg».proof.Proof.Gen.KernelIdeal.Regions
import proofs.«418315_j6339371728953_3_alg».proof.Proof.RefRead
import proofs.«418315_j6339371728953_3_alg».proof.Proof.Val.Hyps
import proofs.«418315_j6339371728953_3_alg».proof.Proof.Val.Spec
import proofs.«418315_j6339371728953_3_alg».proof.Proof.LibRowGather
import proofs.«418315_j6339371728953_3_alg».proof.Proof.LibPlainDot
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (outs : Outs (F := Ideal)) (c : Dev nD)

/-- Below the padding, the padded node table is the joined embedding table. -/
theorem v6_apply (r : Fin 155648) (hr : r.val < 150000) (k : Fin 128) :
    (V3 (F := Ideal) m c main_v6 : FVec Ideal S155648x128 .bf16) (ix2 r k)
      = (concatenate S150000x128 0 [⟨S100000x128, A8 m c⟩, ⟨S50000x128, A9 m c⟩] concatenates_S100000x128_S50000x128_S150000x128_d0 : FVec Ideal S150000x128 .f32) (ix2 ⟨r.val, hr⟩ k) := by
  rw [V3_of m c main_v6 (by decide)]
  show StableHlo.after hostOps0_1 (V1 (F := Ideal) m c) (Proc.devRef .tc main_v6) (ix2 r k) = _
  after_results
  refine (pad_apply_of_inside ![0, 0] ![5648, 0] ![0, 0] _ _ pads_S150000x128_S155648x128_056480_000 h_S_ (ix2 r k)
    (ix2 (⟨r.val, hr⟩ : Fin 150000) k) fun a => ?_).trans rfl
  match a with
  | ⟨0, _⟩ => show r.val = 0 + r.val * (0 + 1); omega
  | ⟨1, _⟩ => show k.val = 0 + k.val * (0 + 1); omega

/-- The weight matrix the region is entered with is the argument. -/
theorem v7_eq : (V3 (F := Ideal) m c main_v7 : FVec Ideal S128x128 .bf16) = A13 m c := by
  show StableHlo.after hostOps0_2 (V2 (F := Ideal) m c) (Proc.devRef .tc main_v7) = _
  after_results
  rfl

/-- The bias row the region is entered with is the bias vector. -/
theorem v8_apply (j : Fin 128) :
    (V3 (F := Ideal) m c main_v8 : FVec Ideal S1x128 .f32) (ix2 (0 : Fin 1) j) = A14 m c (ix1 j) := by
  show StableHlo.after hostOps0_2 (V2 (F := Ideal) m c) (Proc.devRef .tc main_v8) (ix2 (0 : Fin 1) j) = _
  after_results
  show shapeCast S1x128 (A14 m c) shapeCasts_S128_S1x128 (ix2 (0 : Fin 1) j) = _
  refine shapeCast_apply _ _ _ (ix1 j) ?_
  rw [Shape.rowMajor_val_one, Shape.rowMajor_val_two]
  show j.val = 0 * 128 + j.val
  omega

end Cert.KernelIdeal.Val

end
-- ==== Proof.Val.MsgRefRows.lean ====
/-
  The reference's linear map of the gathered source rows, read at an entry: for edge e and column j it is the sum over
  k of (the joined embedding table at the row the edge's source names, column k) · W[k, j], plus b[j]. In range, the
  wrap of a negative index and the gather's clamp are both the identity.
-/
import proofs.«418315_j6339371728953_3_alg».proof.Proof.Gen.KernelIdeal.Regions
import proofs.«418315_j6339371728953_3_alg».proof.Proof.RefRead
import proofs.«418315_j6339371728953_3_alg».proof.Proof.Val.Hyps
import proofs.«418315_j6339371728953_3_alg».proof.Proof.Val.Spec
import proofs.«418315_j6339371728953_3_alg».proof.Proof.LibRowGather
import proofs.«418315_j6339371728953_3_alg».proof.Proof.LibPlainDot
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (outs : Outs (F := Ideal)) (c : Dev nD)

namespace MsgRefRows

open Cert.ReferenceIdeal.ReadP

/-- A word below 2³¹, read as a signed integer and that as a natural number, is its unsigned reading. -/
theorem toInt_toNat {a : BitVec 32} (h : a.toNat < 2 ^ 31) : a.toInt.toNat = a.toNat := by
  rw [Predicate.toInt_eq_toNat_of_lt h, Int.toNat_natCast]

/-- A word whose unsigned reading is below 150000 is not negative as a signed integer, so the select that would replace a
    negative index returns the word itself. -/
theorem wrap_word {s : BitVec 32} (h : s.toNat < 150000) (a : BitVec 32) :
    Scalar.select (IntOp.cmpi .slt s 0#32) a s = s := by
  unfold Scalar.select
  refine if_neg fun hc => ?_
  exact Nat.not_lt_zero _ ((Predicate.slt_iff_toNat (a := s) (b := 0#32) (by omega) (by decide)).mp hc)

/-- The reference's row gather has the dimension numbers of a gather of whole rows of a [150000, 128] table at a
    [1500000, 1] column of start indices. -/
theorem gather_rows :
    Cert.ReferenceIdeal.gather_S150000x128_S1500000x1_S1500000x128_1_0_n_n_0_1_1128
      = Cert.LibRowGather.rowDims 150000 128 1500000
          Cert.ReferenceIdeal.Gen.gather_S150000x128_S1500000x1_S1500000x128_1_0_n_n_0_1_1128_wf := rfl

/-- The reference's start index of edge e: row 0 of the edge list at e, wrapped if negative — in range, that entry itself. -/
theorem start_apply (hr : InRange m c) (e : Fin 1500000) :
    val_main_v17 (F := Ideal) (A0 m c) (ix2 e (0 : Fin 1)) = srcIdx m c (ix1 e) := by
  have hi : idx_main_v17 (ix2 e (0 : Fin 1)) = ix1 e :=
    funext fun a => Fin.ext (by match a with | ⟨0, _⟩ => rfl)
  rw [val_main_v17_apply, hi, val_main_v16_apply, val_main_v13_apply, val_main_v12_apply, val_main_c_1_apply]
  exact wrap_word (hr.src (ix1 e)) _

/-- The reference's bias term at (e, j): the bias vector at j (a vector broadcast to one row, that row to every edge). -/
theorem bias_apply (e : Fin 1500000) (j : Fin 128) :
    val_main_v21 (F := Ideal) (A14 m c) (ix2 e j) = A14 m c (ix1 j) := by
  rw [val_main_v21_apply, val_main_v20_apply]
  exact congrArg (A14 m c) (funext fun a => Fin.ext (by match a with | ⟨0, _⟩ => rfl))

/-- The reference's gathered row of edge e at column k: the joined table at the row the edge's source names. In range
    the signed reading of the start index is its unsigned one and the gather's clamp into [0, 149999] does nothing. -/
theorem gathered_apply (hr : InRange m c) (e : Fin 1500000) (k : Fin 128) :
    val_main_v18 (F := Ideal) (A0 m c) (A8 m c) (A9 m c) (ix2 e k)
      = val_main_v0 (F := Ideal) (A8 m c) (A9 m c) (ix2 (⟨(srcIdx m c (ix1 e)).toNat, hr.src (ix1 e)⟩ : Fin 150000) k) := by
  have hs : (srcIdx m c (ix1 e)).toNat < 150000 := hr.src (ix1 e)
  have hmin : min (srcIdx m c (ix1 e)).toInt.toNat (150000 - 1) = (srcIdx m c (ix1 e)).toNat := by
    rw [toInt_toNat (by omega)]; omega
  unfold val_main_v18
  rw [gather_rows, Cert.LibRowGather.gather_rows_apply (by decide)]
  refine congrArg (val_main_v0 (F := Ideal) (A8 m c) (A9 m c)) ?_
  funext a
  refine Fin.ext ?_
  match a with
  | ⟨0, _⟩ =>
    show min (val_main_v17 (F := Ideal) (A0 m c) (ix2 e (0 : Fin 1))).toInt.toNat (150000 - 1) = (srcIdx m c (ix1 e)).toNat
    rw [start_apply m c hr e]
    exact hmin
  | ⟨1, _⟩ => rfl

end MsgRefRows

open MsgRefRows Cert.ReferenceIdeal.ReadP in
theorem ref_rows_apply (hr : InRange m c) (e : Fin 1500000) (j : Fin 128) :
    Cert.ReferenceIdeal.ReadP.val_main_v22 (F := Ideal) (A0 m c) (A8 m c) (A9 m c) (A13 m c) (A14 m c) (ix2 e j)
      = (∑ k : Fin 128, (concatenate S150000x128 0 [⟨S100000x128, A8 m c⟩, ⟨S50000x128, A9 m c⟩] concatenates_S100000x128_S50000x128_S150000x128_d0 : FVec Ideal S150000x128 .f32) (ix2 (⟨(srcIdx m c (ix1 e)).toNat, hr.src (ix1 e)⟩ : Fin 150000) k) * A13 m c (ix2 k j)) + A14 m c (ix1 j) := by
  rw [val_main_v22_apply, bias_apply, val_main_v19_apply]
  show (∑ k : Fin 128, _) + _ = _
  refine congrArg (· + A14 m c (ix1 j)) (Finset.sum_congr rfl fun k _ => ?_)
  have hl : lidx_main_v19 (ix2 e j) k = ix2 e k :=
    funext fun a => Fin.ext (by match a with | ⟨0, _⟩ => rfl | ⟨1, _⟩ => rfl)
  have hrr : ridx_main_v19 (ix2 e j) k = ix2 k j :=
    funext fun a => Fin.ext (by match a with | ⟨0, _⟩ => rfl | ⟨1, _⟩ => rfl)
  rw [hl, hrr, gathered_apply m c hr e k]
  rfl

end Cert.KernelIdeal.Val

end
-- ==== Proof.Val.StageMsg.lean ====
/-
  The per-edge messages. The kernel multiplies each edge's sign weight into the row of the precomputed node table
  Y = (all nodes) · W + b that the edge's source selects; the reference gathers the source's embedding row first and
  applies the linear map to it. A row gather commutes with a map that acts on rows, and under the range facts every
  table lookup of the kernel is its plain gather, so the two message arrays agree entry by entry.
-/
import proofs.«418315_j6339371728953_3_alg».proof.Proof.Gen.KernelIdeal.Regions
import proofs.«418315_j6339371728953_3_alg».proof.Proof.RefRead
import proofs.«418315_j6339371728953_3_alg».proof.Proof.Val.Hyps
import proofs.«418315_j6339371728953_3_alg».proof.Proof.Val.Spec
import proofs.«418315_j6339371728953_3_alg».proof.Proof.Val.MsgScale
import proofs.«418315_j6339371728953_3_alg».proof.Proof.Val.MsgInputs
import proofs.«418315_j6339371728953_3_alg».proof.Proof.Val.MsgRefRows
import proofs.«418315_j6339371728953_3_alg».proof.Proof.LibTake
import proofs.«418315_j6339371728953_3_alg».proof.Proof.LibRowGather
import proofs.«418315_j6339371728953_3_alg».proof.Proof.LibPlainDot
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (outs : Outs (F := Ideal)) (c : Dev nD)

namespace StageMsg

/-! ## The row lookup over any contents -/

/-- Two transports along a type equation and its converse cancel. -/
theorem cast_cast_self {α β : Type} (h₁ : α = β) (h₂ : β = α) (a : α) : cast h₂ (cast h₁ a) = a := by
  subst h₁; rfl

variable (W : Valuation τ sig (Elt Ideal))

/-- The source-index vector read at its own array type. -/
theorem ofBuf_v2 :
    (TRef.of main_v2 : TRef sig ⟨S1500000, .i32⟩).ofBuf (W (Proc.devRef .tc main_v2))
      = (W (Proc.devRef .tc main_v2) : IVec S1500000 32) := rfl

/-- The node table read at its own array type. -/
theorem ofBuf_v9 :
    (TRef.of main_v9 : TRef sig ⟨S155648x128, .f32⟩).ofBuf (W (Proc.devRef .tc main_v9))
      = (W (Proc.devRef .tc main_v9) : FVec Ideal S155648x128 .f32) := rfl

/-- The looked-up rows written at their own array type. -/
theorem toBuf_v13 (X : FVec Ideal S1500000x128 .f32) :
    (TRef.toBuf (Val := Elt Ideal) (TRef.of main_v13 : TRef sig ⟨S1500000x128, .f32⟩) X : FVec Ideal S1500000x128 .f32) = X := rfl

set_option maxHeartbeats 1000000 in
/-- The lookup of the node table's rows at the source indices, over any contents in which every source index is a
    natural number below the table's 155648 rows: no index wraps, every row passes the range test, and the lookup is
    the plain gather of rows. -/
theorem v13_take (hW : ∀ r, ((W (Proc.devRef .tc main_v2) : IVec S1500000 32) r).toNat < 155648) :
    (StableHlo.after hostOps1_3 W (Proc.devRef .tc main_v13) : FVec Ideal S1500000x128 .f32)
      = Host.gather gather_S155648x128_S1500000x1_S1500000x128_1_0_n_n_0_1_1128
          (W (Proc.devRef .tc main_v9) : FVec Ideal S155648x128 .f32)
          (broadcastInDim S1500000x1 ![0] bcast_S1500000_S1500000x1_0 (W (Proc.devRef .tc main_v2) : IVec S1500000 32)) := by
  have hN : 155648 < 2 ^ 31 := by norm_num
  have key := Cert.LibTake.take_rows_eq (α := Ideal .f32) (s := S155648x128) (R := 1500000) (N := 155648) (C := 128) hN
    (W (Proc.devRef .tc main_v2)) hW
    gather_S155648x128_S1500000x1_S1500000x128_1_0_n_n_0_1_1128 (W (Proc.devRef .tc main_v9))
    (broadcastInDim S1500000x128 ![] bcast_S_S1500000x128 (constant (F := Ideal) S_ FTy.f32 2143289344#32))
    bcast_S_S1500000 bcast_S_S1500000 bcast_S1500000_S1500000x1_0 bcast_S_S1500000x1 bcast_S1_S1x1_1
    bcast_S1x1_S1500000x1_0_1 reducesTo_S1500000x1_S1500000_d1 h_S_ bcast_S1500000_S1500000x128_0
  after_results_simp
  simp only [cast_cast_self, ofBuf_v2 W, ofBuf_v9 W]
  exact (toBuf_v13 _).trans key

/-! ## A gather of rows of a table that is a linear map of rows -/

/-- The printed dimension numbers of the row lookup are those of a gather of whole rows. -/
theorem dims_eq : gather_S155648x128_S1500000x1_S1500000x128_1_0_n_n_0_1_1128
    = Cert.LibRowGather.rowDims 155648 128 1500000 gather_S155648x128_S1500000x1_S1500000x128_1_0_n_n_0_1_1128_wf := rfl

/-- The row gather at entry (e, j): the table at the start index of row e, read signed and clamped, and column j. -/
theorem gath (T : FVec Ideal S155648x128 .f32) (I : IVec S1500000x1 32) (e : Fin 1500000) (j : Fin 128) :
    Host.gather gather_S155648x128_S1500000x1_S1500000x128_1_0_n_n_0_1_1128 T I (ix2 e j)
      = T (ix2 (⟨min (I (ix2 e (0 : Fin 1))).toInt.toNat (155648 - 1), by omega⟩ : Fin 155648) j) := by
  rw [dims_eq]
  exact Cert.LibRowGather.gather_rows_apply (N := 155648) (C := 128) (R := 1500000) (by norm_num)
    gather_S155648x128_S1500000x1_S1500000x128_1_0_n_n_0_1_1128_wf T I (ix2 e j)

/-- A gather of rows of a table T = x₆ · x₇ + x₈ at an index vector whose entry e is a natural number below the row
    count: entry (e, j) is  ∑ₖ x₆[I e, k] · x₇[k, j] + x₈[0, j]  — the clamp of the start index does nothing. -/
theorem rows_core (T : FVec Ideal S155648x128 .f32) (I : IVec S1500000 32)
    (x6 : FVec Ideal S155648x128 .bf16) (x7 : FVec Ideal S128x128 .bf16) (x8 : FVec Ideal S1x128 .f32)
    (hT : T = Cert.Spec.linRows x6 x7 x8) (e : Fin 1500000) (j : Fin 128) (hlt : (I (ix1 e)).toNat < 155648) :
    Host.gather gather_S155648x128_S1500000x1_S1500000x128_1_0_n_n_0_1_1128 T
        (broadcastInDim S1500000x1 ![0] bcast_S1500000_S1500000x1_0 I) (ix2 e j)
      = (∑ k : Fin 128, x6 (ix2 (⟨(I (ix1 e)).toNat, hlt⟩ : Fin 155648) k) * x7 (ix2 k j)) + x8 (ix2 (0 : Fin 1) j) := by
  rw [gath]
  have hb : broadcastInDim S1500000x1 ![0] bcast_S1500000_S1500000x1_0 I (ix2 e (0 : Fin 1)) = I (ix1 e) :=
    broadcastInDim_apply _ bcast_S1500000_S1500000x1_0 I _ (ix1 e) (fun a => match a with
      | ⟨0, _⟩ => by show e.val = if (1500000 : Nat) = 1 then 0 else e.val; rw [if_neg (by decide)])
  have hrow : (⟨min (broadcastInDim S1500000x1 ![0] bcast_S1500000_S1500000x1_0 I (ix2 e (0 : Fin 1))).toInt.toNat (155648 - 1), by omega⟩ : Fin 155648)
      = ⟨(I (ix1 e)).toNat, hlt⟩ := by
    apply Fin.ext
    show min (broadcastInDim S1500000x1 ![0] bcast_S1500000_S1500000x1_0 I (ix2 e (0 : Fin 1))).toInt.toNat (155648 - 1)
      = (I (ix1 e)).toNat
    rw [hb, Predicate.toInt_eq_toNat_of_lt (by omega), Int.toNat_natCast]
    exact Nat.min_eq_left (by omega)
  rw [hrow, hT]
  rfl

end StageMsg

/-! ## The kernel's looked-up rows -/

/-- The source indices as the row lookup reads them are row 0 of the edge list. -/
theorem StageMsg.src_eq : (V7 (F := Ideal) m outs c main_v2 : IVec S1500000 32) = srcIdx m c := by
  rw [V7_of m outs c main_v2 (by decide), V6_of m outs c main_v2 (by decide), V5_of m outs c main_v2 (by decide),
    V4_of m outs c main_v2 (by decide), V3_of m c main_v2 (by decide), V2_of m c main_v2 (by decide)]
  dsimp only [V1]
  after_results
  rfl

/-- The node table as the row lookup reads it is what the first region left. -/
theorem StageMsg.tbl_eq : V7 (F := Ideal) m outs c main_v9 = outs 4 main_v9 c := by
  rw [V7_of m outs c main_v9 (by decide), V6_of m outs c main_v9 (by decide), V5_of m outs c main_v9 (by decide)]
  dsimp only [V4]
  exact Function.update_self ..

/-- The kernel's looked-up rows at entry (e, j): the source's row of the joined embedding table through the linear map,
    ∑ₖ emb[src e, k] · W[k, j] + b[j]. The source is below 150000, so the row read is no padding row. -/
theorem StageMsg.kern_rows_apply (hr : InRange m c)
    (hY : outs 4 main_v9 c = Cert.Spec.linRows (φ₁ := .bf16) (φ₂ := .bf16) (V3 (F := Ideal) m c main_v6 : FVec Ideal S155648x128 .bf16) (V3 (F := Ideal) m c main_v7 : FVec Ideal S128x128 .bf16) (V3 (F := Ideal) m c main_v8 : FVec Ideal S1x128 .f32))
    (e : Fin 1500000) (j : Fin 128) :
    (V8 (F := Ideal) m outs c main_v13 : FVec Ideal S1500000x128 .f32) (ix2 e j)
      = (∑ k : Fin 128, (concatenate S150000x128 0 [⟨S100000x128, A8 m c⟩, ⟨S50000x128, A9 m c⟩] concatenates_S100000x128_S50000x128_S150000x128_d0 : FVec Ideal S150000x128 .f32) (ix2 (⟨(srcIdx m c (ix1 e)).toNat, hr.src (ix1 e)⟩ : Fin 150000) k) * A13 m c (ix2 k j)) + A14 m c (ix1 j) := by
  have h2 := StageMsg.src_eq m outs c
  have h9 := (StageMsg.tbl_eq m outs c).trans hY
  have hW : ∀ r, ((V7 (F := Ideal) m outs c main_v2 : IVec S1500000 32) r).toNat < 155648 := fun r => by
    rw [h2]; exact lt_trans (hr.src r) (by norm_num)
  dsimp only [V8]
  generalize V7 (F := Ideal) m outs c = W at h2 h9 hW ⊢
  rw [StageMsg.v13_take W hW, h2]
  refine (StageMsg.rows_core (W (Proc.devRef .tc main_v9)) (srcIdx m c) _ _ _ h9 e j
    (lt_trans (hr.src (ix1 e)) (by norm_num))).trans ?_
  congr 1
  · refine Finset.sum_congr rfl fun k _ => ?_
    rw [v6_apply m c _ (hr.src (ix1 e)) k, v7_eq m c]
  · exact v8_apply m c j

/-- The looked-up rows are the reference's linear map of the gathered source rows. -/
theorem rows (hr : InRange m c)
    (hY : outs 4 main_v9 c = Cert.Spec.linRows (φ₁ := .bf16) (φ₂ := .bf16) (V3 (F := Ideal) m c main_v6 : FVec Ideal S155648x128 .bf16) (V3 (F := Ideal) m c main_v7 : FVec Ideal S128x128 .bf16) (V3 (F := Ideal) m c main_v8 : FVec Ideal S1x128 .f32)) :
    V8 (F := Ideal) m outs c main_v13 = Cert.ReferenceIdeal.ReadP.val_main_v22 (F := Ideal) (A0 m c) (A8 m c) (A9 m c) (A13 m c) (A14 m c) := by
  funext i
  obtain ⟨e, j, rfl⟩ : ∃ (e : Fin 1500000) (j : Fin 128), i = ix2 e j := ⟨i 0, i 1, eq_ix2 i⟩
  exact (StageMsg.kern_rows_apply m outs c hr hY e j).trans (ref_rows_apply m c hr e j).symm

/-! ## The messages -/

/-- The message array is the product of the spread sign weights and the looked-up rows. -/
theorem StageMsg.v15_eq :
    (V9 (F := Ideal) m outs c main_v15 : FVec Ideal S1500000x128 .f32)
      = (mulf (V9 (F := Ideal) m outs c main_v14 : FVec Ideal S1500000x128 .f32)
          (V8 (F := Ideal) m outs c main_v13 : FVec Ideal S1500000x128 .f32) : FVec Ideal S1500000x128 .f32) := by
  dsimp only [V9]
  generalize V8 (F := Ideal) m outs c = W
  after_results

theorem msg (hr : InRange m c)
    (hY : outs 4 main_v9 c = Cert.Spec.linRows (φ₁ := .bf16) (φ₂ := .bf16) (V3 (F := Ideal) m c main_v6 : FVec Ideal S155648x128 .bf16) (V3 (F := Ideal) m c main_v7 : FVec Ideal S128x128 .bf16) (V3 (F := Ideal) m c main_v8 : FVec Ideal S1x128 .f32)) :
    V9 (F := Ideal) m outs c main_v15 = Cert.ReferenceIdeal.ReadP.val_main_v24 (F := Ideal) (A0 m c) (A1 m c) (A8 m c) (A9 m c) (A13 m c) (A14 m c) (A15 m c) := by
  have h := StageMsg.v15_eq m outs c
  rw [scale m outs c hr, rows m outs c hr hY] at h
  exact h

end Cert.KernelIdeal.Val

end
-- ==== Proof.Val.StageGlob.lean ====
/-
  From the messages to the node representations, and the two root lookups. Both programs scatter-add the messages
  by destination, clamp at zero and add the embeddings: the same operations on equal messages. The user and item roots
  then read rows of that table; in range, the kernel's lookup is the plain gather.
-/
import proofs.«418315_j6339371728953_3_alg».proof.Proof.Gen.KernelIdeal.Regions
import proofs.«418315_j6339371728953_3_alg».proof.Proof.RefRead
import proofs.«418315_j6339371728953_3_alg».proof.Proof.Val.Hyps
import proofs.«418315_j6339371728953_3_alg».proof.Proof.Val.Spec
import proofs.«418315_j6339371728953_3_alg».proof.Proof.LibTake
import proofs.«418315_j6339371728953_3_alg».proof.Proof.LibRowGather
import proofs.«418315_j6339371728953_3_alg».proof.Proof.LibPlainDot
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo

/-! ## One stretch at a time, from arbitrary contents

Each lemma opens one stretch of host operations from arbitrary buffer contents `W` and says what one buffer holds
afterwards, in terms of what the stretch reads; the inputs are named by hypotheses so that the caller supplies them in
whatever form it has them. -/

/-- The embedding table: the user rows followed by the item rows. -/
private theorem tableOf (W : Valuation τ sig (Elt Ideal)) :
    StableHlo.after (hostOps0 (F := Ideal)) W (Proc.devRef .tc main_v0)
      = concatenate (α := Ideal .f32) S150000x128 0
          [⟨S100000x128, W (Proc.devRef .tc main_arg8)⟩, ⟨S50000x128, W (Proc.devRef .tc main_arg9)⟩]
          concatenates_S100000x128_S50000x128_S150000x128_d0 := by
  after_results

/-- The destinations: row 1 of the edge list, as a vector. -/
private theorem destOf (W : Valuation τ sig (Elt Ideal)) :
    StableHlo.after (hostOps0 (F := Ideal)) W (Proc.devRef .tc main_v4)
      = shapeCast (α := BitVec 32) S1500000
          (extractStridedSlice (α := BitVec 32) S1x1500000 ![1, 0] (W (Proc.devRef .tc main_arg0)) slices_S2x1500000_S1x1500000_1_0)
          shapeCasts_S1x1500000_S1500000 := by
  after_results
  rfl

/-- The scaled messages, as the scatter's stretch forms them. -/
private theorem msgOf (W : Valuation τ sig (Elt Ideal)) :
    StableHlo.after (hostOps1_4 (F := Ideal)) W (Proc.devRef .tc main_v15)
      = mulf (F := Ideal) (s := S1500000x128) (φ := .f32)
          (broadcastInDim S1500000x128 ![0, 1] bcast_S1500000x1_S1500000x128_0_1 (W (Proc.devRef .tc main_v12)))
          (W (Proc.devRef .tc main_v13)) := by
  after_results

/-- The scatter-add of the messages by destination into a table of zeros. -/
private theorem scatterOf (W : Valuation τ sig (Elt Ideal)) (dst : IVec S1500000 32) (msg : FVec Ideal S1500000x128 .f32)
    (hd : W (Proc.devRef .tc main_v4) = dst)
    (hm : StableHlo.after (hostOps1_4 (F := Ideal)) W (Proc.devRef .tc main_v15) = msg) :
    StableHlo.after (hostOps1_4 (F := Ideal)) W (Proc.devRef .tc main_v18)
      = Host.scatterAdd (F := Ideal) scatter_S150000x128_S1500000x1_S1500000x128_1_0_0_1
          (broadcastInDim S150000x128 ![] bcast_S_S150000x128 (constant (F := Ideal) S_ .f32 0x00000000#32))
          (broadcastInDim S1500000x1 ![0] bcast_S1500000_S1500000x1_0 dst) msg := by
  subst hd hm
  rw [msgOf]
  after_results

/-- The clamp at zero. -/
private theorem clampOf (W : Valuation τ sig (Elt Ideal)) (x : FVec Ideal S150000x128 .f32)
    (hx : W (Proc.devRef .tc main_v18) = x) :
    StableHlo.after (hostOps1_5 (F := Ideal)) W (Proc.devRef .tc main_v19)
      = maximumf (F := Ideal) (s := S150000x128) (φ := .f32) x
          (broadcastInDim S150000x128 ![] bcast_S_S150000x128 (constant (F := Ideal) S_ .f32 0x00000000#32)) := by
  subst hx
  after_results
  simp only [TRef.ofBuf, TRef.toBuf, cast_eq]

/-- The embeddings plus the clamped sums. -/
private theorem sumOf (W : Valuation τ sig (Elt Ideal)) (e x : FVec Ideal S150000x128 .f32)
    (he : W (Proc.devRef .tc main_v0) = e) (hx : W (Proc.devRef .tc main_v19) = x) :
    StableHlo.after (hostOps1_6 (F := Ideal)) W (Proc.devRef .tc main_v20)
      = addf (F := Ideal) (s := S150000x128) (φ := .f32) e x := by
  subst he hx
  after_results

/-- The lookup of the user roots: with every index inside the table, the rows at the indices. -/
private theorem takeUOf (W : Valuation τ sig (Elt Ideal)) (x : FVec Ideal S150000x128 .f32) (idx : IVec S1024 32)
    (hx : W (Proc.devRef .tc main_v20) = x) (hi : W (Proc.devRef .tc main_arg2) = idx)
    (hidx : ∀ r, (idx r).toNat < 150000) :
    StableHlo.after (hostOps1_7 (F := Ideal)) W (Proc.devRef .tc main_v21)
      = Host.gather (α := Ideal .f32) gather_S150000x128_S1024x1_S1024x128_1_0_n_n_0_1_1128 x
          (broadcastInDim S1024x1 ![0] bcast_S1024_S1024x1_0 idx) := by
  subst hx hi
  after_results_simp
  simp only [TRef.ofBuf, TRef.toBuf, cast_eq]
  exact Cert.LibTake.take_rows_eq (N := 150000) (by decide) _ hidx _ _ _ _ _ _ _ _ _ _ _ _

/-- The item roots moved past the user rows. -/
private theorem shiftOf (W : Valuation τ sig (Elt Ideal)) (x : IVec S1024 32)
    (hx : W (Proc.devRef .tc main_arg3) = x) :
    StableHlo.after (hostOps1_8 (F := Ideal)) W (Proc.devRef .tc main_v23)
      = addi (s := S1024) (w := 32) x (broadcastInDim S1024 ![] bcast_S_S1024 (constantI S_ 32 100000#32)) := by
  subst hx
  after_results

/-- The lookup of the item roots: with every index inside the table, the rows at the indices. -/
private theorem takeIOf (W : Valuation τ sig (Elt Ideal)) (x : FVec Ideal S150000x128 .f32) (idx : IVec S1024 32)
    (hx : W (Proc.devRef .tc main_v20) = x) (hi : W (Proc.devRef .tc main_v23) = idx)
    (hidx : ∀ r, (idx r).toNat < 150000) :
    StableHlo.after (hostOps1_9 (F := Ideal)) W (Proc.devRef .tc main_v24)
      = Host.gather (α := Ideal .f32) gather_S150000x128_S1024x1_S1024x128_1_0_n_n_0_1_1128 x
          (broadcastInDim S1024x1 ![0] bcast_S1024_S1024x1_0 idx) := by
  subst hx hi
  after_results_simp
  simp only [TRef.ofBuf, TRef.toBuf, cast_eq]
  exact Cert.LibTake.take_rows_eq (N := 150000) (by decide) _ hidx _ _ _ _ _ _ _ _ _ _ _ _

/-! ## The reference's index arithmetic, in range -/

/-- In range, the reference's wrap of negative user roots does nothing. -/
private theorem refWrapU (x : IVec S1024 32) (h : ∀ r, (x r).toNat < 150000) :
    Cert.ReferenceIdeal.ReadP.val_main_v34 (F := Ideal) x = x := by
  unfold Cert.ReferenceIdeal.ReadP.val_main_v34 Cert.ReferenceIdeal.ReadP.val_main_v31 Cert.ReferenceIdeal.ReadP.val_main_v33
    Cert.ReferenceIdeal.ReadP.val_main_v30 Cert.ReferenceIdeal.ReadP.val_main_v32 Cert.ReferenceIdeal.ReadP.val_main_c_3
    Cert.ReferenceIdeal.ReadP.val_main_c_4
  exact Cert.LibTake.wrap_id (N := 150000) (by decide) x h _ _

/-- An item root below 50000 plus 100000 is below 150000: the 32-bit sum does not wrap around. -/
private theorem refRangeI (x : IVec S1024 32) (hx : ∀ i, (x i).toNat < 50000) (i : S1024.Idx) :
    (Cert.ReferenceIdeal.ReadP.val_main_v38 (F := Ideal) x i).toNat < 150000 := by
  show (IntOp.addi (x i) 100000#32).toNat < 150000
  have h := hx i
  unfold IntOp.addi
  rw [BitVec.toNat_add]
  simp only [BitVec.toNat_ofNat]
  omega

/-- In range, the reference's wrap of negative shifted item roots does nothing. -/
private theorem refWrapI (x : IVec S1024 32)
    (h : ∀ r, (Cert.ReferenceIdeal.ReadP.val_main_v38 (F := Ideal) x r).toNat < 150000) :
    Cert.ReferenceIdeal.ReadP.val_main_v43 (F := Ideal) x = Cert.ReferenceIdeal.ReadP.val_main_v38 (F := Ideal) x := by
  unfold Cert.ReferenceIdeal.ReadP.val_main_v43 Cert.ReferenceIdeal.ReadP.val_main_v40 Cert.ReferenceIdeal.ReadP.val_main_v42
    Cert.ReferenceIdeal.ReadP.val_main_v39 Cert.ReferenceIdeal.ReadP.val_main_v41 Cert.ReferenceIdeal.ReadP.val_main_c_6
    Cert.ReferenceIdeal.ReadP.val_main_c_7
  exact Cert.LibTake.wrap_id (N := 150000) (by decide) _ h _ _

variable (m : (ℓ : Loc nD τ sig) → Buf (Elt Ideal) ℓ) (outs : Outs (F := Ideal)) (c : Dev nD)

/-! ## Contents that reach a later stretch unchanged -/

/-- The embedding table where the sum reads it. -/
private theorem table_at10 :
    V10 (F := Ideal) m outs c main_v0 = Cert.ReferenceIdeal.ReadP.val_main_v0 (F := Ideal) (A8 m c) (A9 m c) :=
  (V10_of m outs c main_v0 (by decide)).trans <| (V9_of m outs c main_v0 (by decide)).trans <| (V8_of m outs c main_v0 (by decide)).trans <| (V7_of m outs c main_v0 (by decide)).trans <| (V6_of m outs c main_v0 (by decide)).trans <| (V5_of m outs c main_v0 (by decide)).trans <| (V4_of m outs c main_v0 (by decide)).trans <| (V3_of m c main_v0 (by decide)).trans <| (V2_of m c main_v0 (by decide)).trans <| tableOf (V0 (F := Ideal) m c)

/-- The destinations where the scatter reads them. -/
private theorem dest_at8 :
    V8 (F := Ideal) m outs c main_v4 = Cert.ReferenceIdeal.ReadP.val_main_v4 (F := Ideal) (A0 m c) :=
  (V8_of m outs c main_v4 (by decide)).trans <| (V7_of m outs c main_v4 (by decide)).trans <| (V6_of m outs c main_v4 (by decide)).trans <| (V5_of m outs c main_v4 (by decide)).trans <| (V4_of m outs c main_v4 (by decide)).trans <| (V3_of m c main_v4 (by decide)).trans <| (V2_of m c main_v4 (by decide)).trans <| destOf (V0 (F := Ideal) m c)

/-- The user roots where their lookup reads them. -/
private theorem arg2_at11 : V11 (F := Ideal) m outs c main_arg2 = A2 m c :=
  (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m c main_arg2 (by decide)).trans <| (V2_of m c main_arg2 (by decide)).trans <| (V1_of m c main_arg2 (by decide)).trans <| rfl

/-- The item roots where the shift reads them. -/
private theorem arg3_at12 : V12 (F := Ideal) m outs c main_arg3 = A3 m c :=
  (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m c main_arg3 (by decide)).trans <| (V2_of m c main_arg3 (by decide)).trans <| (V1_of m c main_arg3 (by decide)).trans <| rfl

theorem glob (hmsg : V9 (F := Ideal) m outs c main_v15 = Cert.ReferenceIdeal.ReadP.val_main_v24 (F := Ideal) (A0 m c) (A1 m c) (A8 m c) (A9 m c) (A13 m c) (A14 m c) (A15 m c)) :
    V11 (F := Ideal) m outs c main_v20 = Cert.ReferenceIdeal.ReadP.val_main_v29 (F := Ideal) (A0 m c) (A1 m c) (A8 m c) (A9 m c) (A13 m c) (A14 m c) (A15 m c) := by
  refine (sumOf (V10 (F := Ideal) m outs c) _ _ (table_at10 m outs c)
    (clampOf (V9 (F := Ideal) m outs c) _
      (scatterOf (V8 (F := Ideal) m outs c) _ _ (dest_at8 m outs c) hmsg))).trans ?_
  unfold Cert.ReferenceIdeal.ReadP.val_main_v29 Cert.ReferenceIdeal.ReadP.val_main_v28 Cert.ReferenceIdeal.ReadP.val_main_v27
    Cert.ReferenceIdeal.ReadP.val_main_v26 Cert.ReferenceIdeal.ReadP.val_main_v25 Cert.ReferenceIdeal.ReadP.val_main_cst
    Cert.ReferenceIdeal.ReadP.val_main_call0_v0 Cert.ReferenceIdeal.ReadP.val_main_call0_cst
  rfl

theorem gu (hr : InRange m c) (hglob : V11 (F := Ideal) m outs c main_v20 = Cert.ReferenceIdeal.ReadP.val_main_v29 (F := Ideal) (A0 m c) (A1 m c) (A8 m c) (A9 m c) (A13 m c) (A14 m c) (A15 m c)) :
    V12 (F := Ideal) m outs c main_v21 = Cert.ReferenceIdeal.ReadP.val_main_v36 (F := Ideal) (A0 m c) (A1 m c) (A2 m c) (A8 m c) (A9 m c) (A13 m c) (A14 m c) (A15 m c) := by
  refine (takeUOf (V11 (F := Ideal) m outs c) _ _ hglob (arg2_at11 m outs c) hr.rootu).trans ?_
  unfold Cert.ReferenceIdeal.ReadP.val_main_v36 Cert.ReferenceIdeal.ReadP.val_main_v35
  rw [refWrapU (A2 m c) hr.rootu]
  rfl

theorem gi (hr : InRange m c) (hglob : V11 (F := Ideal) m outs c main_v20 = Cert.ReferenceIdeal.ReadP.val_main_v29 (F := Ideal) (A0 m c) (A1 m c) (A8 m c) (A9 m c) (A13 m c) (A14 m c) (A15 m c)) :
    V14 (F := Ideal) m outs c main_v24 = Cert.ReferenceIdeal.ReadP.val_main_v45 (F := Ideal) (A0 m c) (A1 m c) (A3 m c) (A8 m c) (A9 m c) (A13 m c) (A14 m c) (A15 m c) := by
  have hrange : ∀ r, (Cert.ReferenceIdeal.ReadP.val_main_v38 (F := Ideal) (A3 m c) r).toNat < 150000 :=
    refRangeI (A3 m c) hr.rooti
  have h20 : V13 (F := Ideal) m outs c main_v20 = Cert.ReferenceIdeal.ReadP.val_main_v29 (F := Ideal) (A0 m c) (A1 m c) (A8 m c) (A9 m c) (A13 m c) (A14 m c) (A15 m c) :=
    (V13_of m outs c main_v20 (by decide)).trans <| (V12_of m outs c main_v20 (by decide)).trans hglob
  have h23 : V13 (F := Ideal) m outs c main_v23 = Cert.ReferenceIdeal.ReadP.val_main_v38 (F := Ideal) (A3 m c) :=
    shiftOf (V12 (F := Ideal) m outs c) _ (arg3_at12 m outs c)
  refine (takeIOf (V13 (F := Ideal) m outs c) _ _ h20 h23 hrange).trans ?_
  unfold Cert.ReferenceIdeal.ReadP.val_main_v45 Cert.ReferenceIdeal.ReadP.val_main_v44
  rw [refWrapI (A3 m c) hrange]
  rfl

end Cert.KernelIdeal.Val

end
-- ==== Proof.Val.StageIntent.lean ====
/-
  The two intent heads: tanh of a linear map, a second linear map, a softmax over eight logits, and the mixture of
  the eight prototypes. The kernel and the reference apply the same operations to the root rows, so equal roots give
  equal probabilities and equal mixtures. Each head is written once as a function of its inputs, for any float
  family; the kernel's buffers and the reference's stages are both that function, by unfolding.
-/
import proofs.«418315_j6339371728953_3_alg».proof.Proof.Gen.KernelIdeal.Regions
import proofs.«418315_j6339371728953_3_alg».proof.Proof.RefRead
import proofs.«418315_j6339371728953_3_alg».proof.Proof.Val.Hyps
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

namespace Intent

section Generic
variable {F : FTy → Type} [FloatOps F]

/-- The logits of a head: a linear map with bias, tanh, a second linear map with bias. -/
def logits (x : (⟨S1024x128, .f32⟩ : BufTy).Contents (Elt F)) (w1 : (⟨S128x128, .f32⟩ : BufTy).Contents (Elt F))
    (b1 : (⟨S128, .f32⟩ : BufTy).Contents (Elt F)) (w2 : (⟨S128x8, .f32⟩ : BufTy).Contents (Elt F))
    (b2 : (⟨S8, .f32⟩ : BufTy).Contents (Elt F)) : (⟨S1024x8, .f32⟩ : BufTy).Contents (Elt F) :=
  addf
    (Host.dotGeneral dot_S1024x128_S128x8_S1024x8_1_0_0_1_n_n none
      (Host.tanh
        (addf (Host.dotGeneral dot_S1024x128_S128x128_S1024x128_1_0_0_1_n_n none x w1)
          (broadcastInDim S1024x128 ![0, 1] bcast_S1x128_S1024x128_0_1 (broadcastInDim S1x128 ![1] bcast_S128_S1x128_1 b1))))
      w2)
    (broadcastInDim S1024x8 ![0, 1] bcast_S1x8_S1024x8_0_1 (broadcastInDim S1x8 ![1] bcast_S8_S1x8_1 b2))

/-- The exponentials of the logits shifted by their row maximum (the maximum taken against minus infinity). -/
def expShift (z : (⟨S1024x8, .f32⟩ : BufTy).Contents (Elt F)) : (⟨S1024x8, .f32⟩ : BufTy).Contents (Elt F) :=
  Host.exp
    (subf z
      (broadcastInDim S1024x8 ![0, 1] bcast_S1024x1_S1024x8_0_1
        (broadcastInDim S1024x1 ![0] bcast_S1024_S1024x1_0
          (maximumf (broadcastInDim S1024 ![] bcast_S_S1024 (constant S_ .f32 0xFF800000#32))
            (Host.reduce FloatOps.maximumf z (constant S_ .f32 0xFF800000#32) reducesTo_S1024x8_S1024_d1 h_S_)))))

/-- The row-wise softmax over the eight logits: the shifted exponentials over their row sums. -/
def softmax8 (z : (⟨S1024x8, .f32⟩ : BufTy).Contents (Elt F)) : (⟨S1024x8, .f32⟩ : BufTy).Contents (Elt F) :=
  Host.divf (expShift z)
    (broadcastInDim S1024x8 ![0, 1] bcast_S1024x1_S1024x8_0_1
      (broadcastInDim S1024x1 ![0] bcast_S1024_S1024x1_0
        (Host.reduceAdd (expShift z) (constant S_ .f32 0x00000000#32) reducesTo_S1024x8_S1024_d1 h_S_)))

/-- The mixture of the eight prototype rows under the probabilities. -/
def mix (p : (⟨S1024x8, .f32⟩ : BufTy).Contents (Elt F)) (t : (⟨S8x128, .f32⟩ : BufTy).Contents (Elt F)) : (⟨S1024x128, .f32⟩ : BufTy).Contents (Elt F) :=
  Host.dotGeneral dot_S1024x8_S8x128_S1024x128_1_0_0_1_n_n none p t

variable (m : (ℓ : Loc nD τ sig) → Buf (Elt F) ℓ) (outs : Outs (F := F)) (c : Dev nD)

/-! ### The kernel's stretch, buffer by buffer -/

/-- The user head's probabilities, as the stretch computes them from what it reads. -/
theorem k44 : V15 (F := F) m outs c main_v44
    = softmax8 (logits (V14 (F := F) m outs c main_v21) (V14 (F := F) m outs c main_arg16) (V14 (F := F) m outs c main_arg17)
        (V14 (F := F) m outs c main_arg18) (V14 (F := F) m outs c main_arg19)) := by
  show StableHlo.after hostOps1_10 (V14 (F := F) m outs c) (Proc.devRef .tc main_v44) = _
  generalize V14 (F := F) m outs c = W
  unfold hostOps1_10
  after_results_simp
  rfl

/-- The user head's mixture. -/
theorem k45 : V15 (F := F) m outs c main_v45
    = mix (softmax8 (logits (V14 (F := F) m outs c main_v21) (V14 (F := F) m outs c main_arg16) (V14 (F := F) m outs c main_arg17)
        (V14 (F := F) m outs c main_arg18) (V14 (F := F) m outs c main_arg19))) (V14 (F := F) m outs c main_arg11) := by
  show StableHlo.after hostOps1_10 (V14 (F := F) m outs c) (Proc.devRef .tc main_v45) = _
  generalize V14 (F := F) m outs c = W
  unfold hostOps1_10
  after_results_simp
  rfl

/-- The item head's probabilities. -/
theorem k65 : V15 (F := F) m outs c main_v65
    = softmax8 (logits (V14 (F := F) m outs c main_v24) (V14 (F := F) m outs c main_arg16) (V14 (F := F) m outs c main_arg17)
        (V14 (F := F) m outs c main_arg18) (V14 (F := F) m outs c main_arg19)) := by
  show StableHlo.after hostOps1_10 (V14 (F := F) m outs c) (Proc.devRef .tc main_v65) = _
  generalize V14 (F := F) m outs c = W
  unfold hostOps1_10
  after_results_simp
  rfl

/-- The item head's mixture. -/
theorem k66 : V15 (F := F) m outs c main_v66
    = mix (softmax8 (logits (V14 (F := F) m outs c main_v24) (V14 (F := F) m outs c main_arg16) (V14 (F := F) m outs c main_arg17)
        (V14 (F := F) m outs c main_arg18) (V14 (F := F) m outs c main_arg19))) (V14 (F := F) m outs c main_arg12) := by
  show StableHlo.after hostOps1_10 (V14 (F := F) m outs c) (Proc.devRef .tc main_v66) = _
  generalize V14 (F := F) m outs c = W
  unfold hostOps1_10
  after_results_simp
  rfl

/-! ### What the stretch reads is what was last written there -/

/-- A buffer no item before the stretch writes still holds its launch contents. -/
theorem V14_launch (r : Ref sig .tc) (h0 : r ∉ hostOps0_W) (h1 : r ∉ hostOps0_1_W) (h2 : r ∉ hostOps0_2_W) (h3 : r ∉ ([main_v9] : List (Ref sig .tc))) (h4 : r ∉ hostOps1_W) (h5 : r ∉ hostOps1_1_W) (h6 : r ∉ hostOps1_2_W) (h7 : r ∉ hostOps1_3_W) (h8 : r ∉ hostOps1_4_W) (h9 : r ∉ hostOps1_5_W) (h10 : r ∉ hostOps1_6_W) (h11 : r ∉ hostOps1_7_W) (h12 : r ∉ hostOps1_8_W) (h13 : r ∉ hostOps1_9_W) :
    V14 (F := F) m outs c r = V0 m c r :=
  (V14_of m outs c r h13).trans <| (V13_of m outs c r h12).trans <| (V12_of m outs c r h11).trans <| (V11_of m outs c r h10).trans <| (V10_of m outs c r h9).trans <| (V9_of m outs c r h8).trans <| (V8_of m outs c r h7).trans <| (V7_of m outs c r h6).trans <| (V6_of m outs c r h5).trans <| (V5_of m outs c r h4).trans <| (V4_of m outs c r h3).trans <| (V3_of m c r h2).trans <| (V2_of m c r h1).trans <| V1_of m c r h0

theorem V14_arg16 : V14 (F := F) m outs c main_arg16 = m ((c.tc : Thread nD τ).loc main_arg16) :=
  V14_launch m outs c main_arg16 (by decide) (by decide) (by decide) (by decide) (by decide) (by decide) (by decide) (by decide) (by decide) (by decide) (by decide) (by decide) (by decide) (by decide)
theorem V14_arg17 : V14 (F := F) m outs c main_arg17 = m ((c.tc : Thread nD τ).loc main_arg17) :=
  V14_launch m outs c main_arg17 (by decide) (by decide) (by decide) (by decide) (by decide) (by decide) (by decide) (by decide) (by decide) (by decide) (by decide) (by decide) (by decide) (by decide)
theorem V14_arg18 : V14 (F := F) m outs c main_arg18 = m ((c.tc : Thread nD τ).loc main_arg18) :=
  V14_launch m outs c main_arg18 (by decide) (by decide) (by decide) (by decide) (by decide) (by decide) (by decide) (by decide) (by decide) (by decide) (by decide) (by decide) (by decide) (by decide)
theorem V14_arg19 : V14 (F := F) m outs c main_arg19 = m ((c.tc : Thread nD τ).loc main_arg19) :=
  V14_launch m outs c main_arg19 (by decide) (by decide) (by decide) (by decide) (by decide) (by decide) (by decide) (by decide) (by decide) (by decide) (by decide) (by decide) (by decide) (by decide)
theorem V14_arg11 : V14 (F := F) m outs c main_arg11 = m ((c.tc : Thread nD τ).loc main_arg11) :=
  V14_launch m outs c main_arg11 (by decide) (by decide) (by decide) (by decide) (by decide) (by decide) (by decide) (by decide) (by decide) (by decide) (by decide) (by decide) (by decide) (by decide)
theorem V14_arg12 : V14 (F := F) m outs c main_arg12 = m ((c.tc : Thread nD τ).loc main_arg12) :=
  V14_launch m outs c main_arg12 (by decide) (by decide) (by decide) (by decide) (by decide) (by decide) (by decide) (by decide) (by decide) (by decide) (by decide) (by decide) (by decide) (by decide)

/-- The user roots, written by item 11, are untouched by items 12 and 13. -/
theorem V14_v21 : V14 (F := F) m outs c main_v21 = V12 (F := F) m outs c main_v21 :=
  (V14_of m outs c main_v21 (by decide)).trans (V13_of m outs c main_v21 (by decide))

/-! ### The reference's stages are the same heads -/

section Reference
open Cert.ReferenceIdeal.ReadP

variable (x0 : (⟨S2x1500000, .i32⟩ : BufTy).Contents (Elt F)) (x1 : (⟨S1500000, .i32⟩ : BufTy).Contents (Elt F)) (x2 x3 : (⟨S1024, .i32⟩ : BufTy).Contents (Elt F))
  (x8 : (⟨S100000x128, .f32⟩ : BufTy).Contents (Elt F)) (x9 : (⟨S50000x128, .f32⟩ : BufTy).Contents (Elt F)) (x11 x12 : (⟨S8x128, .f32⟩ : BufTy).Contents (Elt F))
  (x13 : (⟨S128x128, .f32⟩ : BufTy).Contents (Elt F)) (x14 : (⟨S128, .f32⟩ : BufTy).Contents (Elt F)) (x15 : (⟨S2x1, .f32⟩ : BufTy).Contents (Elt F))
  (x16 : (⟨S128x128, .f32⟩ : BufTy).Contents (Elt F)) (x17 : (⟨S128, .f32⟩ : BufTy).Contents (Elt F)) (x18 : (⟨S128x8, .f32⟩ : BufTy).Contents (Elt F)) (x19 : (⟨S8, .f32⟩ : BufTy).Contents (Elt F))

/-- The reference's user probabilities are the softmax head of its user roots. -/
theorem r65 : val_main_v65 (F := F) x0 x1 x2 x8 x9 x13 x14 x15 x16 x17 x18 x19
    = softmax8 (logits (val_main_v36 (F := F) x0 x1 x2 x8 x9 x13 x14 x15) x16 x17 x18 x19) := rfl

/-- The reference's user mixture. -/
theorem r66 : val_main_v66 (F := F) x0 x1 x2 x8 x9 x11 x13 x14 x15 x16 x17 x18 x19
    = mix (softmax8 (logits (val_main_v36 (F := F) x0 x1 x2 x8 x9 x13 x14 x15) x16 x17 x18 x19)) x11 := rfl

/-- The reference's item probabilities are the softmax head of its item roots. -/
theorem r86 : val_main_v86 (F := F) x0 x1 x3 x8 x9 x13 x14 x15 x16 x17 x18 x19
    = softmax8 (logits (val_main_v45 (F := F) x0 x1 x3 x8 x9 x13 x14 x15) x16 x17 x18 x19) := rfl

/-- The reference's item mixture. -/
theorem r87 : val_main_v87 (F := F) x0 x1 x3 x8 x9 x12 x13 x14 x15 x16 x17 x18 x19
    = mix (softmax8 (logits (val_main_v45 (F := F) x0 x1 x3 x8 x9 x13 x14 x15) x16 x17 x18 x19)) x12 := rfl

end Reference

end Generic

end Intent

open Intent

variable (m : (ℓ : Loc nD τ sig) → Buf (Elt Ideal) ℓ) (outs : Outs (F := Ideal)) (c : Dev nD)

theorem pu (hgu : V12 (F := Ideal) m outs c main_v21 = Cert.ReferenceIdeal.ReadP.val_main_v36 (F := Ideal) (A0 m c) (A1 m c) (A2 m c) (A8 m c) (A9 m c) (A13 m c) (A14 m c) (A15 m c)) :
    V15 (F := Ideal) m outs c main_v44 = Cert.ReferenceIdeal.ReadP.val_main_v65 (F := Ideal) (A0 m c) (A1 m c) (A2 m c) (A8 m c) (A9 m c) (A13 m c) (A14 m c) (A15 m c) (A16 m c) (A17 m c) (A18 m c) (A19 m c) := by
  rw [k44, V14_v21, hgu, V14_arg16, V14_arg17, V14_arg18, V14_arg19, r65]

theorem ru (hgu : V12 (F := Ideal) m outs c main_v21 = Cert.ReferenceIdeal.ReadP.val_main_v36 (F := Ideal) (A0 m c) (A1 m c) (A2 m c) (A8 m c) (A9 m c) (A13 m c) (A14 m c) (A15 m c)) :
    V15 (F := Ideal) m outs c main_v45 = Cert.ReferenceIdeal.ReadP.val_main_v66 (F := Ideal) (A0 m c) (A1 m c) (A2 m c) (A8 m c) (A9 m c) (A11 m c) (A13 m c) (A14 m c) (A15 m c) (A16 m c) (A17 m c) (A18 m c) (A19 m c) := by
  rw [k45, V14_v21, hgu, V14_arg16, V14_arg17, V14_arg18, V14_arg19, V14_arg11, r66]

theorem pv (hgi : V14 (F := Ideal) m outs c main_v24 = Cert.ReferenceIdeal.ReadP.val_main_v45 (F := Ideal) (A0 m c) (A1 m c) (A3 m c) (A8 m c) (A9 m c) (A13 m c) (A14 m c) (A15 m c)) :
    V15 (F := Ideal) m outs c main_v65 = Cert.ReferenceIdeal.ReadP.val_main_v86 (F := Ideal) (A0 m c) (A1 m c) (A3 m c) (A8 m c) (A9 m c) (A13 m c) (A14 m c) (A15 m c) (A16 m c) (A17 m c) (A18 m c) (A19 m c) := by
  rw [k65, hgi, V14_arg16, V14_arg17, V14_arg18, V14_arg19, r86]

theorem rv (hgi : V14 (F := Ideal) m outs c main_v24 = Cert.ReferenceIdeal.ReadP.val_main_v45 (F := Ideal) (A0 m c) (A1 m c) (A3 m c) (A8 m c) (A9 m c) (A13 m c) (A14 m c) (A15 m c)) :
    V15 (F := Ideal) m outs c main_v66 = Cert.ReferenceIdeal.ReadP.val_main_v87 (F := Ideal) (A0 m c) (A1 m c) (A3 m c) (A8 m c) (A9 m c) (A12 m c) (A13 m c) (A14 m c) (A15 m c) (A16 m c) (A17 m c) (A18 m c) (A19 m c) := by
  rw [k66, hgi, V14_arg16, V14_arg17, V14_arg18, V14_arg19, V14_arg12, r87]

end Cert.KernelIdeal.Val

end
-- ==== Proof.Val.LocalInputs.lean ====
/-
  What region 1 is entered with besides the local feature table, in terms of @main's arguments: the two weight
  matrices are the arguments themselves and the bias row is the bias vector laid out as one row.
-/
import proofs.«418315_j6339371728953_3_alg».proof.Proof.Gen.KernelIdeal.Regions
import proofs.«418315_j6339371728953_3_alg».proof.Proof.RefRead
import proofs.«418315_j6339371728953_3_alg».proof.Proof.Val.Hyps
import proofs.«418315_j6339371728953_3_alg».proof.Proof.Val.Spec
import proofs.«418315_j6339371728953_3_alg».proof.Proof.LibRowGather
import proofs.«418315_j6339371728953_3_alg».proof.Proof.LibPlainDot
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (outs : Outs (F := Ideal)) (c : Dev nD)

/-! ## The three arguments at item 17

No host stretch before item 17 writes an argument of @main and region 0 may change only its own result, so each of the
three arguments holds at item 17 what it was launched with. -/

namespace LocalInputs

theorem arg20_at17 : V17 (F := Ideal) m outs c main_arg20 = m ((c : Thread nD τ).loc main_arg20) :=
  (V17_of m outs c main_arg20 (by decide)).trans <| (V16_of m outs c main_arg20 (by decide)).trans <|
    (V15_of m outs c main_arg20 (by decide)).trans <| (V14_of m outs c main_arg20 (by decide)).trans <|
    (V13_of m outs c main_arg20 (by decide)).trans <| (V12_of m outs c main_arg20 (by decide)).trans <|
    (V11_of m outs c main_arg20 (by decide)).trans <| (V10_of m outs c main_arg20 (by decide)).trans <|
    (V9_of m outs c main_arg20 (by decide)).trans <| (V8_of m outs c main_arg20 (by decide)).trans <|
    (V7_of m outs c main_arg20 (by decide)).trans <| (V6_of m outs c main_arg20 (by decide)).trans <|
    (V5_of m outs c main_arg20 (by decide)).trans <| (V4_of m outs c main_arg20 (by decide)).trans <|
    (V3_of m c main_arg20 (by decide)).trans <| (V2_of m c main_arg20 (by decide)).trans <|
    (V1_of m c main_arg20 (by decide)).trans <| rfl

theorem arg21_at17 : V17 (F := Ideal) m outs c main_arg21 = m ((c : Thread nD τ).loc main_arg21) :=
  (V17_of m outs c main_arg21 (by decide)).trans <| (V16_of m outs c main_arg21 (by decide)).trans <|
    (V15_of m outs c main_arg21 (by decide)).trans <| (V14_of m outs c main_arg21 (by decide)).trans <|
    (V13_of m outs c main_arg21 (by decide)).trans <| (V12_of m outs c main_arg21 (by decide)).trans <|
    (V11_of m outs c main_arg21 (by decide)).trans <| (V10_of m outs c main_arg21 (by decide)).trans <|
    (V9_of m outs c main_arg21 (by decide)).trans <| (V8_of m outs c main_arg21 (by decide)).trans <|
    (V7_of m outs c main_arg21 (by decide)).trans <| (V6_of m outs c main_arg21 (by decide)).trans <|
    (V5_of m outs c main_arg21 (by decide)).trans <| (V4_of m outs c main_arg21 (by decide)).trans <|
    (V3_of m c main_arg21 (by decide)).trans <| (V2_of m c main_arg21 (by decide)).trans <|
    (V1_of m c main_arg21 (by decide)).trans <| rfl

theorem arg22_at17 : V17 (F := Ideal) m outs c main_arg22 = m ((c : Thread nD τ).loc main_arg22) :=
  (V17_of m outs c main_arg22 (by decide)).trans <| (V16_of m outs c main_arg22 (by decide)).trans <|
    (V15_of m outs c main_arg22 (by decide)).trans <| (V14_of m outs c main_arg22 (by decide)).trans <|
    (V13_of m outs c main_arg22 (by decide)).trans <| (V12_of m outs c main_arg22 (by decide)).trans <|
    (V11_of m outs c main_arg22 (by decide)).trans <| (V10_of m outs c main_arg22 (by decide)).trans <|
    (V9_of m outs c main_arg22 (by decide)).trans <| (V8_of m outs c main_arg22 (by decide)).trans <|
    (V7_of m outs c main_arg22 (by decide)).trans <| (V6_of m outs c main_arg22 (by decide)).trans <|
    (V5_of m outs c main_arg22 (by decide)).trans <| (V4_of m outs c main_arg22 (by decide)).trans <|
    (V3_of m c main_arg22 (by decide)).trans <| (V2_of m c main_arg22 (by decide)).trans <|
    (V1_of m c main_arg22 (by decide)).trans <| rfl

end LocalInputs

/-! ## What item 17 makes of them

Item 17 narrows the two weight matrices to bf16, which changes nothing over the extended reals, and lays the bias
vector out as a 1 × 128 row. -/

/-- The first weight matrix the region is entered with is the argument. -/
theorem v71_eq : (V18 (F := Ideal) m outs c main_v71 : FVec Ideal S256x128 .bf16) = A20 m c := by
  show StableHlo.after hostOps1_13 (V17 (F := Ideal) m outs c) (Proc.devRef .tc main_v71) = _
  have h := LocalInputs.arg20_at17 m outs c
  -- only this stretch's five operations are opened: what it starts from stays a name
  generalize V17 (F := Ideal) m outs c = W at h ⊢
  after_results
  rw [h]
  rfl

/-- The bias row the region is entered with is the bias vector. -/
theorem v72_apply (j : Fin 128) :
    (V18 (F := Ideal) m outs c main_v72 : FVec Ideal S1x128 .f32) (ix2 (0 : Fin 1) j) = A21 m c (ix1 j) := by
  -- entry (0, j) of the row and entry j of the vector have the same row-major position
  have hk : ((S128 : Shape).rowMajor (ix1 j)).val = ((S1x128 : Shape).rowMajor (ix2 (0 : Fin 1) j)).val := by
    rw [Shape.rowMajor_val_one, Shape.rowMajor_val_two]
    show j.val = 0 * 128 + j.val
    omega
  show StableHlo.after hostOps1_13 (V17 (F := Ideal) m outs c) (Proc.devRef .tc main_v72) (ix2 (0 : Fin 1) j) = _
  have h := LocalInputs.arg21_at17 m outs c
  generalize V17 (F := Ideal) m outs c = W at h ⊢
  after_results
  rw [h]
  exact shapeCast_apply (A21 m c) _ (ix2 (0 : Fin 1) j) (ix1 j) hk

/-- The second weight matrix the region is entered with is the argument. -/
theorem v73_eq : (V18 (F := Ideal) m outs c main_v73 : FVec Ideal S128x128 .bf16) = A22 m c := by
  show StableHlo.after hostOps1_13 (V17 (F := Ideal) m outs c) (Proc.devRef .tc main_v73) = _
  have h := LocalInputs.arg22_at17 m outs c
  generalize V17 (F := Ideal) m outs c = W at h ⊢
  after_results
  rw [h]
  rfl

end Cert.KernelIdeal.Val

end
-- ==== Proof.Val.StageLocal.lean ====
/-
  The local features and their two linear maps. Each local node's feature row is its node representation beside its
  distance embedding (two in-range lookups, joined along the columns); the kernel then applies  (· W₁ + b₁) · W₂  in one
  region, the reference as two matrix products with the bias between: the same sums.
-/
import proofs.«418315_j6339371728953_3_alg».proof.Proof.Gen.KernelIdeal.Regions
import proofs.«418315_j6339371728953_3_alg».proof.Proof.RefRead
import proofs.«418315_j6339371728953_3_alg».proof.Proof.Val.Hyps
import proofs.«418315_j6339371728953_3_alg».proof.Proof.Val.Spec
import proofs.«418315_j6339371728953_3_alg».proof.Proof.Val.LocalInputs
import proofs.«418315_j6339371728953_3_alg».proof.Proof.LibTake
import proofs.«418315_j6339371728953_3_alg».proof.Proof.LibRowGather
import proofs.«418315_j6339371728953_3_alg».proof.Proof.LibPlainDot
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (outs : Outs (F := Ideal)) (c : Dev nD)

/-! ## The two lookups and their join, over any contents they are entered with -/

/-- The rows of the node table taken at the local nodes. With every index below the 150000 rows nothing wraps and
    every row passes the range test, so the take is the plain row gather at the given indices. -/
private theorem take_nodes (W : Valuation τ sig (Elt Ideal))
    (hidx : ∀ r, ((W main_arg4 : IVec S65536 32) r).toNat < 150000) :
    StableHlo.after hostOps1_11 W (Proc.devRef .tc main_v67)
      = Host.gather gather_S150000x128_S65536x1_S65536x128_1_0_n_n_0_1_1128 (W main_v20 : FVec Ideal S150000x128 .f32)
          (broadcastInDim S65536x1 ![0] bcast_S65536_S65536x1_0 (W main_arg4 : IVec S65536 32)) := by
  after_results_simp
  simp only [TRef.ofBuf, TRef.toBuf, cast_eq]
  exact Cert.LibTake.take_rows_eq (N := 150000) (by decide) _ hidx _ _ _ _ _ _ _ _ _ _ _ _

/-- The rows of the 4-row distance table taken at the distance labels: again the plain row gather. -/
private theorem take_dist (W : Valuation τ sig (Elt Ideal))
    (hidx : ∀ r, ((W main_arg5 : IVec S65536 32) r).toNat < 4) :
    StableHlo.after hostOps1_12 W (Proc.devRef .tc main_v68)
      = Host.gather gather_S4x128_S65536x1_S65536x128_1_0_n_n_0_1_1128 (W main_arg10 : FVec Ideal S4x128 .f32)
          (broadcastInDim S65536x1 ![0] bcast_S65536_S65536x1_0 (W main_arg5 : IVec S65536 32)) := by
  after_results_simp
  simp only [TRef.ofBuf, TRef.toBuf, cast_eq]
  exact Cert.LibTake.take_rows_eq (N := 4) (by decide) _ hidx _ _ _ _ _ _ _ _ _ _ _ _

/-- The feature table the second region reads is the two lookups side by side; the change of format is the identity
    over the extended reals. -/
private theorem joined (W : Valuation τ sig (Elt Ideal)) :
    StableHlo.after hostOps1_13 W (Proc.devRef .tc main_v70)
      = (concatenate S65536x256 1 [⟨S65536x128, (W main_v67 : FVec Ideal S65536x128 .f32)⟩,
          ⟨S65536x128, (W main_v68 : FVec Ideal S65536x128 .f32)⟩] concatenates_S65536x128_S65536x128_S65536x256_d1 :
          FVec Ideal S65536x256 .f32) := by
  after_results
  rfl

/-! ## The arguments where the lookups read them -/

/-- A buffer that nothing before the first lookup writes still holds what it was launched with. -/
private theorem launch_kept (r : Ref sig .tc) (h0 : r ∉ hostOps0_W) (h1 : r ∉ hostOps0_1_W) (h2 : r ∉ hostOps0_2_W)
    (h3 : r ∉ ([main_v9] : List (Ref sig .tc))) (h4 : r ∉ hostOps1_W) (h5 : r ∉ hostOps1_1_W) (h6 : r ∉ hostOps1_2_W)
    (h7 : r ∉ hostOps1_3_W) (h8 : r ∉ hostOps1_4_W) (h9 : r ∉ hostOps1_5_W) (h10 : r ∉ hostOps1_6_W)
    (h11 : r ∉ hostOps1_7_W) (h12 : r ∉ hostOps1_8_W) (h13 : r ∉ hostOps1_9_W) (h14 : r ∉ hostOps1_10_W) :
    V15 (F := Ideal) m outs c r = V0 (F := Ideal) m c r :=
  (V15_of m outs c r h14).trans <| (V14_of m outs c r h13).trans <| (V13_of m outs c r h12).trans <|
  (V12_of m outs c r h11).trans <| (V11_of m outs c r h10).trans <| (V10_of m outs c r h9).trans <|
  (V9_of m outs c r h8).trans <| (V8_of m outs c r h7).trans <| (V7_of m outs c r h6).trans <|
  (V6_of m outs c r h5).trans <| (V5_of m outs c r h4).trans <| (V4_of m outs c r h3).trans <|
  (V3_of m c r h2).trans <| (V2_of m c r h1).trans <| (V1_of m c r h0)

/-- The local nodes' indices, where the first lookup reads them. -/
private theorem nodes_at : (V15 (F := Ideal) m outs c main_arg4 : IVec S65536 32) = A4 m c :=
  launch_kept m outs c main_arg4 (by decide) (by decide) (by decide) (by decide) (by decide) (by decide) (by decide)
    (by decide) (by decide) (by decide) (by decide) (by decide) (by decide) (by decide) (by decide)

/-- The distance labels, where the second lookup reads them. -/
private theorem labels_at : (V16 (F := Ideal) m outs c main_arg5 : IVec S65536 32) = A5 m c :=
  (V16_of m outs c main_arg5 (by decide)).trans <|
  launch_kept m outs c main_arg5 (by decide) (by decide) (by decide) (by decide) (by decide) (by decide) (by decide)
    (by decide) (by decide) (by decide) (by decide) (by decide) (by decide) (by decide) (by decide)

/-- The distance table, where the second lookup reads it. -/
private theorem table_at : (V16 (F := Ideal) m outs c main_arg10 : FVec Ideal S4x128 .f32) = A10 m c :=
  (V16_of m outs c main_arg10 (by decide)).trans <|
  launch_kept m outs c main_arg10 (by decide) (by decide) (by decide) (by decide) (by decide) (by decide) (by decide)
    (by decide) (by decide) (by decide) (by decide) (by decide) (by decide) (by decide) (by decide)

/-! ## The local feature table -/

/-- The local feature table as the kernel forms it: the node rows at the local nodes beside the distance rows at the
    distance labels. The node table is read where the global stage left it; nothing in between writes it. -/
private theorem features_kernel (hr : InRange m c) :
    V18 (F := Ideal) m outs c main_v70
      = (concatenate S65536x256 1
          [⟨S65536x128, Host.gather gather_S150000x128_S65536x1_S65536x128_1_0_n_n_0_1_1128
              (V11 (F := Ideal) m outs c main_v20 : FVec Ideal S150000x128 .f32)
              (broadcastInDim S65536x1 ![0] bcast_S65536_S65536x1_0 (A4 m c))⟩,
           ⟨S65536x128, Host.gather gather_S4x128_S65536x1_S65536x128_1_0_n_n_0_1_1128 (A10 m c)
              (broadcastInDim S65536x1 ![0] bcast_S65536_S65536x1_0 (A5 m c))⟩]
          concatenates_S65536x128_S65536x128_S65536x256_d1 : FVec Ideal S65536x256 .f32) := by
  have h67 : V16 (F := Ideal) m outs c main_v67
      = Host.gather gather_S150000x128_S65536x1_S65536x128_1_0_n_n_0_1_1128
          (V11 (F := Ideal) m outs c main_v20 : FVec Ideal S150000x128 .f32)
          (broadcastInDim S65536x1 ![0] bcast_S65536_S65536x1_0 (A4 m c)) := by
    have h := take_nodes (V15 (F := Ideal) m outs c) (by rw [nodes_at]; exact hr.xidx)
    rw [nodes_at, V15_of m outs c main_v20 (by decide), V14_of m outs c main_v20 (by decide),
      V13_of m outs c main_v20 (by decide), V12_of m outs c main_v20 (by decide)] at h
    exact h
  have h68 : V17 (F := Ideal) m outs c main_v68
      = Host.gather gather_S4x128_S65536x1_S65536x128_1_0_n_n_0_1_1128 (A10 m c)
          (broadcastInDim S65536x1 ![0] bcast_S65536_S65536x1_0 (A5 m c)) := by
    have h := take_dist (V16 (F := Ideal) m outs c) (by rw [labels_at]; exact hr.dist)
    rw [labels_at, table_at] at h
    exact h
  have h := joined (V17 (F := Ideal) m outs c)
  rw [V17_of m outs c main_v67 (by decide), h67, h68] at h
  exact h

/-- With the local nodes in range, the reference's wrap of negative indices leaves them as they are. -/
private theorem wrap_nodes (hr : InRange m c) :
    Cert.ReferenceIdeal.ReadP.val_main_v92 (F := Ideal) (A4 m c) = A4 m c :=
  Cert.LibTake.wrap_id (N := 150000) (by decide) (A4 m c) hr.xidx _ _

/-- With the distance labels in range, the reference's wrap of negative indices leaves them as they are. -/
private theorem wrap_labels (hr : InRange m c) :
    Cert.ReferenceIdeal.ReadP.val_main_v99 (F := Ideal) (A5 m c) = A5 m c :=
  Cert.LibTake.wrap_id (N := 4) (by decide) (A5 m c) hr.dist _ _

theorem localin (hr : InRange m c) (hglob : V11 (F := Ideal) m outs c main_v20 = Cert.ReferenceIdeal.ReadP.val_main_v29 (F := Ideal) (A0 m c) (A1 m c) (A8 m c) (A9 m c) (A13 m c) (A14 m c) (A15 m c)) :
    V18 (F := Ideal) m outs c main_v70 = Cert.ReferenceIdeal.ReadP.val_main_v102 (F := Ideal) (A0 m c) (A1 m c) (A4 m c) (A5 m c) (A8 m c) (A9 m c) (A10 m c) (A13 m c) (A14 m c) (A15 m c) := by
  rw [features_kernel m outs c hr, hglob]
  -- the reference's table: the same two gathers, at the wrapped indices, joined the same way
  unfold Cert.ReferenceIdeal.ReadP.val_main_v102 Cert.ReferenceIdeal.ReadP.val_main_v94
    Cert.ReferenceIdeal.ReadP.val_main_v101 Cert.ReferenceIdeal.ReadP.val_main_v93 Cert.ReferenceIdeal.ReadP.val_main_v100
  rw [wrap_nodes m c hr, wrap_labels m c hr]
  rfl

/-! ## The two linear maps -/

theorem xw (hlocalin : V18 (F := Ideal) m outs c main_v70 = Cert.ReferenceIdeal.ReadP.val_main_v102 (F := Ideal) (A0 m c) (A1 m c) (A4 m c) (A5 m c) (A8 m c) (A9 m c) (A10 m c) (A13 m c) (A14 m c) (A15 m c))
    (hX : outs 19 main_v74 c = Cert.Spec.fusedRows (φ₁ := .bf16) (φ₂ := .bf16) (φ₃ := .bf16) (V18 (F := Ideal) m outs c main_v70 : FVec Ideal S65536x256 .bf16) (V18 (F := Ideal) m outs c main_v71 : FVec Ideal S256x128 .bf16) (V18 (F := Ideal) m outs c main_v72 : FVec Ideal S1x128 .f32) (V18 (F := Ideal) m outs c main_v73 : FVec Ideal S128x128 .bf16)) :
    V19 (F := Ideal) m outs c main_v74 = Cert.ReferenceIdeal.ReadP.val_main_v140 (F := Ideal) (A0 m c) (A1 m c) (A4 m c) (A5 m c) (A8 m c) (A9 m c) (A10 m c) (A13 m c) (A14 m c) (A15 m c) (A20 m c) (A21 m c) (A22 m c) := by
  -- the region's result buffer holds what the region left there
  have h74 : V19 (F := Ideal) m outs c main_v74 = outs 19 main_v74 c := by
    dsimp only [V19]
    exact Function.update_self ..
  rw [h74, hX, hlocalin, v71_eq, v73_eq]
  -- entry (r, j): both sides are  ∑ₖ (∑ₗ x[r, l] · W₁[l, k] + b₁[k]) · W₂[k, j]
  funext i
  rw [Cert.ReferenceIdeal.ReadP.val_main_v140_apply]
  unfold Cert.Spec.fusedRows Cert.Spec.matRows
  refine Finset.sum_congr rfl fun k _ => ?_
  have hl : Cert.ReferenceIdeal.ReadP.lidx_main_v140 i k = ix2 (⟨(i 0).val, (i 0).isLt⟩ : Fin 65536) k := by
    funext a; match a with | ⟨0, _⟩ => rfl | ⟨1, _⟩ => rfl
  have hr' : Cert.ReferenceIdeal.ReadP.ridx_main_v140 i k = ix2 k (⟨(i 1).val, (i 1).isLt⟩ : Fin 128) := by
    funext a; match a with | ⟨0, _⟩ => rfl | ⟨1, _⟩ => rfl
  rw [hl, hr', Cert.ReferenceIdeal.ReadP.val_main_v106_apply, Cert.ReferenceIdeal.ReadP.val_main_v103_apply,
    Cert.ReferenceIdeal.ReadP.val_main_v105_apply, Cert.ReferenceIdeal.ReadP.val_main_v104_apply]
  refine congrArg (· * A22 m c _) ?_
  -- the first map's entry (r, k): the inner sums term by term, and the bias entry k
  unfold Cert.Spec.linRows Cert.Spec.matRows
  refine congrArg₂ (· + ·)
    (Finset.sum_congr rfl fun l _ => congrArg₂ (· * ·) (congrArg _ ?_) (congrArg _ ?_))
    ((v72_apply m outs c k).trans (congrArg _ ?_))
  · funext a; match a with | ⟨0, _⟩ => rfl | ⟨1, _⟩ => rfl
  · funext a; match a with | ⟨0, _⟩ => rfl | ⟨1, _⟩ => rfl
  · funext a; match a with | ⟨0, _⟩ => rfl

end Cert.KernelIdeal.Val

end
-- ==== Proof.Val.StageGcn.lean ====
/-
  The graph convolution over the local edges with self-loops: degrees by a scatter-add of ones, their inverse square
  roots, the symmetric edge weights, the weighted rows of the projected features gathered by edge source (in range,
  the kernel's lookup is the plain gather) and scatter-added by edge target, plus the bias. The same operations on
  equal projected features.
-/
import proofs.«418315_j6339371728953_3_alg».proof.Proof.Gen.KernelIdeal.Regions
import proofs.«418315_j6339371728953_3_alg».proof.Proof.RefRead
import proofs.«418315_j6339371728953_3_alg».proof.Proof.Val.Hyps
import proofs.«418315_j6339371728953_3_alg».proof.Proof.Val.Spec
import proofs.«418315_j6339371728953_3_alg».proof.Proof.LibTake
import proofs.«418315_j6339371728953_3_alg».proof.Proof.LibRowGather
import proofs.«418315_j6339371728953_3_alg».proof.Proof.LibPlainDot
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (outs : Outs (F := Ideal)) (c : Dev nD)

/-- The projected features, as the reference computes them. -/
local notation "refXW" =>
  Cert.ReferenceIdeal.ReadP.val_main_v140 (F := Ideal) (A0 m c) (A1 m c) (A4 m c) (A5 m c) (A8 m c) (A9 m c) (A10 m c) (A13 m c) (A14 m c) (A15 m c) (A20 m c) (A21 m c) (A22 m c)

/-! ## The inputs where the convolution's stretches read them

No stretch and no region writes an argument, so the local edge list and the bias are still the launch's. -/

/-- The local edge list at the entry of the convolution's first stretch. -/
private theorem edges_at19 : V19 (F := Ideal) m outs c main_arg6 = A6 m c :=
  (V19_of m outs c main_arg6 (by decide)).trans <|
    (V18_of m outs c main_arg6 (by decide)).trans <|
    (V17_of m outs c main_arg6 (by decide)).trans <|
    (V16_of m outs c main_arg6 (by decide)).trans <|
    (V15_of m outs c main_arg6 (by decide)).trans <|
    (V14_of m outs c main_arg6 (by decide)).trans <|
    (V13_of m outs c main_arg6 (by decide)).trans <|
    (V12_of m outs c main_arg6 (by decide)).trans <|
    (V11_of m outs c main_arg6 (by decide)).trans <|
    (V10_of m outs c main_arg6 (by decide)).trans <|
    (V9_of m outs c main_arg6 (by decide)).trans <|
    (V8_of m outs c main_arg6 (by decide)).trans <|
    (V7_of m outs c main_arg6 (by decide)).trans <|
    (V6_of m outs c main_arg6 (by decide)).trans <|
    (V5_of m outs c main_arg6 (by decide)).trans <|
    (V4_of m outs c main_arg6 (by decide)).trans <|
    (V3_of m c main_arg6 (by decide)).trans <|
    (V2_of m c main_arg6 (by decide)).trans <|
    (V1_of m c main_arg6 (by decide))

/-- The bias at the entry of the stretch that adds it. -/
private theorem bias_at23 : V23 (F := Ideal) m outs c main_arg23 = A23 m c :=
  (V23_of m outs c main_arg23 (by decide)).trans <|
    (V22_of m outs c main_arg23 (by decide)).trans <|
    (V21_of m outs c main_arg23 (by decide)).trans <|
    (V20_of m outs c main_arg23 (by decide)).trans <|
    (V19_of m outs c main_arg23 (by decide)).trans <|
    (V18_of m outs c main_arg23 (by decide)).trans <|
    (V17_of m outs c main_arg23 (by decide)).trans <|
    (V16_of m outs c main_arg23 (by decide)).trans <|
    (V15_of m outs c main_arg23 (by decide)).trans <|
    (V14_of m outs c main_arg23 (by decide)).trans <|
    (V13_of m outs c main_arg23 (by decide)).trans <|
    (V12_of m outs c main_arg23 (by decide)).trans <|
    (V11_of m outs c main_arg23 (by decide)).trans <|
    (V10_of m outs c main_arg23 (by decide)).trans <|
    (V9_of m outs c main_arg23 (by decide)).trans <|
    (V8_of m outs c main_arg23 (by decide)).trans <|
    (V7_of m outs c main_arg23 (by decide)).trans <|
    (V6_of m outs c main_arg23 (by decide)).trans <|
    (V5_of m outs c main_arg23 (by decide)).trans <|
    (V4_of m outs c main_arg23 (by decide)).trans <|
    (V3_of m c main_arg23 (by decide)).trans <|
    (V2_of m c main_arg23 (by decide)).trans <|
    (V1_of m c main_arg23 (by decide))

/-! ## The first stretch: edge endpoints with self-loops, degrees, inverse square roots

Each result is the reference's stage of the same name: the same operations on the same edge list. -/

/-- Edge sources followed by the self-loops 0, 1, …, 65535. -/
private theorem src_at20 : V20 (F := Ideal) m outs c main_v78 = val_main_v110 (F := Ideal) (A6 m c) := by
  show StableHlo.after hostOps2 (V19 (F := Ideal) m outs c) (Proc.devRef .tc main_v78) = _
  generalize hW : V19 (F := Ideal) m outs c = W
  after_results
  subst hW
  rw [edges_at19]
  rfl

/-- Edge targets followed by the self-loops. -/
private theorem dst_at20 : V20 (F := Ideal) m outs c main_v82 = val_main_v114 (F := Ideal) (A6 m c) := by
  show StableHlo.after hostOps2 (V19 (F := Ideal) m outs c) (Proc.devRef .tc main_v82) = _
  generalize hW : V19 (F := Ideal) m outs c = W
  after_results
  subst hW
  rw [edges_at19]
  rfl

/-- Which nodes have positive degree. -/
private theorem pos_at20 : V20 (F := Ideal) m outs c main_v88 = val_main_v120 (F := Ideal) (A6 m c) := by
  show StableHlo.after hostOps2 (V19 (F := Ideal) m outs c) (Proc.devRef .tc main_v88) = _
  generalize hW : V19 (F := Ideal) m outs c = W
  after_results
  subst hW
  rw [edges_at19]
  rfl

/-- The inverse square root of the degree, clamped away from zero. -/
private theorem rsq_at20 : V20 (F := Ideal) m outs c main_v91 = val_main_v123 (F := Ideal) (A6 m c) := by
  show StableHlo.after hostOps2 (V19 (F := Ideal) m outs c) (Proc.devRef .tc main_v91) = _
  generalize hW : V19 (F := Ideal) m outs c = W
  after_results
  subst hW
  rw [edges_at19]
  rfl

/-- The zero that replaces the inverse square root at a node of degree zero. -/
private theorem zero_at20 : V20 (F := Ideal) m outs c main_cst_11 = val_main_cst_22 (F := Ideal) := by
  show StableHlo.after hostOps2 (V19 (F := Ideal) m outs c) (Proc.devRef .tc main_cst_11) = _
  generalize hW : V19 (F := Ideal) m outs c = W
  after_results
  rfl

/-! ## The normalising factor of a node, and of an edge -/

/-- A node's factor: the inverse square root of its degree where that is positive, else zero. -/
private theorem dinv_at21 : V21 (F := Ideal) m outs c main_v92 = val_main_v124 (F := Ideal) (A6 m c) := by
  show StableHlo.after hostOps2_1 (V20 (F := Ideal) m outs c) (Proc.devRef .tc main_v92) = _
  generalize hW : V20 (F := Ideal) m outs c = W
  after_results_simp
  subst hW
  rw [pos_at20, rsq_at20, zero_at20]
  simp only [TRef.ofBuf, TRef.toBuf, cast_eq]
  rfl

/-- An edge's weight — the product of its two endpoints' factors — as a column. -/
private theorem weight_at22 : V22 (F := Ideal) m outs c main_v108 = val_main_v141 (F := Ideal) (A6 m c) := by
  show StableHlo.after hostOps2_2 (V21 (F := Ideal) m outs c) (Proc.devRef .tc main_v108) = _
  generalize hW : V21 (F := Ideal) m outs c = W
  after_results_simp
  subst hW
  rw [dinv_at21, V21_of m outs c main_v78 (by decide), V21_of m outs c main_v82 (by decide), src_at20, dst_at20]
  rfl

/-! ## The rows gathered by edge source

Every edge source, and every self-loop, is a row number below 65536: the lookup's wrap of negative indices and its
range mask do nothing, in the kernel and in the reference alike, and both read the plain gather. -/

/-- The sources with the self-loops appended stay below the number of rows. -/
private theorem src_lt (hr : InRange m c) (j : S327680.Idx) :
    (val_main_v110 (F := Ideal) (A6 m c) j).toNat < 65536 :=
  Cert.LibTake.concat_iota_lt (by decide) (lsrcIdx m c) hr.lsrc concatenates_S262144_S65536_S327680_d0 j

/-- The reference's gather, its wrap of negative indices removed. -/
private theorem ref_rows (hr : InRange m c) :
    val_main_v148 (F := Ideal) (A0 m c) (A1 m c) (A4 m c) (A5 m c) (A6 m c) (A8 m c) (A9 m c) (A10 m c) (A13 m c) (A14 m c) (A15 m c) (A20 m c) (A21 m c) (A22 m c)
      = Host.gather gather_S65536x128_S327680x1_S327680x128_1_0_n_n_0_1_1128 refXW
          (broadcastInDim S327680x1 ![0] bcast_S327680_S327680x1_0 (val_main_v110 (F := Ideal) (A6 m c))) := by
  have h : val_main_v146 (F := Ideal) (A6 m c) = val_main_v110 (F := Ideal) (A6 m c) :=
    Cert.LibTake.wrap_id (N := 65536) (by decide) (val_main_v110 (F := Ideal) (A6 m c)) (src_lt m c hr)
      bcast_S_S327680 bcast_S_S327680
  have e : val_main_v148 (F := Ideal) (A0 m c) (A1 m c) (A4 m c) (A5 m c) (A6 m c) (A8 m c) (A9 m c) (A10 m c) (A13 m c) (A14 m c) (A15 m c) (A20 m c) (A21 m c) (A22 m c)
      = Host.gather gather_S65536x128_S327680x1_S327680x128_1_0_n_n_0_1_1128 refXW
          (broadcastInDim S327680x1 ![0] bcast_S327680_S327680x1_0 (val_main_v146 (F := Ideal) (A6 m c))) := rfl
  rw [e, h]

/-- The kernel's lookup of the projected rows by edge source is the reference's gather. -/
private theorem rows_at23 (hr : InRange m c) (hxw : V19 (F := Ideal) m outs c main_v74 = refXW) :
    V23 (F := Ideal) m outs c main_v109 = val_main_v148 (F := Ideal) (A0 m c) (A1 m c) (A4 m c) (A5 m c) (A6 m c) (A8 m c) (A9 m c) (A10 m c) (A13 m c) (A14 m c) (A15 m c) (A20 m c) (A21 m c) (A22 m c) := by
  have hx : V22 (F := Ideal) m outs c main_v74 = refXW :=
    (V22_of m outs c main_v74 (by decide)).trans <| (V21_of m outs c main_v74 (by decide)).trans <|
      (V20_of m outs c main_v74 (by decide)).trans hxw
  have hs : V22 (F := Ideal) m outs c main_v78 = val_main_v110 (F := Ideal) (A6 m c) :=
    (V22_of m outs c main_v78 (by decide)).trans <| (V21_of m outs c main_v78 (by decide)).trans (src_at20 m outs c)
  show StableHlo.after hostOps2_3 (V22 (F := Ideal) m outs c) (Proc.devRef .tc main_v109) = _
  generalize V22 (F := Ideal) m outs c = W at hx hs ⊢
  after_results_simp
  rw [hs, hx, ref_rows m c hr]
  simp only [TRef.ofBuf, TRef.toBuf, cast_eq]
  exact Cert.LibTake.take_rows_eq (N := 65536) (by decide) (val_main_v110 (F := Ideal) (A6 m c)) (src_lt m c hr)
    gather_S65536x128_S327680x1_S327680x128_1_0_n_n_0_1_1128 refXW _
    bcast_S_S327680 bcast_S_S327680 bcast_S327680_S327680x1_0 bcast_S_S327680x1 bcast_S1_S1x1_1
    bcast_S1x1_S327680x1_0_1 reducesTo_S327680x1_S327680_d1 h_S_ bcast_S327680_S327680x128_0

/-! ## The weighted rows scatter-added by edge target, plus the bias -/

theorem localout (hr : InRange m c) (hxw : V19 (F := Ideal) m outs c main_v74 = Cert.ReferenceIdeal.ReadP.val_main_v140 (F := Ideal) (A0 m c) (A1 m c) (A4 m c) (A5 m c) (A8 m c) (A9 m c) (A10 m c) (A13 m c) (A14 m c) (A15 m c) (A20 m c) (A21 m c) (A22 m c)) :
    V24 (F := Ideal) m outs c main_v117 = Cert.ReferenceIdeal.ReadP.val_main_v156 (F := Ideal) (A0 m c) (A1 m c) (A4 m c) (A5 m c) (A6 m c) (A8 m c) (A9 m c) (A10 m c) (A13 m c) (A14 m c) (A15 m c) (A20 m c) (A21 m c) (A22 m c) (A23 m c) := by
  have hw : V23 (F := Ideal) m outs c main_v108 = val_main_v141 (F := Ideal) (A6 m c) :=
    (V23_of m outs c main_v108 (by decide)).trans (weight_at22 m outs c)
  have hd : V23 (F := Ideal) m outs c main_v82 = val_main_v114 (F := Ideal) (A6 m c) :=
    (V23_of m outs c main_v82 (by decide)).trans <| (V22_of m outs c main_v82 (by decide)).trans <|
      (V21_of m outs c main_v82 (by decide)).trans (dst_at20 m outs c)
  have hg := rows_at23 m outs c hr hxw
  have hb := bias_at23 m outs c
  show StableHlo.after hostOps2_4 (V23 (F := Ideal) m outs c) (Proc.devRef .tc main_v117) = _
  generalize V23 (F := Ideal) m outs c = W at hw hd hg hb ⊢
  after_results_simp
  rw [hw, hd, hg, hb]
  rfl

end Cert.KernelIdeal.Val

end
-- ==== Proof.Val.StageHead.lean ====
/-
  The mean pool over each subgraph, its tanh layer, and the final two-layer head on the four joined 128-column
  blocks with the logistic at the end: the same operations in both programs, on equal inputs.
-/
import proofs.«418315_j6339371728953_3_alg».proof.Proof.Gen.KernelIdeal.Regions
import proofs.«418315_j6339371728953_3_alg».proof.Proof.RefRead
import proofs.«418315_j6339371728953_3_alg».proof.Proof.Val.Hyps
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (outs : Outs (F := Ideal)) (c : Dev nD)

namespace StageHead

section Fns

variable {F : FTy → Type} [FloatOps F]

/-- The mean of the node rows over each subgraph (sum of rows by subgraph id, divided by the subgraph's node count, at
    least one), followed by one dense layer with tanh. -/
def poolTanh (h : (⟨S65536x128, .f32⟩ : BufTy).Contents (Elt F)) (ids : (⟨S65536, .i32⟩ : BufTy).Contents (Elt F))
    (w : (⟨S128x128, .f32⟩ : BufTy).Contents (Elt F)) (b : (⟨S128, .f32⟩ : BufTy).Contents (Elt F)) :
    (⟨S1024x128, .f32⟩ : BufTy).Contents (Elt F) :=
  Host.tanh (addf
    (Host.dotGeneral dot_S1024x128_S128x128_S1024x128_1_0_0_1_n_n none
      (Host.divf
        (Host.scatterAdd scatter_S1024x128_S65536x1_S65536x128_1_0_0_1
          (broadcastInDim S1024x128 ![] bcast_S_S1024x128 (constant S_ .f32 0x00000000#32))
          (broadcastInDim S65536x1 ![0] bcast_S65536_S65536x1_0 ids) h)
        (broadcastInDim S1024x128 ![0, 1] bcast_S1024x1_S1024x128_0_1
          (broadcastInDim S1024x1 ![0] bcast_S1024_S1024x1_0
            (maximumf
              (Host.scatterAdd scatter_S1024_S65536x1_S65536_n_0_0_1
                (broadcastInDim S1024 ![] bcast_S_S1024 (constant S_ .f32 0x00000000#32))
                (broadcastInDim S65536x1 ![0] bcast_S65536_S65536x1_0 ids)
                (broadcastInDim S65536 ![] bcast_S_S65536 (constant S_ .f32 0x3F800000#32)))
              (broadcastInDim S1024 ![] bcast_S_S1024 (constant S_ .f32 0x3F800000#32))))))
      w)
    (broadcastInDim S1024x128 ![0, 1] bcast_S1x128_S1024x128_0_1 (broadcastInDim S1x128 ![1] bcast_S128_S1x128_1 b)))

/-- The first layer of the head: the four 128-column blocks (the pooled subgraph rows, the two root rows, the product of
    the two intent rows) joined along the columns, times the weights, plus the bias row. -/
def headHidden (hs gu gi ru rv : (⟨S1024x128, .f32⟩ : BufTy).Contents (Elt F))
    (w : (⟨S512x64, .f32⟩ : BufTy).Contents (Elt F)) (b : (⟨S64, .f32⟩ : BufTy).Contents (Elt F)) :
    (⟨S1024x64, .f32⟩ : BufTy).Contents (Elt F) :=
  addf
    (Host.dotGeneral dot_S1024x512_S512x64_S1024x64_1_0_0_1_n_n none
      (concatenate S1024x512 1 [⟨S1024x128, hs⟩, ⟨S1024x128, gu⟩, ⟨S1024x128, gi⟩, ⟨S1024x128, mulf ru rv⟩]
        concatenates_S1024x128_S1024x128_S1024x128_S1024x128_S1024x512_d1)
      w)
    (broadcastInDim S1024x64 ![0, 1] bcast_S1x64_S1024x64_0_1 (broadcastInDim S1x64 ![1] bcast_S64_S1x64_1 b))

/-- The positive part, entry by entry. -/
def headRelu (x : (⟨S1024x64, .f32⟩ : BufTy).Contents (Elt F)) : (⟨S1024x64, .f32⟩ : BufTy).Contents (Elt F) :=
  maximumf x (broadcastInDim S1024x64 ![] bcast_S_S1024x64 (constant S_ .f32 0x00000000#32))

/-- The second layer of the head, one column wide, and the logistic `1 / (1 + exp (-t))` of it, as a vector. -/
def headOut (x : (⟨S1024x64, .f32⟩ : BufTy).Contents (Elt F)) (w : (⟨S64x1, .f32⟩ : BufTy).Contents (Elt F))
    (b : (⟨S1, .f32⟩ : BufTy).Contents (Elt F)) : (⟨S1024, .f32⟩ : BufTy).Contents (Elt F) :=
  shapeCast _
    (Host.divf (broadcastInDim S1024x1 ![] bcast_S_S1024x1 (constant S_ .f32 0x3F800000#32))
      (addf (broadcastInDim S1024x1 ![] bcast_S_S1024x1 (constant S_ .f32 0x3F800000#32))
        (Host.exp (Host.negf (addf
          (Host.dotGeneral dot_S1024x64_S64x1_S1024x1_1_0_0_1_n_n none x w)
          (broadcastInDim S1024x1 ![0, 1] bcast_S1x1_S1024x1_0_1 (broadcastInDim S1x1 ![1] bcast_S1_S1x1_1 b)))))))
    shapeCasts_S1024x1_S1024

end Fns

/-- A line of operations run in two parts: the first `n`, then the rest from where those left the buffers. -/
theorem after_split {Val : EltTy → Type} (n : ℕ) (ops : List (HloOp τ sig Val)) (V : Valuation τ sig Val) :
    StableHlo.after ops V = StableHlo.after (ops.drop n) (StableHlo.after (ops.take n) V) := by
  conv_lhs => rw [← List.take_append_drop n ops]
  exact StableHlo.after_append _ _ _

/-! ### The arguments and the earlier results, where these stretches read them -/

theorem V24_arg7 : V24 (F := Ideal) m outs c main_arg7 = A7 m c :=
  ((V25_of m outs c main_arg7 (by decide)).symm.trans <| (V26_of m outs c main_arg7 (by decide)).symm).trans (V26_main_arg7 m outs c)
theorem V24_arg24 : V24 (F := Ideal) m outs c main_arg24 = A24 m c :=
  ((V25_of m outs c main_arg24 (by decide)).symm.trans <| (V26_of m outs c main_arg24 (by decide)).symm).trans (V26_main_arg24 m outs c)
theorem V24_arg25 : V24 (F := Ideal) m outs c main_arg25 = A25 m c :=
  ((V25_of m outs c main_arg25 (by decide)).symm.trans <| (V26_of m outs c main_arg25 (by decide)).symm).trans (V26_main_arg25 m outs c)
theorem V24_arg26 : V24 (F := Ideal) m outs c main_arg26 = A26 m c :=
  ((V25_of m outs c main_arg26 (by decide)).symm.trans <| (V26_of m outs c main_arg26 (by decide)).symm).trans (V26_main_arg26 m outs c)
theorem V24_arg27 : V24 (F := Ideal) m outs c main_arg27 = A27 m c :=
  ((V25_of m outs c main_arg27 (by decide)).symm.trans <| (V26_of m outs c main_arg27 (by decide)).symm).trans (V26_main_arg27 m outs c)
theorem V25_arg28 : V25 (F := Ideal) m outs c main_arg28 = A28 m c :=
  ((V26_of m outs c main_arg28 (by decide)).symm).trans (V26_main_arg28 m outs c)
theorem V25_arg29 : V25 (F := Ideal) m outs c main_arg29 = A29 m c :=
  ((V26_of m outs c main_arg29 (by decide)).symm).trans (V26_main_arg29 m outs c)

theorem V24_v21 : V24 (F := Ideal) m outs c main_v21 = V12 (F := Ideal) m outs c main_v21 :=
  (V24_of m outs c main_v21 (by decide)).trans <|
    (V23_of m outs c main_v21 (by decide)).trans <|
    (V22_of m outs c main_v21 (by decide)).trans <|
    (V21_of m outs c main_v21 (by decide)).trans <|
    (V20_of m outs c main_v21 (by decide)).trans <|
    (V19_of m outs c main_v21 (by decide)).trans <|
    (V18_of m outs c main_v21 (by decide)).trans <|
    (V17_of m outs c main_v21 (by decide)).trans <|
    (V16_of m outs c main_v21 (by decide)).trans <|
    (V15_of m outs c main_v21 (by decide)).trans <|
    (V14_of m outs c main_v21 (by decide)).trans <|
    (V13_of m outs c main_v21 (by decide))
theorem V24_v24 : V24 (F := Ideal) m outs c main_v24 = V14 (F := Ideal) m outs c main_v24 :=
  (V24_of m outs c main_v24 (by decide)).trans <|
    (V23_of m outs c main_v24 (by decide)).trans <|
    (V22_of m outs c main_v24 (by decide)).trans <|
    (V21_of m outs c main_v24 (by decide)).trans <|
    (V20_of m outs c main_v24 (by decide)).trans <|
    (V19_of m outs c main_v24 (by decide)).trans <|
    (V18_of m outs c main_v24 (by decide)).trans <|
    (V17_of m outs c main_v24 (by decide)).trans <|
    (V16_of m outs c main_v24 (by decide)).trans <|
    (V15_of m outs c main_v24 (by decide))
theorem V24_v45 : V24 (F := Ideal) m outs c main_v45 = V15 (F := Ideal) m outs c main_v45 :=
  (V24_of m outs c main_v45 (by decide)).trans <|
    (V23_of m outs c main_v45 (by decide)).trans <|
    (V22_of m outs c main_v45 (by decide)).trans <|
    (V21_of m outs c main_v45 (by decide)).trans <|
    (V20_of m outs c main_v45 (by decide)).trans <|
    (V19_of m outs c main_v45 (by decide)).trans <|
    (V18_of m outs c main_v45 (by decide)).trans <|
    (V17_of m outs c main_v45 (by decide)).trans <|
    (V16_of m outs c main_v45 (by decide))
theorem V24_v66 : V24 (F := Ideal) m outs c main_v66 = V15 (F := Ideal) m outs c main_v66 :=
  (V24_of m outs c main_v66 (by decide)).trans <|
    (V23_of m outs c main_v66 (by decide)).trans <|
    (V22_of m outs c main_v66 (by decide)).trans <|
    (V21_of m outs c main_v66 (by decide)).trans <|
    (V20_of m outs c main_v66 (by decide)).trans <|
    (V19_of m outs c main_v66 (by decide)).trans <|
    (V18_of m outs c main_v66 (by decide)).trans <|
    (V17_of m outs c main_v66 (by decide)).trans <|
    (V16_of m outs c main_v66 (by decide))

/-! ### The kernel's stretches, each as one function of what it reads -/

/-- The pooled rows after the tanh layer are `poolTanh` of the node rows the same stretch wrote just before. -/
theorem pool_kernel :
    V24 (F := Ideal) m outs c main_v134
      = poolTanh (V24 (F := Ideal) m outs c main_v117) (V24 (F := Ideal) m outs c main_arg7)
          (V24 (F := Ideal) m outs c main_arg24) (V24 (F := Ideal) m outs c main_arg25) := by
  unfold poolTanh
  dsimp only [V24]
  generalize V23 (F := Ideal) m outs c = W
  dsimp only [hostOps2_4]
  after_results_simp

set_option maxHeartbeats 4000000 in
/-- The head's first layer reads the pooled rows of its own stretch and four results of earlier stretches. Only the
    stretch's last six operations matter: the buffers after the first thirty are kept as one unknown. -/
theorem hidden_kernel :
    V24 (F := Ideal) m outs c main_v140
      = headHidden (V24 (F := Ideal) m outs c main_v134) (V24 (F := Ideal) m outs c main_v21)
          (V24 (F := Ideal) m outs c main_v24) (V24 (F := Ideal) m outs c main_v45) (V24 (F := Ideal) m outs c main_v66)
          (V24 (F := Ideal) m outs c main_arg26) (V24 (F := Ideal) m outs c main_arg27) := by
  unfold headHidden
  dsimp only [V24]
  generalize V23 (F := Ideal) m outs c = W0
  rw [after_split 30 hostOps2_4 W0]
  generalize StableHlo.after (List.take 30 hostOps2_4) W0 = W
  dsimp only [hostOps2_4, List.drop]
  after_results
  -- the joined operands are read at the literal positions 0 … 3 of their family
  dsimp only [Matrix.cons_val]
  repeat (first | rw [binary_result] | (rw [binary_result_ne]; rotate_left; decide))

theorem relu_kernel :
    V25 (F := Ideal) m outs c main_v141 = headRelu (V24 (F := Ideal) m outs c main_v140) := by
  unfold headRelu
  dsimp only [V25]
  generalize V24 (F := Ideal) m outs c = W
  dsimp only [hostOps2_5]
  after_results
  rfl

theorem out_kernel :
    V26 (F := Ideal) m outs c main_v152
      = headOut (V25 (F := Ideal) m outs c main_v141) (V25 (F := Ideal) m outs c main_arg28)
          (V25 (F := Ideal) m outs c main_arg29) := by
  unfold headOut
  dsimp only [V26]
  generalize V25 (F := Ideal) m outs c = W
  dsimp only [hostOps2_6]
  after_results
  rfl

end StageHead

theorem hsub (hlo : V24 (F := Ideal) m outs c main_v117 = Cert.ReferenceIdeal.ReadP.val_main_v156 (F := Ideal) (A0 m c) (A1 m c) (A4 m c) (A5 m c) (A6 m c) (A8 m c) (A9 m c) (A10 m c) (A13 m c) (A14 m c) (A15 m c) (A20 m c) (A21 m c) (A22 m c) (A23 m c)) :
    V24 (F := Ideal) m outs c main_v134 = Cert.ReferenceIdeal.ReadP.val_main_v173 (F := Ideal) (A0 m c) (A1 m c) (A4 m c) (A5 m c) (A6 m c) (A7 m c) (A8 m c) (A9 m c) (A10 m c) (A13 m c) (A14 m c) (A15 m c) (A20 m c) (A21 m c) (A22 m c) (A23 m c) (A24 m c) (A25 m c) := by
  rw [StageHead.pool_kernel, hlo, StageHead.V24_arg7, StageHead.V24_arg24, StageHead.V24_arg25]
  rfl

theorem pred (hhs : V24 (F := Ideal) m outs c main_v134 = Cert.ReferenceIdeal.ReadP.val_main_v173 (F := Ideal) (A0 m c) (A1 m c) (A4 m c) (A5 m c) (A6 m c) (A7 m c) (A8 m c) (A9 m c) (A10 m c) (A13 m c) (A14 m c) (A15 m c) (A20 m c) (A21 m c) (A22 m c) (A23 m c) (A24 m c) (A25 m c))
    (hgu : V12 (F := Ideal) m outs c main_v21 = Cert.ReferenceIdeal.ReadP.val_main_v36 (F := Ideal) (A0 m c) (A1 m c) (A2 m c) (A8 m c) (A9 m c) (A13 m c) (A14 m c) (A15 m c)) (hgi : V14 (F := Ideal) m outs c main_v24 = Cert.ReferenceIdeal.ReadP.val_main_v45 (F := Ideal) (A0 m c) (A1 m c) (A3 m c) (A8 m c) (A9 m c) (A13 m c) (A14 m c) (A15 m c))
    (hru : V15 (F := Ideal) m outs c main_v45 = Cert.ReferenceIdeal.ReadP.val_main_v66 (F := Ideal) (A0 m c) (A1 m c) (A2 m c) (A8 m c) (A9 m c) (A11 m c) (A13 m c) (A14 m c) (A15 m c) (A16 m c) (A17 m c) (A18 m c) (A19 m c)) (hrv : V15 (F := Ideal) m outs c main_v66 = Cert.ReferenceIdeal.ReadP.val_main_v87 (F := Ideal) (A0 m c) (A1 m c) (A3 m c) (A8 m c) (A9 m c) (A12 m c) (A13 m c) (A14 m c) (A15 m c) (A16 m c) (A17 m c) (A18 m c) (A19 m c)) :
    V26 (F := Ideal) m outs c main_v152 = Cert.ReferenceIdeal.ReadP.val_main_v191 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) (A27 m c) (A28 m c) (A29 m c) := by
  rw [StageHead.out_kernel, StageHead.relu_kernel, StageHead.hidden_kernel, hhs,
    (StageHead.V24_v21 m outs c).trans hgu, (StageHead.V24_v24 m outs c).trans hgi,
    (StageHead.V24_v45 m outs c).trans hru, (StageHead.V24_v66 m outs c).trans hrv,
    StageHead.V24_arg26, StageHead.V24_arg27, StageHead.V25_arg28, StageHead.V25_arg29]
  rfl

end Cert.KernelIdeal.Val

end
-- ==== Proof.Val.Chain.lean ====
/-
  The idealized kernel's five results as the reference's stages of the same arguments. Under the precondition every
  index input is in range; region 0 leaves the linear map of the padded node table and region 1 the fused pair of
  linear maps of the local features; stage by stage (messages, node representations, roots, intent heads, local
  features, projected features, graph convolution, pool and head) each buffer the kernel's @main writes equals the
  reference's stage, and the five returned buffers keep their values to the end of @main.
-/
import proofs.«418315_j6339371728953_3_alg».proof.Proof.KI.Whole
import proofs.«418315_j6339371728953_3_alg».proof.Proof.Val.Reg0Value
import proofs.«418315_j6339371728953_3_alg».proof.Proof.Val.Reg1Value
import proofs.«418315_j6339371728953_3_alg».proof.Proof.Val.PreFacts
import proofs.«418315_j6339371728953_3_alg».proof.Proof.Val.StageMsg
import proofs.«418315_j6339371728953_3_alg».proof.Proof.Val.StageGlob
import proofs.«418315_j6339371728953_3_alg».proof.Proof.Val.StageIntent
import proofs.«418315_j6339371728953_3_alg».proof.Proof.Val.StageLocal
import proofs.«418315_j6339371728953_3_alg».proof.Proof.Val.StageGcn
import proofs.«418315_j6339371728953_3_alg».proof.Proof.Val.StageHead

set_option maxRecDepth 16384

noncomputable section

namespace Cert.KernelIdeal.Val

open Cert.KernelIdeal Cert.KernelIdeal.Gen
open Idealize.ShloMosaic Idealize.ShloMosaic.TcCoe Idealize.SL.Sem

variable (m : (ℓ : Loc nD τ sig) → Buf (Elt Ideal) ℓ) (c : Dev nD)

/-- Under the precondition the seven index inputs are in range. -/
theorem inRange_of_pre (h : Cert.Pre_KernelIdeal m) : InRange m c :=
  ⟨attr_lt m h c, src_lt m h c, rootu_lt m h c, rooti_lt m h c, xidx_lt m h c, dist_lt m h c, lsrc_lt m h c⟩

/-! ## A returned buffer keeps its value once written

No later item of @main writes the buffer again, so its contents at the end are its contents right after its item. -/

/-- The user roots, written by item 11, are not written again: at the end of @main they are as item 11 left them. -/
private theorem keep_v21 (outs : Outs (F := Ideal)) : V26 (F := Ideal) m outs c main_v21 = V12 (F := Ideal) m outs c main_v21 :=
  (V26_of m outs c main_v21 (by decide)).trans <| (V25_of m outs c main_v21 (by decide)).trans <|
  (V24_of m outs c main_v21 (by decide)).trans <| (V23_of m outs c main_v21 (by decide)).trans <|
  (V22_of m outs c main_v21 (by decide)).trans <| (V21_of m outs c main_v21 (by decide)).trans <|
  (V20_of m outs c main_v21 (by decide)).trans <| (V19_of m outs c main_v21 (by decide)).trans <|
  (V18_of m outs c main_v21 (by decide)).trans <| (V17_of m outs c main_v21 (by decide)).trans <|
  (V16_of m outs c main_v21 (by decide)).trans <| (V15_of m outs c main_v21 (by decide)).trans <|
  (V14_of m outs c main_v21 (by decide)).trans <| V13_of m outs c main_v21 (by decide)

/-- The user intent probabilities, written by item 14, are not written again. -/
private theorem keep_v44 (outs : Outs (F := Ideal)) : V26 (F := Ideal) m outs c main_v44 = V15 (F := Ideal) m outs c main_v44 :=
  (V26_of m outs c main_v44 (by decide)).trans <| (V25_of m outs c main_v44 (by decide)).trans <|
  (V24_of m outs c main_v44 (by decide)).trans <| (V23_of m outs c main_v44 (by decide)).trans <|
  (V22_of m outs c main_v44 (by decide)).trans <| (V21_of m outs c main_v44 (by decide)).trans <|
  (V20_of m outs c main_v44 (by decide)).trans <| (V19_of m outs c main_v44 (by decide)).trans <|
  (V18_of m outs c main_v44 (by decide)).trans <| (V17_of m outs c main_v44 (by decide)).trans <|
  V16_of m outs c main_v44 (by decide)

/-- The item intent probabilities, written by item 14, are not written again. -/
private theorem keep_v65 (outs : Outs (F := Ideal)) : V26 (F := Ideal) m outs c main_v65 = V15 (F := Ideal) m outs c main_v65 :=
  (V26_of m outs c main_v65 (by decide)).trans <| (V25_of m outs c main_v65 (by decide)).trans <|
  (V24_of m outs c main_v65 (by decide)).trans <| (V23_of m outs c main_v65 (by decide)).trans <|
  (V22_of m outs c main_v65 (by decide)).trans <| (V21_of m outs c main_v65 (by decide)).trans <|
  (V20_of m outs c main_v65 (by decide)).trans <| (V19_of m outs c main_v65 (by decide)).trans <|
  (V18_of m outs c main_v65 (by decide)).trans <| (V17_of m outs c main_v65 (by decide)).trans <|
  V16_of m outs c main_v65 (by decide)

/-- The subgraph representations, written by item 23, are not written again. -/
private theorem keep_v134 (outs : Outs (F := Ideal)) : V26 (F := Ideal) m outs c main_v134 = V24 (F := Ideal) m outs c main_v134 :=
  (V26_of m outs c main_v134 (by decide)).trans <| V25_of m outs c main_v134 (by decide)

/-- The five buffers @main returns, at the end of @main, are the reference's stages of the same arguments. -/
theorem results (h : Cert.Pre_KernelIdeal m) :
    V26 (F := Ideal) m (Whole.outs m) c main_v152 = Cert.ReferenceIdeal.ReadP.val_main_v191 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) (A27 m c) (A28 m c) (A29 m c)
    ∧ V26 (F := Ideal) m (Whole.outs m) c main_v21 = Cert.ReferenceIdeal.ReadP.val_main_v36 (F := Ideal) (A0 m c) (A1 m c) (A2 m c) (A8 m c) (A9 m c) (A13 m c) (A14 m c) (A15 m c)
    ∧ V26 (F := Ideal) m (Whole.outs m) c main_v134 = Cert.ReferenceIdeal.ReadP.val_main_v173 (F := Ideal) (A0 m c) (A1 m c) (A4 m c) (A5 m c) (A6 m c) (A7 m c) (A8 m c) (A9 m c) (A10 m c) (A13 m c) (A14 m c) (A15 m c) (A20 m c) (A21 m c) (A22 m c) (A23 m c) (A24 m c) (A25 m c)
    ∧ V26 (F := Ideal) m (Whole.outs m) c main_v44 = Cert.ReferenceIdeal.ReadP.val_main_v65 (F := Ideal) (A0 m c) (A1 m c) (A2 m c) (A8 m c) (A9 m c) (A13 m c) (A14 m c) (A15 m c) (A16 m c) (A17 m c) (A18 m c) (A19 m c)
    ∧ V26 (F := Ideal) m (Whole.outs m) c main_v65 = Cert.ReferenceIdeal.ReadP.val_main_v86 (F := Ideal) (A0 m c) (A1 m c) (A3 m c) (A8 m c) (A9 m c) (A13 m c) (A14 m c) (A15 m c) (A16 m c) (A17 m c) (A18 m c) (A19 m c) := by
  have hr := inRange_of_pre m c h
  -- region 0 leaves the linear map of the padded node table in its result array
  have hY : Whole.outs m 4 main_v9 c = Cert.Spec.linRows (φ₁ := .bf16) (φ₂ := .bf16) (V3 (F := Ideal) m c main_v6 : FVec Ideal S155648x128 .bf16) (V3 (F := Ideal) m c main_v7 : FVec Ideal S128x128 .bf16) (V3 (F := Ideal) m c main_v8 : FVec Ideal S1x128 .f32) :=
    (Whole.outs_4 m c).trans (reg0_result (fun c b => V3 (F := Ideal) m c b) c)
  -- the global stages
  have hmsg := msg m (Whole.outs m) c hr hY
  have hglob := glob m (Whole.outs m) c hmsg
  have hgu := gu m (Whole.outs m) c hr hglob
  have hgi := gi m (Whole.outs m) c hr hglob
  have hpu := pu m (Whole.outs m) c hgu
  have hru := ru m (Whole.outs m) c hgu
  have hpv := pv m (Whole.outs m) c hgi
  have hrv := rv m (Whole.outs m) c hgi
  -- the local stages; region 1 is entered from contents that read region 0's result only
  have hli := localin m (Whole.outs m) c hr hglob
  have hX : Whole.outs m 19 main_v74 c = Cert.Spec.fusedRows (φ₁ := .bf16) (φ₂ := .bf16) (φ₃ := .bf16) (V18 (F := Ideal) m (Whole.outs m) c main_v70 : FVec Ideal S65536x256 .bf16) (V18 (F := Ideal) m (Whole.outs m) c main_v71 : FVec Ideal S256x128 .bf16) (V18 (F := Ideal) m (Whole.outs m) c main_v72 : FVec Ideal S1x128 .f32) (V18 (F := Ideal) m (Whole.outs m) c main_v73 : FVec Ideal S128x128 .bf16) := by
    rw [Whole.V18_outs m c]
    exact (Whole.outs_19 m c).trans (reg1_result (fun c b => V18 (F := Ideal) m (Whole.outsA m) c b) c)
  have hxw := xw m (Whole.outs m) c hli hX
  have hlo := localout m (Whole.outs m) c hr hxw
  have hhs := hsub m (Whole.outs m) c hlo
  have hpred := pred m (Whole.outs m) c hhs hgu hgi hru hrv
  exact ⟨hpred, (keep_v21 m c (Whole.outs m)).trans hgu, (keep_v134 m c (Whole.outs m)).trans hhs,
    (keep_v44 m c (Whole.outs m)).trans hpu, (keep_v65 m c (Whole.outs m)).trans hpv⟩

end Cert.KernelIdeal.Val

end
-- ==== Proof.Val.KernelSide.lean ====
/-
  The idealized kernel's run with its results named: under the precondition, every weakly fair execution of its
  @main terminates without a fault, the five returned buffers hold the reference's stages of the kernel's own
  arguments (the prediction, the root user rows, the pooled rows, the two intent distributions), and the thirty
  argument arrays end as launched. The run reads every buffer off the last contents of the fold through @main's
  items; the five values are the stage chain's.
-/
import proofs.«418315_j6339371728953_3_alg».proof.Proof.KI.Whole
import proofs.«418315_j6339371728953_3_alg».proof.Proof.RefRead
import proofs.«418315_j6339371728953_3_alg».proof.Proof.Val.Chain

set_option maxRecDepth 16384

noncomputable section

namespace Cert.KernelIdeal.Val

open Cert.KernelIdeal Cert.KernelIdeal.Gen
open Idealize.ShloMosaic Idealize.ShloMosaic.TcCoe Idealize.SL.Sem

theorem kernel_run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v152) = Cert.ReferenceIdeal.ReadP.val_main_v191 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) (A27 m c) (A28 m c) (A29 m c)
      ∧ r.2.mem ((c.tc : Thread nD τ).loc main_v21) = Cert.ReferenceIdeal.ReadP.val_main_v36 (F := Ideal) (A0 m c) (A1 m c) (A2 m c) (A8 m c) (A9 m c) (A13 m c) (A14 m c) (A15 m c)
      ∧ r.2.mem ((c.tc : Thread nD τ).loc main_v134) = Cert.ReferenceIdeal.ReadP.val_main_v173 (F := Ideal) (A0 m c) (A1 m c) (A4 m c) (A5 m c) (A6 m c) (A7 m c) (A8 m c) (A9 m c) (A10 m c) (A13 m c) (A14 m c) (A15 m c) (A20 m c) (A21 m c) (A22 m c) (A23 m c) (A24 m c) (A25 m c)
      ∧ r.2.mem ((c.tc : Thread nD τ).loc main_v44) = Cert.ReferenceIdeal.ReadP.val_main_v65 (F := Ideal) (A0 m c) (A1 m c) (A2 m c) (A8 m c) (A9 m c) (A13 m c) (A14 m c) (A15 m c) (A16 m c) (A17 m c) (A18 m c) (A19 m c)
      ∧ r.2.mem ((c.tc : Thread nD τ).loc main_v65) = Cert.ReferenceIdeal.ReadP.val_main_v86 (F := Ideal) (A0 m c) (A1 m c) (A3 m c) (A8 m c) (A9 m c) (A13 m c) (A14 m c) (A15 m c) (A16 m c) (A17 m c) (A18 m c) (A19 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) := by
  refine (θ_run defs _ _).mono (fun r h c => ?_) (Whole.run_all (F := Ideal) m ρ)
  have hres := results m c hpre
  have rd : ∀ b : Ref sig .tc, ¬ (Proc.devRef .tc b : DevRef τ sig).isScoped →
      r.2.mem ((c.tc : Thread nD τ).loc b) = V26 (F := Ideal) m (Whole.outs m) c b :=
    fun b hb => h c _ (Finset.mem_filter.mpr ⟨StableHlo.devRef_mem_tcRefs b, hb⟩)
  exact ⟨(rd main_v152 (by decide)).trans hres.1, (rd main_v21 (by decide)).trans hres.2.1,
    (rd main_v134 (by decide)).trans hres.2.2.1, (rd main_v44 (by decide)).trans hres.2.2.2.1,
    (rd main_v65 (by decide)).trans hres.2.2.2.2,
    (rd main_arg0 (by decide)).trans (V26_main_arg0 m _ c),
    (rd main_arg1 (by decide)).trans (V26_main_arg1 m _ c),
    (rd main_arg2 (by decide)).trans (V26_main_arg2 m _ c),
    (rd main_arg3 (by decide)).trans (V26_main_arg3 m _ c),
    (rd main_arg4 (by decide)).trans (V26_main_arg4 m _ c),
    (rd main_arg5 (by decide)).trans (V26_main_arg5 m _ c),
    (rd main_arg6 (by decide)).trans (V26_main_arg6 m _ c),
    (rd main_arg7 (by decide)).trans (V26_main_arg7 m _ c),
    (rd main_arg8 (by decide)).trans (V26_main_arg8 m _ c),
    (rd main_arg9 (by decide)).trans (V26_main_arg9 m _ c),
    (rd main_arg10 (by decide)).trans (V26_main_arg10 m _ c),
    (rd main_arg11 (by decide)).trans (V26_main_arg11 m _ c),
    (rd main_arg12 (by decide)).trans (V26_main_arg12 m _ c),
    (rd main_arg13 (by decide)).trans (V26_main_arg13 m _ c),
    (rd main_arg14 (by decide)).trans (V26_main_arg14 m _ c),
    (rd main_arg15 (by decide)).trans (V26_main_arg15 m _ c),
    (rd main_arg16 (by decide)).trans (V26_main_arg16 m _ c),
    (rd main_arg17 (by decide)).trans (V26_main_arg17 m _ c),
    (rd main_arg18 (by decide)).trans (V26_main_arg18 m _ c),
    (rd main_arg19 (by decide)).trans (V26_main_arg19 m _ c),
    (rd main_arg20 (by decide)).trans (V26_main_arg20 m _ c),
    (rd main_arg21 (by decide)).trans (V26_main_arg21 m _ c),
    (rd main_arg22 (by decide)).trans (V26_main_arg22 m _ c),
    (rd main_arg23 (by decide)).trans (V26_main_arg23 m _ c),
    (rd main_arg24 (by decide)).trans (V26_main_arg24 m _ c),
    (rd main_arg25 (by decide)).trans (V26_main_arg25 m _ c),
    (rd main_arg26 (by decide)).trans (V26_main_arg26 m _ c),
    (rd main_arg27 (by decide)).trans (V26_main_arg27 m _ c),
    (rd main_arg28 (by decide)).trans (V26_main_arg28 m _ c),
    (rd main_arg29 (by decide)).trans (V26_main_arg29 m _ c)⟩

end Cert.KernelIdeal.Val

end
-- ==== Proof.RefSide.lean ====
/-
  The reference's run with its results named: every weakly fair execution of its @main terminates without a fault,
  the five returned buffers hold the stages of its own arguments, and the thirty argument arrays end as launched: the
  run of its operation list, each result's composed term being the stage.
-/
import proofs.«418315_j6339371728953_3_alg».proof.Proof.RefRun
import proofs.«418315_j6339371728953_3_alg».proof.Proof.RefRead
import proofs.«418315_j6339371728953_3_alg».proof.Proof.RefReadEq

set_option maxRecDepth 16384

noncomputable section

namespace Cert.ReferenceIdeal.ReadP

open Cert.ReferenceIdeal Cert.ReferenceIdeal.Gen
open Idealize.ShloMosaic Idealize.ShloMosaic.TcCoe Idealize.SL.Sem

theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v191) = val_main_v191 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))
      ∧ r.2.mem ((c.tc : Thread nD τ).loc main_v36) = val_main_v36 (F := Ideal) (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)) (m ((c.tc : Thread nD τ).loc main_arg13)) (m ((c.tc : Thread nD τ).loc main_arg14)) (m ((c.tc : Thread nD τ).loc main_arg15))
      ∧ r.2.mem ((c.tc : Thread nD τ).loc main_v173) = val_main_v173 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg15)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_v65) = val_main_v65 (F := Ideal) (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v86) = val_main_v86 (F := Ideal) (m ((c.tc : Thread nD τ).loc main_arg0)) (m ((c.tc : Thread nD τ).loc main_arg1)) (m ((c.tc : Thread nD τ).loc main_arg3)) (m ((c.tc : Thread nD τ).loc main_arg8)) (m ((c.tc : Thread nD τ).loc main_arg9)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) := by
  refine (θ_run defs _ _).mono (fun r h c => ?_) (Cert.ReferenceIdeal.ValueP.run (F := Ideal) m ρ)
  obtain ⟨h0, h1, h2, h3, h4, hargs⟩ := h c
  exact ⟨h0.trans (val_main_v191_eq m c), h1.trans (val_main_v36_eq _ _ _ _ _ _ _ _),
    h2.trans (val_main_v173_eq m c), h3.trans (val_main_v65_eq m c), h4.trans (val_main_v86_eq m c), hargs⟩

end Cert.ReferenceIdeal.ReadP

end
-- ==== Proof.lean ====
/-
  The certificate: the word-level kernel and its idealization run to the end with their argument arrays unchanged;
  the reference runs to the end with its arguments unchanged; the idealization changed no operation; and, at the
  extended reals, from memories that agree on the thirty arguments and under the precondition (finite float inputs,
  every index input inside the table it indexes), the idealized kernel and the reference end with equal results:
  the prediction, the root user rows, the pooled subgraph rows and the two intent distributions.

  The kernel computes the node-level linear map once in a row-tiled region and gathers its rows per edge, where the
  reference gathers embedding rows per edge and applies the map to each: a row gather commutes with a map acting on
  rows. It fuses the two local linear maps in a second region, where the reference takes two matrix products. Every
  other operation is the same in both programs, and in range each table lookup of the kernel is the plain gather.
  Both runs are stated with the five results as the same stage functions of the arguments; the two memories agree on
  the arguments.
-/
import proofs.«418315_j6339371728953_3_alg».proof.Defs
import proofs.«418315_j6339371728953_3_alg».proof.Proof.Gen.Kernel
import proofs.«418315_j6339371728953_3_alg».proof.Proof.Gen.KernelIdeal
import proofs.«418315_j6339371728953_3_alg».proof.Proof.Gen.ReferenceIdeal
import proofs.«418315_j6339371728953_3_alg».proof.Proof.Gen.Pre_finite_inputs
import proofs.«418315_j6339371728953_3_alg».proof.Proof.K.Whole
import proofs.«418315_j6339371728953_3_alg».proof.Proof.KI.Whole
import proofs.«418315_j6339371728953_3_alg».proof.Proof.Val.KernelSide
import proofs.«418315_j6339371728953_3_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Whole.frame (F := Bits) m ρ

/-- The idealized kernel runs to the end and leaves its arguments as launched. -/
theorem frame_ki : Cert.frame_KernelIdeal := fun m ρ _ => Cert.KernelIdeal.Whole.frame (F := Ideal) m ρ

/-- The reference runs to the end and leaves its arguments as launched: its run with the results dropped. -/
theorem frame_ri : Cert.frame_ReferenceIdeal := fun m ρ _ =>
  (θ_run Cert.ReferenceIdeal.defs _ _).mono (fun _ h c => (h c).2.2.2.2.2)
    (Cert.ReferenceIdeal.ReadP.reference_run m ρ)

set_option maxHeartbeats 2000000 in
/-- Both idealized programs end with the same five results: the reference's stages of the kernel's arguments. -/
theorem algebraic : Cert.algebraic_KernelIdeal_ReferenceIdeal := by
  intro m ρ m' ρ' hpre hagree
  refine ⟨fun c => Cert.ReferenceIdeal.ReadP.val_main_v191 (F := Ideal) (Cert.KernelIdeal.Val.A0 m c) (Cert.KernelIdeal.Val.A1 m c) (Cert.KernelIdeal.Val.A2 m c) (Cert.KernelIdeal.Val.A3 m c) (Cert.KernelIdeal.Val.A4 m c) (Cert.KernelIdeal.Val.A5 m c) (Cert.KernelIdeal.Val.A6 m c) (Cert.KernelIdeal.Val.A7 m c) (Cert.KernelIdeal.Val.A8 m c) (Cert.KernelIdeal.Val.A9 m c) (Cert.KernelIdeal.Val.A10 m c) (Cert.KernelIdeal.Val.A11 m c) (Cert.KernelIdeal.Val.A12 m c) (Cert.KernelIdeal.Val.A13 m c) (Cert.KernelIdeal.Val.A14 m c) (Cert.KernelIdeal.Val.A15 m c) (Cert.KernelIdeal.Val.A16 m c) (Cert.KernelIdeal.Val.A17 m c) (Cert.KernelIdeal.Val.A18 m c) (Cert.KernelIdeal.Val.A19 m c) (Cert.KernelIdeal.Val.A20 m c) (Cert.KernelIdeal.Val.A21 m c) (Cert.KernelIdeal.Val.A22 m c) (Cert.KernelIdeal.Val.A23 m c) (Cert.KernelIdeal.Val.A24 m c) (Cert.KernelIdeal.Val.A25 m c) (Cert.KernelIdeal.Val.A26 m c) (Cert.KernelIdeal.Val.A27 m c) (Cert.KernelIdeal.Val.A28 m c) (Cert.KernelIdeal.Val.A29 m c),
    fun c => Cert.ReferenceIdeal.ReadP.val_main_v36 (F := Ideal) (Cert.KernelIdeal.Val.A0 m c) (Cert.KernelIdeal.Val.A1 m c) (Cert.KernelIdeal.Val.A2 m c) (Cert.KernelIdeal.Val.A8 m c) (Cert.KernelIdeal.Val.A9 m c) (Cert.KernelIdeal.Val.A13 m c) (Cert.KernelIdeal.Val.A14 m c) (Cert.KernelIdeal.Val.A15 m c),
    fun c => Cert.ReferenceIdeal.ReadP.val_main_v173 (F := Ideal) (Cert.KernelIdeal.Val.A0 m c) (Cert.KernelIdeal.Val.A1 m c) (Cert.KernelIdeal.Val.A4 m c) (Cert.KernelIdeal.Val.A5 m c) (Cert.KernelIdeal.Val.A6 m c) (Cert.KernelIdeal.Val.A7 m c) (Cert.KernelIdeal.Val.A8 m c) (Cert.KernelIdeal.Val.A9 m c) (Cert.KernelIdeal.Val.A10 m c) (Cert.KernelIdeal.Val.A13 m c) (Cert.KernelIdeal.Val.A14 m c) (Cert.KernelIdeal.Val.A15 m c) (Cert.KernelIdeal.Val.A20 m c) (Cert.KernelIdeal.Val.A21 m c) (Cert.KernelIdeal.Val.A22 m c) (Cert.KernelIdeal.Val.A23 m c) (Cert.KernelIdeal.Val.A24 m c) (Cert.KernelIdeal.Val.A25 m c),
    fun c => Cert.ReferenceIdeal.ReadP.val_main_v65 (F := Ideal) (Cert.KernelIdeal.Val.A0 m c) (Cert.KernelIdeal.Val.A1 m c) (Cert.KernelIdeal.Val.A2 m c) (Cert.KernelIdeal.Val.A8 m c) (Cert.KernelIdeal.Val.A9 m c) (Cert.KernelIdeal.Val.A13 m c) (Cert.KernelIdeal.Val.A14 m c) (Cert.KernelIdeal.Val.A15 m c) (Cert.KernelIdeal.Val.A16 m c) (Cert.KernelIdeal.Val.A17 m c) (Cert.KernelIdeal.Val.A18 m c) (Cert.KernelIdeal.Val.A19 m c),
    fun c => Cert.ReferenceIdeal.ReadP.val_main_v86 (F := Ideal) (Cert.KernelIdeal.Val.A0 m c) (Cert.KernelIdeal.Val.A1 m c) (Cert.KernelIdeal.Val.A3 m c) (Cert.KernelIdeal.Val.A8 m c) (Cert.KernelIdeal.Val.A9 m c) (Cert.KernelIdeal.Val.A13 m c) (Cert.KernelIdeal.Val.A14 m c) (Cert.KernelIdeal.Val.A15 m c) (Cert.KernelIdeal.Val.A16 m c) (Cert.KernelIdeal.Val.A17 m c) (Cert.KernelIdeal.Val.A18 m c) (Cert.KernelIdeal.Val.A19 m c),
    Cert.KernelIdeal.Val.kernel_run m ρ hpre, ?_⟩
  refine (θ_run Cert.ReferenceIdeal.defs _ _).mono (fun r h c => ?_) (Cert.ReferenceIdeal.ReadP.reference_run m' ρ')
  obtain ⟨e0, e1, e2, e3, e4, e5, e6, e7, e8, e9, e10, e11, e12, e13, e14, e15, e16, e17, e18, e19, e20, e21, e22, e23, e24, e25, e26, e27, e28, e29⟩ := hagree c
  obtain ⟨h0, h1, h2, h3, h4, hargs⟩ := h c
  refine ⟨h0.trans ?_, h1.trans ?_, h2.trans ?_, h3.trans ?_, h4.trans ?_, hargs⟩
  all_goals (simp only [e0, e1, e2, e3, e4, e5, e6, e7, e8, e9, e10, e11, e12, e13, e14, e15, e16, e17, e18, e19, e20, e21, e22, e23, e24, e25, e26, e27, e28, e29]; try rfl)

/-- The claim, with the programs' stated side conditions witnessed by the generated facts. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
